-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S50000x256 : Shape := ⟨2, ![50000, 256]⟩
abbrev S2502x256 : Shape := ⟨2, ![2502, 256]⟩
abbrev S64x256 : Shape := ⟨2, ![64, 256]⟩
abbrev S7500x64 : Shape := ⟨2, ![7500, 64]⟩
abbrev S16x256 : Shape := ⟨2, ![16, 256]⟩
abbrev S40000x16 : Shape := ⟨2, ![40000, 16]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S2502x256 : S_.BroadcastsInDim S2502x256 (![] : Fin 0 → Fin S2502x256.rank)
  reducesTo_S2502x256_S_d0_1 : S2502x256.ReducesTo [0, 1] S_
  bcast_S_S64x256 : S_.BroadcastsInDim S64x256 (![] : Fin 0 → Fin S64x256.rank)
  reducesTo_S64x256_S_d0_1 : S64x256.ReducesTo [0, 1] S_
  bcast_S_S7500x64 : S_.BroadcastsInDim S7500x64 (![] : Fin 0 → Fin S7500x64.rank)
  reducesTo_S7500x64_S_d0_1 : S7500x64.ReducesTo [0, 1] S_
  bcast_S_S16x256 : S_.BroadcastsInDim S16x256 (![] : Fin 0 → Fin S16x256.rank)
  reducesTo_S16x256_S_d0_1 : S16x256.ReducesTo [0, 1] S_
  bcast_S_S40000x16 : S_.BroadcastsInDim S40000x16 (![] : Fin 0 → Fin S40000x16.rank)
  reducesTo_S40000x16_S_d0_1 : S40000x16.ReducesTo [0, 1] S_

variable [Facts]

def fn_part1 {F : FTy → Type} [FloatOps F] (main_arg6 : FVec F S16x256 .f32) (main_arg7 : FVec F S40000x16 .f32) (main_v13 : IVec S_ 1) (main_v16 : IVec S7500x64 1) : IVec S_ 1 :=
  let main_c_5 : IVec S_ 1 := constantI S_ 1 1#1
  let main_v17 : IVec S_ 1 := (fun x v => Host.reduce IntOp.andi x v reducesTo_S7500x64_S_d0_1 h_S_) main_v16 main_c_5
  let main_v18 : IVec S_ 1 := andi main_v13 main_v17
  let main_v19 : FVec F S16x256 .f32 := Host.absf main_arg6
  let main_cst_6 : FVec F S_ .f32 := constant S_ .f32 0x7F800000#32
  let main_v20 : FVec F S16x256 .f32 := broadcastInDim S16x256 ![] bcast_S_S16x256 main_cst_6
  let main_v21 : IVec S16x256 1 := cmpf .olt main_v19 main_v20
  let main_c_7 : IVec S_ 1 := constantI S_ 1 1#1
  let main_v22 : IVec S_ 1 := (fun x v => Host.reduce IntOp.andi x v reducesTo_S16x256_S_d0_1 h_S_) main_v21 main_c_7
  let main_v23 : IVec S_ 1 := andi main_v18 main_v22
  let main_v24 : FVec F S40000x16 .f32 := Host.absf main_arg7
  let main_cst_8 : FVec F S_ .f32 := constant S_ .f32 0x7F800000#32
  let main_v25 : FVec F S40000x16 .f32 := broadcastInDim S40000x16 ![] bcast_S_S40000x16 main_cst_8
  let main_v26 : IVec S40000x16 1 := cmpf .olt main_v24 main_v25
  let main_c_9 : IVec S_ 1 := constantI S_ 1 1#1
  let main_v27 : IVec S_ 1 := (fun x v => Host.reduce IntOp.andi x v reducesTo_S40000x16_S_d0_1 h_S_) main_v26 main_c_9
  let main_v28 : IVec S_ 1 := andi main_v23 main_v27
  main_v28

def fn {F : FTy → Type} [FloatOps F] (main_arg0 : IVec S4096 32) (main_arg1 : IVec S4096 32) (main_arg2 : FVec F S50000x256 .f32) (main_arg3 : FVec F S2502x256 .f32) (main_arg4 : FVec F S64x256 .f32) (main_arg5 : FVec F S7500x64 .f32) (main_arg6 : FVec F S16x256 .f32) (main_arg7 : FVec F S40000x16 .f32) : IVec S_ 1 :=
  let main_v0 : FVec F S50000x256 .f32 := Host.absf main_arg2
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S2502x256 .f32 := Host.absf main_arg3
  let main_cst_0 : FVec F S_ .f32 := constant S_ .f32 0x7F800000#32
  let main_v5 : FVec F S2502x256 .f32 := broadcastInDim S2502x256 ![] bcast_S_S2502x256 main_cst_0
  let main_v6 : IVec S2502x256 1 := cmpf .olt main_v4 main_v5
  let main_c_1 : IVec S_ 1 := constantI S_ 1 1#1
  let main_v7 : IVec S_ 1 := (fun x v => Host.reduce IntOp.andi x v reducesTo_S2502x256_S_d0_1 h_S_) main_v6 main_c_1
  let main_v8 : IVec S_ 1 := andi main_v3 main_v7
  let main_v9 : FVec F S64x256 .f32 := Host.absf main_arg4
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  let main_v14 : FVec F S7500x64 .f32 := Host.absf main_arg5
  let main_cst_4 : FVec F S_ .f32 := constant S_ .f32 0x7F800000#32
  let main_v15 : FVec F S7500x64 .f32 := broadcastInDim S7500x64 ![] bcast_S_S7500x64 main_cst_4
  let main_v16 : IVec S7500x64 1 := cmpf .olt main_v14 main_v15
  fn_part1 (F := F) main_arg6 main_arg7 main_v13 main_v16
-- ==== Kernel.lean ====
abbrev S4096 : Shape := ⟨1, ![4096]⟩
abbrev S50000x256 : Shape := ⟨2, ![50000, 256]⟩
abbrev S2502x256 : Shape := ⟨2, ![2502, 256]⟩
abbrev S64x256 : Shape := ⟨2, ![64, 256]⟩
abbrev S7500x64 : Shape := ⟨2, ![7500, 64]⟩
abbrev S16x256 : Shape := ⟨2, ![16, 256]⟩
abbrev S40000x16 : Shape := ⟨2, ![40000, 16]⟩
abbrev S_ : Shape := ⟨0, ![]⟩
abbrev S4096x1 : Shape := ⟨2, ![4096, 1]⟩
abbrev S4096x256 : Shape := ⟨2, ![4096, 256]⟩
abbrev S256x2502 : Shape := ⟨2, ![256, 2502]⟩
abbrev S256x64 : Shape := ⟨2, ![256, 64]⟩
abbrev S64x7500 : Shape := ⟨2, ![64, 7500]⟩
abbrev S256x16 : Shape := ⟨2, ![256, 16]⟩
abbrev S16x40000 : Shape := ⟨2, ![16, 40000]⟩
abbrev S64x7680 : Shape := ⟨2, ![64, 7680]⟩
abbrev S16x40960 : Shape := ⟨2, ![16, 40960]⟩
abbrev S256x256 : Shape := ⟨2, ![256, 256]⟩
abbrev S256x1 : Shape := ⟨2, ![256, 1]⟩
abbrev S256 : Shape := ⟨1, ![256]⟩
abbrev S64x1536 : Shape := ⟨2, ![64, 1536]⟩
abbrev S256x1536 : Shape := ⟨2, ![256, 1536]⟩
abbrev S16x4096 : Shape := ⟨2, ![16, 4096]⟩
abbrev S256x4096 : Shape := ⟨2, ![256, 4096]⟩

abbrev nBuf : Space → Nat
  | .hbm => 41
  | .vmem => 11
  | .smem => 0
  | _ => 0

abbrev bufTy : (tb : Table) → Fin (tcTables nBuf tb) → BufTy
  | .hbm, ⟨0, _⟩ => ⟨S4096, .i32⟩
  | .hbm, ⟨1, _⟩ => ⟨S4096, .i32⟩
  | .hbm, ⟨2, _⟩ => ⟨S50000x256, .f32⟩
  | .hbm, ⟨3, _⟩ => ⟨S2502x256, .f32⟩
  | .hbm, ⟨4, _⟩ => ⟨S64x256, .f32⟩
  | .hbm, ⟨5, _⟩ => ⟨S7500x64, .f32⟩
  | .hbm, ⟨6, _⟩ => ⟨S16x256, .f32⟩
  | .hbm, ⟨7, _⟩ => ⟨S40000x16, .f32⟩
  | .hbm, ⟨8, _⟩ => ⟨S_, .i32⟩
  | .hbm, ⟨9, _⟩ => ⟨S4096, .i32⟩
  | .hbm, ⟨10, _⟩ => ⟨S4096, .i1⟩
  | .hbm, ⟨11, _⟩ => ⟨S_, .i32⟩
  | .hbm, ⟨12, _⟩ => ⟨S4096, .i32⟩
  | .hbm, ⟨13, _⟩ => ⟨S4096, .i32⟩
  | .hbm, ⟨14, _⟩ => ⟨S4096, .i32⟩
  | .hbm, ⟨15, _⟩ => ⟨S4096x1, .i32⟩
  | .hbm, ⟨16, _⟩ => ⟨S4096x256, .f32⟩
  | .hbm, ⟨17, _⟩ => ⟨S4096x256, .bf16⟩
  | .hbm, ⟨18, _⟩ => ⟨S256x2502, .f32⟩
  | .hbm, ⟨19, _⟩ => ⟨S256x2502, .bf16⟩
  | .hbm, ⟨20, _⟩ => ⟨S256x64, .f32⟩
  | .hbm, ⟨21, _⟩ => ⟨S256x64, .bf16⟩
  | .hbm, ⟨22, _⟩ => ⟨S64x7500, .f32⟩
  | .hbm, ⟨23, _⟩ => ⟨S64x7500, .bf16⟩
  | .hbm, ⟨24, _⟩ => ⟨S256x16, .f32⟩
  | .hbm, ⟨25, _⟩ => ⟨S256x16, .bf16⟩
  | .hbm, ⟨26, _⟩ => ⟨S16x40000, .f32⟩
  | .hbm, ⟨27, _⟩ => ⟨S16x40000, .bf16⟩
  | .hbm, ⟨28, _⟩ => ⟨S_, .i32⟩
  | .hbm, ⟨29, _⟩ => ⟨S_, .bf16⟩
  | .hbm, ⟨30, _⟩ => ⟨S64x7680, .bf16⟩
  | .hbm, ⟨31, _⟩ => ⟨S_, .i32⟩
  | .hbm, ⟨32, _⟩ => ⟨S_, .bf16⟩
  | .hbm, ⟨33, _⟩ => ⟨S16x40960, .bf16⟩
  | .hbm, ⟨34, _⟩ => ⟨S4096x1, .i32⟩
  | .hbm, ⟨35, _⟩ => ⟨S4096, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .local _ .vmem, ⟨0, _⟩ => ⟨S256x256, .bf16⟩
  | .local _ .vmem, ⟨1, _⟩ => ⟨S256x256, .bf16⟩
  | .local _ .vmem, ⟨2, _⟩ => ⟨S256x1, .i32⟩
  | .local _ .vmem, ⟨3, _⟩ => ⟨S256x1, .i32⟩
  | .local _ .vmem, ⟨4, _⟩ => ⟨S256x2502, .bf16⟩
  | .local _ .vmem, ⟨5, _⟩ => ⟨S256x64, .bf16⟩
  | .local _ .vmem, ⟨6, _⟩ => ⟨S64x7680, .bf16⟩
  | .local _ .vmem, ⟨7, _⟩ => ⟨S256x16, .bf16⟩
  | .local _ .vmem, ⟨8, _⟩ => ⟨S16x40960, .bf16⟩
  | .local _ .vmem, ⟨9, _⟩ => ⟨S256, .f32⟩
  | .local _ .vmem, ⟨10, _⟩ => ⟨S256, .f32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_1 : Ref sig .tc := ⟨.hbm, 28, rfl⟩
abbrev main_call0_v0 : Ref sig .tc := ⟨.hbm, 29, rfl⟩
abbrev main_v18 : Ref sig .tc := ⟨.hbm, 30, rfl⟩
abbrev main_c_2 : Ref sig .tc := ⟨.hbm, 31, rfl⟩
abbrev main_call1_v0 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_21 : BitVec 32 := 0#32
  let c5_i32 : BitVec 32 := 5#32
  let v55 : BitVec 32 := Scalar.addi c0_i32_21 c5_i32
  let c1_i32 : BitVec 32 := 1#32
  ⟨c0_i32_21, v55, c1_i32⟩
def k0_mult1 (k0_t1 : Fin k0_t1_loop.trips) : BitVec 32 :=
  let c0_i32_21 : BitVec 32 := 0#32
  let c1_i32 : BitVec 32 := 1#32
  let arg9 : BitVec 32 := Scf.iv c0_i32_21 c1_i32 k0_t1
  let c1536_i32 : BitVec 32 := 1536#32
  let v88 : BitVec 32 := Scalar.muli arg9 c1536_i32
  v88
def k0_off1 (k0_t1 : Fin k0_t1_loop.trips) : Fin 2 → Nat :=
  let c0_36 : Index := 0#32
  let c0_i32_21 : BitVec 32 := 0#32
  let c1_i32 : BitVec 32 := 1#32
  let arg9 : BitVec 32 := Scf.iv c0_i32_21 c1_i32 k0_t1
  let c1536_i32 : BitVec 32 := 1536#32
  let v88 : BitVec 32 := Scalar.muli arg9 c1536_i32
  let v89 : BitVec 32 := v88
  let v90 : Index := Scalar.indexCast v89
  ![0, v90.toNat]
@[reducible] def k0_t2_loop : Scf.Loop 32 :=
  let c0_i32_30 : BitVec 32 := 0#32
  let c10_i32 : BitVec 32 := 10#32
  let v74 : BitVec 32 := Scalar.addi c0_i32_30 c10_i32
  let c1_i32_31 : BitVec 32 := 1#32
  ⟨c0_i32_30, v74, c1_i32_31⟩
def k0_mult2 (k0_t2 : Fin k0_t2_loop.trips) : BitVec 32 :=
  let c0_i32_30 : BitVec 32 := 0#32
  let c1_i32_31 : BitVec 32 := 1#32
  let arg9 : BitVec 32 := Scf.iv c0_i32_30 c1_i32_31 k0_t2
  let c4096_i32 : BitVec 32 := 4096#32
  let v88 : BitVec 32 := Scalar.muli arg9 c4096_i32
  v88
def k0_off2 (k0_t2 : Fin k0_t2_loop.trips) : Fin 2 → Nat :=
  let c0_36 : Index := 0#32
  let c0_i32_30 : BitVec 32 := 0#32
  let c1_i32_31 : BitVec 32 := 1#32
  let arg9 : BitVec 32 := Scf.iv c0_i32_30 c1_i32_31 k0_t2
  let c4096_i32 : BitVec 32 := 4096#32
  let v88 : BitVec 32 := Scalar.muli arg9 c4096_i32
  let v89 : BitVec 32 := v88
  let v90 : Index := Scalar.indexCast v89
  ![0, v90.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x2502 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x7680 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x16 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x40960 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bitsLt_bf16_f32 : FTy.bits .bf16 < FTy.bits .f32
  transposes_S2502x256_S256x2502_1_0 : S2502x256.Transposes [1, 0] S256x2502
  transposes_S64x256_S256x64_1_0 : S64x256.Transposes [1, 0] S256x64
  transposes_S7500x64_S64x7500_1_0 : S7500x64.Transposes [1, 0] S64x7500
  transposes_S16x256_S256x16_1_0 : S16x256.Transposes [1, 0] S256x16
  transposes_S40000x16_S16x40000_1_0 : S40000x16.Transposes [1, 0] S16x40000
  pads_S64x7500_S64x7680_000_01800 : S64x7500.Pads (![0, 0] : Fin 2 → Nat) ![0, 180] ![0, 0] S64x7680
  h_S_ : 0 < S_.numel
  pads_S16x40000_S16x40960_000_09600 : S16x40000.Pads (![0, 0] : Fin 2 → Nat) ![0, 960] ![0, 0] S16x40960
  shapeCasts_S4096_S4096x1 : S4096.ShapeCasts S4096x1
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x2502_S256x2502_0_0 : ∀ a, (![0, 0] : Fin 2 → Nat) a + S256x2502.size a ≤ S256x2502.size a
  h_S256x2502 : 0 < S256x2502.numel
  shapeCasts_S256x2502_S256x2502 : S256x2502.ShapeCasts S256x2502
  reduces_S256x2502_S256 : S256x2502.Reduces [1] S256
  shapeCasts_S256_S256x1 : S256.ShapeCasts S256x1
  broadcasts_S256x1_S256x2502 : S256x1.Broadcasts S256x2502
  iota_S256x2502_d1_w32 : S256x2502.Iotas .tc 32 [1]
  inb_S256x64_S256x64_0_0 : ∀ a, (![0, 0] : Fin 2 → Nat) a + S256x64.size a ≤ S256x64.size a
  h_S256x64 : 0 < S256x64.numel
  shapeCasts_S256x64_S256x64 : S256x64.ShapeCasts S256x64
  h_S64x1536 : 0 < S64x1536.numel
  shapeCasts_S64x1536_S64x1536 : S64x1536.ShapeCasts S64x1536
  iota_S256x1536_d1_w32 : S256x1536.Iotas .tc 32 [1]
  reduces_S256x1536_S256 : S256x1536.Reduces [1] S256
  broadcasts_S256x1_S256x1536 : S256x1.Broadcasts S256x1536
  inb_S256x16_S256x16_0_0 : ∀ a, (![0, 0] : Fin 2 → Nat) a + S256x16.size a ≤ S256x16.size a
  h_S256x16 : 0 < S256x16.numel
  shapeCasts_S256x16_S256x16 : S256x16.ShapeCasts S256x16
  h_S16x4096 : 0 < S16x4096.numel
  shapeCasts_S16x4096_S16x4096 : S16x4096.ShapeCasts S16x4096
  iota_S256x4096_d1_w32 : S256x4096.Iotas .tc 32 [1]
  reduces_S256x4096_S256 : S256x4096.Reduces [1] S256
  broadcasts_S256x1_S256x4096 : S256x1.Broadcasts S256x4096
  shapeCasts_S256x1_S256 : S256x1.ShapeCasts S256
  inb_S256_S256_0 : ∀ a, (![0] : Fin 1 → Nat) a + S256.size a ≤ S256.size a
  h_S256 : 0 < S256.numel
  reducesTo_S4096_S_d0 : S4096.ReducesTo [0] S_
  gather_S50000x256_S4096x1_S4096x256_1_0_n_n_0_1_1256_wf : GatherDims.WF S50000x256 S4096x1 S4096x256 [1] [0] [] [0] [] 1 ![1, 256]
  dot_S256x256_S256x2502_S256x2502_1_0_0_1_n_n_wf : DotDims.WF S256x256 S256x2502 S256x2502 [1] [0] [0] [1] [] []
  dot_S256x256_S256x64_S256x64_1_0_0_1_n_n_wf : DotDims.WF S256x256 S256x64 S256x64 [1] [0] [0] [1] [] []
  dot_S256x64_S64x1536_S256x1536_1_0_0_1_n_n_wf : DotDims.WF S256x64 S64x1536 S256x1536 [1] [0] [0] [1] [] []
  dot_S256x256_S256x16_S256x16_1_0_0_1_n_n_wf : DotDims.WF S256x256 S256x16 S256x16 [1] [0] [0] [1] [] []
  dot_S256x16_S16x4096_S256x4096_1_0_0_1_n_n_wf : DotDims.WF S256x16 S16x4096 S256x4096 [1] [0] [0] [1] [] []
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S64x1536.size a ≤ S64x7680.size a
  k0_t2_ok : k0_t2_loop.OK
  k0_mult2_dvd : ∀ k0_t2 : Fin k0_t2_loop.trips, 128 ∣ (k0_mult2 k0_t2).toNat
  k0_off2_inb : ∀ k0_t2 : Fin k0_t2_loop.trips, ∀ a, (k0_off2 k0_t2) a + S16x4096.size a ≤ S16x40960.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S4096x256.size a
  hwx0_0 : ∀ i : grid0.Coords, EltTy.bits .bf16 = 32 ∨ (Rect.block (s := S4096x256) S256x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S4096x1.size a
  hwx0_1 : ∀ i : grid0.Coords, EltTy.bits .i32 = 32 ∨ (Rect.block (s := S4096x1) S256x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x2502.size a ≤ S256x2502.size a
  hwx0_2 : ∀ i : grid0.Coords, EltTy.bits .bf16 = 32 ∨ (Rect.block (s := S256x2502) S256x2502.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S256x64.size a
  hwx0_3 : ∀ i : grid0.Coords, EltTy.bits .bf16 = 32 ∨ (Rect.block (s := S256x64) S256x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x7680.size a ≤ S64x7680.size a
  hwx0_4 : ∀ i : grid0.Coords, EltTy.bits .bf16 = 32 ∨ (Rect.block (s := S64x7680) S64x7680.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x16.size a ≤ S256x16.size a
  hwx0_5 : ∀ i : grid0.Coords, EltTy.bits .bf16 = 32 ∨ (Rect.block (s := S256x16) S256x16.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x40960.size a ≤ S16x40960.size a
  hwx0_6 : ∀ i : grid0.Coords, EltTy.bits .bf16 = 32 ∨ (Rect.block (s := S16x40960) S16x40960.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S4096.size a
  hwx0_7 : ∀ i : grid0.Coords, EltTy.bits .f32 = 32 ∨ (Rect.block (s := S4096) S256.size (cc0_transform_7 i) (hinb0_7 i)).WholeWords (EltTy.packing .f32)

variable [Facts₀]

def gather_S50000x256_S4096x1_S4096x256_1_0_n_n_0_1_1256 : GatherDims S50000x256 S4096x1 S4096x256 where
  offsetDims := [1]
  collapsedSliceDims := [0]
  operandBatchingDims := []
  startIndicesBatchingDims := []
  startIndexMap := [0]
  indexVectorDim := 1
  sliceSizes := ![1, 256]
  wf := gather_S50000x256_S4096x1_S4096x256_1_0_n_n_0_1_1256_wf
def dot_S256x256_S256x2502_S256x2502_1_0_0_1_n_n : DotDims S256x256 S256x2502 S256x2502 where
  lhsContracting := [1]
  rhsContracting := [0]
  lhsNonContracting := [0]
  rhsNonContracting := [1]
  lhsBatch := []
  rhsBatch := []
  wf := dot_S256x256_S256x2502_S256x2502_1_0_0_1_n_n_wf
def dot_S256x256_S256x64_S256x64_1_0_0_1_n_n : DotDims S256x256 S256x64 S256x64 where
  lhsContracting := [1]
  rhsContracting := [0]
  lhsNonContracting := [0]
  rhsNonContracting := [1]
  lhsBatch := []
  rhsBatch := []
  wf := dot_S256x256_S256x64_S256x64_1_0_0_1_n_n_wf
def dot_S256x64_S64x1536_S256x1536_1_0_0_1_n_n : DotDims S256x64 S64x1536 S256x1536 where
  lhsContracting := [1]
  rhsContracting := [0]
  lhsNonContracting := [0]
  rhsNonContracting := [1]
  lhsBatch := []
  rhsBatch := []
  wf := dot_S256x64_S64x1536_S256x1536_1_0_0_1_n_n_wf
def dot_S256x256_S256x16_S256x16_1_0_0_1_n_n : DotDims S256x256 S256x16 S256x16 where
  lhsContracting := [1]
  rhsContracting := [0]
  lhsNonContracting := [0]
  rhsNonContracting := [1]
  lhsBatch := []
  rhsBatch := []
  wf := dot_S256x256_S256x16_S256x16_1_0_0_1_n_n_wf
def dot_S256x16_S16x4096_S256x4096_1_0_0_1_n_n : DotDims S256x16 S16x4096 S256x4096 where
  lhsContracting := [1]
  rhsContracting := [0]
  lhsNonContracting := [0]
  rhsNonContracting := [1]
  lhsBatch := []
  rhsBatch := []
  wf := dot_S256x16_S16x4096_S256x4096_1_0_0_1_n_n_wf

abbrev win0_0 : Pipeline.Window sig grid0 :=
  Pipeline.Window.ofSpec (Memref.whole main_v7) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S256x2502.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S256x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S64x7680.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S256x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S16x40960.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21) S256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096 : Shape := ⟨1, ![4096]⟩
abbrev S50000x256 : Shape := ⟨2, ![50000, 256]⟩
abbrev S2502x256 : Shape := ⟨2, ![2502, 256]⟩
abbrev S64x256 : Shape := ⟨2, ![64, 256]⟩
abbrev S7500x64 : Shape := ⟨2, ![7500, 64]⟩
abbrev S16x256 : Shape := ⟨2, ![16, 256]⟩
abbrev S40000x16 : Shape := ⟨2, ![40000, 16]⟩
abbrev S_ : Shape := ⟨0, ![]⟩
abbrev S4096x1 : Shape := ⟨2, ![4096, 1]⟩
abbrev S4096x256 : Shape := ⟨2, ![4096, 256]⟩
abbrev S256x2502 : Shape := ⟨2, ![256, 2502]⟩
abbrev S4096x2502 : Shape := ⟨2, ![4096, 2502]⟩
abbrev S4096x2 : Shape := ⟨2, ![4096, 2]⟩
abbrev S256x64 : Shape := ⟨2, ![256, 64]⟩
abbrev S4096x64 : Shape := ⟨2, ![4096, 64]⟩
abbrev S64x7500 : Shape := ⟨2, ![64, 7500]⟩
abbrev S4096x7500 : Shape := ⟨2, ![4096, 7500]⟩
abbrev S256x16 : Shape := ⟨2, ![256, 16]⟩
abbrev S4096x16 : Shape := ⟨2, ![4096, 16]⟩
abbrev S16x40000 : Shape := ⟨2, ![16, 40000]⟩
abbrev S4096x40000 : Shape := ⟨2, ![4096, 40000]⟩

abbrev nBuf : Space → Nat
  | .hbm => 176
  | .vmem => 0
  | .smem => 0
  | _ => 0

abbrev hbmTy0_0 (i : Nat) : BufTy := match i % 128 with
  | 0 => ⟨S4096, .i32⟩
  | 1 => ⟨S4096, .i32⟩
  | 2 => ⟨S50000x256, .f32⟩
  | 3 => ⟨S2502x256, .f32⟩
  | 4 => ⟨S64x256, .f32⟩
  | 5 => ⟨S7500x64, .f32⟩
  | 6 => ⟨S16x256, .f32⟩
  | 7 => ⟨S40000x16, .f32⟩
  | 8 => ⟨S_, .i32⟩
  | 9 => ⟨S4096, .i32⟩
  | 10 => ⟨S4096, .i1⟩
  | 11 => ⟨S_, .i32⟩
  | 12 => ⟨S4096, .i32⟩
  | 13 => ⟨S4096, .i32⟩
  | 14 => ⟨S4096, .i32⟩
  | 15 => ⟨S4096x1, .i32⟩
  | 16 => ⟨S4096x256, .f32⟩
  | 17 => ⟨S256x2502, .f32⟩
  | 18 => ⟨S4096x2502, .f32⟩
  | 19 => ⟨S_, .f32⟩
  | 20 => ⟨S4096, .f32⟩
  | 21 => ⟨S_, .f32⟩
  | 22 => ⟨S4096, .f32⟩
  | 23 => ⟨S4096, .f32⟩
  | 24 => ⟨S4096x1, .f32⟩
  | 25 => ⟨S4096x2502, .f32⟩
  | 26 => ⟨S4096x2502, .f32⟩
  | 27 => ⟨S4096x2502, .f32⟩
  | 28 => ⟨S_, .f32⟩
  | 29 => ⟨S4096, .f32⟩
  | 30 => ⟨S4096x1, .f32⟩
  | 31 => ⟨S4096x1, .f32⟩
  | 32 => ⟨S4096x2502, .f32⟩
  | 33 => ⟨S4096x2502, .f32⟩
  | 34 => ⟨S4096, .i32⟩
  | 35 => ⟨S_, .i32⟩
  | 36 => ⟨S_, .i32⟩
  | 37 => ⟨S_, .i32⟩
  | 38 => ⟨S4096, .i32⟩
  | 39 => ⟨S4096, .i32⟩
  | 40 => ⟨S_, .i32⟩
  | 41 => ⟨S4096, .i32⟩
  | 42 => ⟨S4096, .i32⟩
  | 43 => ⟨S_, .i32⟩
  | 44 => ⟨S4096, .i32⟩
  | 45 => ⟨S4096, .i1⟩
  | 46 => ⟨S_, .i32⟩
  | 47 => ⟨S4096, .i32⟩
  | 48 => ⟨S4096, .i32⟩
  | 49 => ⟨S4096, .i32⟩
  | 50 => ⟨S_, .i32⟩
  | 51 => ⟨S4096, .i32⟩
  | 52 => ⟨S4096, .i1⟩
  | 53 => ⟨S_, .i32⟩
  | 54 => ⟨S4096, .i32⟩
  | 55 => ⟨S4096, .i32⟩
  | 56 => ⟨S4096, .i32⟩
  | 57 => ⟨S4096x1, .i32⟩
  | 58 => ⟨S4096x1, .i32⟩
  | 59 => ⟨S4096x2, .i32⟩
  | 60 => ⟨S4096, .f32⟩
  | 61 => ⟨S256x64, .f32⟩
  | 62 => ⟨S4096x64, .f32⟩
  | 63 => ⟨S64x7500, .f32⟩
  | 64 => ⟨S4096x7500, .f32⟩
  | 65 => ⟨S_, .f32⟩
  | 66 => ⟨S4096, .f32⟩
  | 67 => ⟨S_, .f32⟩
  | 68 => ⟨S4096, .f32⟩
  | 69 => ⟨S4096, .f32⟩
  | 70 => ⟨S4096x1, .f32⟩
  | 71 => ⟨S4096x7500, .f32⟩
  | 72 => ⟨S4096x7500, .f32⟩
  | 73 => ⟨S4096x7500, .f32⟩
  | 74 => ⟨S_, .f32⟩
  | 75 => ⟨S4096, .f32⟩
  | 76 => ⟨S4096x1, .f32⟩
  | 77 => ⟨S4096x1, .f32⟩
  | 78 => ⟨S4096x7500, .f32⟩
  | 79 => ⟨S4096x7500, .f32⟩
  | 80 => ⟨S4096x1, .f32⟩
  | 81 => ⟨S4096, .f32⟩
  | 82 => ⟨S_, .i32⟩
  | 83 => ⟨S4096, .i32⟩
  | 84 => ⟨S4096, .i32⟩
  | 85 => ⟨S_, .i32⟩
  | 86 => ⟨S_, .i32⟩
  | 87 => ⟨S_, .i32⟩
  | 88 => ⟨S4096, .i32⟩
  | 89 => ⟨S4096, .i32⟩
  | 90 => ⟨S_, .i32⟩
  | 91 => ⟨S4096, .i32⟩
  | 92 => ⟨S4096, .i32⟩
  | 93 => ⟨S_, .i32⟩
  | 94 => ⟨S4096, .i32⟩
  | 95 => ⟨S4096, .i1⟩
  | 96 => ⟨S_, .i32⟩
  | 97 => ⟨S4096, .i32⟩
  | 98 => ⟨S4096, .i32⟩
  | 99 => ⟨S4096, .i32⟩
  | 100 => ⟨S_, .i32⟩
  | 101 => ⟨S4096, .i32⟩
  | 102 => ⟨S4096, .i1⟩
  | 103 => ⟨S_, .i32⟩
  | 104 => ⟨S4096, .i32⟩
  | 105 => ⟨S4096, .i32⟩
  | 106 => ⟨S4096, .i32⟩
  | 107 => ⟨S4096x1, .i32⟩
  | 108 => ⟨S4096x1, .i32⟩
  | 109 => ⟨S4096x2, .i32⟩
  | 110 => ⟨S4096, .f32⟩
  | 111 => ⟨S4096, .f32⟩
  | 112 => ⟨S256x16, .f32⟩
  | 113 => ⟨S4096x16, .f32⟩
  | 114 => ⟨S16x40000, .f32⟩
  | 115 => ⟨S4096x40000, .f32⟩
  | 116 => ⟨S_, .f32⟩
  | 117 => ⟨S4096, .f32⟩
  | 118 => ⟨S_, .f32⟩
  | 119 => ⟨S4096, .f32⟩
  | 120 => ⟨S4096, .f32⟩
  | 121 => ⟨S4096x1, .f32⟩
  | 122 => ⟨S4096x40000, .f32⟩
  | 123 => ⟨S4096x40000, .f32⟩
  | 124 => ⟨S4096x40000, .f32⟩
  | 125 => ⟨S_, .f32⟩
  | 126 => ⟨S4096, .f32⟩
  | 127 => ⟨S4096x1, .f32⟩
  | _ => ⟨S4096, .i32⟩

abbrev hbmTy0_1 (i : Nat) : BufTy := match i % 128 with
  | 0 => ⟨S4096x1, .f32⟩
  | 1 => ⟨S4096x40000, .f32⟩
  | 2 => ⟨S4096x40000, .f32⟩
  | 3 => ⟨S4096x1, .f32⟩
  | 4 => ⟨S4096, .f32⟩
  | 5 => ⟨S_, .i32⟩
  | 6 => ⟨S4096, .i32⟩
  | 7 => ⟨S4096, .i32⟩
  | 8 => ⟨S_, .i32⟩
  | 9 => ⟨S_, .i32⟩
  | 10 => ⟨S_, .i32⟩
  | 11 => ⟨S4096, .i32⟩
  | 12 => ⟨S4096, .i32⟩
  | 13 => ⟨S_, .i32⟩
  | 14 => ⟨S4096, .i32⟩
  | 15 => ⟨S4096, .i32⟩
  | 16 => ⟨S_, .i32⟩
  | 17 => ⟨S4096, .i32⟩
  | 18 => ⟨S4096, .i1⟩
  | 19 => ⟨S_, .i32⟩
  | 20 => ⟨S4096, .i32⟩
  | 21 => ⟨S4096, .i32⟩
  | 22 => ⟨S4096, .i32⟩
  | 23 => ⟨S_, .i32⟩
  | 24 => ⟨S4096, .i32⟩
  | 25 => ⟨S4096, .i1⟩
  | 26 => ⟨S_, .i32⟩
  | 27 => ⟨S4096, .i32⟩
  | 28 => ⟨S4096, .i32⟩
  | 29 => ⟨S4096, .i32⟩
  | 30 => ⟨S4096x1, .i32⟩
  | 31 => ⟨S4096x1, .i32⟩
  | 32 => ⟨S4096x2, .i32⟩
  | 33 => ⟨S4096, .f32⟩
  | 34 => ⟨S4096, .f32⟩
  | 35 => ⟨S_, .i32⟩
  | 36 => ⟨S4096, .i32⟩
  | 37 => ⟨S4096, .i1⟩
  | 38 => ⟨S_, .i32⟩
  | 39 => ⟨S4096, .i32⟩
  | 40 => ⟨S4096, .i1⟩
  | 41 => ⟨S4096, .f32⟩
  | 42 => ⟨S4096, .f32⟩
  | 43 => ⟨S_, .f32⟩
  | 44 => ⟨S_, .f32⟩
  | 45 => ⟨S_, .f32⟩
  | 46 => ⟨S_, .f32⟩
  | 47 => ⟨S_, .f32⟩
  | _ => ⟨S4096, .i32⟩

abbrev hbmTy (i : Nat) : BufTy := match i / 128 with
  | 0 => hbmTy0_0 i
  | 1 => hbmTy0_1 i
  | _ => ⟨S4096, .i32⟩

abbrev bufTy : (tb : Table) → Fin (tcTables nBuf tb) → BufTy
  | .hbm, ⟨i, _⟩ => hbmTy i
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call0_cst : Ref sig .tc := ⟨.hbm, 19, rfl⟩
abbrev main_call0_v0 : Ref sig .tc := ⟨.hbm, 20, rfl⟩
abbrev main_call0_cst_0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_cst_1 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_v9 : Ref sig .tc := ⟨.hbm, 33, rfl⟩
abbrev main_v10 : Ref sig .tc := ⟨.hbm, 34, rfl⟩
abbrev main_c_1 : Ref sig .tc := ⟨.hbm, 35, rfl⟩
abbrev main_c_2 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_v11 : Ref sig .tc := ⟨.hbm, 42, rfl⟩
abbrev main_c_3 : Ref sig .tc := ⟨.hbm, 43, rfl⟩
abbrev main_v12 : Ref sig .tc := ⟨.hbm, 44, rfl⟩
abbrev main_v13 : Ref sig .tc := ⟨.hbm, 45, rfl⟩
abbrev main_c_4 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_c_5 : Ref sig .tc := ⟨.hbm, 50, rfl⟩
abbrev main_v17 : Ref sig .tc := ⟨.hbm, 51, rfl⟩
abbrev main_v18 : Ref sig .tc := ⟨.hbm, 52, rfl⟩
abbrev main_c_6 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_call2_cst : Ref sig .tc := ⟨.hbm, 65, rfl⟩
abbrev main_call2_v0 : Ref sig .tc := ⟨.hbm, 66, rfl⟩
abbrev main_call2_cst_0 : Ref sig .tc := ⟨.hbm, 67, rfl⟩
abbrev main_call2_v1 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_v5 : Ref sig .tc := ⟨.hbm, 72, rfl⟩
abbrev main_call2_v6 : Ref sig .tc := ⟨.hbm, 73, rfl⟩
abbrev main_call2_cst_1 : Ref sig .tc := ⟨.hbm, 74, rfl⟩
abbrev main_call2_v7 : Ref sig .tc := ⟨.hbm, 75, rfl⟩
abbrev main_call2_v8 : Ref sig .tc := ⟨.hbm, 76, rfl⟩
abbrev main_call2_v9 : Ref sig .tc := ⟨.hbm, 77, rfl⟩
abbrev main_call2_v10 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_c_7 : Ref sig .tc := ⟨.hbm, 82, rfl⟩
abbrev main_v33 : Ref sig .tc := ⟨.hbm, 83, rfl⟩
abbrev main_v34 : Ref sig .tc := ⟨.hbm, 84, rfl⟩
abbrev main_c_8 : Ref sig .tc := ⟨.hbm, 85, rfl⟩
abbrev main_c_9 : Ref sig .tc := ⟨.hbm, 86, rfl⟩
abbrev main_call3_v0 : Ref sig .tc := ⟨.hbm, 87, rfl⟩
abbrev main_call3_v1 : Ref sig .tc := ⟨.hbm, 88, rfl⟩
abbrev main_call3_v2 : Ref sig .tc := ⟨.hbm, 89, rfl⟩
abbrev main_call3_v3 : Ref sig .tc := ⟨.hbm, 90, rfl⟩
abbrev main_call3_v4 : Ref sig .tc := ⟨.hbm, 91, rfl⟩
abbrev main_v35 : Ref sig .tc := ⟨.hbm, 92, rfl⟩
abbrev main_c_10 : Ref sig .tc := ⟨.hbm, 93, rfl⟩
abbrev main_v36 : Ref sig .tc := ⟨.hbm, 94, rfl⟩
abbrev main_v37 : Ref sig .tc := ⟨.hbm, 95, rfl⟩
abbrev main_c_11 : Ref sig .tc := ⟨.hbm, 96, rfl⟩
abbrev main_v38 : Ref sig .tc := ⟨.hbm, 97, rfl⟩
abbrev main_v39 : Ref sig .tc := ⟨.hbm, 98, rfl⟩
abbrev main_v40 : Ref sig .tc := ⟨.hbm, 99, rfl⟩
abbrev main_c_12 : Ref sig .tc := ⟨.hbm, 100, rfl⟩
abbrev main_v41 : Ref sig .tc := ⟨.hbm, 101, rfl⟩
abbrev main_v42 : Ref sig .tc := ⟨.hbm, 102, rfl⟩
abbrev main_c_13 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩
abbrev main_v52 : Ref sig .tc := ⟨.hbm, 113, rfl⟩
abbrev main_v53 : Ref sig .tc := ⟨.hbm, 114, rfl⟩
abbrev main_v54 : Ref sig .tc := ⟨.hbm, 115, rfl⟩
abbrev main_call4_cst : Ref sig .tc := ⟨.hbm, 116, rfl⟩
abbrev main_call4_v0 : Ref sig .tc := ⟨.hbm, 117, rfl⟩
abbrev main_call4_cst_0 : Ref sig .tc := ⟨.hbm, 118, rfl⟩
abbrev main_call4_v1 : Ref sig .tc := ⟨.hbm, 119, rfl⟩
abbrev main_call4_v2 : Ref sig .tc := ⟨.hbm, 120, rfl⟩
abbrev main_call4_v3 : Ref sig .tc := ⟨.hbm, 121, rfl⟩
abbrev main_call4_v4 : Ref sig .tc := ⟨.hbm, 122, rfl⟩
abbrev main_call4_v5 : Ref sig .tc := ⟨.hbm, 123, rfl⟩
abbrev main_call4_v6 : Ref sig .tc := ⟨.hbm, 124, rfl⟩
abbrev main_call4_cst_1 : Ref sig .tc := ⟨.hbm, 125, rfl⟩
abbrev main_call4_v7 : Ref sig .tc := ⟨.hbm, 126, rfl⟩
abbrev main_call4_v8 : Ref sig .tc := ⟨.hbm, 127, rfl⟩
abbrev main_call4_v9 : Ref sig .tc := ⟨.hbm, 128, rfl⟩
abbrev main_call4_v10 : Ref sig .tc := ⟨.hbm, 129, rfl⟩
abbrev main_v55 : Ref sig .tc := ⟨.hbm, 130, rfl⟩
abbrev main_v56 : Ref sig .tc := ⟨.hbm, 131, rfl⟩
abbrev main_v57 : Ref sig .tc := ⟨.hbm, 132, rfl⟩
abbrev main_c_14 : Ref sig .tc := ⟨.hbm, 133, rfl⟩
abbrev main_v58 : Ref sig .tc := ⟨.hbm, 134, rfl⟩
abbrev main_v59 : Ref sig .tc := ⟨.hbm, 135, rfl⟩
abbrev main_c_15 : Ref sig .tc := ⟨.hbm, 136, rfl⟩
abbrev main_c_16 : Ref sig .tc := ⟨.hbm, 137, rfl⟩
abbrev main_call5_v0 : Ref sig .tc := ⟨.hbm, 138, rfl⟩
abbrev main_call5_v1 : Ref sig .tc := ⟨.hbm, 139, rfl⟩
abbrev main_call5_v2 : Ref sig .tc := ⟨.hbm, 140, rfl⟩
abbrev main_call5_v3 : Ref sig .tc := ⟨.hbm, 141, rfl⟩
abbrev main_call5_v4 : Ref sig .tc := ⟨.hbm, 142, rfl⟩
abbrev main_v60 : Ref sig .tc := ⟨.hbm, 143, rfl⟩
abbrev main_c_17 : Ref sig .tc := ⟨.hbm, 144, rfl⟩
abbrev main_v61 : Ref sig .tc := ⟨.hbm, 145, rfl⟩
abbrev main_v62 : Ref sig .tc := ⟨.hbm, 146, rfl⟩
abbrev main_c_18 : Ref sig .tc := ⟨.hbm, 147, rfl⟩
abbrev main_v63 : Ref sig .tc := ⟨.hbm, 148, rfl⟩
abbrev main_v64 : Ref sig .tc := ⟨.hbm, 149, rfl⟩
abbrev main_v65 : Ref sig .tc := ⟨.hbm, 150, rfl⟩
abbrev main_c_19 : Ref sig .tc := ⟨.hbm, 151, rfl⟩
abbrev main_v66 : Ref sig .tc := ⟨.hbm, 152, rfl⟩
abbrev main_v67 : Ref sig .tc := ⟨.hbm, 153, rfl⟩
abbrev main_c_20 : Ref sig .tc := ⟨.hbm, 154, rfl⟩
abbrev main_v68 : Ref sig .tc := ⟨.hbm, 155, rfl⟩
abbrev main_v69 : Ref sig .tc := ⟨.hbm, 156, rfl⟩
abbrev main_v70 : Ref sig .tc := ⟨.hbm, 157, rfl⟩
abbrev main_v71 : Ref sig .tc := ⟨.hbm, 158, rfl⟩
abbrev main_v72 : Ref sig .tc := ⟨.hbm, 159, rfl⟩
abbrev main_v73 : Ref sig .tc := ⟨.hbm, 160, rfl⟩
abbrev main_v74 : Ref sig .tc := ⟨.hbm, 161, rfl⟩
abbrev main_v75 : Ref sig .tc := ⟨.hbm, 162, rfl⟩
abbrev main_c_21 : Ref sig .tc := ⟨.hbm, 163, rfl⟩
abbrev main_v76 : Ref sig .tc := ⟨.hbm, 164, rfl⟩
abbrev main_v77 : Ref sig .tc := ⟨.hbm, 165, rfl⟩
abbrev main_c_22 : Ref sig .tc := ⟨.hbm, 166, rfl⟩
abbrev main_v78 : Ref sig .tc := ⟨.hbm, 167, rfl⟩
abbrev main_v79 : Ref sig .tc := ⟨.hbm, 168, rfl⟩
abbrev main_v80 : Ref sig .tc := ⟨.hbm, 169, rfl⟩
abbrev main_v81 : Ref sig .tc := ⟨.hbm, 170, rfl⟩
abbrev main_cst : Ref sig .tc := ⟨.hbm, 171, rfl⟩
abbrev main_v82 : Ref sig .tc := ⟨.hbm, 172, rfl⟩
abbrev main_cst_23 : Ref sig .tc := ⟨.hbm, 173, rfl⟩
abbrev main_v83 : Ref sig .tc := ⟨.hbm, 174, rfl⟩
abbrev main_v84 : Ref sig .tc := ⟨.hbm, 175, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  transposes_S2502x256_S256x2502_1_0 : S2502x256.Transposes [1, 0] S256x2502
  reducesTo_S4096x2502_S4096_d1 : S4096x2502.ReducesTo [1] S4096
  h_S_ : 0 < S_.numel
  bcast_S4096x1_S4096x2502_0_1 : S4096x1.BroadcastsInDim S4096x2502 (![0, 1] : Fin 2 → Fin S4096x2502.rank)
  concatenates_S4096x1_S4096x1_S4096x2_d1 : Shape.Concatenates [S4096x1, S4096x1] S4096x2 1
  transposes_S64x256_S256x64_1_0 : S64x256.Transposes [1, 0] S256x64
  transposes_S7500x64_S64x7500_1_0 : S7500x64.Transposes [1, 0] S64x7500
  reducesTo_S4096x7500_S4096_d1 : S4096x7500.ReducesTo [1] S4096
  bcast_S4096x1_S4096x7500_0_1 : S4096x1.BroadcastsInDim S4096x7500 (![0, 1] : Fin 2 → Fin S4096x7500.rank)
  slices_S4096x2502_S4096x1_0_2500 : S4096x2502.Slices ![0, 2500] S4096x1
  shapeCasts_S4096x1_S4096 : S4096x1.ShapeCasts S4096
  transposes_S16x256_S256x16_1_0 : S16x256.Transposes [1, 0] S256x16
  transposes_S40000x16_S16x40000_1_0 : S40000x16.Transposes [1, 0] S16x40000
  reducesTo_S4096x40000_S4096_d1 : S4096x40000.ReducesTo [1] S4096
  bcast_S4096x1_S4096x40000_0_1 : S4096x1.BroadcastsInDim S4096x40000 (![0, 1] : Fin 2 → Fin S4096x40000.rank)
  slices_S4096x2502_S4096x1_0_2501 : S4096x2502.Slices ![0, 2501] S4096x1
  reducesTo_S4096_S_d0 : S4096.ReducesTo [0] S_
  gather_S50000x256_S4096x1_S4096x256_1_0_n_n_0_1_1256_wf : GatherDims.WF S50000x256 S4096x1 S4096x256 [1] [0] [] [0] [] 1 ![1, 256]
  dot_S4096x256_S256x2502_S4096x2502_1_0_0_1_n_n_wf : DotDims.WF S4096x256 S256x2502 S4096x2502 [1] [0] [0] [1] [] []
  gather_S4096x2502_S4096x2_S4096_n_01_n_n_01_1_11_wf : GatherDims.WF S4096x2502 S4096x2 S4096 [] [0, 1] [] [0, 1] [] 1 ![1, 1]
  dot_S4096x256_S256x64_S4096x64_1_0_0_1_n_n_wf : DotDims.WF S4096x256 S256x64 S4096x64 [1] [0] [0] [1] [] []
  dot_S4096x64_S64x7500_S4096x7500_1_0_0_1_n_n_wf : DotDims.WF S4096x64 S64x7500 S4096x7500 [1] [0] [0] [1] [] []
  gather_S4096x7500_S4096x2_S4096_n_01_n_n_01_1_11_wf : GatherDims.WF S4096x7500 S4096x2 S4096 [] [0, 1] [] [0, 1] [] 1 ![1, 1]
  dot_S4096x256_S256x16_S4096x16_1_0_0_1_n_n_wf : DotDims.WF S4096x256 S256x16 S4096x16 [1] [0] [0] [1] [] []
  dot_S4096x16_S16x40000_S4096x40000_1_0_0_1_n_n_wf : DotDims.WF S4096x16 S16x40000 S4096x40000 [1] [0] [0] [1] [] []
  gather_S4096x40000_S4096x2_S4096_n_01_n_n_01_1_11_wf : GatherDims.WF S4096x40000 S4096x2 S4096 [] [0, 1] [] [0, 1] [] 1 ![1, 1]

variable [Facts₀]

def gather_S50000x256_S4096x1_S4096x256_1_0_n_n_0_1_1256 : GatherDims S50000x256 S4096x1 S4096x256 where
  offsetDims := [1]
  collapsedSliceDims := [0]
  operandBatchingDims := []
  startIndicesBatchingDims := []
  startIndexMap := [0]
  indexVectorDim := 1
  sliceSizes := ![1, 256]
  wf := gather_S50000x256_S4096x1_S4096x256_1_0_n_n_0_1_1256_wf
def dot_S4096x256_S256x2502_S4096x2502_1_0_0_1_n_n : DotDims S4096x256 S256x2502 S4096x2502 where
  lhsContracting := [1]
  rhsContracting := [0]
  lhsNonContracting := [0]
  rhsNonContracting := [1]
  lhsBatch := []
  rhsBatch := []
  wf := dot_S4096x256_S256x2502_S4096x2502_1_0_0_1_n_n_wf
def gather_S4096x2502_S4096x2_S4096_n_01_n_n_01_1_11 : GatherDims S4096x2502 S4096x2 S4096 where
  offsetDims := []
  collapsedSliceDims := [0, 1]
  operandBatchingDims := []
  startIndicesBatchingDims := []
  startIndexMap := [0, 1]
  indexVectorDim := 1
  sliceSizes := ![1, 1]
  wf := gather_S4096x2502_S4096x2_S4096_n_01_n_n_01_1_11_wf
def dot_S4096x256_S256x64_S4096x64_1_0_0_1_n_n : DotDims S4096x256 S256x64 S4096x64 where
  lhsContracting := [1]
  rhsContracting := [0]
  lhsNonContracting := [0]
  rhsNonContracting := [1]
  lhsBatch := []
  rhsBatch := []
  wf := dot_S4096x256_S256x64_S4096x64_1_0_0_1_n_n_wf
def dot_S4096x64_S64x7500_S4096x7500_1_0_0_1_n_n : DotDims S4096x64 S64x7500 S4096x7500 where
  lhsContracting := [1]
  rhsContracting := [0]
  lhsNonContracting := [0]
  rhsNonContracting := [1]
  lhsBatch := []
  rhsBatch := []
  wf := dot_S4096x64_S64x7500_S4096x7500_1_0_0_1_n_n_wf
def gather_S4096x7500_S4096x2_S4096_n_01_n_n_01_1_11 : GatherDims S4096x7500 S4096x2 S4096 where
  offsetDims := []
  collapsedSliceDims := [0, 1]
  operandBatchingDims := []
  startIndicesBatchingDims := []
  startIndexMap := [0, 1]
  indexVectorDim := 1
  sliceSizes := ![1, 1]
  wf := gather_S4096x7500_S4096x2_S4096_n_01_n_n_01_1_11_wf
def dot_S4096x256_S256x16_S4096x16_1_0_0_1_n_n : DotDims S4096x256 S256x16 S4096x16 where
  lhsContracting := [1]
  rhsContracting := [0]
  lhsNonContracting := [0]
  rhsNonContracting := [1]
  lhsBatch := []
  rhsBatch := []
  wf := dot_S4096x256_S256x16_S4096x16_1_0_0_1_n_n_wf
def dot_S4096x16_S16x40000_S4096x40000_1_0_0_1_n_n : DotDims S4096x16 S16x40000 S4096x40000 where
  lhsContracting := [1]
  rhsContracting := [0]
  lhsNonContracting := [0]
  rhsNonContracting := [1]
  lhsBatch := []
  rhsBatch := []
  wf := dot_S4096x16_S16x40000_S4096x40000_1_0_0_1_n_n_wf
def gather_S4096x40000_S4096x2_S4096_n_01_n_n_01_1_11 : GatherDims S4096x40000 S4096x2 S4096 where
  offsetDims := []
  collapsedSliceDims := [0, 1]
  operandBatchingDims := []
  startIndicesBatchingDims := []
  startIndexMap := [0, 1]
  indexVectorDim := 1
  sliceSizes := ![1, 1]
  wf := gather_S4096x40000_S4096x2_S4096_n_01_n_n_01_1_11_wf

class Facts : Prop extends Facts₀ where

variable [Facts]
-- ==== Proof.RefRunChunks.lean ====
/-
  The reference's line of 168 host operations, cut into 14 stretches of 12.
-/
import proofs.«428924_j53884659696080_3_alg».proof.Proof.RefRead
import Idealize.ShloMosaic.Lib.StableHlo.Run

set_option maxRecDepth 65536

noncomputable section

namespace Cert.ReferenceIdeal.RunP

open Cert.ReferenceIdeal Cert.ReferenceIdeal.Gen Idealize.ShloMosaic Idealize.ShloMosaic.TcCoe Idealize.SL.Sem Idealize.ShloMosaic.StableHlo Cert.ReferenceIdeal.ReadP Cert.ReferenceIdeal.ValueP

variable {F : FTy → Type} [FloatOps F]

abbrev chunk0 : List (HloOp τ sig (Elt F)) := ((ops (F := F)).drop 0).take 12
abbrev chunk1 : List (HloOp τ sig (Elt F)) := ((ops (F := F)).drop 12).take 12
abbrev chunk2 : List (HloOp τ sig (Elt F)) := ((ops (F := F)).drop 24).take 12
abbrev chunk3 : List (HloOp τ sig (Elt F)) := ((ops (F := F)).drop 36).take 12
abbrev chunk4 : List (HloOp τ sig (Elt F)) := ((ops (F := F)).drop 48).take 12
abbrev chunk5 : List (HloOp τ sig (Elt F)) := ((ops (F := F)).drop 60).take 12
abbrev chunk6 : List (HloOp τ sig (Elt F)) := ((ops (F := F)).drop 72).take 12
abbrev chunk7 : List (HloOp τ sig (Elt F)) := ((ops (F := F)).drop 84).take 12
abbrev chunk8 : List (HloOp τ sig (Elt F)) := ((ops (F := F)).drop 96).take 12
abbrev chunk9 : List (HloOp τ sig (Elt F)) := ((ops (F := F)).drop 108).take 12
abbrev chunk10 : List (HloOp τ sig (Elt F)) := ((ops (F := F)).drop 120).take 12
abbrev chunk11 : List (HloOp τ sig (Elt F)) := ((ops (F := F)).drop 132).take 12
abbrev chunk12 : List (HloOp τ sig (Elt F)) := ((ops (F := F)).drop 144).take 12
abbrev chunk13 : List (HloOp τ sig (Elt F)) := ((ops (F := F)).drop 156).take 12

/-- The line is its stretches in order. -/
theorem ops_split : (ops (F := F)) = chunk0 ++ (chunk1 ++ (chunk2 ++ (chunk3 ++ (chunk4 ++ (chunk5 ++ (chunk6 ++ (chunk7 ++ (chunk8 ++ (chunk9 ++ (chunk10 ++ (chunk11 ++ (chunk12 ++ (chunk13))))))))))))) := rfl

end Cert.ReferenceIdeal.RunP

end
-- ==== Proof.RefRunCasts.lean ====
/-
  The operations of the inlined callees, each with its casts removed.

  A callee's operation reads its operands and writes its result through the value's type, while a buffer holds contents
  at the buffer's own type; the two types are equal, and moving a value between them is a transport along that
  equation. With the operation's function kept folded and variables for the operands, the transport reduces: the
  operation applied through the transports is the operation applied.
-/
import proofs.«428924_j53884659696080_3_alg».proof.Proof.RefRunChunks

set_option maxRecDepth 65536

noncomputable section

namespace Cert.ReferenceIdeal.RunP

open Cert.ReferenceIdeal Cert.ReferenceIdeal.Gen Idealize.ShloMosaic Idealize.ShloMosaic.TcCoe Idealize.SL.Sem Idealize.ShloMosaic.StableHlo Cert.ReferenceIdeal.ReadP Cert.ReferenceIdeal.ValueP

variable {F : FTy → Type} [FloatOps F]

-- the operations' functions stay folded, so that a transport around one reduces before anything else does
attribute [local irreducible] Host.exp Host.gather Host.log Host.reduce Host.reduceAdd Host.divf Host.negf addf addi broadcastInDim cmpi concatenate constant constantI extractStridedSlice iotaInDim maxsi minsi maximumf select shapeCast subf subi transpose

theorem cast_11 :
    TRef.toBuf (Val := Elt F) (TRef.of (T := ⟨S_, .f32⟩) main_call0_cst : TRef sig ⟨S_, .f32⟩) (((constant S_ .f32 0xFF800000#32) : (⟨S_, .f32⟩ : BufTy).Contents (Elt F))) = ((constant S_ .f32 0xFF800000#32) : (⟨S_, .f32⟩ : BufTy).Contents (Elt F)) := rfl
theorem cast_12 (A : (⟨S4096x2502, .f32⟩ : BufTy).Contents (Elt F)) (B : (⟨S_, .f32⟩ : BufTy).Contents (Elt F)) :
    TRef.toBuf (Val := Elt F) (TRef.of (T := ⟨S4096, .f32⟩) main_call0_v0 : TRef sig ⟨S4096, .f32⟩) (((fun x v => Host.reduce FloatOps.maximumf x v reducesTo_S4096x2502_S4096_d1 h_S_) : (⟨S4096x2502, .f32⟩ : BufTy).Contents (Elt F) → (⟨S_, .f32⟩ : BufTy).Contents (Elt F) → (⟨S4096, .f32⟩ : BufTy).Contents (Elt F)) (TRef.ofBuf (Val := Elt F) (TRef.of (T := ⟨S4096x2502, .f32⟩) main_v8 : TRef sig ⟨S4096x2502, .f32⟩) A) (TRef.ofBuf (Val := Elt F) (TRef.of (T := ⟨S_, .f32⟩) main_call0_cst : TRef sig ⟨S_, .f32⟩) B)) = ((fun x v => Host.reduce FloatOps.maximumf x v reducesTo_S4096x2502_S4096_d1 h_S_) : (⟨S4096x2502, .f32⟩ : BufTy).Contents (Elt F) → (⟨S_, .f32⟩ : BufTy).Contents (Elt F) → (⟨S4096, .f32⟩ : BufTy).Contents (Elt F)) A B := rfl
theorem cast_13 :
    TRef.toBuf (Val := Elt F) (TRef.of (T := ⟨S_, .f32⟩) main_call0_cst_0 : TRef sig ⟨S_, .f32⟩) (((constant S_ .f32 0xFF800000#32) : (⟨S_, .f32⟩ : BufTy).Contents (Elt F))) = ((constant S_ .f32 0xFF800000#32) : (⟨S_, .f32⟩ : BufTy).Contents (Elt F)) := rfl
theorem cast_14 (A : (⟨S_, .f32⟩ : BufTy).Contents (Elt F)) :
    TRef.toBuf (Val := Elt F) (TRef.of (T := ⟨S4096, .f32⟩) main_call0_v1 : TRef sig ⟨S4096, .f32⟩) (((broadcastInDim S4096 ![] bcast_S_S4096) : (⟨S_, .f32⟩ : BufTy).Contents (Elt F) → (⟨S4096, .f32⟩ : BufTy).Contents (Elt F)) (TRef.ofBuf (Val := Elt F) (TRef.of (T := ⟨S_, .f32⟩) main_call0_cst_0 : TRef sig ⟨S_, .f32⟩) A)) = ((broadcastInDim S4096 ![] bcast_S_S4096) : (⟨S_, .f32⟩ : BufTy).Contents (Elt F) → (⟨S4096, .f32⟩ : BufTy).Contents (Elt F)) A := rfl
theorem cast_15 (A : (⟨S4096, .f32⟩ : BufTy).Contents (Elt F)) (B : (⟨S4096, .f32⟩ : BufTy).Contents (Elt F)) :
    TRef.toBuf (Val := Elt F) (TRef.of (T := ⟨S4096, .f32⟩) main_call0_v2 : TRef sig ⟨S4096, .f32⟩) ((maximumf : (⟨S4096, .f32⟩ : BufTy).Contents (Elt F) → (⟨S4096, .f32⟩ : BufTy).Contents (Elt F) → (⟨S4096, .f32⟩ : BufTy).Contents (Elt F)) (TRef.ofBuf (Val := Elt F) (TRef.of (T := ⟨S4096, .f32⟩) main_call0_v1 : TRef sig ⟨S4096, .f32⟩) A) (TRef.ofBuf (Val := Elt F) (TRef.of (T := ⟨S4096, .f32⟩) main_call0_v0 : TRef sig ⟨S4096, .f32⟩) B)) = (maximumf : (⟨S4096, .f32⟩ : BufTy).Contents (Elt F) → (⟨S4096, .f32⟩ : BufTy).Contents (Elt F) → (⟨S4096, .f32⟩ : BufTy).Contents (Elt F)) A B := rfl
theorem cast_16 (A : (⟨S4096, .f32⟩ : BufTy).Contents (Elt F)) :
    TRef.toBuf (Val := Elt F) (TRef.of (T := ⟨S4096x1, .f32⟩) main_call0_v3 : TRef sig ⟨S4096x1, .f32⟩) (((broadcastInDim S4096x1 ![0] bcast_S4096_S4096x1_0) : (⟨S4096, .f32⟩ : BufTy).Contents (Elt F) → (⟨S4096x1, .f32⟩ : BufTy).Contents (Elt F)) (TRef.ofBuf (Val := Elt F) (TRef.of (T := ⟨S4096, .f32⟩) main_call0_v2 : TRef sig ⟨S4096, .f32⟩) A)) = ((broadcastInDim S4096x1 ![0] bcast_S4096_S4096x1_0) : (⟨S4096, .f32⟩ : BufTy).Contents (Elt F) → (⟨S4096x1, .f32⟩ : BufTy).Contents (Elt F)) A := rfl
theorem cast_17 (A : (⟨S4096x1, .f32⟩ : BufTy).Contents (Elt F)) :
    TRef.toBuf (Val := Elt F) (TRef.of (T := ⟨S4096x2502, .f32⟩) main_call0_v4 : TRef sig ⟨S4096x2502, .f32⟩) (((broadcastInDim S4096x2502 ![0, 1] bcast_S4096x1_S4096x2502_0_1) : (⟨S4096x1, .f32⟩ : BufTy).Contents (Elt F) → (⟨S4096x2502, .f32⟩ : BufTy).Contents (Elt F)) (TRef.ofBuf (Val := Elt F) (TRef.of (T := ⟨S4096x1, .f32⟩) main_call0_v3 : TRef sig ⟨S4096x1, .f32⟩) A)) = ((broadcastInDim S4096x2502 ![0, 1] bcast_S4096x1_S4096x2502_0_1) : (⟨S4096x1, .f32⟩ : BufTy).Contents (Elt F) → (⟨S4096x2502, .f32⟩ : BufTy).Contents (Elt F)) A := rfl
theorem cast_18 (A : (⟨S4096x2502, .f32⟩ : BufTy).Contents (Elt F)) (B : (⟨S4096x2502, .f32⟩ : BufTy).Contents (Elt F)) :
    TRef.toBuf (Val := Elt F) (TRef.of (T := ⟨S4096x2502, .f32⟩) main_call0_v5 : TRef sig ⟨S4096x2502, .f32⟩) ((subf : (⟨S4096x2502, .f32⟩ : BufTy).Contents (Elt F) → (⟨S4096x2502, .f32⟩ : BufTy).Contents (Elt F) → (⟨S4096x2502, .f32⟩ : BufTy).Contents (Elt F)) (TRef.ofBuf (Val := Elt F) (TRef.of (T := ⟨S4096x2502, .f32⟩) main_v8 : TRef sig ⟨S4096x2502, .f32⟩) A) (TRef.ofBuf (Val := Elt F) (TRef.of (T := ⟨S4096x2502, .f32⟩) main_call0_v4 : TRef sig ⟨S4096x2502, .f32⟩) B)) = (subf : (⟨S4096x2502, .f32⟩ : BufTy).Contents (Elt F) → (⟨S4096x2502, .f32⟩ : BufTy).Contents (Elt F) → (⟨S4096x2502, .f32⟩ : BufTy).Contents (Elt F)) A B := rfl
theorem cast_19 (A : (⟨S4096x2502, .f32⟩ : BufTy).Contents (Elt F)) :
    TRef.toBuf (Val := Elt F) (TRef.of (T := ⟨S4096x2502, .f32⟩) main_call0_v6 : TRef sig ⟨S4096x2502, .f32⟩) ((Host.exp : (⟨S4096x2502, .f32⟩ : BufTy).Contents (Elt F) → (⟨S4096x2502, .f32⟩ : BufTy).Contents (Elt F)) (TRef.ofBuf (Val := Elt F) (TRef.of (T := ⟨S4096x2502, .f32⟩) main_call0_v5 : TRef sig ⟨S4096x2502, .f32⟩) A)) = (Host.exp : (⟨S4096x2502, .f32⟩ : BufTy).Contents (Elt F) → (⟨S4096x2502, .f32⟩ : BufTy).Contents (Elt F)) A := rfl
theorem cast_20 :
    TRef.toBuf (Val := Elt F) (TRef.of (T := ⟨S_, .f32⟩) main_call0_cst_1 : TRef sig ⟨S_, .f32⟩) (((constant S_ .f32 0x00000000#32) : (⟨S_, .f32⟩ : BufTy).Contents (Elt F))) = ((constant S_ .f32 0x00000000#32) : (⟨S_, .f32⟩ : BufTy).Contents (Elt F)) := rfl
theorem cast_21 (A : (⟨S4096x2502, .f32⟩ : BufTy).Contents (Elt F)) (B : (⟨S_, .f32⟩ : BufTy).Contents (Elt F)) :
    TRef.toBuf (Val := Elt F) (TRef.of (T := ⟨S4096, .f32⟩) main_call0_v7 : TRef sig ⟨S4096, .f32⟩) (((fun x v => Host.reduceAdd x v reducesTo_S4096x2502_S4096_d1 h_S_) : (⟨S4096x2502, .f32⟩ : BufTy).Contents (Elt F) → (⟨S_, .f32⟩ : BufTy).Contents (Elt F) → (⟨S4096, .f32⟩ : BufTy).Contents (Elt F)) (TRef.ofBuf (Val := Elt F) (TRef.of (T := ⟨S4096x2502, .f32⟩) main_call0_v6 : TRef sig ⟨S4096x2502, .f32⟩) A) (TRef.ofBuf (Val := Elt F) (TRef.of (T := ⟨S_, .f32⟩) main_call0_cst_1 : TRef sig ⟨S_, .f32⟩) B)) = ((fun x v => Host.reduceAdd x v reducesTo_S4096x2502_S4096_d1 h_S_) : (⟨S4096x2502, .f32⟩ : BufTy).Contents (Elt F) → (⟨S_, .f32⟩ : BufTy).Contents (Elt F) → (⟨S4096, .f32⟩ : BufTy).Contents (Elt F)) A B := rfl
theorem cast_22 (A : (⟨S4096, .f32⟩ : BufTy).Contents (Elt F)) :
    TRef.toBuf (Val := Elt F) (TRef.of (T := ⟨S4096x1, .f32⟩) main_call0_v8 : TRef sig ⟨S4096x1, .f32⟩) (((broadcastInDim S4096x1 ![0] bcast_S4096_S4096x1_0) : (⟨S4096, .f32⟩ : BufTy).Contents (Elt F) → (⟨S4096x1, .f32⟩ : BufTy).Contents (Elt F)) (TRef.ofBuf (Val := Elt F) (TRef.of (T := ⟨S4096, .f32⟩) main_call0_v7 : TRef sig ⟨S4096, .f32⟩) A)) = ((broadcastInDim S4096x1 ![0] bcast_S4096_S4096x1_0) : (⟨S4096, .f32⟩ : BufTy).Contents (Elt F) → (⟨S4096x1, .f32⟩ : BufTy).Contents (Elt F)) A := rfl
theorem cast_23 (A : (⟨S4096x1, .f32⟩ : BufTy).Contents (Elt F)) :
    TRef.toBuf (Val := Elt F) (TRef.of (T := ⟨S4096x1, .f32⟩) main_call0_v9 : TRef sig ⟨S4096x1, .f32⟩) ((Host.log : (⟨S4096x1, .f32⟩ : BufTy).Contents (Elt F) → (⟨S4096x1, .f32⟩ : BufTy).Contents (Elt F)) (TRef.ofBuf (Val := Elt F) (TRef.of (T := ⟨S4096x1, .f32⟩) main_call0_v8 : TRef sig ⟨S4096x1, .f32⟩) A)) = (Host.log : (⟨S4096x1, .f32⟩ : BufTy).Contents (Elt F) → (⟨S4096x1, .f32⟩ : BufTy).Contents (Elt F)) A := rfl
theorem cast_24 (A : (⟨S4096x1, .f32⟩ : BufTy).Contents (Elt F)) :
    TRef.toBuf (Val := Elt F) (TRef.of (T := ⟨S4096x2502, .f32⟩) main_call0_v10 : TRef sig ⟨S4096x2502, .f32⟩) (((broadcastInDim S4096x2502 ![0, 1] bcast_S4096x1_S4096x2502_0_1) : (⟨S4096x1, .f32⟩ : BufTy).Contents (Elt F) → (⟨S4096x2502, .f32⟩ : BufTy).Contents (Elt F)) (TRef.ofBuf (Val := Elt F) (TRef.of (T := ⟨S4096x1, .f32⟩) main_call0_v9 : TRef sig ⟨S4096x1, .f32⟩) A)) = ((broadcastInDim S4096x2502 ![0, 1] bcast_S4096x1_S4096x2502_0_1) : (⟨S4096x1, .f32⟩ : BufTy).Contents (Elt F) → (⟨S4096x2502, .f32⟩ : BufTy).Contents (Elt F)) A := rfl
theorem cast_25 (A : (⟨S4096x2502, .f32⟩ : BufTy).Contents (Elt F)) (B : (⟨S4096x2502, .f32⟩ : BufTy).Contents (Elt F)) :
    TRef.toBuf (Val := Elt F) (TRef.of (T := ⟨S4096x2502, .f32⟩) main_v9 : TRef sig ⟨S4096x2502, .f32⟩) ((subf : (⟨S4096x2502, .f32⟩ : BufTy).Contents (Elt F) → (⟨S4096x2502, .f32⟩ : BufTy).Contents (Elt F) → (⟨S4096x2502, .f32⟩ : BufTy).Contents (Elt F)) (TRef.ofBuf (Val := Elt F) (TRef.of (T := ⟨S4096x2502, .f32⟩) main_call0_v5 : TRef sig ⟨S4096x2502, .f32⟩) A) (TRef.ofBuf (Val := Elt F) (TRef.of (T := ⟨S4096x2502, .f32⟩) main_call0_v10 : TRef sig ⟨S4096x2502, .f32⟩) B)) = (subf : (⟨S4096x2502, .f32⟩ : BufTy).Contents (Elt F) → (⟨S4096x2502, .f32⟩ : BufTy).Contents (Elt F) → (⟨S4096x2502, .f32⟩ : BufTy).Contents (Elt F)) A B := rfl
theorem cast_29 (A : (⟨S_, .i32⟩ : BufTy).Contents (Elt F)) :
    TRef.toBuf (Val := Elt F) (TRef.of (T := ⟨S_, .i32⟩) main_call1_v0 : TRef sig ⟨S_, .i32⟩) ((id : (⟨S_, .i32⟩ : BufTy).Contents (Elt F) → (⟨S_, .i32⟩ : BufTy).Contents (Elt F)) (TRef.ofBuf (Val := Elt F) (TRef.of (T := ⟨S_, .i32⟩) main_c_1 : TRef sig ⟨S_, .i32⟩) A)) = (id : (⟨S_, .i32⟩ : BufTy).Contents (Elt F) → (⟨S_, .i32⟩ : BufTy).Contents (Elt F)) A := rfl
theorem cast_30 (A : (⟨S_, .i32⟩ : BufTy).Contents (Elt F)) :
    TRef.toBuf (Val := Elt F) (TRef.of (T := ⟨S4096, .i32⟩) main_call1_v1 : TRef sig ⟨S4096, .i32⟩) (((broadcastInDim S4096 ![] bcast_S_S4096) : (⟨S_, .i32⟩ : BufTy).Contents (Elt F) → (⟨S4096, .i32⟩ : BufTy).Contents (Elt F)) (TRef.ofBuf (Val := Elt F) (TRef.of (T := ⟨S_, .i32⟩) main_call1_v0 : TRef sig ⟨S_, .i32⟩) A)) = ((broadcastInDim S4096 ![] bcast_S_S4096) : (⟨S_, .i32⟩ : BufTy).Contents (Elt F) → (⟨S4096, .i32⟩ : BufTy).Contents (Elt F)) A := rfl
theorem cast_31 (A : (⟨S4096, .i32⟩ : BufTy).Contents (Elt F)) (B : (⟨S4096, .i32⟩ : BufTy).Contents (Elt F)) :
    TRef.toBuf (Val := Elt F) (TRef.of (T := ⟨S4096, .i32⟩) main_call1_v2 : TRef sig ⟨S4096, .i32⟩) ((maxsi : (⟨S4096, .i32⟩ : BufTy).Contents (Elt F) → (⟨S4096, .i32⟩ : BufTy).Contents (Elt F) → (⟨S4096, .i32⟩ : BufTy).Contents (Elt F)) (TRef.ofBuf (Val := Elt F) (TRef.of (T := ⟨S4096, .i32⟩) main_call1_v1 : TRef sig ⟨S4096, .i32⟩) A) (TRef.ofBuf (Val := Elt F) (TRef.of (T := ⟨S4096, .i32⟩) main_arg1 : TRef sig ⟨S4096, .i32⟩) B)) = (maxsi : (⟨S4096, .i32⟩ : BufTy).Contents (Elt F) → (⟨S4096, .i32⟩ : BufTy).Contents (Elt F) → (⟨S4096, .i32⟩ : BufTy).Contents (Elt F)) A B := rfl
theorem cast_32 (A : (⟨S_, .i32⟩ : BufTy).Contents (Elt F)) :
    TRef.toBuf (Val := Elt F) (TRef.of (T := ⟨S_, .i32⟩) main_call1_v3 : TRef sig ⟨S_, .i32⟩) ((id : (⟨S_, .i32⟩ : BufTy).Contents (Elt F) → (⟨S_, .i32⟩ : BufTy).Contents (Elt F)) (TRef.ofBuf (Val := Elt F) (TRef.of (T := ⟨S_, .i32⟩) main_c_2 : TRef sig ⟨S_, .i32⟩) A)) = (id : (⟨S_, .i32⟩ : BufTy).Contents (Elt F) → (⟨S_, .i32⟩ : BufTy).Contents (Elt F)) A := rfl
theorem cast_33 (A : (⟨S_, .i32⟩ : BufTy).Contents (Elt F)) :
    TRef.toBuf (Val := Elt F) (TRef.of (T := ⟨S4096, .i32⟩) main_call1_v4 : TRef sig ⟨S4096, .i32⟩) (((broadcastInDim S4096 ![] bcast_S_S4096) : (⟨S_, .i32⟩ : BufTy).Contents (Elt F) → (⟨S4096, .i32⟩ : BufTy).Contents (Elt F)) (TRef.ofBuf (Val := Elt F) (TRef.of (T := ⟨S_, .i32⟩) main_call1_v3 : TRef sig ⟨S_, .i32⟩) A)) = ((broadcastInDim S4096 ![] bcast_S_S4096) : (⟨S_, .i32⟩ : BufTy).Contents (Elt F) → (⟨S4096, .i32⟩ : BufTy).Contents (Elt F)) A := rfl
theorem cast_34 (A : (⟨S4096, .i32⟩ : BufTy).Contents (Elt F)) (B : (⟨S4096, .i32⟩ : BufTy).Contents (Elt F)) :
    TRef.toBuf (Val := Elt F) (TRef.of (T := ⟨S4096, .i32⟩) main_v11 : TRef sig ⟨S4096, .i32⟩) ((minsi : (⟨S4096, .i32⟩ : BufTy).Contents (Elt F) → (⟨S4096, .i32⟩ : BufTy).Contents (Elt F) → (⟨S4096, .i32⟩ : BufTy).Contents (Elt F)) (TRef.ofBuf (Val := Elt F) (TRef.of (T := ⟨S4096, .i32⟩) main_call1_v4 : TRef sig ⟨S4096, .i32⟩) A) (TRef.ofBuf (Val := Elt F) (TRef.of (T := ⟨S4096, .i32⟩) main_call1_v2 : TRef sig ⟨S4096, .i32⟩) B)) = (minsi : (⟨S4096, .i32⟩ : BufTy).Contents (Elt F) → (⟨S4096, .i32⟩ : BufTy).Contents (Elt F) → (⟨S4096, .i32⟩ : BufTy).Contents (Elt F)) A B := rfl
theorem cast_57 :
    TRef.toBuf (Val := Elt F) (TRef.of (T := ⟨S_, .f32⟩) main_call2_cst : TRef sig ⟨S_, .f32⟩) (((constant S_ .f32 0xFF800000#32) : (⟨S_, .f32⟩ : BufTy).Contents (Elt F))) = ((constant S_ .f32 0xFF800000#32) : (⟨S_, .f32⟩ : BufTy).Contents (Elt F)) := rfl
theorem cast_58 (A : (⟨S4096x7500, .f32⟩ : BufTy).Contents (Elt F)) (B : (⟨S_, .f32⟩ : BufTy).Contents (Elt F)) :
    TRef.toBuf (Val := Elt F) (TRef.of (T := ⟨S4096, .f32⟩) main_call2_v0 : TRef sig ⟨S4096, .f32⟩) (((fun x v => Host.reduce FloatOps.maximumf x v reducesTo_S4096x7500_S4096_d1 h_S_) : (⟨S4096x7500, .f32⟩ : BufTy).Contents (Elt F) → (⟨S_, .f32⟩ : BufTy).Contents (Elt F) → (⟨S4096, .f32⟩ : BufTy).Contents (Elt F)) (TRef.ofBuf (Val := Elt F) (TRef.of (T := ⟨S4096x7500, .f32⟩) main_v29 : TRef sig ⟨S4096x7500, .f32⟩) A) (TRef.ofBuf (Val := Elt F) (TRef.of (T := ⟨S_, .f32⟩) main_call2_cst : TRef sig ⟨S_, .f32⟩) B)) = ((fun x v => Host.reduce FloatOps.maximumf x v reducesTo_S4096x7500_S4096_d1 h_S_) : (⟨S4096x7500, .f32⟩ : BufTy).Contents (Elt F) → (⟨S_, .f32⟩ : BufTy).Contents (Elt F) → (⟨S4096, .f32⟩ : BufTy).Contents (Elt F)) A B := rfl
theorem cast_59 :
    TRef.toBuf (Val := Elt F) (TRef.of (T := ⟨S_, .f32⟩) main_call2_cst_0 : TRef sig ⟨S_, .f32⟩) (((constant S_ .f32 0xFF800000#32) : (⟨S_, .f32⟩ : BufTy).Contents (Elt F))) = ((constant S_ .f32 0xFF800000#32) : (⟨S_, .f32⟩ : BufTy).Contents (Elt F)) := rfl
theorem cast_60 (A : (⟨S_, .f32⟩ : BufTy).Contents (Elt F)) :
    TRef.toBuf (Val := Elt F) (TRef.of (T := ⟨S4096, .f32⟩) main_call2_v1 : TRef sig ⟨S4096, .f32⟩) (((broadcastInDim S4096 ![] bcast_S_S4096) : (⟨S_, .f32⟩ : BufTy).Contents (Elt F) → (⟨S4096, .f32⟩ : BufTy).Contents (Elt F)) (TRef.ofBuf (Val := Elt F) (TRef.of (T := ⟨S_, .f32⟩) main_call2_cst_0 : TRef sig ⟨S_, .f32⟩) A)) = ((broadcastInDim S4096 ![] bcast_S_S4096) : (⟨S_, .f32⟩ : BufTy).Contents (Elt F) → (⟨S4096, .f32⟩ : BufTy).Contents (Elt F)) A := rfl
theorem cast_61 (A : (⟨S4096, .f32⟩ : BufTy).Contents (Elt F)) (B : (⟨S4096, .f32⟩ : BufTy).Contents (Elt F)) :
    TRef.toBuf (Val := Elt F) (TRef.of (T := ⟨S4096, .f32⟩) main_call2_v2 : TRef sig ⟨S4096, .f32⟩) ((maximumf : (⟨S4096, .f32⟩ : BufTy).Contents (Elt F) → (⟨S4096, .f32⟩ : BufTy).Contents (Elt F) → (⟨S4096, .f32⟩ : BufTy).Contents (Elt F)) (TRef.ofBuf (Val := Elt F) (TRef.of (T := ⟨S4096, .f32⟩) main_call2_v1 : TRef sig ⟨S4096, .f32⟩) A) (TRef.ofBuf (Val := Elt F) (TRef.of (T := ⟨S4096, .f32⟩) main_call2_v0 : TRef sig ⟨S4096, .f32⟩) B)) = (maximumf : (⟨S4096, .f32⟩ : BufTy).Contents (Elt F) → (⟨S4096, .f32⟩ : BufTy).Contents (Elt F) → (⟨S4096, .f32⟩ : BufTy).Contents (Elt F)) A B := rfl
theorem cast_62 (A : (⟨S4096, .f32⟩ : BufTy).Contents (Elt F)) :
    TRef.toBuf (Val := Elt F) (TRef.of (T := ⟨S4096x1, .f32⟩) main_call2_v3 : TRef sig ⟨S4096x1, .f32⟩) (((broadcastInDim S4096x1 ![0] bcast_S4096_S4096x1_0) : (⟨S4096, .f32⟩ : BufTy).Contents (Elt F) → (⟨S4096x1, .f32⟩ : BufTy).Contents (Elt F)) (TRef.ofBuf (Val := Elt F) (TRef.of (T := ⟨S4096, .f32⟩) main_call2_v2 : TRef sig ⟨S4096, .f32⟩) A)) = ((broadcastInDim S4096x1 ![0] bcast_S4096_S4096x1_0) : (⟨S4096, .f32⟩ : BufTy).Contents (Elt F) → (⟨S4096x1, .f32⟩ : BufTy).Contents (Elt F)) A := rfl
theorem cast_63 (A : (⟨S4096x1, .f32⟩ : BufTy).Contents (Elt F)) :
    TRef.toBuf (Val := Elt F) (TRef.of (T := ⟨S4096x7500, .f32⟩) main_call2_v4 : TRef sig ⟨S4096x7500, .f32⟩) (((broadcastInDim S4096x7500 ![0, 1] bcast_S4096x1_S4096x7500_0_1) : (⟨S4096x1, .f32⟩ : BufTy).Contents (Elt F) → (⟨S4096x7500, .f32⟩ : BufTy).Contents (Elt F)) (TRef.ofBuf (Val := Elt F) (TRef.of (T := ⟨S4096x1, .f32⟩) main_call2_v3 : TRef sig ⟨S4096x1, .f32⟩) A)) = ((broadcastInDim S4096x7500 ![0, 1] bcast_S4096x1_S4096x7500_0_1) : (⟨S4096x1, .f32⟩ : BufTy).Contents (Elt F) → (⟨S4096x7500, .f32⟩ : BufTy).Contents (Elt F)) A := rfl
theorem cast_64 (A : (⟨S4096x7500, .f32⟩ : BufTy).Contents (Elt F)) (B : (⟨S4096x7500, .f32⟩ : BufTy).Contents (Elt F)) :
    TRef.toBuf (Val := Elt F) (TRef.of (T := ⟨S4096x7500, .f32⟩) main_call2_v5 : TRef sig ⟨S4096x7500, .f32⟩) ((subf : (⟨S4096x7500, .f32⟩ : BufTy).Contents (Elt F) → (⟨S4096x7500, .f32⟩ : BufTy).Contents (Elt F) → (⟨S4096x7500, .f32⟩ : BufTy).Contents (Elt F)) (TRef.ofBuf (Val := Elt F) (TRef.of (T := ⟨S4096x7500, .f32⟩) main_v29 : TRef sig ⟨S4096x7500, .f32⟩) A) (TRef.ofBuf (Val := Elt F) (TRef.of (T := ⟨S4096x7500, .f32⟩) main_call2_v4 : TRef sig ⟨S4096x7500, .f32⟩) B)) = (subf : (⟨S4096x7500, .f32⟩ : BufTy).Contents (Elt F) → (⟨S4096x7500, .f32⟩ : BufTy).Contents (Elt F) → (⟨S4096x7500, .f32⟩ : BufTy).Contents (Elt F)) A B := rfl
theorem cast_65 (A : (⟨S4096x7500, .f32⟩ : BufTy).Contents (Elt F)) :
    TRef.toBuf (Val := Elt F) (TRef.of (T := ⟨S4096x7500, .f32⟩) main_call2_v6 : TRef sig ⟨S4096x7500, .f32⟩) ((Host.exp : (⟨S4096x7500, .f32⟩ : BufTy).Contents (Elt F) → (⟨S4096x7500, .f32⟩ : BufTy).Contents (Elt F)) (TRef.ofBuf (Val := Elt F) (TRef.of (T := ⟨S4096x7500, .f32⟩) main_call2_v5 : TRef sig ⟨S4096x7500, .f32⟩) A)) = (Host.exp : (⟨S4096x7500, .f32⟩ : BufTy).Contents (Elt F) → (⟨S4096x7500, .f32⟩ : BufTy).Contents (Elt F)) A := rfl
theorem cast_66 :
    TRef.toBuf (Val := Elt F) (TRef.of (T := ⟨S_, .f32⟩) main_call2_cst_1 : TRef sig ⟨S_, .f32⟩) (((constant S_ .f32 0x00000000#32) : (⟨S_, .f32⟩ : BufTy).Contents (Elt F))) = ((constant S_ .f32 0x00000000#32) : (⟨S_, .f32⟩ : BufTy).Contents (Elt F)) := rfl
theorem cast_67 (A : (⟨S4096x7500, .f32⟩ : BufTy).Contents (Elt F)) (B : (⟨S_, .f32⟩ : BufTy).Contents (Elt F)) :
    TRef.toBuf (Val := Elt F) (TRef.of (T := ⟨S4096, .f32⟩) main_call2_v7 : TRef sig ⟨S4096, .f32⟩) (((fun x v => Host.reduceAdd x v reducesTo_S4096x7500_S4096_d1 h_S_) : (⟨S4096x7500, .f32⟩ : BufTy).Contents (Elt F) → (⟨S_, .f32⟩ : BufTy).Contents (Elt F) → (⟨S4096, .f32⟩ : BufTy).Contents (Elt F)) (TRef.ofBuf (Val := Elt F) (TRef.of (T := ⟨S4096x7500, .f32⟩) main_call2_v6 : TRef sig ⟨S4096x7500, .f32⟩) A) (TRef.ofBuf (Val := Elt F) (TRef.of (T := ⟨S_, .f32⟩) main_call2_cst_1 : TRef sig ⟨S_, .f32⟩) B)) = ((fun x v => Host.reduceAdd x v reducesTo_S4096x7500_S4096_d1 h_S_) : (⟨S4096x7500, .f32⟩ : BufTy).Contents (Elt F) → (⟨S_, .f32⟩ : BufTy).Contents (Elt F) → (⟨S4096, .f32⟩ : BufTy).Contents (Elt F)) A B := rfl
theorem cast_68 (A : (⟨S4096, .f32⟩ : BufTy).Contents (Elt F)) :
    TRef.toBuf (Val := Elt F) (TRef.of (T := ⟨S4096x1, .f32⟩) main_call2_v8 : TRef sig ⟨S4096x1, .f32⟩) (((broadcastInDim S4096x1 ![0] bcast_S4096_S4096x1_0) : (⟨S4096, .f32⟩ : BufTy).Contents (Elt F) → (⟨S4096x1, .f32⟩ : BufTy).Contents (Elt F)) (TRef.ofBuf (Val := Elt F) (TRef.of (T := ⟨S4096, .f32⟩) main_call2_v7 : TRef sig ⟨S4096, .f32⟩) A)) = ((broadcastInDim S4096x1 ![0] bcast_S4096_S4096x1_0) : (⟨S4096, .f32⟩ : BufTy).Contents (Elt F) → (⟨S4096x1, .f32⟩ : BufTy).Contents (Elt F)) A := rfl
theorem cast_69 (A : (⟨S4096x1, .f32⟩ : BufTy).Contents (Elt F)) :
    TRef.toBuf (Val := Elt F) (TRef.of (T := ⟨S4096x1, .f32⟩) main_call2_v9 : TRef sig ⟨S4096x1, .f32⟩) ((Host.log : (⟨S4096x1, .f32⟩ : BufTy).Contents (Elt F) → (⟨S4096x1, .f32⟩ : BufTy).Contents (Elt F)) (TRef.ofBuf (Val := Elt F) (TRef.of (T := ⟨S4096x1, .f32⟩) main_call2_v8 : TRef sig ⟨S4096x1, .f32⟩) A)) = (Host.log : (⟨S4096x1, .f32⟩ : BufTy).Contents (Elt F) → (⟨S4096x1, .f32⟩ : BufTy).Contents (Elt F)) A := rfl
theorem cast_70 (A : (⟨S4096x1, .f32⟩ : BufTy).Contents (Elt F)) :
    TRef.toBuf (Val := Elt F) (TRef.of (T := ⟨S4096x7500, .f32⟩) main_call2_v10 : TRef sig ⟨S4096x7500, .f32⟩) (((broadcastInDim S4096x7500 ![0, 1] bcast_S4096x1_S4096x7500_0_1) : (⟨S4096x1, .f32⟩ : BufTy).Contents (Elt F) → (⟨S4096x7500, .f32⟩ : BufTy).Contents (Elt F)) (TRef.ofBuf (Val := Elt F) (TRef.of (T := ⟨S4096x1, .f32⟩) main_call2_v9 : TRef sig ⟨S4096x1, .f32⟩) A)) = ((broadcastInDim S4096x7500 ![0, 1] bcast_S4096x1_S4096x7500_0_1) : (⟨S4096x1, .f32⟩ : BufTy).Contents (Elt F) → (⟨S4096x7500, .f32⟩ : BufTy).Contents (Elt F)) A := rfl
theorem cast_71 (A : (⟨S4096x7500, .f32⟩ : BufTy).Contents (Elt F)) (B : (⟨S4096x7500, .f32⟩ : BufTy).Contents (Elt F)) :
    TRef.toBuf (Val := Elt F) (TRef.of (T := ⟨S4096x7500, .f32⟩) main_v30 : TRef sig ⟨S4096x7500, .f32⟩) ((subf : (⟨S4096x7500, .f32⟩ : BufTy).Contents (Elt F) → (⟨S4096x7500, .f32⟩ : BufTy).Contents (Elt F) → (⟨S4096x7500, .f32⟩ : BufTy).Contents (Elt F)) (TRef.ofBuf (Val := Elt F) (TRef.of (T := ⟨S4096x7500, .f32⟩) main_call2_v5 : TRef sig ⟨S4096x7500, .f32⟩) A) (TRef.ofBuf (Val := Elt F) (TRef.of (T := ⟨S4096x7500, .f32⟩) main_call2_v10 : TRef sig ⟨S4096x7500, .f32⟩) B)) = (subf : (⟨S4096x7500, .f32⟩ : BufTy).Contents (Elt F) → (⟨S4096x7500, .f32⟩ : BufTy).Contents (Elt F) → (⟨S4096x7500, .f32⟩ : BufTy).Contents (Elt F)) A B := rfl
theorem cast_79 (A : (⟨S_, .i32⟩ : BufTy).Contents (Elt F)) :
    TRef.toBuf (Val := Elt F) (TRef.of (T := ⟨S_, .i32⟩) main_call3_v0 : TRef sig ⟨S_, .i32⟩) ((id : (⟨S_, .i32⟩ : BufTy).Contents (Elt F) → (⟨S_, .i32⟩ : BufTy).Contents (Elt F)) (TRef.ofBuf (Val := Elt F) (TRef.of (T := ⟨S_, .i32⟩) main_c_8 : TRef sig ⟨S_, .i32⟩) A)) = (id : (⟨S_, .i32⟩ : BufTy).Contents (Elt F) → (⟨S_, .i32⟩ : BufTy).Contents (Elt F)) A := rfl
theorem cast_80 (A : (⟨S_, .i32⟩ : BufTy).Contents (Elt F)) :
    TRef.toBuf (Val := Elt F) (TRef.of (T := ⟨S4096, .i32⟩) main_call3_v1 : TRef sig ⟨S4096, .i32⟩) (((broadcastInDim S4096 ![] bcast_S_S4096) : (⟨S_, .i32⟩ : BufTy).Contents (Elt F) → (⟨S4096, .i32⟩ : BufTy).Contents (Elt F)) (TRef.ofBuf (Val := Elt F) (TRef.of (T := ⟨S_, .i32⟩) main_call3_v0 : TRef sig ⟨S_, .i32⟩) A)) = ((broadcastInDim S4096 ![] bcast_S_S4096) : (⟨S_, .i32⟩ : BufTy).Contents (Elt F) → (⟨S4096, .i32⟩ : BufTy).Contents (Elt F)) A := rfl
theorem cast_81 (A : (⟨S4096, .i32⟩ : BufTy).Contents (Elt F)) (B : (⟨S4096, .i32⟩ : BufTy).Contents (Elt F)) :
    TRef.toBuf (Val := Elt F) (TRef.of (T := ⟨S4096, .i32⟩) main_call3_v2 : TRef sig ⟨S4096, .i32⟩) ((maxsi : (⟨S4096, .i32⟩ : BufTy).Contents (Elt F) → (⟨S4096, .i32⟩ : BufTy).Contents (Elt F) → (⟨S4096, .i32⟩ : BufTy).Contents (Elt F)) (TRef.ofBuf (Val := Elt F) (TRef.of (T := ⟨S4096, .i32⟩) main_call3_v1 : TRef sig ⟨S4096, .i32⟩) A) (TRef.ofBuf (Val := Elt F) (TRef.of (T := ⟨S4096, .i32⟩) main_v34 : TRef sig ⟨S4096, .i32⟩) B)) = (maxsi : (⟨S4096, .i32⟩ : BufTy).Contents (Elt F) → (⟨S4096, .i32⟩ : BufTy).Contents (Elt F) → (⟨S4096, .i32⟩ : BufTy).Contents (Elt F)) A B := rfl
theorem cast_82 (A : (⟨S_, .i32⟩ : BufTy).Contents (Elt F)) :
    TRef.toBuf (Val := Elt F) (TRef.of (T := ⟨S_, .i32⟩) main_call3_v3 : TRef sig ⟨S_, .i32⟩) ((id : (⟨S_, .i32⟩ : BufTy).Contents (Elt F) → (⟨S_, .i32⟩ : BufTy).Contents (Elt F)) (TRef.ofBuf (Val := Elt F) (TRef.of (T := ⟨S_, .i32⟩) main_c_9 : TRef sig ⟨S_, .i32⟩) A)) = (id : (⟨S_, .i32⟩ : BufTy).Contents (Elt F) → (⟨S_, .i32⟩ : BufTy).Contents (Elt F)) A := rfl
theorem cast_83 (A : (⟨S_, .i32⟩ : BufTy).Contents (Elt F)) :
    TRef.toBuf (Val := Elt F) (TRef.of (T := ⟨S4096, .i32⟩) main_call3_v4 : TRef sig ⟨S4096, .i32⟩) (((broadcastInDim S4096 ![] bcast_S_S4096) : (⟨S_, .i32⟩ : BufTy).Contents (Elt F) → (⟨S4096, .i32⟩ : BufTy).Contents (Elt F)) (TRef.ofBuf (Val := Elt F) (TRef.of (T := ⟨S_, .i32⟩) main_call3_v3 : TRef sig ⟨S_, .i32⟩) A)) = ((broadcastInDim S4096 ![] bcast_S_S4096) : (⟨S_, .i32⟩ : BufTy).Contents (Elt F) → (⟨S4096, .i32⟩ : BufTy).Contents (Elt F)) A := rfl
theorem cast_84 (A : (⟨S4096, .i32⟩ : BufTy).Contents (Elt F)) (B : (⟨S4096, .i32⟩ : BufTy).Contents (Elt F)) :
    TRef.toBuf (Val := Elt F) (TRef.of (T := ⟨S4096, .i32⟩) main_v35 : TRef sig ⟨S4096, .i32⟩) ((minsi : (⟨S4096, .i32⟩ : BufTy).Contents (Elt F) → (⟨S4096, .i32⟩ : BufTy).Contents (Elt F) → (⟨S4096, .i32⟩ : BufTy).Contents (Elt F)) (TRef.ofBuf (Val := Elt F) (TRef.of (T := ⟨S4096, .i32⟩) main_call3_v4 : TRef sig ⟨S4096, .i32⟩) A) (TRef.ofBuf (Val := Elt F) (TRef.of (T := ⟨S4096, .i32⟩) main_call3_v2 : TRef sig ⟨S4096, .i32⟩) B)) = (minsi : (⟨S4096, .i32⟩ : BufTy).Contents (Elt F) → (⟨S4096, .i32⟩ : BufTy).Contents (Elt F) → (⟨S4096, .i32⟩ : BufTy).Contents (Elt F)) A B := rfl
theorem cast_108 :
    TRef.toBuf (Val := Elt F) (TRef.of (T := ⟨S_, .f32⟩) main_call4_cst : TRef sig ⟨S_, .f32⟩) (((constant S_ .f32 0xFF800000#32) : (⟨S_, .f32⟩ : BufTy).Contents (Elt F))) = ((constant S_ .f32 0xFF800000#32) : (⟨S_, .f32⟩ : BufTy).Contents (Elt F)) := rfl
theorem cast_109 (A : (⟨S4096x40000, .f32⟩ : BufTy).Contents (Elt F)) (B : (⟨S_, .f32⟩ : BufTy).Contents (Elt F)) :
    TRef.toBuf (Val := Elt F) (TRef.of (T := ⟨S4096, .f32⟩) main_call4_v0 : TRef sig ⟨S4096, .f32⟩) (((fun x v => Host.reduce FloatOps.maximumf x v reducesTo_S4096x40000_S4096_d1 h_S_) : (⟨S4096x40000, .f32⟩ : BufTy).Contents (Elt F) → (⟨S_, .f32⟩ : BufTy).Contents (Elt F) → (⟨S4096, .f32⟩ : BufTy).Contents (Elt F)) (TRef.ofBuf (Val := Elt F) (TRef.of (T := ⟨S4096x40000, .f32⟩) main_v54 : TRef sig ⟨S4096x40000, .f32⟩) A) (TRef.ofBuf (Val := Elt F) (TRef.of (T := ⟨S_, .f32⟩) main_call4_cst : TRef sig ⟨S_, .f32⟩) B)) = ((fun x v => Host.reduce FloatOps.maximumf x v reducesTo_S4096x40000_S4096_d1 h_S_) : (⟨S4096x40000, .f32⟩ : BufTy).Contents (Elt F) → (⟨S_, .f32⟩ : BufTy).Contents (Elt F) → (⟨S4096, .f32⟩ : BufTy).Contents (Elt F)) A B := rfl
theorem cast_110 :
    TRef.toBuf (Val := Elt F) (TRef.of (T := ⟨S_, .f32⟩) main_call4_cst_0 : TRef sig ⟨S_, .f32⟩) (((constant S_ .f32 0xFF800000#32) : (⟨S_, .f32⟩ : BufTy).Contents (Elt F))) = ((constant S_ .f32 0xFF800000#32) : (⟨S_, .f32⟩ : BufTy).Contents (Elt F)) := rfl
theorem cast_111 (A : (⟨S_, .f32⟩ : BufTy).Contents (Elt F)) :
    TRef.toBuf (Val := Elt F) (TRef.of (T := ⟨S4096, .f32⟩) main_call4_v1 : TRef sig ⟨S4096, .f32⟩) (((broadcastInDim S4096 ![] bcast_S_S4096) : (⟨S_, .f32⟩ : BufTy).Contents (Elt F) → (⟨S4096, .f32⟩ : BufTy).Contents (Elt F)) (TRef.ofBuf (Val := Elt F) (TRef.of (T := ⟨S_, .f32⟩) main_call4_cst_0 : TRef sig ⟨S_, .f32⟩) A)) = ((broadcastInDim S4096 ![] bcast_S_S4096) : (⟨S_, .f32⟩ : BufTy).Contents (Elt F) → (⟨S4096, .f32⟩ : BufTy).Contents (Elt F)) A := rfl
theorem cast_112 (A : (⟨S4096, .f32⟩ : BufTy).Contents (Elt F)) (B : (⟨S4096, .f32⟩ : BufTy).Contents (Elt F)) :
    TRef.toBuf (Val := Elt F) (TRef.of (T := ⟨S4096, .f32⟩) main_call4_v2 : TRef sig ⟨S4096, .f32⟩) ((maximumf : (⟨S4096, .f32⟩ : BufTy).Contents (Elt F) → (⟨S4096, .f32⟩ : BufTy).Contents (Elt F) → (⟨S4096, .f32⟩ : BufTy).Contents (Elt F)) (TRef.ofBuf (Val := Elt F) (TRef.of (T := ⟨S4096, .f32⟩) main_call4_v1 : TRef sig ⟨S4096, .f32⟩) A) (TRef.ofBuf (Val := Elt F) (TRef.of (T := ⟨S4096, .f32⟩) main_call4_v0 : TRef sig ⟨S4096, .f32⟩) B)) = (maximumf : (⟨S4096, .f32⟩ : BufTy).Contents (Elt F) → (⟨S4096, .f32⟩ : BufTy).Contents (Elt F) → (⟨S4096, .f32⟩ : BufTy).Contents (Elt F)) A B := rfl
theorem cast_113 (A : (⟨S4096, .f32⟩ : BufTy).Contents (Elt F)) :
    TRef.toBuf (Val := Elt F) (TRef.of (T := ⟨S4096x1, .f32⟩) main_call4_v3 : TRef sig ⟨S4096x1, .f32⟩) (((broadcastInDim S4096x1 ![0] bcast_S4096_S4096x1_0) : (⟨S4096, .f32⟩ : BufTy).Contents (Elt F) → (⟨S4096x1, .f32⟩ : BufTy).Contents (Elt F)) (TRef.ofBuf (Val := Elt F) (TRef.of (T := ⟨S4096, .f32⟩) main_call4_v2 : TRef sig ⟨S4096, .f32⟩) A)) = ((broadcastInDim S4096x1 ![0] bcast_S4096_S4096x1_0) : (⟨S4096, .f32⟩ : BufTy).Contents (Elt F) → (⟨S4096x1, .f32⟩ : BufTy).Contents (Elt F)) A := rfl
theorem cast_114 (A : (⟨S4096x1, .f32⟩ : BufTy).Contents (Elt F)) :
    TRef.toBuf (Val := Elt F) (TRef.of (T := ⟨S4096x40000, .f32⟩) main_call4_v4 : TRef sig ⟨S4096x40000, .f32⟩) (((broadcastInDim S4096x40000 ![0, 1] bcast_S4096x1_S4096x40000_0_1) : (⟨S4096x1, .f32⟩ : BufTy).Contents (Elt F) → (⟨S4096x40000, .f32⟩ : BufTy).Contents (Elt F)) (TRef.ofBuf (Val := Elt F) (TRef.of (T := ⟨S4096x1, .f32⟩) main_call4_v3 : TRef sig ⟨S4096x1, .f32⟩) A)) = ((broadcastInDim S4096x40000 ![0, 1] bcast_S4096x1_S4096x40000_0_1) : (⟨S4096x1, .f32⟩ : BufTy).Contents (Elt F) → (⟨S4096x40000, .f32⟩ : BufTy).Contents (Elt F)) A := rfl
theorem cast_115 (A : (⟨S4096x40000, .f32⟩ : BufTy).Contents (Elt F)) (B : (⟨S4096x40000, .f32⟩ : BufTy).Contents (Elt F)) :
    TRef.toBuf (Val := Elt F) (TRef.of (T := ⟨S4096x40000, .f32⟩) main_call4_v5 : TRef sig ⟨S4096x40000, .f32⟩) ((subf : (⟨S4096x40000, .f32⟩ : BufTy).Contents (Elt F) → (⟨S4096x40000, .f32⟩ : BufTy).Contents (Elt F) → (⟨S4096x40000, .f32⟩ : BufTy).Contents (Elt F)) (TRef.ofBuf (Val := Elt F) (TRef.of (T := ⟨S4096x40000, .f32⟩) main_v54 : TRef sig ⟨S4096x40000, .f32⟩) A) (TRef.ofBuf (Val := Elt F) (TRef.of (T := ⟨S4096x40000, .f32⟩) main_call4_v4 : TRef sig ⟨S4096x40000, .f32⟩) B)) = (subf : (⟨S4096x40000, .f32⟩ : BufTy).Contents (Elt F) → (⟨S4096x40000, .f32⟩ : BufTy).Contents (Elt F) → (⟨S4096x40000, .f32⟩ : BufTy).Contents (Elt F)) A B := rfl
theorem cast_116 (A : (⟨S4096x40000, .f32⟩ : BufTy).Contents (Elt F)) :
    TRef.toBuf (Val := Elt F) (TRef.of (T := ⟨S4096x40000, .f32⟩) main_call4_v6 : TRef sig ⟨S4096x40000, .f32⟩) ((Host.exp : (⟨S4096x40000, .f32⟩ : BufTy).Contents (Elt F) → (⟨S4096x40000, .f32⟩ : BufTy).Contents (Elt F)) (TRef.ofBuf (Val := Elt F) (TRef.of (T := ⟨S4096x40000, .f32⟩) main_call4_v5 : TRef sig ⟨S4096x40000, .f32⟩) A)) = (Host.exp : (⟨S4096x40000, .f32⟩ : BufTy).Contents (Elt F) → (⟨S4096x40000, .f32⟩ : BufTy).Contents (Elt F)) A := rfl
theorem cast_117 :
    TRef.toBuf (Val := Elt F) (TRef.of (T := ⟨S_, .f32⟩) main_call4_cst_1 : TRef sig ⟨S_, .f32⟩) (((constant S_ .f32 0x00000000#32) : (⟨S_, .f32⟩ : BufTy).Contents (Elt F))) = ((constant S_ .f32 0x00000000#32) : (⟨S_, .f32⟩ : BufTy).Contents (Elt F)) := rfl
theorem cast_118 (A : (⟨S4096x40000, .f32⟩ : BufTy).Contents (Elt F)) (B : (⟨S_, .f32⟩ : BufTy).Contents (Elt F)) :
    TRef.toBuf (Val := Elt F) (TRef.of (T := ⟨S4096, .f32⟩) main_call4_v7 : TRef sig ⟨S4096, .f32⟩) (((fun x v => Host.reduceAdd x v reducesTo_S4096x40000_S4096_d1 h_S_) : (⟨S4096x40000, .f32⟩ : BufTy).Contents (Elt F) → (⟨S_, .f32⟩ : BufTy).Contents (Elt F) → (⟨S4096, .f32⟩ : BufTy).Contents (Elt F)) (TRef.ofBuf (Val := Elt F) (TRef.of (T := ⟨S4096x40000, .f32⟩) main_call4_v6 : TRef sig ⟨S4096x40000, .f32⟩) A) (TRef.ofBuf (Val := Elt F) (TRef.of (T := ⟨S_, .f32⟩) main_call4_cst_1 : TRef sig ⟨S_, .f32⟩) B)) = ((fun x v => Host.reduceAdd x v reducesTo_S4096x40000_S4096_d1 h_S_) : (⟨S4096x40000, .f32⟩ : BufTy).Contents (Elt F) → (⟨S_, .f32⟩ : BufTy).Contents (Elt F) → (⟨S4096, .f32⟩ : BufTy).Contents (Elt F)) A B := rfl
theorem cast_119 (A : (⟨S4096, .f32⟩ : BufTy).Contents (Elt F)) :
    TRef.toBuf (Val := Elt F) (TRef.of (T := ⟨S4096x1, .f32⟩) main_call4_v8 : TRef sig ⟨S4096x1, .f32⟩) (((broadcastInDim S4096x1 ![0] bcast_S4096_S4096x1_0) : (⟨S4096, .f32⟩ : BufTy).Contents (Elt F) → (⟨S4096x1, .f32⟩ : BufTy).Contents (Elt F)) (TRef.ofBuf (Val := Elt F) (TRef.of (T := ⟨S4096, .f32⟩) main_call4_v7 : TRef sig ⟨S4096, .f32⟩) A)) = ((broadcastInDim S4096x1 ![0] bcast_S4096_S4096x1_0) : (⟨S4096, .f32⟩ : BufTy).Contents (Elt F) → (⟨S4096x1, .f32⟩ : BufTy).Contents (Elt F)) A := rfl
theorem cast_120 (A : (⟨S4096x1, .f32⟩ : BufTy).Contents (Elt F)) :
    TRef.toBuf (Val := Elt F) (TRef.of (T := ⟨S4096x1, .f32⟩) main_call4_v9 : TRef sig ⟨S4096x1, .f32⟩) ((Host.log : (⟨S4096x1, .f32⟩ : BufTy).Contents (Elt F) → (⟨S4096x1, .f32⟩ : BufTy).Contents (Elt F)) (TRef.ofBuf (Val := Elt F) (TRef.of (T := ⟨S4096x1, .f32⟩) main_call4_v8 : TRef sig ⟨S4096x1, .f32⟩) A)) = (Host.log : (⟨S4096x1, .f32⟩ : BufTy).Contents (Elt F) → (⟨S4096x1, .f32⟩ : BufTy).Contents (Elt F)) A := rfl
theorem cast_121 (A : (⟨S4096x1, .f32⟩ : BufTy).Contents (Elt F)) :
    TRef.toBuf (Val := Elt F) (TRef.of (T := ⟨S4096x40000, .f32⟩) main_call4_v10 : TRef sig ⟨S4096x40000, .f32⟩) (((broadcastInDim S4096x40000 ![0, 1] bcast_S4096x1_S4096x40000_0_1) : (⟨S4096x1, .f32⟩ : BufTy).Contents (Elt F) → (⟨S4096x40000, .f32⟩ : BufTy).Contents (Elt F)) (TRef.ofBuf (Val := Elt F) (TRef.of (T := ⟨S4096x1, .f32⟩) main_call4_v9 : TRef sig ⟨S4096x1, .f32⟩) A)) = ((broadcastInDim S4096x40000 ![0, 1] bcast_S4096x1_S4096x40000_0_1) : (⟨S4096x1, .f32⟩ : BufTy).Contents (Elt F) → (⟨S4096x40000, .f32⟩ : BufTy).Contents (Elt F)) A := rfl
theorem cast_122 (A : (⟨S4096x40000, .f32⟩ : BufTy).Contents (Elt F)) (B : (⟨S4096x40000, .f32⟩ : BufTy).Contents (Elt F)) :
    TRef.toBuf (Val := Elt F) (TRef.of (T := ⟨S4096x40000, .f32⟩) main_v55 : TRef sig ⟨S4096x40000, .f32⟩) ((subf : (⟨S4096x40000, .f32⟩ : BufTy).Contents (Elt F) → (⟨S4096x40000, .f32⟩ : BufTy).Contents (Elt F) → (⟨S4096x40000, .f32⟩ : BufTy).Contents (Elt F)) (TRef.ofBuf (Val := Elt F) (TRef.of (T := ⟨S4096x40000, .f32⟩) main_call4_v5 : TRef sig ⟨S4096x40000, .f32⟩) A) (TRef.ofBuf (Val := Elt F) (TRef.of (T := ⟨S4096x40000, .f32⟩) main_call4_v10 : TRef sig ⟨S4096x40000, .f32⟩) B)) = (subf : (⟨S4096x40000, .f32⟩ : BufTy).Contents (Elt F) → (⟨S4096x40000, .f32⟩ : BufTy).Contents (Elt F) → (⟨S4096x40000, .f32⟩ : BufTy).Contents (Elt F)) A B := rfl
theorem cast_130 (A : (⟨S_, .i32⟩ : BufTy).Contents (Elt F)) :
    TRef.toBuf (Val := Elt F) (TRef.of (T := ⟨S_, .i32⟩) main_call5_v0 : TRef sig ⟨S_, .i32⟩) ((id : (⟨S_, .i32⟩ : BufTy).Contents (Elt F) → (⟨S_, .i32⟩ : BufTy).Contents (Elt F)) (TRef.ofBuf (Val := Elt F) (TRef.of (T := ⟨S_, .i32⟩) main_c_15 : TRef sig ⟨S_, .i32⟩) A)) = (id : (⟨S_, .i32⟩ : BufTy).Contents (Elt F) → (⟨S_, .i32⟩ : BufTy).Contents (Elt F)) A := rfl
theorem cast_131 (A : (⟨S_, .i32⟩ : BufTy).Contents (Elt F)) :
    TRef.toBuf (Val := Elt F) (TRef.of (T := ⟨S4096, .i32⟩) main_call5_v1 : TRef sig ⟨S4096, .i32⟩) (((broadcastInDim S4096 ![] bcast_S_S4096) : (⟨S_, .i32⟩ : BufTy).Contents (Elt F) → (⟨S4096, .i32⟩ : BufTy).Contents (Elt F)) (TRef.ofBuf (Val := Elt F) (TRef.of (T := ⟨S_, .i32⟩) main_call5_v0 : TRef sig ⟨S_, .i32⟩) A)) = ((broadcastInDim S4096 ![] bcast_S_S4096) : (⟨S_, .i32⟩ : BufTy).Contents (Elt F) → (⟨S4096, .i32⟩ : BufTy).Contents (Elt F)) A := rfl
theorem cast_132 (A : (⟨S4096, .i32⟩ : BufTy).Contents (Elt F)) (B : (⟨S4096, .i32⟩ : BufTy).Contents (Elt F)) :
    TRef.toBuf (Val := Elt F) (TRef.of (T := ⟨S4096, .i32⟩) main_call5_v2 : TRef sig ⟨S4096, .i32⟩) ((maxsi : (⟨S4096, .i32⟩ : BufTy).Contents (Elt F) → (⟨S4096, .i32⟩ : BufTy).Contents (Elt F) → (⟨S4096, .i32⟩ : BufTy).Contents (Elt F)) (TRef.ofBuf (Val := Elt F) (TRef.of (T := ⟨S4096, .i32⟩) main_call5_v1 : TRef sig ⟨S4096, .i32⟩) A) (TRef.ofBuf (Val := Elt F) (TRef.of (T := ⟨S4096, .i32⟩) main_v59 : TRef sig ⟨S4096, .i32⟩) B)) = (maxsi : (⟨S4096, .i32⟩ : BufTy).Contents (Elt F) → (⟨S4096, .i32⟩ : BufTy).Contents (Elt F) → (⟨S4096, .i32⟩ : BufTy).Contents (Elt F)) A B := rfl
theorem cast_133 (A : (⟨S_, .i32⟩ : BufTy).Contents (Elt F)) :
    TRef.toBuf (Val := Elt F) (TRef.of (T := ⟨S_, .i32⟩) main_call5_v3 : TRef sig ⟨S_, .i32⟩) ((id : (⟨S_, .i32⟩ : BufTy).Contents (Elt F) → (⟨S_, .i32⟩ : BufTy).Contents (Elt F)) (TRef.ofBuf (Val := Elt F) (TRef.of (T := ⟨S_, .i32⟩) main_c_16 : TRef sig ⟨S_, .i32⟩) A)) = (id : (⟨S_, .i32⟩ : BufTy).Contents (Elt F) → (⟨S_, .i32⟩ : BufTy).Contents (Elt F)) A := rfl
theorem cast_134 (A : (⟨S_, .i32⟩ : BufTy).Contents (Elt F)) :
    TRef.toBuf (Val := Elt F) (TRef.of (T := ⟨S4096, .i32⟩) main_call5_v4 : TRef sig ⟨S4096, .i32⟩) (((broadcastInDim S4096 ![] bcast_S_S4096) : (⟨S_, .i32⟩ : BufTy).Contents (Elt F) → (⟨S4096, .i32⟩ : BufTy).Contents (Elt F)) (TRef.ofBuf (Val := Elt F) (TRef.of (T := ⟨S_, .i32⟩) main_call5_v3 : TRef sig ⟨S_, .i32⟩) A)) = ((broadcastInDim S4096 ![] bcast_S_S4096) : (⟨S_, .i32⟩ : BufTy).Contents (Elt F) → (⟨S4096, .i32⟩ : BufTy).Contents (Elt F)) A := rfl
theorem cast_135 (A : (⟨S4096, .i32⟩ : BufTy).Contents (Elt F)) (B : (⟨S4096, .i32⟩ : BufTy).Contents (Elt F)) :
    TRef.toBuf (Val := Elt F) (TRef.of (T := ⟨S4096, .i32⟩) main_v60 : TRef sig ⟨S4096, .i32⟩) ((minsi : (⟨S4096, .i32⟩ : BufTy).Contents (Elt F) → (⟨S4096, .i32⟩ : BufTy).Contents (Elt F) → (⟨S4096, .i32⟩ : BufTy).Contents (Elt F)) (TRef.ofBuf (Val := Elt F) (TRef.of (T := ⟨S4096, .i32⟩) main_call5_v4 : TRef sig ⟨S4096, .i32⟩) A) (TRef.ofBuf (Val := Elt F) (TRef.of (T := ⟨S4096, .i32⟩) main_call5_v2 : TRef sig ⟨S4096, .i32⟩) B)) = (minsi : (⟨S4096, .i32⟩ : BufTy).Contents (Elt F) → (⟨S4096, .i32⟩ : BufTy).Contents (Elt F) → (⟨S4096, .i32⟩ : BufTy).Contents (Elt F)) A B := rfl
theorem cast_161 (A : (⟨S4096, .i1⟩ : BufTy).Contents (Elt F)) (B : (⟨S4096, .f32⟩ : BufTy).Contents (Elt F)) (C : (⟨S4096, .f32⟩ : BufTy).Contents (Elt F)) :
    TRef.toBuf (Val := Elt F) (TRef.of (T := ⟨S4096, .f32⟩) main_v80 : TRef sig ⟨S4096, .f32⟩) ((select : (⟨S4096, .i1⟩ : BufTy).Contents (Elt F) → (⟨S4096, .f32⟩ : BufTy).Contents (Elt F) → (⟨S4096, .f32⟩ : BufTy).Contents (Elt F) → (⟨S4096, .f32⟩ : BufTy).Contents (Elt F)) (TRef.ofBuf (Val := Elt F) (TRef.of (T := ⟨S4096, .i1⟩) main_v79 : TRef sig ⟨S4096, .i1⟩) A) (TRef.ofBuf (Val := Elt F) (TRef.of (T := ⟨S4096, .f32⟩) main_v50 : TRef sig ⟨S4096, .f32⟩) B) (TRef.ofBuf (Val := Elt F) (TRef.of (T := ⟨S4096, .f32⟩) main_v75 : TRef sig ⟨S4096, .f32⟩) C)) = (select : (⟨S4096, .i1⟩ : BufTy).Contents (Elt F) → (⟨S4096, .f32⟩ : BufTy).Contents (Elt F) → (⟨S4096, .f32⟩ : BufTy).Contents (Elt F) → (⟨S4096, .f32⟩ : BufTy).Contents (Elt F)) A B C := rfl
theorem cast_162 (A : (⟨S4096, .i1⟩ : BufTy).Contents (Elt F)) (B : (⟨S4096, .f32⟩ : BufTy).Contents (Elt F)) (C : (⟨S4096, .f32⟩ : BufTy).Contents (Elt F)) :
    TRef.toBuf (Val := Elt F) (TRef.of (T := ⟨S4096, .f32⟩) main_v81 : TRef sig ⟨S4096, .f32⟩) ((select : (⟨S4096, .i1⟩ : BufTy).Contents (Elt F) → (⟨S4096, .f32⟩ : BufTy).Contents (Elt F) → (⟨S4096, .f32⟩ : BufTy).Contents (Elt F) → (⟨S4096, .f32⟩ : BufTy).Contents (Elt F)) (TRef.ofBuf (Val := Elt F) (TRef.of (T := ⟨S4096, .i1⟩) main_v77 : TRef sig ⟨S4096, .i1⟩) A) (TRef.ofBuf (Val := Elt F) (TRef.of (T := ⟨S4096, .f32⟩) main_v25 : TRef sig ⟨S4096, .f32⟩) B) (TRef.ofBuf (Val := Elt F) (TRef.of (T := ⟨S4096, .f32⟩) main_v80 : TRef sig ⟨S4096, .f32⟩) C)) = (select : (⟨S4096, .i1⟩ : BufTy).Contents (Elt F) → (⟨S4096, .f32⟩ : BufTy).Contents (Elt F) → (⟨S4096, .f32⟩ : BufTy).Contents (Elt F) → (⟨S4096, .f32⟩ : BufTy).Contents (Elt F)) A B C := rfl

end Cert.ReferenceIdeal.RunP

end
-- ==== Proof.RefRunWalk0.lean ====
/-
  Stretches of the reference's line, read one operation at a time.

  Folding a stretch over a valuation `U` that holds, at each buffer the stretch or a later one reads, that buffer's
  stage, the proof walks the stretch once. At each operation it shows that the one buffer the operation writes holds
  its stage — the operation's function applied to its operands' stages — and that every buffer still read later keeps
  what it held; then it forgets the valuation's history. A callee's operation moves its operands and result between a
  buffer's own type and the value's type; with the operations' functions kept folded, each such step is a transport
  along an equation of equal types, which reduces.
-/
import proofs.«428924_j53884659696080_3_alg».proof.Proof.RefRunCasts

set_option maxRecDepth 65536

noncomputable section

namespace Cert.ReferenceIdeal.RunP

open Cert.ReferenceIdeal Cert.ReferenceIdeal.Gen Idealize.ShloMosaic Idealize.ShloMosaic.TcCoe Idealize.SL.Sem Idealize.ShloMosaic.StableHlo Cert.ReferenceIdeal.ReadP Cert.ReferenceIdeal.ValueP

variable {F : FTy → Type} [FloatOps F]

-- the operations' functions stay folded, so that a transport around one reduces before anything else does
attribute [local irreducible] Host.exp Host.gather Host.log Host.reduce Host.reduceAdd Host.divf Host.negf addf addi broadcastInDim cmpi concatenate constant constantI extractStridedSlice iotaInDim maxsi minsi maximumf select shapeCast subf subi transpose

set_option maxHeartbeats 400000000 in
/-- Operations 0 to 11 of the line: from the stages of what is read at entry to the stages of what is read after. -/
theorem walk0 (U : Valuation τ sig (Elt F)) (x0 x1 : (⟨S4096, .i32⟩ : BufTy).Contents (Elt F)) (x2 : (⟨S50000x256, .f32⟩ : BufTy).Contents (Elt F)) (x3 : (⟨S2502x256, .f32⟩ : BufTy).Contents (Elt F)) (x4 : (⟨S64x256, .f32⟩ : BufTy).Contents (Elt F)) (x5 : (⟨S7500x64, .f32⟩ : BufTy).Contents (Elt F)) (x6 : (⟨S16x256, .f32⟩ : BufTy).Contents (Elt F)) (x7 : (⟨S40000x16, .f32⟩ : BufTy).Contents (Elt F))
    (f_main_arg0 : U (Proc.devRef .tc main_arg0) = x0)
    (f_main_arg1 : U (Proc.devRef .tc main_arg1) = x1)
    (f_main_arg2 : U (Proc.devRef .tc main_arg2) = x2)
    (f_main_arg3 : U (Proc.devRef .tc main_arg3) = x3)
    (f_main_arg4 : U (Proc.devRef .tc main_arg4) = x4)
    (f_main_arg5 : U (Proc.devRef .tc main_arg5) = x5)
    (f_main_arg6 : U (Proc.devRef .tc main_arg6) = x6)
    (f_main_arg7 : U (Proc.devRef .tc main_arg7) = x7) :
    after (chunk0 (F := F)) U (Proc.devRef .tc main_arg1) = x1
      ∧ after (chunk0 (F := F)) U (Proc.devRef .tc main_arg4) = x4
      ∧ after (chunk0 (F := F)) U (Proc.devRef .tc main_arg5) = x5
      ∧ after (chunk0 (F := F)) U (Proc.devRef .tc main_arg6) = x6
      ∧ after (chunk0 (F := F)) U (Proc.devRef .tc main_arg7) = x7
      ∧ after (chunk0 (F := F)) U (Proc.devRef .tc main_v6) = val_main_v6 (F := F) x0 x2
      ∧ after (chunk0 (F := F)) U (Proc.devRef .tc main_v8) = val_main_v8 (F := F) x0 x2 x3
      ∧ after (chunk0 (F := F)) U (Proc.devRef .tc main_call0_cst) = val_main_call0_cst (F := F) := by
  simp only [chunk0, ops, List.drop_succ_cons, List.drop_zero, List.take_succ_cons, List.take_zero]
  -- main_c ← (a constant)
  rw [after_cons]
  generalize hU' : HloOp.result _ U = U'
  have n_main_c : U' (Proc.devRef .tc main_c) = val_main_c (F := F) := by
    rw [← hU']; simp (disch := decide) only [nullary_result', unary_result', binary_result', ternary_result', quaternary_result', reshape_result']; rfl
  have c_main_arg0 : U' (Proc.devRef .tc main_arg0) = x0 := by
    rw [← hU']; simp (disch := decide) only [nullary_result_ne', unary_result_ne', binary_result_ne', ternary_result_ne', quaternary_result_ne', reshape_result_ne']; exact f_main_arg0
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg2 : U' (Proc.devRef .tc main_arg2) = x2 := by
    rw [← hU']; simp (disch := decide) only [nullary_result_ne', unary_result_ne', binary_result_ne', ternary_result_ne', quaternary_result_ne', reshape_result_ne']; exact f_main_arg2
  have c_main_arg3 : U' (Proc.devRef .tc main_arg3) = x3 := by
    rw [← hU']; simp (disch := decide) only [nullary_result_ne', unary_result_ne', binary_result_ne', ternary_result_ne', quaternary_result_ne', reshape_result_ne']; exact f_main_arg3
  have c_main_arg4 : U' (Proc.devRef .tc main_arg4) = x4 := by
    rw [← hU']; simp (disch := decide) only [nullary_result_ne', unary_result_ne', binary_result_ne', ternary_result_ne', quaternary_result_ne', reshape_result_ne']; exact f_main_arg4
  have c_main_arg5 : U' (Proc.devRef .tc main_arg5) = x5 := by
    rw [← hU']; simp (disch := decide) only [nullary_result_ne', unary_result_ne', binary_result_ne', ternary_result_ne', quaternary_result_ne', reshape_result_ne']; exact f_main_arg5
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  clear hU' f_main_arg0 f_main_arg1 f_main_arg2 f_main_arg3 f_main_arg4 f_main_arg5 f_main_arg6 f_main_arg7
  clear U; rename' U' => U
  rename' c_main_arg0 => f_main_arg0; rename' c_main_arg1 => f_main_arg1; rename' c_main_arg2 => f_main_arg2; rename' c_main_arg3 => f_main_arg3; rename' c_main_arg4 => f_main_arg4; rename' c_main_arg5 => f_main_arg5; rename' c_main_arg6 => f_main_arg6; rename' c_main_arg7 => f_main_arg7; rename' n_main_c => f_main_c
  -- main_v0 ← main_c
  rw [after_cons]
  generalize hU' : HloOp.result _ U = U'
  have n_main_v0 : U' (Proc.devRef .tc main_v0) = val_main_v0 (F := F) := by
    rw [← hU']; simp (disch := decide) only [nullary_result', unary_result', binary_result', ternary_result', quaternary_result', reshape_result', f_main_c]; rfl
  have c_main_arg0 : U' (Proc.devRef .tc main_arg0) = x0 := by
    rw [← hU']; simp (disch := decide) only [nullary_result_ne', unary_result_ne', binary_result_ne', ternary_result_ne', quaternary_result_ne', reshape_result_ne']; exact f_main_arg0
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg2 : U' (Proc.devRef .tc main_arg2) = x2 := by
    rw [← hU']; simp (disch := decide) only [nullary_result_ne', unary_result_ne', binary_result_ne', ternary_result_ne', quaternary_result_ne', reshape_result_ne']; exact f_main_arg2
  have c_main_arg3 : U' (Proc.devRef .tc main_arg3) = x3 := by
    rw [← hU']; simp (disch := decide) only [nullary_result_ne', unary_result_ne', binary_result_ne', ternary_result_ne', quaternary_result_ne', reshape_result_ne']; exact f_main_arg3
  have c_main_arg4 : U' (Proc.devRef .tc main_arg4) = x4 := by
    rw [← hU']; simp (disch := decide) only [nullary_result_ne', unary_result_ne', binary_result_ne', ternary_result_ne', quaternary_result_ne', reshape_result_ne']; exact f_main_arg4
  have c_main_arg5 : U' (Proc.devRef .tc main_arg5) = x5 := by
    rw [← hU']; simp (disch := decide) only [nullary_result_ne', unary_result_ne', binary_result_ne', ternary_result_ne', quaternary_result_ne', reshape_result_ne']; exact f_main_arg5
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  clear hU' f_main_arg0 f_main_arg1 f_main_arg2 f_main_arg3 f_main_arg4 f_main_arg5 f_main_arg6 f_main_arg7 f_main_c
  clear U; rename' U' => U
  rename' c_main_arg0 => f_main_arg0; rename' c_main_arg1 => f_main_arg1; rename' c_main_arg2 => f_main_arg2; rename' c_main_arg3 => f_main_arg3; rename' c_main_arg4 => f_main_arg4; rename' c_main_arg5 => f_main_arg5; rename' c_main_arg6 => f_main_arg6; rename' c_main_arg7 => f_main_arg7; rename' n_main_v0 => f_main_v0
  -- main_v1 ← main_arg0, main_v0
  rw [after_cons]
  generalize hU' : HloOp.result _ U = U'
  have n_main_v1 : U' (Proc.devRef .tc main_v1) = val_main_v1 (F := F) x0 := by
    rw [← hU']; simp (disch := decide) only [nullary_result', unary_result', binary_result', ternary_result', quaternary_result', reshape_result', f_main_arg0, f_main_v0]; rfl
  have c_main_arg0 : U' (Proc.devRef .tc main_arg0) = x0 := by
    rw [← hU']; simp (disch := decide) only [nullary_result_ne', unary_result_ne', binary_result_ne', ternary_result_ne', quaternary_result_ne', reshape_result_ne']; exact f_main_arg0
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg2 : U' (Proc.devRef .tc main_arg2) = x2 := by
    rw [← hU']; simp (disch := decide) only [nullary_result_ne', unary_result_ne', binary_result_ne', ternary_result_ne', quaternary_result_ne', reshape_result_ne']; exact f_main_arg2
  have c_main_arg3 : U' (Proc.devRef .tc main_arg3) = x3 := by
    rw [← hU']; simp (disch := decide) only [nullary_result_ne', unary_result_ne', binary_result_ne', ternary_result_ne', quaternary_result_ne', reshape_result_ne']; exact f_main_arg3
  have c_main_arg4 : U' (Proc.devRef .tc main_arg4) = x4 := by
    rw [← hU']; simp (disch := decide) only [nullary_result_ne', unary_result_ne', binary_result_ne', ternary_result_ne', quaternary_result_ne', reshape_result_ne']; exact f_main_arg4
  have c_main_arg5 : U' (Proc.devRef .tc main_arg5) = x5 := by
    rw [← hU']; simp (disch := decide) only [nullary_result_ne', unary_result_ne', binary_result_ne', ternary_result_ne', quaternary_result_ne', reshape_result_ne']; exact f_main_arg5
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  clear hU' f_main_arg0 f_main_arg1 f_main_arg2 f_main_arg3 f_main_arg4 f_main_arg5 f_main_arg6 f_main_arg7 f_main_v0
  clear U; rename' U' => U
  rename' c_main_arg0 => f_main_arg0; rename' c_main_arg1 => f_main_arg1; rename' c_main_arg2 => f_main_arg2; rename' c_main_arg3 => f_main_arg3; rename' c_main_arg4 => f_main_arg4; rename' c_main_arg5 => f_main_arg5; rename' c_main_arg6 => f_main_arg6; rename' c_main_arg7 => f_main_arg7; rename' n_main_v1 => f_main_v1
  -- main_c_0 ← (a constant)
  rw [after_cons]
  generalize hU' : HloOp.result _ U = U'
  have n_main_c_0 : U' (Proc.devRef .tc main_c_0) = val_main_c_0 (F := F) := by
    rw [← hU']; simp (disch := decide) only [nullary_result', unary_result', binary_result', ternary_result', quaternary_result', reshape_result']; rfl
  have c_main_arg0 : U' (Proc.devRef .tc main_arg0) = x0 := by
    rw [← hU']; simp (disch := decide) only [nullary_result_ne', unary_result_ne', binary_result_ne', ternary_result_ne', quaternary_result_ne', reshape_result_ne']; exact f_main_arg0
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg2 : U' (Proc.devRef .tc main_arg2) = x2 := by
    rw [← hU']; simp (disch := decide) only [nullary_result_ne', unary_result_ne', binary_result_ne', ternary_result_ne', quaternary_result_ne', reshape_result_ne']; exact f_main_arg2
  have c_main_arg3 : U' (Proc.devRef .tc main_arg3) = x3 := by
    rw [← hU']; simp (disch := decide) only [nullary_result_ne', unary_result_ne', binary_result_ne', ternary_result_ne', quaternary_result_ne', reshape_result_ne']; exact f_main_arg3
  have c_main_arg4 : U' (Proc.devRef .tc main_arg4) = x4 := by
    rw [← hU']; simp (disch := decide) only [nullary_result_ne', unary_result_ne', binary_result_ne', ternary_result_ne', quaternary_result_ne', reshape_result_ne']; exact f_main_arg4
  have c_main_arg5 : U' (Proc.devRef .tc main_arg5) = x5 := by
    rw [← hU']; simp (disch := decide) only [nullary_result_ne', unary_result_ne', binary_result_ne', ternary_result_ne', quaternary_result_ne', reshape_result_ne']; exact f_main_arg5
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v1 : U' (Proc.devRef .tc main_v1) = val_main_v1 (F := F) x0 := by
    rw [← hU']; simp (disch := decide) only [nullary_result_ne', unary_result_ne', binary_result_ne', ternary_result_ne', quaternary_result_ne', reshape_result_ne']; exact f_main_v1
  clear hU' f_main_arg0 f_main_arg1 f_main_arg2 f_main_arg3 f_main_arg4 f_main_arg5 f_main_arg6 f_main_arg7 f_main_v1
  clear U; rename' U' => U
  rename' c_main_arg0 => f_main_arg0; rename' c_main_arg1 => f_main_arg1; rename' c_main_arg2 => f_main_arg2; rename' c_main_arg3 => f_main_arg3; rename' c_main_arg4 => f_main_arg4; rename' c_main_arg5 => f_main_arg5; rename' c_main_arg6 => f_main_arg6; rename' c_main_arg7 => f_main_arg7; rename' c_main_v1 => f_main_v1; rename' n_main_c_0 => f_main_c_0
  -- main_v2 ← main_c_0
  rw [after_cons]
  generalize hU' : HloOp.result _ U = U'
  have n_main_v2 : U' (Proc.devRef .tc main_v2) = val_main_v2 (F := F) := by
    rw [← hU']; simp (disch := decide) only [nullary_result', unary_result', binary_result', ternary_result', quaternary_result', reshape_result', f_main_c_0]; rfl
  have c_main_arg0 : U' (Proc.devRef .tc main_arg0) = x0 := by
    rw [← hU']; simp (disch := decide) only [nullary_result_ne', unary_result_ne', binary_result_ne', ternary_result_ne', quaternary_result_ne', reshape_result_ne']; exact f_main_arg0
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg2 : U' (Proc.devRef .tc main_arg2) = x2 := by
    rw [← hU']; simp (disch := decide) only [nullary_result_ne', unary_result_ne', binary_result_ne', ternary_result_ne', quaternary_result_ne', reshape_result_ne']; exact f_main_arg2
  have c_main_arg3 : U' (Proc.devRef .tc main_arg3) = x3 := by
    rw [← hU']; simp (disch := decide) only [nullary_result_ne', unary_result_ne', binary_result_ne', ternary_result_ne', quaternary_result_ne', reshape_result_ne']; exact f_main_arg3
  have c_main_arg4 : U' (Proc.devRef .tc main_arg4) = x4 := by
    rw [← hU']; simp (disch := decide) only [nullary_result_ne', unary_result_ne', binary_result_ne', ternary_result_ne', quaternary_result_ne', reshape_result_ne']; exact f_main_arg4
  have c_main_arg5 : U' (Proc.devRef .tc main_arg5) = x5 := by
    rw [← hU']; simp (disch := decide) only [nullary_result_ne', unary_result_ne', binary_result_ne', ternary_result_ne', quaternary_result_ne', reshape_result_ne']; exact f_main_arg5
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v1 : U' (Proc.devRef .tc main_v1) = val_main_v1 (F := F) x0 := by
    rw [← hU']; simp (disch := decide) only [nullary_result_ne', unary_result_ne', binary_result_ne', ternary_result_ne', quaternary_result_ne', reshape_result_ne']; exact f_main_v1
  clear hU' f_main_arg0 f_main_arg1 f_main_arg2 f_main_arg3 f_main_arg4 f_main_arg5 f_main_arg6 f_main_arg7 f_main_v1 f_main_c_0
  clear U; rename' U' => U
  rename' c_main_arg0 => f_main_arg0; rename' c_main_arg1 => f_main_arg1; rename' c_main_arg2 => f_main_arg2; rename' c_main_arg3 => f_main_arg3; rename' c_main_arg4 => f_main_arg4; rename' c_main_arg5 => f_main_arg5; rename' c_main_arg6 => f_main_arg6; rename' c_main_arg7 => f_main_arg7; rename' c_main_v1 => f_main_v1; rename' n_main_v2 => f_main_v2
  -- main_v3 ← main_arg0, main_v2
  rw [after_cons]
  generalize hU' : HloOp.result _ U = U'
  have n_main_v3 : U' (Proc.devRef .tc main_v3) = val_main_v3 (F := F) x0 := by
    rw [← hU']; simp (disch := decide) only [nullary_result', unary_result', binary_result', ternary_result', quaternary_result', reshape_result', f_main_arg0, f_main_v2]; rfl
  have c_main_arg0 : U' (Proc.devRef .tc main_arg0) = x0 := by
    rw [← hU']; simp (disch := decide) only [nullary_result_ne', unary_result_ne', binary_result_ne', ternary_result_ne', quaternary_result_ne', reshape_result_ne']; exact f_main_arg0
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg2 : U' (Proc.devRef .tc main_arg2) = x2 := by
    rw [← hU']; simp (disch := decide) only [nullary_result_ne', unary_result_ne', binary_result_ne', ternary_result_ne', quaternary_result_ne', reshape_result_ne']; exact f_main_arg2
  have c_main_arg3 : U' (Proc.devRef .tc main_arg3) = x3 := by
    rw [← hU']; simp (disch := decide) only [nullary_result_ne', unary_result_ne', binary_result_ne', ternary_result_ne', quaternary_result_ne', reshape_result_ne']; exact f_main_arg3
  have c_main_arg4 : U' (Proc.devRef .tc main_arg4) = x4 := by
    rw [← hU']; simp (disch := decide) only [nullary_result_ne', unary_result_ne', binary_result_ne', ternary_result_ne', quaternary_result_ne', reshape_result_ne']; exact f_main_arg4
  have c_main_arg5 : U' (Proc.devRef .tc main_arg5) = x5 := by
    rw [← hU']; simp (disch := decide) only [nullary_result_ne', unary_result_ne', binary_result_ne', ternary_result_ne', quaternary_result_ne', reshape_result_ne']; exact f_main_arg5
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v1 : U' (Proc.devRef .tc main_v1) = val_main_v1 (F := F) x0 := by
    rw [← hU']; simp (disch := decide) only [nullary_result_ne', unary_result_ne', binary_result_ne', ternary_result_ne', quaternary_result_ne', reshape_result_ne']; exact f_main_v1
  clear hU' f_main_arg0 f_main_arg1 f_main_arg2 f_main_arg3 f_main_arg4 f_main_arg5 f_main_arg6 f_main_arg7 f_main_v1 f_main_v2
  clear U; rename' U' => U
  rename' c_main_arg0 => f_main_arg0; rename' c_main_arg1 => f_main_arg1; rename' c_main_arg2 => f_main_arg2; rename' c_main_arg3 => f_main_arg3; rename' c_main_arg4 => f_main_arg4; rename' c_main_arg5 => f_main_arg5; rename' c_main_arg6 => f_main_arg6; rename' c_main_arg7 => f_main_arg7; rename' c_main_v1 => f_main_v1; rename' n_main_v3 => f_main_v3
  -- main_v4 ← main_v1, main_v3, main_arg0
  rw [after_cons]
  generalize hU' : HloOp.result _ U = U'
  have n_main_v4 : U' (Proc.devRef .tc main_v4) = val_main_v4 (F := F) x0 := by
    rw [← hU']; simp (disch := decide) only [nullary_result', unary_result', binary_result', ternary_result', quaternary_result', reshape_result', f_main_v1, f_main_v3, f_main_arg0]; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg2 : U' (Proc.devRef .tc main_arg2) = x2 := by
    rw [← hU']; simp (disch := decide) only [nullary_result_ne', unary_result_ne', binary_result_ne', ternary_result_ne', quaternary_result_ne', reshape_result_ne']; exact f_main_arg2
  have c_main_arg3 : U' (Proc.devRef .tc main_arg3) = x3 := by
    rw [← hU']; simp (disch := decide) only [nullary_result_ne', unary_result_ne', binary_result_ne', ternary_result_ne', quaternary_result_ne', reshape_result_ne']; exact f_main_arg3
  have c_main_arg4 : U' (Proc.devRef .tc main_arg4) = x4 := by
    rw [← hU']; simp (disch := decide) only [nullary_result_ne', unary_result_ne', binary_result_ne', ternary_result_ne', quaternary_result_ne', reshape_result_ne']; exact f_main_arg4
  have c_main_arg5 : U' (Proc.devRef .tc main_arg5) = x5 := by
    rw [← hU']; simp (disch := decide) only [nullary_result_ne', unary_result_ne', binary_result_ne', ternary_result_ne', quaternary_result_ne', reshape_result_ne']; exact f_main_arg5
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  clear hU' f_main_arg0 f_main_arg1 f_main_arg2 f_main_arg3 f_main_arg4 f_main_arg5 f_main_arg6 f_main_arg7 f_main_v1 f_main_v3
  clear U; rename' U' => U
  rename' c_main_arg1 => f_main_arg1; rename' c_main_arg2 => f_main_arg2; rename' c_main_arg3 => f_main_arg3; rename' c_main_arg4 => f_main_arg4; rename' c_main_arg5 => f_main_arg5; rename' c_main_arg6 => f_main_arg6; rename' c_main_arg7 => f_main_arg7; rename' n_main_v4 => f_main_v4
  -- main_v5 ← main_v4
  rw [after_cons]
  generalize hU' : HloOp.result _ U = U'
  have n_main_v5 : U' (Proc.devRef .tc main_v5) = val_main_v5 (F := F) x0 := by
    rw [← hU']; simp (disch := decide) only [nullary_result', unary_result', binary_result', ternary_result', quaternary_result', reshape_result', f_main_v4]; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg2 : U' (Proc.devRef .tc main_arg2) = x2 := by
    rw [← hU']; simp (disch := decide) only [nullary_result_ne', unary_result_ne', binary_result_ne', ternary_result_ne', quaternary_result_ne', reshape_result_ne']; exact f_main_arg2
  have c_main_arg3 : U' (Proc.devRef .tc main_arg3) = x3 := by
    rw [← hU']; simp (disch := decide) only [nullary_result_ne', unary_result_ne', binary_result_ne', ternary_result_ne', quaternary_result_ne', reshape_result_ne']; exact f_main_arg3
  have c_main_arg4 : U' (Proc.devRef .tc main_arg4) = x4 := by
    rw [← hU']; simp (disch := decide) only [nullary_result_ne', unary_result_ne', binary_result_ne', ternary_result_ne', quaternary_result_ne', reshape_result_ne']; exact f_main_arg4
  have c_main_arg5 : U' (Proc.devRef .tc main_arg5) = x5 := by
    rw [← hU']; simp (disch := decide) only [nullary_result_ne', unary_result_ne', binary_result_ne', ternary_result_ne', quaternary_result_ne', reshape_result_ne']; exact f_main_arg5
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  clear hU' f_main_arg1 f_main_arg2 f_main_arg3 f_main_arg4 f_main_arg5 f_main_arg6 f_main_arg7 f_main_v4
  clear U; rename' U' => U
  rename' c_main_arg1 => f_main_arg1; rename' c_main_arg2 => f_main_arg2; rename' c_main_arg3 => f_main_arg3; rename' c_main_arg4 => f_main_arg4; rename' c_main_arg5 => f_main_arg5; rename' c_main_arg6 => f_main_arg6; rename' c_main_arg7 => f_main_arg7; rename' n_main_v5 => f_main_v5
  -- main_v6 ← main_arg2, main_v5
  rw [after_cons]
  generalize hU' : HloOp.result _ U = U'
  have n_main_v6 : U' (Proc.devRef .tc main_v6) = val_main_v6 (F := F) x0 x2 := by
    rw [← hU']; simp (disch := decide) only [nullary_result', unary_result', binary_result', ternary_result', quaternary_result', reshape_result', f_main_arg2, f_main_v5]; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg3 : U' (Proc.devRef .tc main_arg3) = x3 := by
    rw [← hU']; simp (disch := decide) only [nullary_result_ne', unary_result_ne', binary_result_ne', ternary_result_ne', quaternary_result_ne', reshape_result_ne']; exact f_main_arg3
  have c_main_arg4 : U' (Proc.devRef .tc main_arg4) = x4 := by
    rw [← hU']; simp (disch := decide) only [nullary_result_ne', unary_result_ne', binary_result_ne', ternary_result_ne', quaternary_result_ne', reshape_result_ne']; exact f_main_arg4
  have c_main_arg5 : U' (Proc.devRef .tc main_arg5) = x5 := by
    rw [← hU']; simp (disch := decide) only [nullary_result_ne', unary_result_ne', binary_result_ne', ternary_result_ne', quaternary_result_ne', reshape_result_ne']; exact f_main_arg5
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  clear hU' f_main_arg1 f_main_arg2 f_main_arg3 f_main_arg4 f_main_arg5 f_main_arg6 f_main_arg7 f_main_v5
  clear U; rename' U' => U
  rename' c_main_arg1 => f_main_arg1; rename' c_main_arg3 => f_main_arg3; rename' c_main_arg4 => f_main_arg4; rename' c_main_arg5 => f_main_arg5; rename' c_main_arg6 => f_main_arg6; rename' c_main_arg7 => f_main_arg7; rename' n_main_v6 => f_main_v6
  -- main_v7 ← main_arg3
  rw [after_cons]
  generalize hU' : HloOp.result _ U = U'
  have n_main_v7 : U' (Proc.devRef .tc main_v7) = val_main_v7 (F := F) x3 := by
    rw [← hU']; simp (disch := decide) only [nullary_result', unary_result', binary_result', ternary_result', quaternary_result', reshape_result', f_main_arg3]; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg4 : U' (Proc.devRef .tc main_arg4) = x4 := by
    rw [← hU']; simp (disch := decide) only [nullary_result_ne', unary_result_ne', binary_result_ne', ternary_result_ne', quaternary_result_ne', reshape_result_ne']; exact f_main_arg4
  have c_main_arg5 : U' (Proc.devRef .tc main_arg5) = x5 := by
    rw [← hU']; simp (disch := decide) only [nullary_result_ne', unary_result_ne', binary_result_ne', ternary_result_ne', quaternary_result_ne', reshape_result_ne']; exact f_main_arg5
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  clear hU' f_main_arg1 f_main_arg3 f_main_arg4 f_main_arg5 f_main_arg6 f_main_arg7 f_main_v6
  clear U; rename' U' => U
  rename' c_main_arg1 => f_main_arg1; rename' c_main_arg4 => f_main_arg4; rename' c_main_arg5 => f_main_arg5; rename' c_main_arg6 => f_main_arg6; rename' c_main_arg7 => f_main_arg7; rename' c_main_v6 => f_main_v6; rename' n_main_v7 => f_main_v7
  -- main_v8 ← main_v6, main_v7
  rw [after_cons]
  generalize hU' : HloOp.result _ U = U'
  have n_main_v8 : U' (Proc.devRef .tc main_v8) = val_main_v8 (F := F) x0 x2 x3 := by
    rw [← hU']; simp (disch := decide) only [nullary_result', unary_result', binary_result', ternary_result', quaternary_result', reshape_result', f_main_v6, f_main_v7]; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg4 : U' (Proc.devRef .tc main_arg4) = x4 := by
    rw [← hU']; simp (disch := decide) only [nullary_result_ne', unary_result_ne', binary_result_ne', ternary_result_ne', quaternary_result_ne', reshape_result_ne']; exact f_main_arg4
  have c_main_arg5 : U' (Proc.devRef .tc main_arg5) = x5 := by
    rw [← hU']; simp (disch := decide) only [nullary_result_ne', unary_result_ne', binary_result_ne', ternary_result_ne', quaternary_result_ne', reshape_result_ne']; exact f_main_arg5
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  clear hU' f_main_arg1 f_main_arg4 f_main_arg5 f_main_arg6 f_main_arg7 f_main_v6 f_main_v7
  clear U; rename' U' => U
  rename' c_main_arg1 => f_main_arg1; rename' c_main_arg4 => f_main_arg4; rename' c_main_arg5 => f_main_arg5; rename' c_main_arg6 => f_main_arg6; rename' c_main_arg7 => f_main_arg7; rename' c_main_v6 => f_main_v6; rename' n_main_v8 => f_main_v8
  -- main_call0_cst ← (a constant)
  rw [after_cons]
  generalize hU' : HloOp.result _ U = U'
  have n_main_call0_cst : U' (Proc.devRef .tc main_call0_cst) = val_main_call0_cst (F := F) := by
    rw [← hU']; simp (disch := decide) only [nullary_result', unary_result', binary_result', ternary_result', quaternary_result', reshape_result']; exact (cast_11 (F := F)).trans rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg4 : U' (Proc.devRef .tc main_arg4) = x4 := by
    rw [← hU']; simp (disch := decide) only [nullary_result_ne', unary_result_ne', binary_result_ne', ternary_result_ne', quaternary_result_ne', reshape_result_ne']; exact f_main_arg4
  have c_main_arg5 : U' (Proc.devRef .tc main_arg5) = x5 := by
    rw [← hU']; simp (disch := decide) only [nullary_result_ne', unary_result_ne', binary_result_ne', ternary_result_ne', quaternary_result_ne', reshape_result_ne']; exact f_main_arg5
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v8 : U' (Proc.devRef .tc main_v8) = val_main_v8 (F := F) x0 x2 x3 := by
    rw [← hU']; simp (disch := decide) only [nullary_result_ne', unary_result_ne', binary_result_ne', ternary_result_ne', quaternary_result_ne', reshape_result_ne']; exact f_main_v8
  clear hU' f_main_arg1 f_main_arg4 f_main_arg5 f_main_arg6 f_main_arg7 f_main_v6 f_main_v8
  clear U; rename' U' => U
  rename' c_main_arg1 => f_main_arg1; rename' c_main_arg4 => f_main_arg4; rename' c_main_arg5 => f_main_arg5; rename' c_main_arg6 => f_main_arg6; rename' c_main_arg7 => f_main_arg7; rename' c_main_v6 => f_main_v6; rename' c_main_v8 => f_main_v8; rename' n_main_call0_cst => f_main_call0_cst
  simp only [after_nil]
  exact ⟨f_main_arg1, f_main_arg4, f_main_arg5, f_main_arg6, f_main_arg7, f_main_v6, f_main_v8, f_main_call0_cst⟩

set_option maxHeartbeats 400000000 in
/-- Operations 12 to 23 of the line: from the stages of what is read at entry to the stages of what is read after. -/
theorem walk1 (U : Valuation τ sig (Elt F)) (x0 x1 : (⟨S4096, .i32⟩ : BufTy).Contents (Elt F)) (x2 : (⟨S50000x256, .f32⟩ : BufTy).Contents (Elt F)) (x3 : (⟨S2502x256, .f32⟩ : BufTy).Contents (Elt F)) (x4 : (⟨S64x256, .f32⟩ : BufTy).Contents (Elt F)) (x5 : (⟨S7500x64, .f32⟩ : BufTy).Contents (Elt F)) (x6 : (⟨S16x256, .f32⟩ : BufTy).Contents (Elt F)) (x7 : (⟨S40000x16, .f32⟩ : BufTy).Contents (Elt F))
    (f_main_arg1 : U (Proc.devRef .tc main_arg1) = x1)
    (f_main_arg4 : U (Proc.devRef .tc main_arg4) = x4)
    (f_main_arg5 : U (Proc.devRef .tc main_arg5) = x5)
    (f_main_arg6 : U (Proc.devRef .tc main_arg6) = x6)
    (f_main_arg7 : U (Proc.devRef .tc main_arg7) = x7)
    (f_main_v6 : U (Proc.devRef .tc main_v6) = val_main_v6 (F := F) x0 x2)
    (f_main_v8 : U (Proc.devRef .tc main_v8) = val_main_v8 (F := F) x0 x2 x3)
    (f_main_call0_cst : U (Proc.devRef .tc main_call0_cst) = val_main_call0_cst (F := F)) :
    after (chunk1 (F := F)) U (Proc.devRef .tc main_arg1) = x1
      ∧ after (chunk1 (F := F)) U (Proc.devRef .tc main_arg4) = x4
      ∧ after (chunk1 (F := F)) U (Proc.devRef .tc main_arg5) = x5
      ∧ after (chunk1 (F := F)) U (Proc.devRef .tc main_arg6) = x6
      ∧ after (chunk1 (F := F)) U (Proc.devRef .tc main_arg7) = x7
      ∧ after (chunk1 (F := F)) U (Proc.devRef .tc main_v6) = val_main_v6 (F := F) x0 x2
      ∧ after (chunk1 (F := F)) U (Proc.devRef .tc main_call0_v5) = val_main_call0_v5 (F := F) x0 x2 x3
      ∧ after (chunk1 (F := F)) U (Proc.devRef .tc main_call0_v9) = val_main_call0_v9 (F := F) x0 x2 x3 := by
  simp only [chunk1, ops, List.drop_succ_cons, List.drop_zero, List.take_succ_cons, List.take_zero]
  -- main_call0_v0 ← main_v8, main_call0_cst
  rw [after_cons]
  generalize hU' : HloOp.result _ U = U'
  have n_main_call0_v0 : U' (Proc.devRef .tc main_call0_v0) = val_main_call0_v0 (F := F) x0 x2 x3 := by
    rw [← hU']; simp (disch := decide) only [nullary_result', unary_result', binary_result', ternary_result', quaternary_result', reshape_result', f_main_v8, f_main_call0_cst]; exact (cast_12 (F := F) (val_main_v8 (F := F) x0 x2 x3) (val_main_call0_cst (F := F))).trans rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg4 : U' (Proc.devRef .tc main_arg4) = x4 := by
    rw [← hU']; simp (disch := decide) only [nullary_result_ne', unary_result_ne', binary_result_ne', ternary_result_ne', quaternary_result_ne', reshape_result_ne']; exact f_main_arg4
  have c_main_arg5 : U' (Proc.devRef .tc main_arg5) = x5 := by
    rw [← hU']; simp (disch := decide) only [nullary_result_ne', unary_result_ne', binary_result_ne', ternary_result_ne', quaternary_result_ne', reshape_result_ne']; exact f_main_arg5
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v8 : U' (Proc.devRef .tc main_v8) = val_main_v8 (F := F) x0 x2 x3 := by
    rw [← hU']; simp (disch := decide) only [nullary_result_ne', unary_result_ne', binary_result_ne', ternary_result_ne', quaternary_result_ne', reshape_result_ne']; exact f_main_v8
  clear hU' f_main_arg1 f_main_arg4 f_main_arg5 f_main_arg6 f_main_arg7 f_main_v6 f_main_v8 f_main_call0_cst
  clear U; rename' U' => U
  rename' c_main_arg1 => f_main_arg1; rename' c_main_arg4 => f_main_arg4; rename' c_main_arg5 => f_main_arg5; rename' c_main_arg6 => f_main_arg6; rename' c_main_arg7 => f_main_arg7; rename' c_main_v6 => f_main_v6; rename' c_main_v8 => f_main_v8; rename' n_main_call0_v0 => f_main_call0_v0
  -- main_call0_cst_0 ← (a constant)
  rw [after_cons]
  generalize hU' : HloOp.result _ U = U'
  have n_main_call0_cst_0 : U' (Proc.devRef .tc main_call0_cst_0) = val_main_call0_cst_0 (F := F) := by
    rw [← hU']; simp (disch := decide) only [nullary_result', unary_result', binary_result', ternary_result', quaternary_result', reshape_result']; exact (cast_13 (F := F)).trans rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg4 : U' (Proc.devRef .tc main_arg4) = x4 := by
    rw [← hU']; simp (disch := decide) only [nullary_result_ne', unary_result_ne', binary_result_ne', ternary_result_ne', quaternary_result_ne', reshape_result_ne']; exact f_main_arg4
  have c_main_arg5 : U' (Proc.devRef .tc main_arg5) = x5 := by
    rw [← hU']; simp (disch := decide) only [nullary_result_ne', unary_result_ne', binary_result_ne', ternary_result_ne', quaternary_result_ne', reshape_result_ne']; exact f_main_arg5
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v8 : U' (Proc.devRef .tc main_v8) = val_main_v8 (F := F) x0 x2 x3 := by
    rw [← hU']; simp (disch := decide) only [nullary_result_ne', unary_result_ne', binary_result_ne', ternary_result_ne', quaternary_result_ne', reshape_result_ne']; exact f_main_v8
  have c_main_call0_v0 : U' (Proc.devRef .tc main_call0_v0) = val_main_call0_v0 (F := F) x0 x2 x3 := by
    rw [← hU']; simp (disch := decide) only [nullary_result_ne', unary_result_ne', binary_result_ne', ternary_result_ne', quaternary_result_ne', reshape_result_ne']; exact f_main_call0_v0
  clear hU' f_main_arg1 f_main_arg4 f_main_arg5 f_main_arg6 f_main_arg7 f_main_v6 f_main_v8 f_main_call0_v0
  clear U; rename' U' => U
  rename' c_main_arg1 => f_main_arg1; rename' c_main_arg4 => f_main_arg4; rename' c_main_arg5 => f_main_arg5; rename' c_main_arg6 => f_main_arg6; rename' c_main_arg7 => f_main_arg7; rename' c_main_v6 => f_main_v6; rename' c_main_v8 => f_main_v8; rename' c_main_call0_v0 => f_main_call0_v0; rename' n_main_call0_cst_0 => f_main_call0_cst_0
  -- main_call0_v1 ← main_call0_cst_0
  rw [after_cons]
  generalize hU' : HloOp.result _ U = U'
  have n_main_call0_v1 : U' (Proc.devRef .tc main_call0_v1) = val_main_call0_v1 (F := F) := by
    rw [← hU']; simp (disch := decide) only [nullary_result', unary_result', binary_result', ternary_result', quaternary_result', reshape_result', f_main_call0_cst_0]; exact (cast_14 (F := F) (val_main_call0_cst_0 (F := F))).trans rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg4 : U' (Proc.devRef .tc main_arg4) = x4 := by
    rw [← hU']; simp (disch := decide) only [nullary_result_ne', unary_result_ne', binary_result_ne', ternary_result_ne', quaternary_result_ne', reshape_result_ne']; exact f_main_arg4
  have c_main_arg5 : U' (Proc.devRef .tc main_arg5) = x5 := by
    rw [← hU']; simp (disch := decide) only [nullary_result_ne', unary_result_ne', binary_result_ne', ternary_result_ne', quaternary_result_ne', reshape_result_ne']; exact f_main_arg5
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v8 : U' (Proc.devRef .tc main_v8) = val_main_v8 (F := F) x0 x2 x3 := by
    rw [← hU']; simp (disch := decide) only [nullary_result_ne', unary_result_ne', binary_result_ne', ternary_result_ne', quaternary_result_ne', reshape_result_ne']; exact f_main_v8
  have c_main_call0_v0 : U' (Proc.devRef .tc main_call0_v0) = val_main_call0_v0 (F := F) x0 x2 x3 := by
    rw [← hU']; simp (disch := decide) only [nullary_result_ne', unary_result_ne', binary_result_ne', ternary_result_ne', quaternary_result_ne', reshape_result_ne']; exact f_main_call0_v0
  clear hU' f_main_arg1 f_main_arg4 f_main_arg5 f_main_arg6 f_main_arg7 f_main_v6 f_main_v8 f_main_call0_v0 f_main_call0_cst_0
  clear U; rename' U' => U
  rename' c_main_arg1 => f_main_arg1; rename' c_main_arg4 => f_main_arg4; rename' c_main_arg5 => f_main_arg5; rename' c_main_arg6 => f_main_arg6; rename' c_main_arg7 => f_main_arg7; rename' c_main_v6 => f_main_v6; rename' c_main_v8 => f_main_v8; rename' c_main_call0_v0 => f_main_call0_v0; rename' n_main_call0_v1 => f_main_call0_v1
  -- main_call0_v2 ← main_call0_v1, main_call0_v0
  rw [after_cons]
  generalize hU' : HloOp.result _ U = U'
  have n_main_call0_v2 : U' (Proc.devRef .tc main_call0_v2) = val_main_call0_v2 (F := F) x0 x2 x3 := by
    rw [← hU']; simp (disch := decide) only [nullary_result', unary_result', binary_result', ternary_result', quaternary_result', reshape_result', f_main_call0_v1, f_main_call0_v0]; exact (cast_15 (F := F) (val_main_call0_v1 (F := F)) (val_main_call0_v0 (F := F) x0 x2 x3)).trans rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg4 : U' (Proc.devRef .tc main_arg4) = x4 := by
    rw [← hU']; simp (disch := decide) only [nullary_result_ne', unary_result_ne', binary_result_ne', ternary_result_ne', quaternary_result_ne', reshape_result_ne']; exact f_main_arg4
  have c_main_arg5 : U' (Proc.devRef .tc main_arg5) = x5 := by
    rw [← hU']; simp (disch := decide) only [nullary_result_ne', unary_result_ne', binary_result_ne', ternary_result_ne', quaternary_result_ne', reshape_result_ne']; exact f_main_arg5
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v8 : U' (Proc.devRef .tc main_v8) = val_main_v8 (F := F) x0 x2 x3 := by
    rw [← hU']; simp (disch := decide) only [nullary_result_ne', unary_result_ne', binary_result_ne', ternary_result_ne', quaternary_result_ne', reshape_result_ne']; exact f_main_v8
  clear hU' f_main_arg1 f_main_arg4 f_main_arg5 f_main_arg6 f_main_arg7 f_main_v6 f_main_v8 f_main_call0_v0 f_main_call0_v1
  clear U; rename' U' => U
  rename' c_main_arg1 => f_main_arg1; rename' c_main_arg4 => f_main_arg4; rename' c_main_arg5 => f_main_arg5; rename' c_main_arg6 => f_main_arg6; rename' c_main_arg7 => f_main_arg7; rename' c_main_v6 => f_main_v6; rename' c_main_v8 => f_main_v8; rename' n_main_call0_v2 => f_main_call0_v2
  -- main_call0_v3 ← main_call0_v2
  rw [after_cons]
  generalize hU' : HloOp.result _ U = U'
  have n_main_call0_v3 : U' (Proc.devRef .tc main_call0_v3) = val_main_call0_v3 (F := F) x0 x2 x3 := by
    rw [← hU']; simp (disch := decide) only [nullary_result', unary_result', binary_result', ternary_result', quaternary_result', reshape_result', f_main_call0_v2]; exact (cast_16 (F := F) (val_main_call0_v2 (F := F) x0 x2 x3)).trans rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg4 : U' (Proc.devRef .tc main_arg4) = x4 := by
    rw [← hU']; simp (disch := decide) only [nullary_result_ne', unary_result_ne', binary_result_ne', ternary_result_ne', quaternary_result_ne', reshape_result_ne']; exact f_main_arg4
  have c_main_arg5 : U' (Proc.devRef .tc main_arg5) = x5 := by
    rw [← hU']; simp (disch := decide) only [nullary_result_ne', unary_result_ne', binary_result_ne', ternary_result_ne', quaternary_result_ne', reshape_result_ne']; exact f_main_arg5
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v8 : U' (Proc.devRef .tc main_v8) = val_main_v8 (F := F) x0 x2 x3 := by
    rw [← hU']; simp (disch := decide) only [nullary_result_ne', unary_result_ne', binary_result_ne', ternary_result_ne', quaternary_result_ne', reshape_result_ne']; exact f_main_v8
  clear hU' f_main_arg1 f_main_arg4 f_main_arg5 f_main_arg6 f_main_arg7 f_main_v6 f_main_v8 f_main_call0_v2
  clear U; rename' U' => U
  rename' c_main_arg1 => f_main_arg1; rename' c_main_arg4 => f_main_arg4; rename' c_main_arg5 => f_main_arg5; rename' c_main_arg6 => f_main_arg6; rename' c_main_arg7 => f_main_arg7; rename' c_main_v6 => f_main_v6; rename' c_main_v8 => f_main_v8; rename' n_main_call0_v3 => f_main_call0_v3
  -- main_call0_v4 ← main_call0_v3
  rw [after_cons]
  generalize hU' : HloOp.result _ U = U'
  have n_main_call0_v4 : U' (Proc.devRef .tc main_call0_v4) = val_main_call0_v4 (F := F) x0 x2 x3 := by
    rw [← hU']; simp (disch := decide) only [nullary_result', unary_result', binary_result', ternary_result', quaternary_result', reshape_result', f_main_call0_v3]; exact (cast_17 (F := F) (val_main_call0_v3 (F := F) x0 x2 x3)).trans rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg4 : U' (Proc.devRef .tc main_arg4) = x4 := by
    rw [← hU']; simp (disch := decide) only [nullary_result_ne', unary_result_ne', binary_result_ne', ternary_result_ne', quaternary_result_ne', reshape_result_ne']; exact f_main_arg4
  have c_main_arg5 : U' (Proc.devRef .tc main_arg5) = x5 := by
    rw [← hU']; simp (disch := decide) only [nullary_result_ne', unary_result_ne', binary_result_ne', ternary_result_ne', quaternary_result_ne', reshape_result_ne']; exact f_main_arg5
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v8 : U' (Proc.devRef .tc main_v8) = val_main_v8 (F := F) x0 x2 x3 := by
    rw [← hU']; simp (disch := decide) only [nullary_result_ne', unary_result_ne', binary_result_ne', ternary_result_ne', quaternary_result_ne', reshape_result_ne']; exact f_main_v8
  clear hU' f_main_arg1 f_main_arg4 f_main_arg5 f_main_arg6 f_main_arg7 f_main_v6 f_main_v8 f_main_call0_v3
  clear U; rename' U' => U
  rename' c_main_arg1 => f_main_arg1; rename' c_main_arg4 => f_main_arg4; rename' c_main_arg5 => f_main_arg5; rename' c_main_arg6 => f_main_arg6; rename' c_main_arg7 => f_main_arg7; rename' c_main_v6 => f_main_v6; rename' c_main_v8 => f_main_v8; rename' n_main_call0_v4 => f_main_call0_v4
  -- main_call0_v5 ← main_v8, main_call0_v4
  rw [after_cons]
  generalize hU' : HloOp.result _ U = U'
  have n_main_call0_v5 : U' (Proc.devRef .tc main_call0_v5) = val_main_call0_v5 (F := F) x0 x2 x3 := by
    rw [← hU']; simp (disch := decide) only [nullary_result', unary_result', binary_result', ternary_result', quaternary_result', reshape_result', f_main_v8, f_main_call0_v4]; exact (cast_18 (F := F) (val_main_v8 (F := F) x0 x2 x3) (val_main_call0_v4 (F := F) x0 x2 x3)).trans rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg4 : U' (Proc.devRef .tc main_arg4) = x4 := by
    rw [← hU']; simp (disch := decide) only [nullary_result_ne', unary_result_ne', binary_result_ne', ternary_result_ne', quaternary_result_ne', reshape_result_ne']; exact f_main_arg4
  have c_main_arg5 : U' (Proc.devRef .tc main_arg5) = x5 := by
    rw [← hU']; simp (disch := decide) only [nullary_result_ne', unary_result_ne', binary_result_ne', ternary_result_ne', quaternary_result_ne', reshape_result_ne']; exact f_main_arg5
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  clear hU' f_main_arg1 f_main_arg4 f_main_arg5 f_main_arg6 f_main_arg7 f_main_v6 f_main_v8 f_main_call0_v4
  clear U; rename' U' => U
  rename' c_main_arg1 => f_main_arg1; rename' c_main_arg4 => f_main_arg4; rename' c_main_arg5 => f_main_arg5; rename' c_main_arg6 => f_main_arg6; rename' c_main_arg7 => f_main_arg7; rename' c_main_v6 => f_main_v6; rename' n_main_call0_v5 => f_main_call0_v5
  -- main_call0_v6 ← main_call0_v5
  rw [after_cons]
  generalize hU' : HloOp.result _ U = U'
  have n_main_call0_v6 : U' (Proc.devRef .tc main_call0_v6) = val_main_call0_v6 (F := F) x0 x2 x3 := by
    rw [← hU']; simp (disch := decide) only [nullary_result', unary_result', binary_result', ternary_result', quaternary_result', reshape_result', f_main_call0_v5]; exact (cast_19 (F := F) (val_main_call0_v5 (F := F) x0 x2 x3)).trans rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg4 : U' (Proc.devRef .tc main_arg4) = x4 := by
    rw [← hU']; simp (disch := decide) only [nullary_result_ne', unary_result_ne', binary_result_ne', ternary_result_ne', quaternary_result_ne', reshape_result_ne']; exact f_main_arg4
  have c_main_arg5 : U' (Proc.devRef .tc main_arg5) = x5 := by
    rw [← hU']; simp (disch := decide) only [nullary_result_ne', unary_result_ne', binary_result_ne', ternary_result_ne', quaternary_result_ne', reshape_result_ne']; exact f_main_arg5
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_call0_v5 : U' (Proc.devRef .tc main_call0_v5) = val_main_call0_v5 (F := F) x0 x2 x3 := by
    rw [← hU']; simp (disch := decide) only [nullary_result_ne', unary_result_ne', binary_result_ne', ternary_result_ne', quaternary_result_ne', reshape_result_ne']; exact f_main_call0_v5
  clear hU' f_main_arg1 f_main_arg4 f_main_arg5 f_main_arg6 f_main_arg7 f_main_v6 f_main_call0_v5
  clear U; rename' U' => U
  rename' c_main_arg1 => f_main_arg1; rename' c_main_arg4 => f_main_arg4; rename' c_main_arg5 => f_main_arg5; rename' c_main_arg6 => f_main_arg6; rename' c_main_arg7 => f_main_arg7; rename' c_main_v6 => f_main_v6; rename' c_main_call0_v5 => f_main_call0_v5; rename' n_main_call0_v6 => f_main_call0_v6
  -- main_call0_cst_1 ← (a constant)
  rw [after_cons]
  generalize hU' : HloOp.result _ U = U'
  have n_main_call0_cst_1 : U' (Proc.devRef .tc main_call0_cst_1) = val_main_call0_cst_1 (F := F) := by
    rw [← hU']; simp (disch := decide) only [nullary_result', unary_result', binary_result', ternary_result', quaternary_result', reshape_result']; exact (cast_20 (F := F)).trans rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg4 : U' (Proc.devRef .tc main_arg4) = x4 := by
    rw [← hU']; simp (disch := decide) only [nullary_result_ne', unary_result_ne', binary_result_ne', ternary_result_ne', quaternary_result_ne', reshape_result_ne']; exact f_main_arg4
  have c_main_arg5 : U' (Proc.devRef .tc main_arg5) = x5 := by
    rw [← hU']; simp (disch := decide) only [nullary_result_ne', unary_result_ne', binary_result_ne', ternary_result_ne', quaternary_result_ne', reshape_result_ne']; exact f_main_arg5
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_call0_v5 : U' (Proc.devRef .tc main_call0_v5) = val_main_call0_v5 (F := F) x0 x2 x3 := by
    rw [← hU']; simp (disch := decide) only [nullary_result_ne', unary_result_ne', binary_result_ne', ternary_result_ne', quaternary_result_ne', reshape_result_ne']; exact f_main_call0_v5
  have c_main_call0_v6 : U' (Proc.devRef .tc main_call0_v6) = val_main_call0_v6 (F := F) x0 x2 x3 := by
    rw [← hU']; simp (disch := decide) only [nullary_result_ne', unary_result_ne', binary_result_ne', ternary_result_ne', quaternary_result_ne', reshape_result_ne']; exact f_main_call0_v6
  clear hU' f_main_arg1 f_main_arg4 f_main_arg5 f_main_arg6 f_main_arg7 f_main_v6 f_main_call0_v5 f_main_call0_v6
  clear U; rename' U' => U
  rename' c_main_arg1 => f_main_arg1; rename' c_main_arg4 => f_main_arg4; rename' c_main_arg5 => f_main_arg5; rename' c_main_arg6 => f_main_arg6; rename' c_main_arg7 => f_main_arg7; rename' c_main_v6 => f_main_v6; rename' c_main_call0_v5 => f_main_call0_v5; rename' c_main_call0_v6 => f_main_call0_v6; rename' n_main_call0_cst_1 => f_main_call0_cst_1
  -- main_call0_v7 ← main_call0_v6, main_call0_cst_1
  rw [after_cons]
  generalize hU' : HloOp.result _ U = U'
  have n_main_call0_v7 : U' (Proc.devRef .tc main_call0_v7) = val_main_call0_v7 (F := F) x0 x2 x3 := by
    rw [← hU']; simp (disch := decide) only [nullary_result', unary_result', binary_result', ternary_result', quaternary_result', reshape_result', f_main_call0_v6, f_main_call0_cst_1]; exact (cast_21 (F := F) (val_main_call0_v6 (F := F) x0 x2 x3) (val_main_call0_cst_1 (F := F))).trans rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg4 : U' (Proc.devRef .tc main_arg4) = x4 := by
    rw [← hU']; simp (disch := decide) only [nullary_result_ne', unary_result_ne', binary_result_ne', ternary_result_ne', quaternary_result_ne', reshape_result_ne']; exact f_main_arg4
  have c_main_arg5 : U' (Proc.devRef .tc main_arg5) = x5 := by
    rw [← hU']; simp (disch := decide) only [nullary_result_ne', unary_result_ne', binary_result_ne', ternary_result_ne', quaternary_result_ne', reshape_result_ne']; exact f_main_arg5
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_call0_v5 : U' (Proc.devRef .tc main_call0_v5) = val_main_call0_v5 (F := F) x0 x2 x3 := by
    rw [← hU']; simp (disch := decide) only [nullary_result_ne', unary_result_ne', binary_result_ne', ternary_result_ne', quaternary_result_ne', reshape_result_ne']; exact f_main_call0_v5
  clear hU' f_main_arg1 f_main_arg4 f_main_arg5 f_main_arg6 f_main_arg7 f_main_v6 f_main_call0_v5 f_main_call0_v6 f_main_call0_cst_1
  clear U; rename' U' => U
  rename' c_main_arg1 => f_main_arg1; rename' c_main_arg4 => f_main_arg4; rename' c_main_arg5 => f_main_arg5; rename' c_main_arg6 => f_main_arg6; rename' c_main_arg7 => f_main_arg7; rename' c_main_v6 => f_main_v6; rename' c_main_call0_v5 => f_main_call0_v5; rename' n_main_call0_v7 => f_main_call0_v7
  -- main_call0_v8 ← main_call0_v7
  rw [after_cons]
  generalize hU' : HloOp.result _ U = U'
  have n_main_call0_v8 : U' (Proc.devRef .tc main_call0_v8) = val_main_call0_v8 (F := F) x0 x2 x3 := by
    rw [← hU']; simp (disch := decide) only [nullary_result', unary_result', binary_result', ternary_result', quaternary_result', reshape_result', f_main_call0_v7]; exact (cast_22 (F := F) (val_main_call0_v7 (F := F) x0 x2 x3)).trans rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg4 : U' (Proc.devRef .tc main_arg4) = x4 := by
    rw [← hU']; simp (disch := decide) only [nullary_result_ne', unary_result_ne', binary_result_ne', ternary_result_ne', quaternary_result_ne', reshape_result_ne']; exact f_main_arg4
  have c_main_arg5 : U' (Proc.devRef .tc main_arg5) = x5 := by
    rw [← hU']; simp (disch := decide) only [nullary_result_ne', unary_result_ne', binary_result_ne', ternary_result_ne', quaternary_result_ne', reshape_result_ne']; exact f_main_arg5
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_call0_v5 : U' (Proc.devRef .tc main_call0_v5) = val_main_call0_v5 (F := F) x0 x2 x3 := by
    rw [← hU']; simp (disch := decide) only [nullary_result_ne', unary_result_ne', binary_result_ne', ternary_result_ne', quaternary_result_ne', reshape_result_ne']; exact f_main_call0_v5
  clear hU' f_main_arg1 f_main_arg4 f_main_arg5 f_main_arg6 f_main_arg7 f_main_v6 f_main_call0_v5 f_main_call0_v7
  clear U; rename' U' => U
  rename' c_main_arg1 => f_main_arg1; rename' c_main_arg4 => f_main_arg4; rename' c_main_arg5 => f_main_arg5; rename' c_main_arg6 => f_main_arg6; rename' c_main_arg7 => f_main_arg7; rename' c_main_v6 => f_main_v6; rename' c_main_call0_v5 => f_main_call0_v5; rename' n_main_call0_v8 => f_main_call0_v8
  -- main_call0_v9 ← main_call0_v8
  rw [after_cons]
  generalize hU' : HloOp.result _ U = U'
  have n_main_call0_v9 : U' (Proc.devRef .tc main_call0_v9) = val_main_call0_v9 (F := F) x0 x2 x3 := by
    rw [← hU']; simp (disch := decide) only [nullary_result', unary_result', binary_result', ternary_result', quaternary_result', reshape_result', f_main_call0_v8]; exact (cast_23 (F := F) (val_main_call0_v8 (F := F) x0 x2 x3)).trans rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg4 : U' (Proc.devRef .tc main_arg4) = x4 := by
    rw [← hU']; simp (disch := decide) only [nullary_result_ne', unary_result_ne', binary_result_ne', ternary_result_ne', quaternary_result_ne', reshape_result_ne']; exact f_main_arg4
  have c_main_arg5 : U' (Proc.devRef .tc main_arg5) = x5 := by
    rw [← hU']; simp (disch := decide) only [nullary_result_ne', unary_result_ne', binary_result_ne', ternary_result_ne', quaternary_result_ne', reshape_result_ne']; exact f_main_arg5
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_call0_v5 : U' (Proc.devRef .tc main_call0_v5) = val_main_call0_v5 (F := F) x0 x2 x3 := by
    rw [← hU']; simp (disch := decide) only [nullary_result_ne', unary_result_ne', binary_result_ne', ternary_result_ne', quaternary_result_ne', reshape_result_ne']; exact f_main_call0_v5
  clear hU' f_main_arg1 f_main_arg4 f_main_arg5 f_main_arg6 f_main_arg7 f_main_v6 f_main_call0_v5 f_main_call0_v8
  clear U; rename' U' => U
  rename' c_main_arg1 => f_main_arg1; rename' c_main_arg4 => f_main_arg4; rename' c_main_arg5 => f_main_arg5; rename' c_main_arg6 => f_main_arg6; rename' c_main_arg7 => f_main_arg7; rename' c_main_v6 => f_main_v6; rename' c_main_call0_v5 => f_main_call0_v5; rename' n_main_call0_v9 => f_main_call0_v9
  simp only [after_nil]
  exact ⟨f_main_arg1, f_main_arg4, f_main_arg5, f_main_arg6, f_main_arg7, f_main_v6, f_main_call0_v5, f_main_call0_v9⟩

set_option maxHeartbeats 400000000 in
/-- Operations 24 to 35 of the line: from the stages of what is read at entry to the stages of what is read after. -/
theorem walk2 (U : Valuation τ sig (Elt F)) (x0 x1 : (⟨S4096, .i32⟩ : BufTy).Contents (Elt F)) (x2 : (⟨S50000x256, .f32⟩ : BufTy).Contents (Elt F)) (x3 : (⟨S2502x256, .f32⟩ : BufTy).Contents (Elt F)) (x4 : (⟨S64x256, .f32⟩ : BufTy).Contents (Elt F)) (x5 : (⟨S7500x64, .f32⟩ : BufTy).Contents (Elt F)) (x6 : (⟨S16x256, .f32⟩ : BufTy).Contents (Elt F)) (x7 : (⟨S40000x16, .f32⟩ : BufTy).Contents (Elt F))
    (f_main_arg1 : U (Proc.devRef .tc main_arg1) = x1)
    (f_main_arg4 : U (Proc.devRef .tc main_arg4) = x4)
    (f_main_arg5 : U (Proc.devRef .tc main_arg5) = x5)
    (f_main_arg6 : U (Proc.devRef .tc main_arg6) = x6)
    (f_main_arg7 : U (Proc.devRef .tc main_arg7) = x7)
    (f_main_v6 : U (Proc.devRef .tc main_v6) = val_main_v6 (F := F) x0 x2)
    (f_main_call0_v5 : U (Proc.devRef .tc main_call0_v5) = val_main_call0_v5 (F := F) x0 x2 x3)
    (f_main_call0_v9 : U (Proc.devRef .tc main_call0_v9) = val_main_call0_v9 (F := F) x0 x2 x3) :
    after (chunk2 (F := F)) U (Proc.devRef .tc main_arg1) = x1
      ∧ after (chunk2 (F := F)) U (Proc.devRef .tc main_arg4) = x4
      ∧ after (chunk2 (F := F)) U (Proc.devRef .tc main_arg5) = x5
      ∧ after (chunk2 (F := F)) U (Proc.devRef .tc main_arg6) = x6
      ∧ after (chunk2 (F := F)) U (Proc.devRef .tc main_arg7) = x7
      ∧ after (chunk2 (F := F)) U (Proc.devRef .tc main_v6) = val_main_v6 (F := F) x0 x2
      ∧ after (chunk2 (F := F)) U (Proc.devRef .tc main_v9) = val_main_v9 (F := F) x0 x2 x3
      ∧ after (chunk2 (F := F)) U (Proc.devRef .tc main_v10) = val_main_v10 (F := F)
      ∧ after (chunk2 (F := F)) U (Proc.devRef .tc main_v11) = val_main_v11 (F := F) x1
      ∧ after (chunk2 (F := F)) U (Proc.devRef .tc main_c_3) = val_main_c_3 (F := F) := by
  simp only [chunk2, ops, List.drop_succ_cons, List.drop_zero, List.take_succ_cons, List.take_zero]
  -- main_call0_v10 ← main_call0_v9
  rw [after_cons]
  generalize hU' : HloOp.result _ U = U'
  have n_main_call0_v10 : U' (Proc.devRef .tc main_call0_v10) = val_main_call0_v10 (F := F) x0 x2 x3 := by
    rw [← hU']; simp (disch := decide) only [nullary_result', unary_result', binary_result', ternary_result', quaternary_result', reshape_result', f_main_call0_v9]; exact (cast_24 (F := F) (val_main_call0_v9 (F := F) x0 x2 x3)).trans rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg4 : U' (Proc.devRef .tc main_arg4) = x4 := by
    rw [← hU']; simp (disch := decide) only [nullary_result_ne', unary_result_ne', binary_result_ne', ternary_result_ne', quaternary_result_ne', reshape_result_ne']; exact f_main_arg4
  have c_main_arg5 : U' (Proc.devRef .tc main_arg5) = x5 := by
    rw [← hU']; simp (disch := decide) only [nullary_result_ne', unary_result_ne', binary_result_ne', ternary_result_ne', quaternary_result_ne', reshape_result_ne']; exact f_main_arg5
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_call0_v5 : U' (Proc.devRef .tc main_call0_v5) = val_main_call0_v5 (F := F) x0 x2 x3 := by
    rw [← hU']; simp (disch := decide) only [nullary_result_ne', unary_result_ne', binary_result_ne', ternary_result_ne', quaternary_result_ne', reshape_result_ne']; exact f_main_call0_v5
  clear hU' f_main_arg1 f_main_arg4 f_main_arg5 f_main_arg6 f_main_arg7 f_main_v6 f_main_call0_v5 f_main_call0_v9
  clear U; rename' U' => U
  rename' c_main_arg1 => f_main_arg1; rename' c_main_arg4 => f_main_arg4; rename' c_main_arg5 => f_main_arg5; rename' c_main_arg6 => f_main_arg6; rename' c_main_arg7 => f_main_arg7; rename' c_main_v6 => f_main_v6; rename' c_main_call0_v5 => f_main_call0_v5; rename' n_main_call0_v10 => f_main_call0_v10
  -- main_v9 ← main_call0_v5, main_call0_v10
  rw [after_cons]
  generalize hU' : HloOp.result _ U = U'
  have n_main_v9 : U' (Proc.devRef .tc main_v9) = val_main_v9 (F := F) x0 x2 x3 := by
    rw [← hU']; simp (disch := decide) only [nullary_result', unary_result', binary_result', ternary_result', quaternary_result', reshape_result', f_main_call0_v5, f_main_call0_v10]; exact (cast_25 (F := F) (val_main_call0_v5 (F := F) x0 x2 x3) (val_main_call0_v10 (F := F) x0 x2 x3)).trans rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg4 : U' (Proc.devRef .tc main_arg4) = x4 := by
    rw [← hU']; simp (disch := decide) only [nullary_result_ne', unary_result_ne', binary_result_ne', ternary_result_ne', quaternary_result_ne', reshape_result_ne']; exact f_main_arg4
  have c_main_arg5 : U' (Proc.devRef .tc main_arg5) = x5 := by
    rw [← hU']; simp (disch := decide) only [nullary_result_ne', unary_result_ne', binary_result_ne', ternary_result_ne', quaternary_result_ne', reshape_result_ne']; exact f_main_arg5
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  clear hU' f_main_arg1 f_main_arg4 f_main_arg5 f_main_arg6 f_main_arg7 f_main_v6 f_main_call0_v5 f_main_call0_v10
  clear U; rename' U' => U
  rename' c_main_arg1 => f_main_arg1; rename' c_main_arg4 => f_main_arg4; rename' c_main_arg5 => f_main_arg5; rename' c_main_arg6 => f_main_arg6; rename' c_main_arg7 => f_main_arg7; rename' c_main_v6 => f_main_v6; rename' n_main_v9 => f_main_v9
  -- main_v10 ← (a constant)
  rw [after_cons]
  generalize hU' : HloOp.result _ U = U'
  have n_main_v10 : U' (Proc.devRef .tc main_v10) = val_main_v10 (F := F) := by
    rw [← hU']; simp (disch := decide) only [nullary_result', unary_result', binary_result', ternary_result', quaternary_result', reshape_result']; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg4 : U' (Proc.devRef .tc main_arg4) = x4 := by
    rw [← hU']; simp (disch := decide) only [nullary_result_ne', unary_result_ne', binary_result_ne', ternary_result_ne', quaternary_result_ne', reshape_result_ne']; exact f_main_arg4
  have c_main_arg5 : U' (Proc.devRef .tc main_arg5) = x5 := by
    rw [← hU']; simp (disch := decide) only [nullary_result_ne', unary_result_ne', binary_result_ne', ternary_result_ne', quaternary_result_ne', reshape_result_ne']; exact f_main_arg5
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  clear hU' f_main_arg1 f_main_arg4 f_main_arg5 f_main_arg6 f_main_arg7 f_main_v6 f_main_v9
  clear U; rename' U' => U
  rename' c_main_arg1 => f_main_arg1; rename' c_main_arg4 => f_main_arg4; rename' c_main_arg5 => f_main_arg5; rename' c_main_arg6 => f_main_arg6; rename' c_main_arg7 => f_main_arg7; rename' c_main_v6 => f_main_v6; rename' c_main_v9 => f_main_v9; rename' n_main_v10 => f_main_v10
  -- main_c_1 ← (a constant)
  rw [after_cons]
  generalize hU' : HloOp.result _ U = U'
  have n_main_c_1 : U' (Proc.devRef .tc main_c_1) = val_main_c_1 (F := F) := by
    rw [← hU']; simp (disch := decide) only [nullary_result', unary_result', binary_result', ternary_result', quaternary_result', reshape_result']; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg4 : U' (Proc.devRef .tc main_arg4) = x4 := by
    rw [← hU']; simp (disch := decide) only [nullary_result_ne', unary_result_ne', binary_result_ne', ternary_result_ne', quaternary_result_ne', reshape_result_ne']; exact f_main_arg4
  have c_main_arg5 : U' (Proc.devRef .tc main_arg5) = x5 := by
    rw [← hU']; simp (disch := decide) only [nullary_result_ne', unary_result_ne', binary_result_ne', ternary_result_ne', quaternary_result_ne', reshape_result_ne']; exact f_main_arg5
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  clear hU' f_main_arg1 f_main_arg4 f_main_arg5 f_main_arg6 f_main_arg7 f_main_v6 f_main_v9 f_main_v10
  clear U; rename' U' => U
  rename' c_main_arg1 => f_main_arg1; rename' c_main_arg4 => f_main_arg4; rename' c_main_arg5 => f_main_arg5; rename' c_main_arg6 => f_main_arg6; rename' c_main_arg7 => f_main_arg7; rename' c_main_v6 => f_main_v6; rename' c_main_v9 => f_main_v9; rename' c_main_v10 => f_main_v10; rename' n_main_c_1 => f_main_c_1
  -- main_c_2 ← (a constant)
  rw [after_cons]
  generalize hU' : HloOp.result _ U = U'
  have n_main_c_2 : U' (Proc.devRef .tc main_c_2) = val_main_c_2 (F := F) := by
    rw [← hU']; simp (disch := decide) only [nullary_result', unary_result', binary_result', ternary_result', quaternary_result', reshape_result']; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg4 : U' (Proc.devRef .tc main_arg4) = x4 := by
    rw [← hU']; simp (disch := decide) only [nullary_result_ne', unary_result_ne', binary_result_ne', ternary_result_ne', quaternary_result_ne', reshape_result_ne']; exact f_main_arg4
  have c_main_arg5 : U' (Proc.devRef .tc main_arg5) = x5 := by
    rw [← hU']; simp (disch := decide) only [nullary_result_ne', unary_result_ne', binary_result_ne', ternary_result_ne', quaternary_result_ne', reshape_result_ne']; exact f_main_arg5
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_c_1 : U' (Proc.devRef .tc main_c_1) = val_main_c_1 (F := F) := by
    rw [← hU']; simp (disch := decide) only [nullary_result_ne', unary_result_ne', binary_result_ne', ternary_result_ne', quaternary_result_ne', reshape_result_ne']; exact f_main_c_1
  clear hU' f_main_arg1 f_main_arg4 f_main_arg5 f_main_arg6 f_main_arg7 f_main_v6 f_main_v9 f_main_v10 f_main_c_1
  clear U; rename' U' => U
  rename' c_main_arg1 => f_main_arg1; rename' c_main_arg4 => f_main_arg4; rename' c_main_arg5 => f_main_arg5; rename' c_main_arg6 => f_main_arg6; rename' c_main_arg7 => f_main_arg7; rename' c_main_v6 => f_main_v6; rename' c_main_v9 => f_main_v9; rename' c_main_v10 => f_main_v10; rename' c_main_c_1 => f_main_c_1; rename' n_main_c_2 => f_main_c_2
  -- main_call1_v0 ← main_c_1
  rw [after_cons]
  generalize hU' : HloOp.result _ U = U'
  have n_main_call1_v0 : U' (Proc.devRef .tc main_call1_v0) = val_main_call1_v0 (F := F) := by
    rw [← hU']; simp (disch := decide) only [nullary_result', unary_result', binary_result', ternary_result', quaternary_result', reshape_result', f_main_c_1]; exact (cast_29 (F := F) (val_main_c_1 (F := F))).trans rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg4 : U' (Proc.devRef .tc main_arg4) = x4 := by
    rw [← hU']; simp (disch := decide) only [nullary_result_ne', unary_result_ne', binary_result_ne', ternary_result_ne', quaternary_result_ne', reshape_result_ne']; exact f_main_arg4
  have c_main_arg5 : U' (Proc.devRef .tc main_arg5) = x5 := by
    rw [← hU']; simp (disch := decide) only [nullary_result_ne', unary_result_ne', binary_result_ne', ternary_result_ne', quaternary_result_ne', reshape_result_ne']; exact f_main_arg5
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_c_2 : U' (Proc.devRef .tc main_c_2) = val_main_c_2 (F := F) := by
    rw [← hU']; simp (disch := decide) only [nullary_result_ne', unary_result_ne', binary_result_ne', ternary_result_ne', quaternary_result_ne', reshape_result_ne']; exact f_main_c_2
  clear hU' f_main_arg1 f_main_arg4 f_main_arg5 f_main_arg6 f_main_arg7 f_main_v6 f_main_v9 f_main_v10 f_main_c_1 f_main_c_2
  clear U; rename' U' => U
  rename' c_main_arg1 => f_main_arg1; rename' c_main_arg4 => f_main_arg4; rename' c_main_arg5 => f_main_arg5; rename' c_main_arg6 => f_main_arg6; rename' c_main_arg7 => f_main_arg7; rename' c_main_v6 => f_main_v6; rename' c_main_v9 => f_main_v9; rename' c_main_v10 => f_main_v10; rename' c_main_c_2 => f_main_c_2; rename' n_main_call1_v0 => f_main_call1_v0
  -- main_call1_v1 ← main_call1_v0
  rw [after_cons]
  generalize hU' : HloOp.result _ U = U'
  have n_main_call1_v1 : U' (Proc.devRef .tc main_call1_v1) = val_main_call1_v1 (F := F) := by
    rw [← hU']; simp (disch := decide) only [nullary_result', unary_result', binary_result', ternary_result', quaternary_result', reshape_result', f_main_call1_v0]; exact (cast_30 (F := F) (val_main_call1_v0 (F := F))).trans rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg4 : U' (Proc.devRef .tc main_arg4) = x4 := by
    rw [← hU']; simp (disch := decide) only [nullary_result_ne', unary_result_ne', binary_result_ne', ternary_result_ne', quaternary_result_ne', reshape_result_ne']; exact f_main_arg4
  have c_main_arg5 : U' (Proc.devRef .tc main_arg5) = x5 := by
    rw [← hU']; simp (disch := decide) only [nullary_result_ne', unary_result_ne', binary_result_ne', ternary_result_ne', quaternary_result_ne', reshape_result_ne']; exact f_main_arg5
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_c_2 : U' (Proc.devRef .tc main_c_2) = val_main_c_2 (F := F) := by
    rw [← hU']; simp (disch := decide) only [nullary_result_ne', unary_result_ne', binary_result_ne', ternary_result_ne', quaternary_result_ne', reshape_result_ne']; exact f_main_c_2
  clear hU' f_main_arg1 f_main_arg4 f_main_arg5 f_main_arg6 f_main_arg7 f_main_v6 f_main_v9 f_main_v10 f_main_c_2 f_main_call1_v0
  clear U; rename' U' => U
  rename' c_main_arg1 => f_main_arg1; rename' c_main_arg4 => f_main_arg4; rename' c_main_arg5 => f_main_arg5; rename' c_main_arg6 => f_main_arg6; rename' c_main_arg7 => f_main_arg7; rename' c_main_v6 => f_main_v6; rename' c_main_v9 => f_main_v9; rename' c_main_v10 => f_main_v10; rename' c_main_c_2 => f_main_c_2; rename' n_main_call1_v1 => f_main_call1_v1
  -- main_call1_v2 ← main_call1_v1, main_arg1
  rw [after_cons]
  generalize hU' : HloOp.result _ U = U'
  have n_main_call1_v2 : U' (Proc.devRef .tc main_call1_v2) = val_main_call1_v2 (F := F) x1 := by
    rw [← hU']; simp (disch := decide) only [nullary_result', unary_result', binary_result', ternary_result', quaternary_result', reshape_result', f_main_call1_v1, f_main_arg1]; exact (cast_31 (F := F) (val_main_call1_v1 (F := F)) (x1)).trans rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg4 : U' (Proc.devRef .tc main_arg4) = x4 := by
    rw [← hU']; simp (disch := decide) only [nullary_result_ne', unary_result_ne', binary_result_ne', ternary_result_ne', quaternary_result_ne', reshape_result_ne']; exact f_main_arg4
  have c_main_arg5 : U' (Proc.devRef .tc main_arg5) = x5 := by
    rw [← hU']; simp (disch := decide) only [nullary_result_ne', unary_result_ne', binary_result_ne', ternary_result_ne', quaternary_result_ne', reshape_result_ne']; exact f_main_arg5
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_c_2 : U' (Proc.devRef .tc main_c_2) = val_main_c_2 (F := F) := by
    rw [← hU']; simp (disch := decide) only [nullary_result_ne', unary_result_ne', binary_result_ne', ternary_result_ne', quaternary_result_ne', reshape_result_ne']; exact f_main_c_2
  clear hU' f_main_arg1 f_main_arg4 f_main_arg5 f_main_arg6 f_main_arg7 f_main_v6 f_main_v9 f_main_v10 f_main_c_2 f_main_call1_v1
  clear U; rename' U' => U
  rename' c_main_arg1 => f_main_arg1; rename' c_main_arg4 => f_main_arg4; rename' c_main_arg5 => f_main_arg5; rename' c_main_arg6 => f_main_arg6; rename' c_main_arg7 => f_main_arg7; rename' c_main_v6 => f_main_v6; rename' c_main_v9 => f_main_v9; rename' c_main_v10 => f_main_v10; rename' c_main_c_2 => f_main_c_2; rename' n_main_call1_v2 => f_main_call1_v2
  -- main_call1_v3 ← main_c_2
  rw [after_cons]
  generalize hU' : HloOp.result _ U = U'
  have n_main_call1_v3 : U' (Proc.devRef .tc main_call1_v3) = val_main_call1_v3 (F := F) := by
    rw [← hU']; simp (disch := decide) only [nullary_result', unary_result', binary_result', ternary_result', quaternary_result', reshape_result', f_main_c_2]; exact (cast_32 (F := F) (val_main_c_2 (F := F))).trans rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg4 : U' (Proc.devRef .tc main_arg4) = x4 := by
    rw [← hU']; simp (disch := decide) only [nullary_result_ne', unary_result_ne', binary_result_ne', ternary_result_ne', quaternary_result_ne', reshape_result_ne']; exact f_main_arg4
  have c_main_arg5 : U' (Proc.devRef .tc main_arg5) = x5 := by
    rw [← hU']; simp (disch := decide) only [nullary_result_ne', unary_result_ne', binary_result_ne', ternary_result_ne', quaternary_result_ne', reshape_result_ne']; exact f_main_arg5
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_call1_v2 : U' (Proc.devRef .tc main_call1_v2) = val_main_call1_v2 (F := F) x1 := by
    rw [← hU']; simp (disch := decide) only [nullary_result_ne', unary_result_ne', binary_result_ne', ternary_result_ne', quaternary_result_ne', reshape_result_ne']; exact f_main_call1_v2
  clear hU' f_main_arg1 f_main_arg4 f_main_arg5 f_main_arg6 f_main_arg7 f_main_v6 f_main_v9 f_main_v10 f_main_c_2 f_main_call1_v2
  clear U; rename' U' => U
  rename' c_main_arg1 => f_main_arg1; rename' c_main_arg4 => f_main_arg4; rename' c_main_arg5 => f_main_arg5; rename' c_main_arg6 => f_main_arg6; rename' c_main_arg7 => f_main_arg7; rename' c_main_v6 => f_main_v6; rename' c_main_v9 => f_main_v9; rename' c_main_v10 => f_main_v10; rename' c_main_call1_v2 => f_main_call1_v2; rename' n_main_call1_v3 => f_main_call1_v3
  -- main_call1_v4 ← main_call1_v3
  rw [after_cons]
  generalize hU' : HloOp.result _ U = U'
  have n_main_call1_v4 : U' (Proc.devRef .tc main_call1_v4) = val_main_call1_v4 (F := F) := by
    rw [← hU']; simp (disch := decide) only [nullary_result', unary_result', binary_result', ternary_result', quaternary_result', reshape_result', f_main_call1_v3]; exact (cast_33 (F := F) (val_main_call1_v3 (F := F))).trans rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg4 : U' (Proc.devRef .tc main_arg4) = x4 := by
    rw [← hU']; simp (disch := decide) only [nullary_result_ne', unary_result_ne', binary_result_ne', ternary_result_ne', quaternary_result_ne', reshape_result_ne']; exact f_main_arg4
  have c_main_arg5 : U' (Proc.devRef .tc main_arg5) = x5 := by
    rw [← hU']; simp (disch := decide) only [nullary_result_ne', unary_result_ne', binary_result_ne', ternary_result_ne', quaternary_result_ne', reshape_result_ne']; exact f_main_arg5
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_call1_v2 : U' (Proc.devRef .tc main_call1_v2) = val_main_call1_v2 (F := F) x1 := by
    rw [← hU']; simp (disch := decide) only [nullary_result_ne', unary_result_ne', binary_result_ne', ternary_result_ne', quaternary_result_ne', reshape_result_ne']; exact f_main_call1_v2
  clear hU' f_main_arg1 f_main_arg4 f_main_arg5 f_main_arg6 f_main_arg7 f_main_v6 f_main_v9 f_main_v10 f_main_call1_v2 f_main_call1_v3
  clear U; rename' U' => U
  rename' c_main_arg1 => f_main_arg1; rename' c_main_arg4 => f_main_arg4; rename' c_main_arg5 => f_main_arg5; rename' c_main_arg6 => f_main_arg6; rename' c_main_arg7 => f_main_arg7; rename' c_main_v6 => f_main_v6; rename' c_main_v9 => f_main_v9; rename' c_main_v10 => f_main_v10; rename' c_main_call1_v2 => f_main_call1_v2; rename' n_main_call1_v4 => f_main_call1_v4
  -- main_v11 ← main_call1_v4, main_call1_v2
  rw [after_cons]
  generalize hU' : HloOp.result _ U = U'
  have n_main_v11 : U' (Proc.devRef .tc main_v11) = val_main_v11 (F := F) x1 := by
    rw [← hU']; simp (disch := decide) only [nullary_result', unary_result', binary_result', ternary_result', quaternary_result', reshape_result', f_main_call1_v4, f_main_call1_v2]; exact (cast_34 (F := F) (val_main_call1_v4 (F := F)) (val_main_call1_v2 (F := F) x1)).trans rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg4 : U' (Proc.devRef .tc main_arg4) = x4 := by
    rw [← hU']; simp (disch := decide) only [nullary_result_ne', unary_result_ne', binary_result_ne', ternary_result_ne', quaternary_result_ne', reshape_result_ne']; exact f_main_arg4
  have c_main_arg5 : U' (Proc.devRef .tc main_arg5) = x5 := by
    rw [← hU']; simp (disch := decide) only [nullary_result_ne', unary_result_ne', binary_result_ne', ternary_result_ne', quaternary_result_ne', reshape_result_ne']; exact f_main_arg5
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  clear hU' f_main_arg1 f_main_arg4 f_main_arg5 f_main_arg6 f_main_arg7 f_main_v6 f_main_v9 f_main_v10 f_main_call1_v2 f_main_call1_v4
  clear U; rename' U' => U
  rename' c_main_arg1 => f_main_arg1; rename' c_main_arg4 => f_main_arg4; rename' c_main_arg5 => f_main_arg5; rename' c_main_arg6 => f_main_arg6; rename' c_main_arg7 => f_main_arg7; rename' c_main_v6 => f_main_v6; rename' c_main_v9 => f_main_v9; rename' c_main_v10 => f_main_v10; rename' n_main_v11 => f_main_v11
  -- main_c_3 ← (a constant)
  rw [after_cons]
  generalize hU' : HloOp.result _ U = U'
  have n_main_c_3 : U' (Proc.devRef .tc main_c_3) = val_main_c_3 (F := F) := by
    rw [← hU']; simp (disch := decide) only [nullary_result', unary_result', binary_result', ternary_result', quaternary_result', reshape_result']; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg4 : U' (Proc.devRef .tc main_arg4) = x4 := by
    rw [← hU']; simp (disch := decide) only [nullary_result_ne', unary_result_ne', binary_result_ne', ternary_result_ne', quaternary_result_ne', reshape_result_ne']; exact f_main_arg4
  have c_main_arg5 : U' (Proc.devRef .tc main_arg5) = x5 := by
    rw [← hU']; simp (disch := decide) only [nullary_result_ne', unary_result_ne', binary_result_ne', ternary_result_ne', quaternary_result_ne', reshape_result_ne']; exact f_main_arg5
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v11 : U' (Proc.devRef .tc main_v11) = val_main_v11 (F := F) x1 := by
    rw [← hU']; simp (disch := decide) only [nullary_result_ne', unary_result_ne', binary_result_ne', ternary_result_ne', quaternary_result_ne', reshape_result_ne']; exact f_main_v11
  clear hU' f_main_arg1 f_main_arg4 f_main_arg5 f_main_arg6 f_main_arg7 f_main_v6 f_main_v9 f_main_v10 f_main_v11
  clear U; rename' U' => U
  rename' c_main_arg1 => f_main_arg1; rename' c_main_arg4 => f_main_arg4; rename' c_main_arg5 => f_main_arg5; rename' c_main_arg6 => f_main_arg6; rename' c_main_arg7 => f_main_arg7; rename' c_main_v6 => f_main_v6; rename' c_main_v9 => f_main_v9; rename' c_main_v10 => f_main_v10; rename' c_main_v11 => f_main_v11; rename' n_main_c_3 => f_main_c_3
  simp only [after_nil]
  exact ⟨f_main_arg1, f_main_arg4, f_main_arg5, f_main_arg6, f_main_arg7, f_main_v6, f_main_v9, f_main_v10, f_main_v11, f_main_c_3⟩

set_option maxHeartbeats 400000000 in
/-- Operations 36 to 47 of the line: from the stages of what is read at entry to the stages of what is read after. -/
theorem walk3 (U : Valuation τ sig (Elt F)) (x0 x1 : (⟨S4096, .i32⟩ : BufTy).Contents (Elt F)) (x2 : (⟨S50000x256, .f32⟩ : BufTy).Contents (Elt F)) (x3 : (⟨S2502x256, .f32⟩ : BufTy).Contents (Elt F)) (x4 : (⟨S64x256, .f32⟩ : BufTy).Contents (Elt F)) (x5 : (⟨S7500x64, .f32⟩ : BufTy).Contents (Elt F)) (x6 : (⟨S16x256, .f32⟩ : BufTy).Contents (Elt F)) (x7 : (⟨S40000x16, .f32⟩ : BufTy).Contents (Elt F))
    (f_main_arg1 : U (Proc.devRef .tc main_arg1) = x1)
    (f_main_arg4 : U (Proc.devRef .tc main_arg4) = x4)
    (f_main_arg5 : U (Proc.devRef .tc main_arg5) = x5)
    (f_main_arg6 : U (Proc.devRef .tc main_arg6) = x6)
    (f_main_arg7 : U (Proc.devRef .tc main_arg7) = x7)
    (f_main_v6 : U (Proc.devRef .tc main_v6) = val_main_v6 (F := F) x0 x2)
    (f_main_v9 : U (Proc.devRef .tc main_v9) = val_main_v9 (F := F) x0 x2 x3)
    (f_main_v10 : U (Proc.devRef .tc main_v10) = val_main_v10 (F := F))
    (f_main_v11 : U (Proc.devRef .tc main_v11) = val_main_v11 (F := F) x1)
    (f_main_c_3 : U (Proc.devRef .tc main_c_3) = val_main_c_3 (F := F)) :
    after (chunk3 (F := F)) U (Proc.devRef .tc main_arg1) = x1
      ∧ after (chunk3 (F := F)) U (Proc.devRef .tc main_arg4) = x4
      ∧ after (chunk3 (F := F)) U (Proc.devRef .tc main_arg5) = x5
      ∧ after (chunk3 (F := F)) U (Proc.devRef .tc main_arg6) = x6
      ∧ after (chunk3 (F := F)) U (Proc.devRef .tc main_arg7) = x7
      ∧ after (chunk3 (F := F)) U (Proc.devRef .tc main_v6) = val_main_v6 (F := F) x0 x2
      ∧ after (chunk3 (F := F)) U (Proc.devRef .tc main_v9) = val_main_v9 (F := F) x0 x2 x3
      ∧ after (chunk3 (F := F)) U (Proc.devRef .tc main_v10) = val_main_v10 (F := F)
      ∧ after (chunk3 (F := F)) U (Proc.devRef .tc main_v11) = val_main_v11 (F := F) x1
      ∧ after (chunk3 (F := F)) U (Proc.devRef .tc main_v16) = val_main_v16 (F := F)
      ∧ after (chunk3 (F := F)) U (Proc.devRef .tc main_v18) = val_main_v18 (F := F) x1
      ∧ after (chunk3 (F := F)) U (Proc.devRef .tc main_v20) = val_main_v20 (F := F) x1 := by
  simp only [chunk3, ops, List.drop_succ_cons, List.drop_zero, List.take_succ_cons, List.take_zero]
  -- main_v12 ← main_c_3
  rw [after_cons]
  generalize hU' : HloOp.result _ U = U'
  have n_main_v12 : U' (Proc.devRef .tc main_v12) = val_main_v12 (F := F) := by
    rw [← hU']; simp (disch := decide) only [nullary_result', unary_result', binary_result', ternary_result', quaternary_result', reshape_result', f_main_c_3]; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg4 : U' (Proc.devRef .tc main_arg4) = x4 := by
    rw [← hU']; simp (disch := decide) only [nullary_result_ne', unary_result_ne', binary_result_ne', ternary_result_ne', quaternary_result_ne', reshape_result_ne']; exact f_main_arg4
  have c_main_arg5 : U' (Proc.devRef .tc main_arg5) = x5 := by
    rw [← hU']; simp (disch := decide) only [nullary_result_ne', unary_result_ne', binary_result_ne', ternary_result_ne', quaternary_result_ne', reshape_result_ne']; exact f_main_arg5
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v11 : U' (Proc.devRef .tc main_v11) = val_main_v11 (F := F) x1 := by
    rw [← hU']; simp (disch := decide) only [nullary_result_ne', unary_result_ne', binary_result_ne', ternary_result_ne', quaternary_result_ne', reshape_result_ne']; exact f_main_v11
  clear hU' f_main_arg1 f_main_arg4 f_main_arg5 f_main_arg6 f_main_arg7 f_main_v6 f_main_v9 f_main_v10 f_main_v11 f_main_c_3
  clear U; rename' U' => U
  rename' c_main_arg1 => f_main_arg1; rename' c_main_arg4 => f_main_arg4; rename' c_main_arg5 => f_main_arg5; rename' c_main_arg6 => f_main_arg6; rename' c_main_arg7 => f_main_arg7; rename' c_main_v6 => f_main_v6; rename' c_main_v9 => f_main_v9; rename' c_main_v10 => f_main_v10; rename' c_main_v11 => f_main_v11; rename' n_main_v12 => f_main_v12
  -- main_v13 ← main_v10, main_v12
  rw [after_cons]
  generalize hU' : HloOp.result _ U = U'
  have n_main_v13 : U' (Proc.devRef .tc main_v13) = val_main_v13 (F := F) := by
    rw [← hU']; simp (disch := decide) only [nullary_result', unary_result', binary_result', ternary_result', quaternary_result', reshape_result', f_main_v10, f_main_v12]; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg4 : U' (Proc.devRef .tc main_arg4) = x4 := by
    rw [← hU']; simp (disch := decide) only [nullary_result_ne', unary_result_ne', binary_result_ne', ternary_result_ne', quaternary_result_ne', reshape_result_ne']; exact f_main_arg4
  have c_main_arg5 : U' (Proc.devRef .tc main_arg5) = x5 := by
    rw [← hU']; simp (disch := decide) only [nullary_result_ne', unary_result_ne', binary_result_ne', ternary_result_ne', quaternary_result_ne', reshape_result_ne']; exact f_main_arg5
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v11 : U' (Proc.devRef .tc main_v11) = val_main_v11 (F := F) x1 := by
    rw [← hU']; simp (disch := decide) only [nullary_result_ne', unary_result_ne', binary_result_ne', ternary_result_ne', quaternary_result_ne', reshape_result_ne']; exact f_main_v11
  clear hU' f_main_arg1 f_main_arg4 f_main_arg5 f_main_arg6 f_main_arg7 f_main_v6 f_main_v9 f_main_v10 f_main_v11 f_main_v12
  clear U; rename' U' => U
  rename' c_main_arg1 => f_main_arg1; rename' c_main_arg4 => f_main_arg4; rename' c_main_arg5 => f_main_arg5; rename' c_main_arg6 => f_main_arg6; rename' c_main_arg7 => f_main_arg7; rename' c_main_v6 => f_main_v6; rename' c_main_v9 => f_main_v9; rename' c_main_v10 => f_main_v10; rename' c_main_v11 => f_main_v11; rename' n_main_v13 => f_main_v13
  -- main_c_4 ← (a constant)
  rw [after_cons]
  generalize hU' : HloOp.result _ U = U'
  have n_main_c_4 : U' (Proc.devRef .tc main_c_4) = val_main_c_4 (F := F) := by
    rw [← hU']; simp (disch := decide) only [nullary_result', unary_result', binary_result', ternary_result', quaternary_result', reshape_result']; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg4 : U' (Proc.devRef .tc main_arg4) = x4 := by
    rw [← hU']; simp (disch := decide) only [nullary_result_ne', unary_result_ne', binary_result_ne', ternary_result_ne', quaternary_result_ne', reshape_result_ne']; exact f_main_arg4
  have c_main_arg5 : U' (Proc.devRef .tc main_arg5) = x5 := by
    rw [← hU']; simp (disch := decide) only [nullary_result_ne', unary_result_ne', binary_result_ne', ternary_result_ne', quaternary_result_ne', reshape_result_ne']; exact f_main_arg5
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v11 : U' (Proc.devRef .tc main_v11) = val_main_v11 (F := F) x1 := by
    rw [← hU']; simp (disch := decide) only [nullary_result_ne', unary_result_ne', binary_result_ne', ternary_result_ne', quaternary_result_ne', reshape_result_ne']; exact f_main_v11
  have c_main_v13 : U' (Proc.devRef .tc main_v13) = val_main_v13 (F := F) := by
    rw [← hU']; simp (disch := decide) only [nullary_result_ne', unary_result_ne', binary_result_ne', ternary_result_ne', quaternary_result_ne', reshape_result_ne']; exact f_main_v13
  clear hU' f_main_arg1 f_main_arg4 f_main_arg5 f_main_arg6 f_main_arg7 f_main_v6 f_main_v9 f_main_v10 f_main_v11 f_main_v13
  clear U; rename' U' => U
  rename' c_main_arg1 => f_main_arg1; rename' c_main_arg4 => f_main_arg4; rename' c_main_arg5 => f_main_arg5; rename' c_main_arg6 => f_main_arg6; rename' c_main_arg7 => f_main_arg7; rename' c_main_v6 => f_main_v6; rename' c_main_v9 => f_main_v9; rename' c_main_v10 => f_main_v10; rename' c_main_v11 => f_main_v11; rename' c_main_v13 => f_main_v13; rename' n_main_c_4 => f_main_c_4
  -- main_v14 ← main_c_4
  rw [after_cons]
  generalize hU' : HloOp.result _ U = U'
  have n_main_v14 : U' (Proc.devRef .tc main_v14) = val_main_v14 (F := F) := by
    rw [← hU']; simp (disch := decide) only [nullary_result', unary_result', binary_result', ternary_result', quaternary_result', reshape_result', f_main_c_4]; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg4 : U' (Proc.devRef .tc main_arg4) = x4 := by
    rw [← hU']; simp (disch := decide) only [nullary_result_ne', unary_result_ne', binary_result_ne', ternary_result_ne', quaternary_result_ne', reshape_result_ne']; exact f_main_arg4
  have c_main_arg5 : U' (Proc.devRef .tc main_arg5) = x5 := by
    rw [← hU']; simp (disch := decide) only [nullary_result_ne', unary_result_ne', binary_result_ne', ternary_result_ne', quaternary_result_ne', reshape_result_ne']; exact f_main_arg5
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v11 : U' (Proc.devRef .tc main_v11) = val_main_v11 (F := F) x1 := by
    rw [← hU']; simp (disch := decide) only [nullary_result_ne', unary_result_ne', binary_result_ne', ternary_result_ne', quaternary_result_ne', reshape_result_ne']; exact f_main_v11
  have c_main_v13 : U' (Proc.devRef .tc main_v13) = val_main_v13 (F := F) := by
    rw [← hU']; simp (disch := decide) only [nullary_result_ne', unary_result_ne', binary_result_ne', ternary_result_ne', quaternary_result_ne', reshape_result_ne']; exact f_main_v13
  clear hU' f_main_arg1 f_main_arg4 f_main_arg5 f_main_arg6 f_main_arg7 f_main_v6 f_main_v9 f_main_v10 f_main_v11 f_main_v13 f_main_c_4
  clear U; rename' U' => U
  rename' c_main_arg1 => f_main_arg1; rename' c_main_arg4 => f_main_arg4; rename' c_main_arg5 => f_main_arg5; rename' c_main_arg6 => f_main_arg6; rename' c_main_arg7 => f_main_arg7; rename' c_main_v6 => f_main_v6; rename' c_main_v9 => f_main_v9; rename' c_main_v10 => f_main_v10; rename' c_main_v11 => f_main_v11; rename' c_main_v13 => f_main_v13; rename' n_main_v14 => f_main_v14
  -- main_v15 ← main_v10, main_v14
  rw [after_cons]
  generalize hU' : HloOp.result _ U = U'
  have n_main_v15 : U' (Proc.devRef .tc main_v15) = val_main_v15 (F := F) := by
    rw [← hU']; simp (disch := decide) only [nullary_result', unary_result', binary_result', ternary_result', quaternary_result', reshape_result', f_main_v10, f_main_v14]; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg4 : U' (Proc.devRef .tc main_arg4) = x4 := by
    rw [← hU']; simp (disch := decide) only [nullary_result_ne', unary_result_ne', binary_result_ne', ternary_result_ne', quaternary_result_ne', reshape_result_ne']; exact f_main_arg4
  have c_main_arg5 : U' (Proc.devRef .tc main_arg5) = x5 := by
    rw [← hU']; simp (disch := decide) only [nullary_result_ne', unary_result_ne', binary_result_ne', ternary_result_ne', quaternary_result_ne', reshape_result_ne']; exact f_main_arg5
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v11 : U' (Proc.devRef .tc main_v11) = val_main_v11 (F := F) x1 := by
    rw [← hU']; simp (disch := decide) only [nullary_result_ne', unary_result_ne', binary_result_ne', ternary_result_ne', quaternary_result_ne', reshape_result_ne']; exact f_main_v11
  have c_main_v13 : U' (Proc.devRef .tc main_v13) = val_main_v13 (F := F) := by
    rw [← hU']; simp (disch := decide) only [nullary_result_ne', unary_result_ne', binary_result_ne', ternary_result_ne', quaternary_result_ne', reshape_result_ne']; exact f_main_v13
  clear hU' f_main_arg1 f_main_arg4 f_main_arg5 f_main_arg6 f_main_arg7 f_main_v6 f_main_v9 f_main_v10 f_main_v11 f_main_v13 f_main_v14
  clear U; rename' U' => U
  rename' c_main_arg1 => f_main_arg1; rename' c_main_arg4 => f_main_arg4; rename' c_main_arg5 => f_main_arg5; rename' c_main_arg6 => f_main_arg6; rename' c_main_arg7 => f_main_arg7; rename' c_main_v6 => f_main_v6; rename' c_main_v9 => f_main_v9; rename' c_main_v10 => f_main_v10; rename' c_main_v11 => f_main_v11; rename' c_main_v13 => f_main_v13; rename' n_main_v15 => f_main_v15
  -- main_v16 ← main_v13, main_v15, main_v10
  rw [after_cons]
  generalize hU' : HloOp.result _ U = U'
  have n_main_v16 : U' (Proc.devRef .tc main_v16) = val_main_v16 (F := F) := by
    rw [← hU']; simp (disch := decide) only [nullary_result', unary_result', binary_result', ternary_result', quaternary_result', reshape_result', f_main_v13, f_main_v15, f_main_v10]; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg4 : U' (Proc.devRef .tc main_arg4) = x4 := by
    rw [← hU']; simp (disch := decide) only [nullary_result_ne', unary_result_ne', binary_result_ne', ternary_result_ne', quaternary_result_ne', reshape_result_ne']; exact f_main_arg4
  have c_main_arg5 : U' (Proc.devRef .tc main_arg5) = x5 := by
    rw [← hU']; simp (disch := decide) only [nullary_result_ne', unary_result_ne', binary_result_ne', ternary_result_ne', quaternary_result_ne', reshape_result_ne']; exact f_main_arg5
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v11 : U' (Proc.devRef .tc main_v11) = val_main_v11 (F := F) x1 := by
    rw [← hU']; simp (disch := decide) only [nullary_result_ne', unary_result_ne', binary_result_ne', ternary_result_ne', quaternary_result_ne', reshape_result_ne']; exact f_main_v11
  clear hU' f_main_arg1 f_main_arg4 f_main_arg5 f_main_arg6 f_main_arg7 f_main_v6 f_main_v9 f_main_v10 f_main_v11 f_main_v13 f_main_v15
  clear U; rename' U' => U
  rename' c_main_arg1 => f_main_arg1; rename' c_main_arg4 => f_main_arg4; rename' c_main_arg5 => f_main_arg5; rename' c_main_arg6 => f_main_arg6; rename' c_main_arg7 => f_main_arg7; rename' c_main_v6 => f_main_v6; rename' c_main_v9 => f_main_v9; rename' c_main_v10 => f_main_v10; rename' c_main_v11 => f_main_v11; rename' n_main_v16 => f_main_v16
  -- main_c_5 ← (a constant)
  rw [after_cons]
  generalize hU' : HloOp.result _ U = U'
  have n_main_c_5 : U' (Proc.devRef .tc main_c_5) = val_main_c_5 (F := F) := by
    rw [← hU']; simp (disch := decide) only [nullary_result', unary_result', binary_result', ternary_result', quaternary_result', reshape_result']; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg4 : U' (Proc.devRef .tc main_arg4) = x4 := by
    rw [← hU']; simp (disch := decide) only [nullary_result_ne', unary_result_ne', binary_result_ne', ternary_result_ne', quaternary_result_ne', reshape_result_ne']; exact f_main_arg4
  have c_main_arg5 : U' (Proc.devRef .tc main_arg5) = x5 := by
    rw [← hU']; simp (disch := decide) only [nullary_result_ne', unary_result_ne', binary_result_ne', ternary_result_ne', quaternary_result_ne', reshape_result_ne']; exact f_main_arg5
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v11 : U' (Proc.devRef .tc main_v11) = val_main_v11 (F := F) x1 := by
    rw [← hU']; simp (disch := decide) only [nullary_result_ne', unary_result_ne', binary_result_ne', ternary_result_ne', quaternary_result_ne', reshape_result_ne']; exact f_main_v11
  have c_main_v16 : U' (Proc.devRef .tc main_v16) = val_main_v16 (F := F) := by
    rw [← hU']; simp (disch := decide) only [nullary_result_ne', unary_result_ne', binary_result_ne', ternary_result_ne', quaternary_result_ne', reshape_result_ne']; exact f_main_v16
  clear hU' f_main_arg1 f_main_arg4 f_main_arg5 f_main_arg6 f_main_arg7 f_main_v6 f_main_v9 f_main_v10 f_main_v11 f_main_v16
  clear U; rename' U' => U
  rename' c_main_arg1 => f_main_arg1; rename' c_main_arg4 => f_main_arg4; rename' c_main_arg5 => f_main_arg5; rename' c_main_arg6 => f_main_arg6; rename' c_main_arg7 => f_main_arg7; rename' c_main_v6 => f_main_v6; rename' c_main_v9 => f_main_v9; rename' c_main_v10 => f_main_v10; rename' c_main_v11 => f_main_v11; rename' c_main_v16 => f_main_v16; rename' n_main_c_5 => f_main_c_5
  -- main_v17 ← main_c_5
  rw [after_cons]
  generalize hU' : HloOp.result _ U = U'
  have n_main_v17 : U' (Proc.devRef .tc main_v17) = val_main_v17 (F := F) := by
    rw [← hU']; simp (disch := decide) only [nullary_result', unary_result', binary_result', ternary_result', quaternary_result', reshape_result', f_main_c_5]; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg4 : U' (Proc.devRef .tc main_arg4) = x4 := by
    rw [← hU']; simp (disch := decide) only [nullary_result_ne', unary_result_ne', binary_result_ne', ternary_result_ne', quaternary_result_ne', reshape_result_ne']; exact f_main_arg4
  have c_main_arg5 : U' (Proc.devRef .tc main_arg5) = x5 := by
    rw [← hU']; simp (disch := decide) only [nullary_result_ne', unary_result_ne', binary_result_ne', ternary_result_ne', quaternary_result_ne', reshape_result_ne']; exact f_main_arg5
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v11 : U' (Proc.devRef .tc main_v11) = val_main_v11 (F := F) x1 := by
    rw [← hU']; simp (disch := decide) only [nullary_result_ne', unary_result_ne', binary_result_ne', ternary_result_ne', quaternary_result_ne', reshape_result_ne']; exact f_main_v11
  have c_main_v16 : U' (Proc.devRef .tc main_v16) = val_main_v16 (F := F) := by
    rw [← hU']; simp (disch := decide) only [nullary_result_ne', unary_result_ne', binary_result_ne', ternary_result_ne', quaternary_result_ne', reshape_result_ne']; exact f_main_v16
  clear hU' f_main_arg1 f_main_arg4 f_main_arg5 f_main_arg6 f_main_arg7 f_main_v6 f_main_v9 f_main_v10 f_main_v11 f_main_v16 f_main_c_5
  clear U; rename' U' => U
  rename' c_main_arg1 => f_main_arg1; rename' c_main_arg4 => f_main_arg4; rename' c_main_arg5 => f_main_arg5; rename' c_main_arg6 => f_main_arg6; rename' c_main_arg7 => f_main_arg7; rename' c_main_v6 => f_main_v6; rename' c_main_v9 => f_main_v9; rename' c_main_v10 => f_main_v10; rename' c_main_v11 => f_main_v11; rename' c_main_v16 => f_main_v16; rename' n_main_v17 => f_main_v17
  -- main_v18 ← main_v11, main_v17
  rw [after_cons]
  generalize hU' : HloOp.result _ U = U'
  have n_main_v18 : U' (Proc.devRef .tc main_v18) = val_main_v18 (F := F) x1 := by
    rw [← hU']; simp (disch := decide) only [nullary_result', unary_result', binary_result', ternary_result', quaternary_result', reshape_result', f_main_v11, f_main_v17]; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg4 : U' (Proc.devRef .tc main_arg4) = x4 := by
    rw [← hU']; simp (disch := decide) only [nullary_result_ne', unary_result_ne', binary_result_ne', ternary_result_ne', quaternary_result_ne', reshape_result_ne']; exact f_main_arg4
  have c_main_arg5 : U' (Proc.devRef .tc main_arg5) = x5 := by
    rw [← hU']; simp (disch := decide) only [nullary_result_ne', unary_result_ne', binary_result_ne', ternary_result_ne', quaternary_result_ne', reshape_result_ne']; exact f_main_arg5
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v11 : U' (Proc.devRef .tc main_v11) = val_main_v11 (F := F) x1 := by
    rw [← hU']; simp (disch := decide) only [nullary_result_ne', unary_result_ne', binary_result_ne', ternary_result_ne', quaternary_result_ne', reshape_result_ne']; exact f_main_v11
  have c_main_v16 : U' (Proc.devRef .tc main_v16) = val_main_v16 (F := F) := by
    rw [← hU']; simp (disch := decide) only [nullary_result_ne', unary_result_ne', binary_result_ne', ternary_result_ne', quaternary_result_ne', reshape_result_ne']; exact f_main_v16
  clear hU' f_main_arg1 f_main_arg4 f_main_arg5 f_main_arg6 f_main_arg7 f_main_v6 f_main_v9 f_main_v10 f_main_v11 f_main_v16 f_main_v17
  clear U; rename' U' => U
  rename' c_main_arg1 => f_main_arg1; rename' c_main_arg4 => f_main_arg4; rename' c_main_arg5 => f_main_arg5; rename' c_main_arg6 => f_main_arg6; rename' c_main_arg7 => f_main_arg7; rename' c_main_v6 => f_main_v6; rename' c_main_v9 => f_main_v9; rename' c_main_v10 => f_main_v10; rename' c_main_v11 => f_main_v11; rename' c_main_v16 => f_main_v16; rename' n_main_v18 => f_main_v18
  -- main_c_6 ← (a constant)
  rw [after_cons]
  generalize hU' : HloOp.result _ U = U'
  have n_main_c_6 : U' (Proc.devRef .tc main_c_6) = val_main_c_6 (F := F) := by
    rw [← hU']; simp (disch := decide) only [nullary_result', unary_result', binary_result', ternary_result', quaternary_result', reshape_result']; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg4 : U' (Proc.devRef .tc main_arg4) = x4 := by
    rw [← hU']; simp (disch := decide) only [nullary_result_ne', unary_result_ne', binary_result_ne', ternary_result_ne', quaternary_result_ne', reshape_result_ne']; exact f_main_arg4
  have c_main_arg5 : U' (Proc.devRef .tc main_arg5) = x5 := by
    rw [← hU']; simp (disch := decide) only [nullary_result_ne', unary_result_ne', binary_result_ne', ternary_result_ne', quaternary_result_ne', reshape_result_ne']; exact f_main_arg5
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v11 : U' (Proc.devRef .tc main_v11) = val_main_v11 (F := F) x1 := by
    rw [← hU']; simp (disch := decide) only [nullary_result_ne', unary_result_ne', binary_result_ne', ternary_result_ne', quaternary_result_ne', reshape_result_ne']; exact f_main_v11
  have c_main_v16 : U' (Proc.devRef .tc main_v16) = val_main_v16 (F := F) := by
    rw [← hU']; simp (disch := decide) only [nullary_result_ne', unary_result_ne', binary_result_ne', ternary_result_ne', quaternary_result_ne', reshape_result_ne']; exact f_main_v16
  have c_main_v18 : U' (Proc.devRef .tc main_v18) = val_main_v18 (F := F) x1 := by
    rw [← hU']; simp (disch := decide) only [nullary_result_ne', unary_result_ne', binary_result_ne', ternary_result_ne', quaternary_result_ne', reshape_result_ne']; exact f_main_v18
  clear hU' f_main_arg1 f_main_arg4 f_main_arg5 f_main_arg6 f_main_arg7 f_main_v6 f_main_v9 f_main_v10 f_main_v11 f_main_v16 f_main_v18
  clear U; rename' U' => U
  rename' c_main_arg1 => f_main_arg1; rename' c_main_arg4 => f_main_arg4; rename' c_main_arg5 => f_main_arg5; rename' c_main_arg6 => f_main_arg6; rename' c_main_arg7 => f_main_arg7; rename' c_main_v6 => f_main_v6; rename' c_main_v9 => f_main_v9; rename' c_main_v10 => f_main_v10; rename' c_main_v11 => f_main_v11; rename' c_main_v16 => f_main_v16; rename' c_main_v18 => f_main_v18; rename' n_main_c_6 => f_main_c_6
  -- main_v19 ← main_c_6
  rw [after_cons]
  generalize hU' : HloOp.result _ U = U'
  have n_main_v19 : U' (Proc.devRef .tc main_v19) = val_main_v19 (F := F) := by
    rw [← hU']; simp (disch := decide) only [nullary_result', unary_result', binary_result', ternary_result', quaternary_result', reshape_result', f_main_c_6]; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg4 : U' (Proc.devRef .tc main_arg4) = x4 := by
    rw [← hU']; simp (disch := decide) only [nullary_result_ne', unary_result_ne', binary_result_ne', ternary_result_ne', quaternary_result_ne', reshape_result_ne']; exact f_main_arg4
  have c_main_arg5 : U' (Proc.devRef .tc main_arg5) = x5 := by
    rw [← hU']; simp (disch := decide) only [nullary_result_ne', unary_result_ne', binary_result_ne', ternary_result_ne', quaternary_result_ne', reshape_result_ne']; exact f_main_arg5
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v11 : U' (Proc.devRef .tc main_v11) = val_main_v11 (F := F) x1 := by
    rw [← hU']; simp (disch := decide) only [nullary_result_ne', unary_result_ne', binary_result_ne', ternary_result_ne', quaternary_result_ne', reshape_result_ne']; exact f_main_v11
  have c_main_v16 : U' (Proc.devRef .tc main_v16) = val_main_v16 (F := F) := by
    rw [← hU']; simp (disch := decide) only [nullary_result_ne', unary_result_ne', binary_result_ne', ternary_result_ne', quaternary_result_ne', reshape_result_ne']; exact f_main_v16
  have c_main_v18 : U' (Proc.devRef .tc main_v18) = val_main_v18 (F := F) x1 := by
    rw [← hU']; simp (disch := decide) only [nullary_result_ne', unary_result_ne', binary_result_ne', ternary_result_ne', quaternary_result_ne', reshape_result_ne']; exact f_main_v18
  clear hU' f_main_arg1 f_main_arg4 f_main_arg5 f_main_arg6 f_main_arg7 f_main_v6 f_main_v9 f_main_v10 f_main_v11 f_main_v16 f_main_v18 f_main_c_6
  clear U; rename' U' => U
  rename' c_main_arg1 => f_main_arg1; rename' c_main_arg4 => f_main_arg4; rename' c_main_arg5 => f_main_arg5; rename' c_main_arg6 => f_main_arg6; rename' c_main_arg7 => f_main_arg7; rename' c_main_v6 => f_main_v6; rename' c_main_v9 => f_main_v9; rename' c_main_v10 => f_main_v10; rename' c_main_v11 => f_main_v11; rename' c_main_v16 => f_main_v16; rename' c_main_v18 => f_main_v18; rename' n_main_v19 => f_main_v19
  -- main_v20 ← main_v11, main_v19
  rw [after_cons]
  generalize hU' : HloOp.result _ U = U'
  have n_main_v20 : U' (Proc.devRef .tc main_v20) = val_main_v20 (F := F) x1 := by
    rw [← hU']; simp (disch := decide) only [nullary_result', unary_result', binary_result', ternary_result', quaternary_result', reshape_result', f_main_v11, f_main_v19]; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg4 : U' (Proc.devRef .tc main_arg4) = x4 := by
    rw [← hU']; simp (disch := decide) only [nullary_result_ne', unary_result_ne', binary_result_ne', ternary_result_ne', quaternary_result_ne', reshape_result_ne']; exact f_main_arg4
  have c_main_arg5 : U' (Proc.devRef .tc main_arg5) = x5 := by
    rw [← hU']; simp (disch := decide) only [nullary_result_ne', unary_result_ne', binary_result_ne', ternary_result_ne', quaternary_result_ne', reshape_result_ne']; exact f_main_arg5
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v11 : U' (Proc.devRef .tc main_v11) = val_main_v11 (F := F) x1 := by
    rw [← hU']; simp (disch := decide) only [nullary_result_ne', unary_result_ne', binary_result_ne', ternary_result_ne', quaternary_result_ne', reshape_result_ne']; exact f_main_v11
  have c_main_v16 : U' (Proc.devRef .tc main_v16) = val_main_v16 (F := F) := by
    rw [← hU']; simp (disch := decide) only [nullary_result_ne', unary_result_ne', binary_result_ne', ternary_result_ne', quaternary_result_ne', reshape_result_ne']; exact f_main_v16
  have c_main_v18 : U' (Proc.devRef .tc main_v18) = val_main_v18 (F := F) x1 := by
    rw [← hU']; simp (disch := decide) only [nullary_result_ne', unary_result_ne', binary_result_ne', ternary_result_ne', quaternary_result_ne', reshape_result_ne']; exact f_main_v18
  clear hU' f_main_arg1 f_main_arg4 f_main_arg5 f_main_arg6 f_main_arg7 f_main_v6 f_main_v9 f_main_v10 f_main_v11 f_main_v16 f_main_v18 f_main_v19
  clear U; rename' U' => U
  rename' c_main_arg1 => f_main_arg1; rename' c_main_arg4 => f_main_arg4; rename' c_main_arg5 => f_main_arg5; rename' c_main_arg6 => f_main_arg6; rename' c_main_arg7 => f_main_arg7; rename' c_main_v6 => f_main_v6; rename' c_main_v9 => f_main_v9; rename' c_main_v10 => f_main_v10; rename' c_main_v11 => f_main_v11; rename' c_main_v16 => f_main_v16; rename' c_main_v18 => f_main_v18; rename' n_main_v20 => f_main_v20
  simp only [after_nil]
  exact ⟨f_main_arg1, f_main_arg4, f_main_arg5, f_main_arg6, f_main_arg7, f_main_v6, f_main_v9, f_main_v10, f_main_v11, f_main_v16, f_main_v18, f_main_v20⟩

end Cert.ReferenceIdeal.RunP

end
-- ==== Proof.RefRunWalk1.lean ====
/-
  Stretches of the reference's line, read one operation at a time.

  Folding a stretch over a valuation `U` that holds, at each buffer the stretch or a later one reads, that buffer's
  stage, the proof walks the stretch once. At each operation it shows that the one buffer the operation writes holds
  its stage — the operation's function applied to its operands' stages — and that every buffer still read later keeps
  what it held; then it forgets the valuation's history. A callee's operation moves its operands and result between a
  buffer's own type and the value's type; with the operations' functions kept folded, each such step is a transport
  along an equation of equal types, which reduces.
-/
import proofs.«428924_j53884659696080_3_alg».proof.Proof.RefRunCasts

set_option maxRecDepth 65536

noncomputable section

namespace Cert.ReferenceIdeal.RunP

open Cert.ReferenceIdeal Cert.ReferenceIdeal.Gen Idealize.ShloMosaic Idealize.ShloMosaic.TcCoe Idealize.SL.Sem Idealize.ShloMosaic.StableHlo Cert.ReferenceIdeal.ReadP Cert.ReferenceIdeal.ValueP

variable {F : FTy → Type} [FloatOps F]

-- the operations' functions stay folded, so that a transport around one reduces before anything else does
attribute [local irreducible] Host.exp Host.gather Host.log Host.reduce Host.reduceAdd Host.divf Host.negf addf addi broadcastInDim cmpi concatenate constant constantI extractStridedSlice iotaInDim maxsi minsi maximumf select shapeCast subf subi transpose

set_option maxHeartbeats 400000000 in
/-- Operations 48 to 59 of the line: from the stages of what is read at entry to the stages of what is read after. -/
theorem walk4 (U : Valuation τ sig (Elt F)) (x0 x1 : (⟨S4096, .i32⟩ : BufTy).Contents (Elt F)) (x2 : (⟨S50000x256, .f32⟩ : BufTy).Contents (Elt F)) (x3 : (⟨S2502x256, .f32⟩ : BufTy).Contents (Elt F)) (x4 : (⟨S64x256, .f32⟩ : BufTy).Contents (Elt F)) (x5 : (⟨S7500x64, .f32⟩ : BufTy).Contents (Elt F)) (x6 : (⟨S16x256, .f32⟩ : BufTy).Contents (Elt F)) (x7 : (⟨S40000x16, .f32⟩ : BufTy).Contents (Elt F))
    (f_main_arg1 : U (Proc.devRef .tc main_arg1) = x1)
    (f_main_arg4 : U (Proc.devRef .tc main_arg4) = x4)
    (f_main_arg5 : U (Proc.devRef .tc main_arg5) = x5)
    (f_main_arg6 : U (Proc.devRef .tc main_arg6) = x6)
    (f_main_arg7 : U (Proc.devRef .tc main_arg7) = x7)
    (f_main_v6 : U (Proc.devRef .tc main_v6) = val_main_v6 (F := F) x0 x2)
    (f_main_v9 : U (Proc.devRef .tc main_v9) = val_main_v9 (F := F) x0 x2 x3)
    (f_main_v10 : U (Proc.devRef .tc main_v10) = val_main_v10 (F := F))
    (f_main_v11 : U (Proc.devRef .tc main_v11) = val_main_v11 (F := F) x1)
    (f_main_v16 : U (Proc.devRef .tc main_v16) = val_main_v16 (F := F))
    (f_main_v18 : U (Proc.devRef .tc main_v18) = val_main_v18 (F := F) x1)
    (f_main_v20 : U (Proc.devRef .tc main_v20) = val_main_v20 (F := F) x1) :
    after (chunk4 (F := F)) U (Proc.devRef .tc main_arg1) = x1
      ∧ after (chunk4 (F := F)) U (Proc.devRef .tc main_arg6) = x6
      ∧ after (chunk4 (F := F)) U (Proc.devRef .tc main_arg7) = x7
      ∧ after (chunk4 (F := F)) U (Proc.devRef .tc main_v6) = val_main_v6 (F := F) x0 x2
      ∧ after (chunk4 (F := F)) U (Proc.devRef .tc main_v9) = val_main_v9 (F := F) x0 x2 x3
      ∧ after (chunk4 (F := F)) U (Proc.devRef .tc main_v10) = val_main_v10 (F := F)
      ∧ after (chunk4 (F := F)) U (Proc.devRef .tc main_v25) = val_main_v25 (F := F) x0 x1 x2 x3
      ∧ after (chunk4 (F := F)) U (Proc.devRef .tc main_v29) = val_main_v29 (F := F) x0 x2 x4 x5
      ∧ after (chunk4 (F := F)) U (Proc.devRef .tc main_call2_v0) = val_main_call2_v0 (F := F) x0 x2 x4 x5
      ∧ after (chunk4 (F := F)) U (Proc.devRef .tc main_call2_cst_0) = val_main_call2_cst_0 (F := F) := by
  simp only [chunk4, ops, List.drop_succ_cons, List.drop_zero, List.take_succ_cons, List.take_zero]
  -- main_v21 ← main_v18, main_v20, main_v11
  rw [after_cons]
  generalize hU' : HloOp.result _ U = U'
  have n_main_v21 : U' (Proc.devRef .tc main_v21) = val_main_v21 (F := F) x1 := by
    rw [← hU']; simp (disch := decide) only [nullary_result', unary_result', binary_result', ternary_result', quaternary_result', reshape_result', f_main_v18, f_main_v20, f_main_v11]; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg4 : U' (Proc.devRef .tc main_arg4) = x4 := by
    rw [← hU']; simp (disch := decide) only [nullary_result_ne', unary_result_ne', binary_result_ne', ternary_result_ne', quaternary_result_ne', reshape_result_ne']; exact f_main_arg4
  have c_main_arg5 : U' (Proc.devRef .tc main_arg5) = x5 := by
    rw [← hU']; simp (disch := decide) only [nullary_result_ne', unary_result_ne', binary_result_ne', ternary_result_ne', quaternary_result_ne', reshape_result_ne']; exact f_main_arg5
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v16 : U' (Proc.devRef .tc main_v16) = val_main_v16 (F := F) := by
    rw [← hU']; simp (disch := decide) only [nullary_result_ne', unary_result_ne', binary_result_ne', ternary_result_ne', quaternary_result_ne', reshape_result_ne']; exact f_main_v16
  clear hU' f_main_arg1 f_main_arg4 f_main_arg5 f_main_arg6 f_main_arg7 f_main_v6 f_main_v9 f_main_v10 f_main_v11 f_main_v16 f_main_v18 f_main_v20
  clear U; rename' U' => U
  rename' c_main_arg1 => f_main_arg1; rename' c_main_arg4 => f_main_arg4; rename' c_main_arg5 => f_main_arg5; rename' c_main_arg6 => f_main_arg6; rename' c_main_arg7 => f_main_arg7; rename' c_main_v6 => f_main_v6; rename' c_main_v9 => f_main_v9; rename' c_main_v10 => f_main_v10; rename' c_main_v16 => f_main_v16; rename' n_main_v21 => f_main_v21
  -- main_v22 ← main_v16
  rw [after_cons]
  generalize hU' : HloOp.result _ U = U'
  have n_main_v22 : U' (Proc.devRef .tc main_v22) = val_main_v22 (F := F) := by
    rw [← hU']; simp (disch := decide) only [nullary_result', unary_result', binary_result', ternary_result', quaternary_result', reshape_result', f_main_v16]; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg4 : U' (Proc.devRef .tc main_arg4) = x4 := by
    rw [← hU']; simp (disch := decide) only [nullary_result_ne', unary_result_ne', binary_result_ne', ternary_result_ne', quaternary_result_ne', reshape_result_ne']; exact f_main_arg4
  have c_main_arg5 : U' (Proc.devRef .tc main_arg5) = x5 := by
    rw [← hU']; simp (disch := decide) only [nullary_result_ne', unary_result_ne', binary_result_ne', ternary_result_ne', quaternary_result_ne', reshape_result_ne']; exact f_main_arg5
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v21 : U' (Proc.devRef .tc main_v21) = val_main_v21 (F := F) x1 := by
    rw [← hU']; simp (disch := decide) only [nullary_result_ne', unary_result_ne', binary_result_ne', ternary_result_ne', quaternary_result_ne', reshape_result_ne']; exact f_main_v21
  clear hU' f_main_arg1 f_main_arg4 f_main_arg5 f_main_arg6 f_main_arg7 f_main_v6 f_main_v9 f_main_v10 f_main_v16 f_main_v21
  clear U; rename' U' => U
  rename' c_main_arg1 => f_main_arg1; rename' c_main_arg4 => f_main_arg4; rename' c_main_arg5 => f_main_arg5; rename' c_main_arg6 => f_main_arg6; rename' c_main_arg7 => f_main_arg7; rename' c_main_v6 => f_main_v6; rename' c_main_v9 => f_main_v9; rename' c_main_v10 => f_main_v10; rename' c_main_v21 => f_main_v21; rename' n_main_v22 => f_main_v22
  -- main_v23 ← main_v21
  rw [after_cons]
  generalize hU' : HloOp.result _ U = U'
  have n_main_v23 : U' (Proc.devRef .tc main_v23) = val_main_v23 (F := F) x1 := by
    rw [← hU']; simp (disch := decide) only [nullary_result', unary_result', binary_result', ternary_result', quaternary_result', reshape_result', f_main_v21]; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg4 : U' (Proc.devRef .tc main_arg4) = x4 := by
    rw [← hU']; simp (disch := decide) only [nullary_result_ne', unary_result_ne', binary_result_ne', ternary_result_ne', quaternary_result_ne', reshape_result_ne']; exact f_main_arg4
  have c_main_arg5 : U' (Proc.devRef .tc main_arg5) = x5 := by
    rw [← hU']; simp (disch := decide) only [nullary_result_ne', unary_result_ne', binary_result_ne', ternary_result_ne', quaternary_result_ne', reshape_result_ne']; exact f_main_arg5
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v22 : U' (Proc.devRef .tc main_v22) = val_main_v22 (F := F) := by
    rw [← hU']; simp (disch := decide) only [nullary_result_ne', unary_result_ne', binary_result_ne', ternary_result_ne', quaternary_result_ne', reshape_result_ne']; exact f_main_v22
  clear hU' f_main_arg1 f_main_arg4 f_main_arg5 f_main_arg6 f_main_arg7 f_main_v6 f_main_v9 f_main_v10 f_main_v21 f_main_v22
  clear U; rename' U' => U
  rename' c_main_arg1 => f_main_arg1; rename' c_main_arg4 => f_main_arg4; rename' c_main_arg5 => f_main_arg5; rename' c_main_arg6 => f_main_arg6; rename' c_main_arg7 => f_main_arg7; rename' c_main_v6 => f_main_v6; rename' c_main_v9 => f_main_v9; rename' c_main_v10 => f_main_v10; rename' c_main_v22 => f_main_v22; rename' n_main_v23 => f_main_v23
  -- main_v24 ← main_v22, main_v23
  rw [after_cons]
  generalize hU' : HloOp.result _ U = U'
  have n_main_v24 : U' (Proc.devRef .tc main_v24) = val_main_v24 (F := F) x1 := by
    rw [← hU']; simp (disch := decide) only [nullary_result', unary_result', binary_result', ternary_result', quaternary_result', reshape_result']; rw [f_main_v22, f_main_v23]; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg4 : U' (Proc.devRef .tc main_arg4) = x4 := by
    rw [← hU']; simp (disch := decide) only [nullary_result_ne', unary_result_ne', binary_result_ne', ternary_result_ne', quaternary_result_ne', reshape_result_ne']; exact f_main_arg4
  have c_main_arg5 : U' (Proc.devRef .tc main_arg5) = x5 := by
    rw [← hU']; simp (disch := decide) only [nullary_result_ne', unary_result_ne', binary_result_ne', ternary_result_ne', quaternary_result_ne', reshape_result_ne']; exact f_main_arg5
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  clear hU' f_main_arg1 f_main_arg4 f_main_arg5 f_main_arg6 f_main_arg7 f_main_v6 f_main_v9 f_main_v10 f_main_v22 f_main_v23
  clear U; rename' U' => U
  rename' c_main_arg1 => f_main_arg1; rename' c_main_arg4 => f_main_arg4; rename' c_main_arg5 => f_main_arg5; rename' c_main_arg6 => f_main_arg6; rename' c_main_arg7 => f_main_arg7; rename' c_main_v6 => f_main_v6; rename' c_main_v9 => f_main_v9; rename' c_main_v10 => f_main_v10; rename' n_main_v24 => f_main_v24
  -- main_v25 ← main_v9, main_v24
  rw [after_cons]
  generalize hU' : HloOp.result _ U = U'
  have n_main_v25 : U' (Proc.devRef .tc main_v25) = val_main_v25 (F := F) x0 x1 x2 x3 := by
    rw [← hU']; simp (disch := decide) only [nullary_result', unary_result', binary_result', ternary_result', quaternary_result', reshape_result', f_main_v9, f_main_v24]; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg4 : U' (Proc.devRef .tc main_arg4) = x4 := by
    rw [← hU']; simp (disch := decide) only [nullary_result_ne', unary_result_ne', binary_result_ne', ternary_result_ne', quaternary_result_ne', reshape_result_ne']; exact f_main_arg4
  have c_main_arg5 : U' (Proc.devRef .tc main_arg5) = x5 := by
    rw [← hU']; simp (disch := decide) only [nullary_result_ne', unary_result_ne', binary_result_ne', ternary_result_ne', quaternary_result_ne', reshape_result_ne']; exact f_main_arg5
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  clear hU' f_main_arg1 f_main_arg4 f_main_arg5 f_main_arg6 f_main_arg7 f_main_v6 f_main_v9 f_main_v10 f_main_v24
  clear U; rename' U' => U
  rename' c_main_arg1 => f_main_arg1; rename' c_main_arg4 => f_main_arg4; rename' c_main_arg5 => f_main_arg5; rename' c_main_arg6 => f_main_arg6; rename' c_main_arg7 => f_main_arg7; rename' c_main_v6 => f_main_v6; rename' c_main_v9 => f_main_v9; rename' c_main_v10 => f_main_v10; rename' n_main_v25 => f_main_v25
  -- main_v26 ← main_arg4
  rw [after_cons]
  generalize hU' : HloOp.result _ U = U'
  have n_main_v26 : U' (Proc.devRef .tc main_v26) = val_main_v26 (F := F) x4 := by
    rw [← hU']; simp (disch := decide) only [nullary_result', unary_result', binary_result', ternary_result', quaternary_result', reshape_result', f_main_arg4]; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg5 : U' (Proc.devRef .tc main_arg5) = x5 := by
    rw [← hU']; simp (disch := decide) only [nullary_result_ne', unary_result_ne', binary_result_ne', ternary_result_ne', quaternary_result_ne', reshape_result_ne']; exact f_main_arg5
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  clear hU' f_main_arg1 f_main_arg4 f_main_arg5 f_main_arg6 f_main_arg7 f_main_v6 f_main_v9 f_main_v10 f_main_v25
  clear U; rename' U' => U
  rename' c_main_arg1 => f_main_arg1; rename' c_main_arg5 => f_main_arg5; rename' c_main_arg6 => f_main_arg6; rename' c_main_arg7 => f_main_arg7; rename' c_main_v6 => f_main_v6; rename' c_main_v9 => f_main_v9; rename' c_main_v10 => f_main_v10; rename' c_main_v25 => f_main_v25; rename' n_main_v26 => f_main_v26
  -- main_v27 ← main_v6, main_v26
  rw [after_cons]
  generalize hU' : HloOp.result _ U = U'
  have n_main_v27 : U' (Proc.devRef .tc main_v27) = val_main_v27 (F := F) x0 x2 x4 := by
    rw [← hU']; simp (disch := decide) only [nullary_result', unary_result', binary_result', ternary_result', quaternary_result', reshape_result', f_main_v6, f_main_v26]; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg5 : U' (Proc.devRef .tc main_arg5) = x5 := by
    rw [← hU']; simp (disch := decide) only [nullary_result_ne', unary_result_ne', binary_result_ne', ternary_result_ne', quaternary_result_ne', reshape_result_ne']; exact f_main_arg5
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  clear hU' f_main_arg1 f_main_arg5 f_main_arg6 f_main_arg7 f_main_v6 f_main_v9 f_main_v10 f_main_v25 f_main_v26
  clear U; rename' U' => U
  rename' c_main_arg1 => f_main_arg1; rename' c_main_arg5 => f_main_arg5; rename' c_main_arg6 => f_main_arg6; rename' c_main_arg7 => f_main_arg7; rename' c_main_v6 => f_main_v6; rename' c_main_v9 => f_main_v9; rename' c_main_v10 => f_main_v10; rename' c_main_v25 => f_main_v25; rename' n_main_v27 => f_main_v27
  -- main_v28 ← main_arg5
  rw [after_cons]
  generalize hU' : HloOp.result _ U = U'
  have n_main_v28 : U' (Proc.devRef .tc main_v28) = val_main_v28 (F := F) x5 := by
    rw [← hU']; simp (disch := decide) only [nullary_result', unary_result', binary_result', ternary_result', quaternary_result', reshape_result', f_main_arg5]; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v27 : U' (Proc.devRef .tc main_v27) = val_main_v27 (F := F) x0 x2 x4 := by
    rw [← hU']; simp (disch := decide) only [nullary_result_ne', unary_result_ne', binary_result_ne', ternary_result_ne', quaternary_result_ne', reshape_result_ne']; exact f_main_v27
  clear hU' f_main_arg1 f_main_arg5 f_main_arg6 f_main_arg7 f_main_v6 f_main_v9 f_main_v10 f_main_v25 f_main_v27
  clear U; rename' U' => U
  rename' c_main_arg1 => f_main_arg1; rename' c_main_arg6 => f_main_arg6; rename' c_main_arg7 => f_main_arg7; rename' c_main_v6 => f_main_v6; rename' c_main_v9 => f_main_v9; rename' c_main_v10 => f_main_v10; rename' c_main_v25 => f_main_v25; rename' c_main_v27 => f_main_v27; rename' n_main_v28 => f_main_v28
  -- main_v29 ← main_v27, main_v28
  rw [after_cons]
  generalize hU' : HloOp.result _ U = U'
  have n_main_v29 : U' (Proc.devRef .tc main_v29) = val_main_v29 (F := F) x0 x2 x4 x5 := by
    rw [← hU']; simp (disch := decide) only [nullary_result', unary_result', binary_result', ternary_result', quaternary_result', reshape_result', f_main_v27, f_main_v28]; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  clear hU' f_main_arg1 f_main_arg6 f_main_arg7 f_main_v6 f_main_v9 f_main_v10 f_main_v25 f_main_v27 f_main_v28
  clear U; rename' U' => U
  rename' c_main_arg1 => f_main_arg1; rename' c_main_arg6 => f_main_arg6; rename' c_main_arg7 => f_main_arg7; rename' c_main_v6 => f_main_v6; rename' c_main_v9 => f_main_v9; rename' c_main_v10 => f_main_v10; rename' c_main_v25 => f_main_v25; rename' n_main_v29 => f_main_v29
  -- main_call2_cst ← (a constant)
  rw [after_cons]
  generalize hU' : HloOp.result _ U = U'
  have n_main_call2_cst : U' (Proc.devRef .tc main_call2_cst) = val_main_call2_cst (F := F) := by
    rw [← hU']; simp (disch := decide) only [nullary_result', unary_result', binary_result', ternary_result', quaternary_result', reshape_result']; exact (cast_57 (F := F)).trans rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v29 : U' (Proc.devRef .tc main_v29) = val_main_v29 (F := F) x0 x2 x4 x5 := by
    rw [← hU']; simp (disch := decide) only [nullary_result_ne', unary_result_ne', binary_result_ne', ternary_result_ne', quaternary_result_ne', reshape_result_ne']; exact f_main_v29
  clear hU' f_main_arg1 f_main_arg6 f_main_arg7 f_main_v6 f_main_v9 f_main_v10 f_main_v25 f_main_v29
  clear U; rename' U' => U
  rename' c_main_arg1 => f_main_arg1; rename' c_main_arg6 => f_main_arg6; rename' c_main_arg7 => f_main_arg7; rename' c_main_v6 => f_main_v6; rename' c_main_v9 => f_main_v9; rename' c_main_v10 => f_main_v10; rename' c_main_v25 => f_main_v25; rename' c_main_v29 => f_main_v29; rename' n_main_call2_cst => f_main_call2_cst
  -- main_call2_v0 ← main_v29, main_call2_cst
  rw [after_cons]
  generalize hU' : HloOp.result _ U = U'
  have n_main_call2_v0 : U' (Proc.devRef .tc main_call2_v0) = val_main_call2_v0 (F := F) x0 x2 x4 x5 := by
    rw [← hU']; simp (disch := decide) only [nullary_result', unary_result', binary_result', ternary_result', quaternary_result', reshape_result', f_main_v29, f_main_call2_cst]; exact (cast_58 (F := F) (val_main_v29 (F := F) x0 x2 x4 x5) (val_main_call2_cst (F := F))).trans rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v29 : U' (Proc.devRef .tc main_v29) = val_main_v29 (F := F) x0 x2 x4 x5 := by
    rw [← hU']; simp (disch := decide) only [nullary_result_ne', unary_result_ne', binary_result_ne', ternary_result_ne', quaternary_result_ne', reshape_result_ne']; exact f_main_v29
  clear hU' f_main_arg1 f_main_arg6 f_main_arg7 f_main_v6 f_main_v9 f_main_v10 f_main_v25 f_main_v29 f_main_call2_cst
  clear U; rename' U' => U
  rename' c_main_arg1 => f_main_arg1; rename' c_main_arg6 => f_main_arg6; rename' c_main_arg7 => f_main_arg7; rename' c_main_v6 => f_main_v6; rename' c_main_v9 => f_main_v9; rename' c_main_v10 => f_main_v10; rename' c_main_v25 => f_main_v25; rename' c_main_v29 => f_main_v29; rename' n_main_call2_v0 => f_main_call2_v0
  -- main_call2_cst_0 ← (a constant)
  rw [after_cons]
  generalize hU' : HloOp.result _ U = U'
  have n_main_call2_cst_0 : U' (Proc.devRef .tc main_call2_cst_0) = val_main_call2_cst_0 (F := F) := by
    rw [← hU']; simp (disch := decide) only [nullary_result', unary_result', binary_result', ternary_result', quaternary_result', reshape_result']; exact (cast_59 (F := F)).trans rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v29 : U' (Proc.devRef .tc main_v29) = val_main_v29 (F := F) x0 x2 x4 x5 := by
    rw [← hU']; simp (disch := decide) only [nullary_result_ne', unary_result_ne', binary_result_ne', ternary_result_ne', quaternary_result_ne', reshape_result_ne']; exact f_main_v29
  have c_main_call2_v0 : U' (Proc.devRef .tc main_call2_v0) = val_main_call2_v0 (F := F) x0 x2 x4 x5 := by
    rw [← hU']; simp (disch := decide) only [nullary_result_ne', unary_result_ne', binary_result_ne', ternary_result_ne', quaternary_result_ne', reshape_result_ne']; exact f_main_call2_v0
  clear hU' f_main_arg1 f_main_arg6 f_main_arg7 f_main_v6 f_main_v9 f_main_v10 f_main_v25 f_main_v29 f_main_call2_v0
  clear U; rename' U' => U
  rename' c_main_arg1 => f_main_arg1; rename' c_main_arg6 => f_main_arg6; rename' c_main_arg7 => f_main_arg7; rename' c_main_v6 => f_main_v6; rename' c_main_v9 => f_main_v9; rename' c_main_v10 => f_main_v10; rename' c_main_v25 => f_main_v25; rename' c_main_v29 => f_main_v29; rename' c_main_call2_v0 => f_main_call2_v0; rename' n_main_call2_cst_0 => f_main_call2_cst_0
  simp only [after_nil]
  exact ⟨f_main_arg1, f_main_arg6, f_main_arg7, f_main_v6, f_main_v9, f_main_v10, f_main_v25, f_main_v29, f_main_call2_v0, f_main_call2_cst_0⟩

set_option maxHeartbeats 400000000 in
/-- Operations 60 to 71 of the line: from the stages of what is read at entry to the stages of what is read after. -/
theorem walk5 (U : Valuation τ sig (Elt F)) (x0 x1 : (⟨S4096, .i32⟩ : BufTy).Contents (Elt F)) (x2 : (⟨S50000x256, .f32⟩ : BufTy).Contents (Elt F)) (x3 : (⟨S2502x256, .f32⟩ : BufTy).Contents (Elt F)) (x4 : (⟨S64x256, .f32⟩ : BufTy).Contents (Elt F)) (x5 : (⟨S7500x64, .f32⟩ : BufTy).Contents (Elt F)) (x6 : (⟨S16x256, .f32⟩ : BufTy).Contents (Elt F)) (x7 : (⟨S40000x16, .f32⟩ : BufTy).Contents (Elt F))
    (f_main_arg1 : U (Proc.devRef .tc main_arg1) = x1)
    (f_main_arg6 : U (Proc.devRef .tc main_arg6) = x6)
    (f_main_arg7 : U (Proc.devRef .tc main_arg7) = x7)
    (f_main_v6 : U (Proc.devRef .tc main_v6) = val_main_v6 (F := F) x0 x2)
    (f_main_v9 : U (Proc.devRef .tc main_v9) = val_main_v9 (F := F) x0 x2 x3)
    (f_main_v10 : U (Proc.devRef .tc main_v10) = val_main_v10 (F := F))
    (f_main_v25 : U (Proc.devRef .tc main_v25) = val_main_v25 (F := F) x0 x1 x2 x3)
    (f_main_v29 : U (Proc.devRef .tc main_v29) = val_main_v29 (F := F) x0 x2 x4 x5)
    (f_main_call2_v0 : U (Proc.devRef .tc main_call2_v0) = val_main_call2_v0 (F := F) x0 x2 x4 x5)
    (f_main_call2_cst_0 : U (Proc.devRef .tc main_call2_cst_0) = val_main_call2_cst_0 (F := F)) :
    after (chunk5 (F := F)) U (Proc.devRef .tc main_arg1) = x1
      ∧ after (chunk5 (F := F)) U (Proc.devRef .tc main_arg6) = x6
      ∧ after (chunk5 (F := F)) U (Proc.devRef .tc main_arg7) = x7
      ∧ after (chunk5 (F := F)) U (Proc.devRef .tc main_v6) = val_main_v6 (F := F) x0 x2
      ∧ after (chunk5 (F := F)) U (Proc.devRef .tc main_v9) = val_main_v9 (F := F) x0 x2 x3
      ∧ after (chunk5 (F := F)) U (Proc.devRef .tc main_v10) = val_main_v10 (F := F)
      ∧ after (chunk5 (F := F)) U (Proc.devRef .tc main_v25) = val_main_v25 (F := F) x0 x1 x2 x3
      ∧ after (chunk5 (F := F)) U (Proc.devRef .tc main_v30) = val_main_v30 (F := F) x0 x2 x4 x5 := by
  simp only [chunk5, ops, List.drop_succ_cons, List.drop_zero, List.take_succ_cons, List.take_zero]
  -- main_call2_v1 ← main_call2_cst_0
  rw [after_cons]
  generalize hU' : HloOp.result _ U = U'
  have n_main_call2_v1 : U' (Proc.devRef .tc main_call2_v1) = val_main_call2_v1 (F := F) := by
    rw [← hU']; simp (disch := decide) only [nullary_result', unary_result', binary_result', ternary_result', quaternary_result', reshape_result', f_main_call2_cst_0]; exact (cast_60 (F := F) (val_main_call2_cst_0 (F := F))).trans rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v29 : U' (Proc.devRef .tc main_v29) = val_main_v29 (F := F) x0 x2 x4 x5 := by
    rw [← hU']; simp (disch := decide) only [nullary_result_ne', unary_result_ne', binary_result_ne', ternary_result_ne', quaternary_result_ne', reshape_result_ne']; exact f_main_v29
  have c_main_call2_v0 : U' (Proc.devRef .tc main_call2_v0) = val_main_call2_v0 (F := F) x0 x2 x4 x5 := by
    rw [← hU']; simp (disch := decide) only [nullary_result_ne', unary_result_ne', binary_result_ne', ternary_result_ne', quaternary_result_ne', reshape_result_ne']; exact f_main_call2_v0
  clear hU' f_main_arg1 f_main_arg6 f_main_arg7 f_main_v6 f_main_v9 f_main_v10 f_main_v25 f_main_v29 f_main_call2_v0 f_main_call2_cst_0
  clear U; rename' U' => U
  rename' c_main_arg1 => f_main_arg1; rename' c_main_arg6 => f_main_arg6; rename' c_main_arg7 => f_main_arg7; rename' c_main_v6 => f_main_v6; rename' c_main_v9 => f_main_v9; rename' c_main_v10 => f_main_v10; rename' c_main_v25 => f_main_v25; rename' c_main_v29 => f_main_v29; rename' c_main_call2_v0 => f_main_call2_v0; rename' n_main_call2_v1 => f_main_call2_v1
  -- main_call2_v2 ← main_call2_v1, main_call2_v0
  rw [after_cons]
  generalize hU' : HloOp.result _ U = U'
  have n_main_call2_v2 : U' (Proc.devRef .tc main_call2_v2) = val_main_call2_v2 (F := F) x0 x2 x4 x5 := by
    rw [← hU']; simp (disch := decide) only [nullary_result', unary_result', binary_result', ternary_result', quaternary_result', reshape_result', f_main_call2_v1, f_main_call2_v0]; exact (cast_61 (F := F) (val_main_call2_v1 (F := F)) (val_main_call2_v0 (F := F) x0 x2 x4 x5)).trans rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v29 : U' (Proc.devRef .tc main_v29) = val_main_v29 (F := F) x0 x2 x4 x5 := by
    rw [← hU']; simp (disch := decide) only [nullary_result_ne', unary_result_ne', binary_result_ne', ternary_result_ne', quaternary_result_ne', reshape_result_ne']; exact f_main_v29
  clear hU' f_main_arg1 f_main_arg6 f_main_arg7 f_main_v6 f_main_v9 f_main_v10 f_main_v25 f_main_v29 f_main_call2_v0 f_main_call2_v1
  clear U; rename' U' => U
  rename' c_main_arg1 => f_main_arg1; rename' c_main_arg6 => f_main_arg6; rename' c_main_arg7 => f_main_arg7; rename' c_main_v6 => f_main_v6; rename' c_main_v9 => f_main_v9; rename' c_main_v10 => f_main_v10; rename' c_main_v25 => f_main_v25; rename' c_main_v29 => f_main_v29; rename' n_main_call2_v2 => f_main_call2_v2
  -- main_call2_v3 ← main_call2_v2
  rw [after_cons]
  generalize hU' : HloOp.result _ U = U'
  have n_main_call2_v3 : U' (Proc.devRef .tc main_call2_v3) = val_main_call2_v3 (F := F) x0 x2 x4 x5 := by
    rw [← hU']; simp (disch := decide) only [nullary_result', unary_result', binary_result', ternary_result', quaternary_result', reshape_result', f_main_call2_v2]; exact (cast_62 (F := F) (val_main_call2_v2 (F := F) x0 x2 x4 x5)).trans rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v29 : U' (Proc.devRef .tc main_v29) = val_main_v29 (F := F) x0 x2 x4 x5 := by
    rw [← hU']; simp (disch := decide) only [nullary_result_ne', unary_result_ne', binary_result_ne', ternary_result_ne', quaternary_result_ne', reshape_result_ne']; exact f_main_v29
  clear hU' f_main_arg1 f_main_arg6 f_main_arg7 f_main_v6 f_main_v9 f_main_v10 f_main_v25 f_main_v29 f_main_call2_v2
  clear U; rename' U' => U
  rename' c_main_arg1 => f_main_arg1; rename' c_main_arg6 => f_main_arg6; rename' c_main_arg7 => f_main_arg7; rename' c_main_v6 => f_main_v6; rename' c_main_v9 => f_main_v9; rename' c_main_v10 => f_main_v10; rename' c_main_v25 => f_main_v25; rename' c_main_v29 => f_main_v29; rename' n_main_call2_v3 => f_main_call2_v3
  -- main_call2_v4 ← main_call2_v3
  rw [after_cons]
  generalize hU' : HloOp.result _ U = U'
  have n_main_call2_v4 : U' (Proc.devRef .tc main_call2_v4) = val_main_call2_v4 (F := F) x0 x2 x4 x5 := by
    rw [← hU']; simp (disch := decide) only [nullary_result', unary_result', binary_result', ternary_result', quaternary_result', reshape_result', f_main_call2_v3]; exact (cast_63 (F := F) (val_main_call2_v3 (F := F) x0 x2 x4 x5)).trans rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v29 : U' (Proc.devRef .tc main_v29) = val_main_v29 (F := F) x0 x2 x4 x5 := by
    rw [← hU']; simp (disch := decide) only [nullary_result_ne', unary_result_ne', binary_result_ne', ternary_result_ne', quaternary_result_ne', reshape_result_ne']; exact f_main_v29
  clear hU' f_main_arg1 f_main_arg6 f_main_arg7 f_main_v6 f_main_v9 f_main_v10 f_main_v25 f_main_v29 f_main_call2_v3
  clear U; rename' U' => U
  rename' c_main_arg1 => f_main_arg1; rename' c_main_arg6 => f_main_arg6; rename' c_main_arg7 => f_main_arg7; rename' c_main_v6 => f_main_v6; rename' c_main_v9 => f_main_v9; rename' c_main_v10 => f_main_v10; rename' c_main_v25 => f_main_v25; rename' c_main_v29 => f_main_v29; rename' n_main_call2_v4 => f_main_call2_v4
  -- main_call2_v5 ← main_v29, main_call2_v4
  rw [after_cons]
  generalize hU' : HloOp.result _ U = U'
  have n_main_call2_v5 : U' (Proc.devRef .tc main_call2_v5) = val_main_call2_v5 (F := F) x0 x2 x4 x5 := by
    rw [← hU']; simp (disch := decide) only [nullary_result', unary_result', binary_result', ternary_result', quaternary_result', reshape_result', f_main_v29, f_main_call2_v4]; exact (cast_64 (F := F) (val_main_v29 (F := F) x0 x2 x4 x5) (val_main_call2_v4 (F := F) x0 x2 x4 x5)).trans rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  clear hU' f_main_arg1 f_main_arg6 f_main_arg7 f_main_v6 f_main_v9 f_main_v10 f_main_v25 f_main_v29 f_main_call2_v4
  clear U; rename' U' => U
  rename' c_main_arg1 => f_main_arg1; rename' c_main_arg6 => f_main_arg6; rename' c_main_arg7 => f_main_arg7; rename' c_main_v6 => f_main_v6; rename' c_main_v9 => f_main_v9; rename' c_main_v10 => f_main_v10; rename' c_main_v25 => f_main_v25; rename' n_main_call2_v5 => f_main_call2_v5
  -- main_call2_v6 ← main_call2_v5
  rw [after_cons]
  generalize hU' : HloOp.result _ U = U'
  have n_main_call2_v6 : U' (Proc.devRef .tc main_call2_v6) = val_main_call2_v6 (F := F) x0 x2 x4 x5 := by
    rw [← hU']; simp (disch := decide) only [nullary_result', unary_result', binary_result', ternary_result', quaternary_result', reshape_result', f_main_call2_v5]; exact (cast_65 (F := F) (val_main_call2_v5 (F := F) x0 x2 x4 x5)).trans rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_call2_v5 : U' (Proc.devRef .tc main_call2_v5) = val_main_call2_v5 (F := F) x0 x2 x4 x5 := by
    rw [← hU']; simp (disch := decide) only [nullary_result_ne', unary_result_ne', binary_result_ne', ternary_result_ne', quaternary_result_ne', reshape_result_ne']; exact f_main_call2_v5
  clear hU' f_main_arg1 f_main_arg6 f_main_arg7 f_main_v6 f_main_v9 f_main_v10 f_main_v25 f_main_call2_v5
  clear U; rename' U' => U
  rename' c_main_arg1 => f_main_arg1; rename' c_main_arg6 => f_main_arg6; rename' c_main_arg7 => f_main_arg7; rename' c_main_v6 => f_main_v6; rename' c_main_v9 => f_main_v9; rename' c_main_v10 => f_main_v10; rename' c_main_v25 => f_main_v25; rename' c_main_call2_v5 => f_main_call2_v5; rename' n_main_call2_v6 => f_main_call2_v6
  -- main_call2_cst_1 ← (a constant)
  rw [after_cons]
  generalize hU' : HloOp.result _ U = U'
  have n_main_call2_cst_1 : U' (Proc.devRef .tc main_call2_cst_1) = val_main_call2_cst_1 (F := F) := by
    rw [← hU']; simp (disch := decide) only [nullary_result', unary_result', binary_result', ternary_result', quaternary_result', reshape_result']; exact (cast_66 (F := F)).trans rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_call2_v5 : U' (Proc.devRef .tc main_call2_v5) = val_main_call2_v5 (F := F) x0 x2 x4 x5 := by
    rw [← hU']; simp (disch := decide) only [nullary_result_ne', unary_result_ne', binary_result_ne', ternary_result_ne', quaternary_result_ne', reshape_result_ne']; exact f_main_call2_v5
  have c_main_call2_v6 : U' (Proc.devRef .tc main_call2_v6) = val_main_call2_v6 (F := F) x0 x2 x4 x5 := by
    rw [← hU']; simp (disch := decide) only [nullary_result_ne', unary_result_ne', binary_result_ne', ternary_result_ne', quaternary_result_ne', reshape_result_ne']; exact f_main_call2_v6
  clear hU' f_main_arg1 f_main_arg6 f_main_arg7 f_main_v6 f_main_v9 f_main_v10 f_main_v25 f_main_call2_v5 f_main_call2_v6
  clear U; rename' U' => U
  rename' c_main_arg1 => f_main_arg1; rename' c_main_arg6 => f_main_arg6; rename' c_main_arg7 => f_main_arg7; rename' c_main_v6 => f_main_v6; rename' c_main_v9 => f_main_v9; rename' c_main_v10 => f_main_v10; rename' c_main_v25 => f_main_v25; rename' c_main_call2_v5 => f_main_call2_v5; rename' c_main_call2_v6 => f_main_call2_v6; rename' n_main_call2_cst_1 => f_main_call2_cst_1
  -- main_call2_v7 ← main_call2_v6, main_call2_cst_1
  rw [after_cons]
  generalize hU' : HloOp.result _ U = U'
  have n_main_call2_v7 : U' (Proc.devRef .tc main_call2_v7) = val_main_call2_v7 (F := F) x0 x2 x4 x5 := by
    rw [← hU']; simp (disch := decide) only [nullary_result', unary_result', binary_result', ternary_result', quaternary_result', reshape_result', f_main_call2_v6, f_main_call2_cst_1]; exact (cast_67 (F := F) (val_main_call2_v6 (F := F) x0 x2 x4 x5) (val_main_call2_cst_1 (F := F))).trans rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_call2_v5 : U' (Proc.devRef .tc main_call2_v5) = val_main_call2_v5 (F := F) x0 x2 x4 x5 := by
    rw [← hU']; simp (disch := decide) only [nullary_result_ne', unary_result_ne', binary_result_ne', ternary_result_ne', quaternary_result_ne', reshape_result_ne']; exact f_main_call2_v5
  clear hU' f_main_arg1 f_main_arg6 f_main_arg7 f_main_v6 f_main_v9 f_main_v10 f_main_v25 f_main_call2_v5 f_main_call2_v6 f_main_call2_cst_1
  clear U; rename' U' => U
  rename' c_main_arg1 => f_main_arg1; rename' c_main_arg6 => f_main_arg6; rename' c_main_arg7 => f_main_arg7; rename' c_main_v6 => f_main_v6; rename' c_main_v9 => f_main_v9; rename' c_main_v10 => f_main_v10; rename' c_main_v25 => f_main_v25; rename' c_main_call2_v5 => f_main_call2_v5; rename' n_main_call2_v7 => f_main_call2_v7
  -- main_call2_v8 ← main_call2_v7
  rw [after_cons]
  generalize hU' : HloOp.result _ U = U'
  have n_main_call2_v8 : U' (Proc.devRef .tc main_call2_v8) = val_main_call2_v8 (F := F) x0 x2 x4 x5 := by
    rw [← hU']; simp (disch := decide) only [nullary_result', unary_result', binary_result', ternary_result', quaternary_result', reshape_result', f_main_call2_v7]; exact (cast_68 (F := F) (val_main_call2_v7 (F := F) x0 x2 x4 x5)).trans rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_call2_v5 : U' (Proc.devRef .tc main_call2_v5) = val_main_call2_v5 (F := F) x0 x2 x4 x5 := by
    rw [← hU']; simp (disch := decide) only [nullary_result_ne', unary_result_ne', binary_result_ne', ternary_result_ne', quaternary_result_ne', reshape_result_ne']; exact f_main_call2_v5
  clear hU' f_main_arg1 f_main_arg6 f_main_arg7 f_main_v6 f_main_v9 f_main_v10 f_main_v25 f_main_call2_v5 f_main_call2_v7
  clear U; rename' U' => U
  rename' c_main_arg1 => f_main_arg1; rename' c_main_arg6 => f_main_arg6; rename' c_main_arg7 => f_main_arg7; rename' c_main_v6 => f_main_v6; rename' c_main_v9 => f_main_v9; rename' c_main_v10 => f_main_v10; rename' c_main_v25 => f_main_v25; rename' c_main_call2_v5 => f_main_call2_v5; rename' n_main_call2_v8 => f_main_call2_v8
  -- main_call2_v9 ← main_call2_v8
  rw [after_cons]
  generalize hU' : HloOp.result _ U = U'
  have n_main_call2_v9 : U' (Proc.devRef .tc main_call2_v9) = val_main_call2_v9 (F := F) x0 x2 x4 x5 := by
    rw [← hU']; simp (disch := decide) only [nullary_result', unary_result', binary_result', ternary_result', quaternary_result', reshape_result', f_main_call2_v8]; exact (cast_69 (F := F) (val_main_call2_v8 (F := F) x0 x2 x4 x5)).trans rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_call2_v5 : U' (Proc.devRef .tc main_call2_v5) = val_main_call2_v5 (F := F) x0 x2 x4 x5 := by
    rw [← hU']; simp (disch := decide) only [nullary_result_ne', unary_result_ne', binary_result_ne', ternary_result_ne', quaternary_result_ne', reshape_result_ne']; exact f_main_call2_v5
  clear hU' f_main_arg1 f_main_arg6 f_main_arg7 f_main_v6 f_main_v9 f_main_v10 f_main_v25 f_main_call2_v5 f_main_call2_v8
  clear U; rename' U' => U
  rename' c_main_arg1 => f_main_arg1; rename' c_main_arg6 => f_main_arg6; rename' c_main_arg7 => f_main_arg7; rename' c_main_v6 => f_main_v6; rename' c_main_v9 => f_main_v9; rename' c_main_v10 => f_main_v10; rename' c_main_v25 => f_main_v25; rename' c_main_call2_v5 => f_main_call2_v5; rename' n_main_call2_v9 => f_main_call2_v9
  -- main_call2_v10 ← main_call2_v9
  rw [after_cons]
  generalize hU' : HloOp.result _ U = U'
  have n_main_call2_v10 : U' (Proc.devRef .tc main_call2_v10) = val_main_call2_v10 (F := F) x0 x2 x4 x5 := by
    rw [← hU']; simp (disch := decide) only [nullary_result', unary_result', binary_result', ternary_result', quaternary_result', reshape_result', f_main_call2_v9]; exact (cast_70 (F := F) (val_main_call2_v9 (F := F) x0 x2 x4 x5)).trans rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_call2_v5 : U' (Proc.devRef .tc main_call2_v5) = val_main_call2_v5 (F := F) x0 x2 x4 x5 := by
    rw [← hU']; simp (disch := decide) only [nullary_result_ne', unary_result_ne', binary_result_ne', ternary_result_ne', quaternary_result_ne', reshape_result_ne']; exact f_main_call2_v5
  clear hU' f_main_arg1 f_main_arg6 f_main_arg7 f_main_v6 f_main_v9 f_main_v10 f_main_v25 f_main_call2_v5 f_main_call2_v9
  clear U; rename' U' => U
  rename' c_main_arg1 => f_main_arg1; rename' c_main_arg6 => f_main_arg6; rename' c_main_arg7 => f_main_arg7; rename' c_main_v6 => f_main_v6; rename' c_main_v9 => f_main_v9; rename' c_main_v10 => f_main_v10; rename' c_main_v25 => f_main_v25; rename' c_main_call2_v5 => f_main_call2_v5; rename' n_main_call2_v10 => f_main_call2_v10
  -- main_v30 ← main_call2_v5, main_call2_v10
  rw [after_cons]
  generalize hU' : HloOp.result _ U = U'
  have n_main_v30 : U' (Proc.devRef .tc main_v30) = val_main_v30 (F := F) x0 x2 x4 x5 := by
    rw [← hU']; simp (disch := decide) only [nullary_result', unary_result', binary_result', ternary_result', quaternary_result', reshape_result', f_main_call2_v5, f_main_call2_v10]; exact (cast_71 (F := F) (val_main_call2_v5 (F := F) x0 x2 x4 x5) (val_main_call2_v10 (F := F) x0 x2 x4 x5)).trans rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  clear hU' f_main_arg1 f_main_arg6 f_main_arg7 f_main_v6 f_main_v9 f_main_v10 f_main_v25 f_main_call2_v5 f_main_call2_v10
  clear U; rename' U' => U
  rename' c_main_arg1 => f_main_arg1; rename' c_main_arg6 => f_main_arg6; rename' c_main_arg7 => f_main_arg7; rename' c_main_v6 => f_main_v6; rename' c_main_v9 => f_main_v9; rename' c_main_v10 => f_main_v10; rename' c_main_v25 => f_main_v25; rename' n_main_v30 => f_main_v30
  simp only [after_nil]
  exact ⟨f_main_arg1, f_main_arg6, f_main_arg7, f_main_v6, f_main_v9, f_main_v10, f_main_v25, f_main_v30⟩

set_option maxHeartbeats 400000000 in
/-- Operations 72 to 83 of the line: from the stages of what is read at entry to the stages of what is read after. -/
theorem walk6 (U : Valuation τ sig (Elt F)) (x0 x1 : (⟨S4096, .i32⟩ : BufTy).Contents (Elt F)) (x2 : (⟨S50000x256, .f32⟩ : BufTy).Contents (Elt F)) (x3 : (⟨S2502x256, .f32⟩ : BufTy).Contents (Elt F)) (x4 : (⟨S64x256, .f32⟩ : BufTy).Contents (Elt F)) (x5 : (⟨S7500x64, .f32⟩ : BufTy).Contents (Elt F)) (x6 : (⟨S16x256, .f32⟩ : BufTy).Contents (Elt F)) (x7 : (⟨S40000x16, .f32⟩ : BufTy).Contents (Elt F))
    (f_main_arg1 : U (Proc.devRef .tc main_arg1) = x1)
    (f_main_arg6 : U (Proc.devRef .tc main_arg6) = x6)
    (f_main_arg7 : U (Proc.devRef .tc main_arg7) = x7)
    (f_main_v6 : U (Proc.devRef .tc main_v6) = val_main_v6 (F := F) x0 x2)
    (f_main_v9 : U (Proc.devRef .tc main_v9) = val_main_v9 (F := F) x0 x2 x3)
    (f_main_v10 : U (Proc.devRef .tc main_v10) = val_main_v10 (F := F))
    (f_main_v25 : U (Proc.devRef .tc main_v25) = val_main_v25 (F := F) x0 x1 x2 x3)
    (f_main_v30 : U (Proc.devRef .tc main_v30) = val_main_v30 (F := F) x0 x2 x4 x5) :
    after (chunk6 (F := F)) U (Proc.devRef .tc main_arg1) = x1
      ∧ after (chunk6 (F := F)) U (Proc.devRef .tc main_arg6) = x6
      ∧ after (chunk6 (F := F)) U (Proc.devRef .tc main_arg7) = x7
      ∧ after (chunk6 (F := F)) U (Proc.devRef .tc main_v6) = val_main_v6 (F := F) x0 x2
      ∧ after (chunk6 (F := F)) U (Proc.devRef .tc main_v9) = val_main_v9 (F := F) x0 x2 x3
      ∧ after (chunk6 (F := F)) U (Proc.devRef .tc main_v10) = val_main_v10 (F := F)
      ∧ after (chunk6 (F := F)) U (Proc.devRef .tc main_v25) = val_main_v25 (F := F) x0 x1 x2 x3
      ∧ after (chunk6 (F := F)) U (Proc.devRef .tc main_v30) = val_main_v30 (F := F) x0 x2 x4 x5
      ∧ after (chunk6 (F := F)) U (Proc.devRef .tc main_v32) = val_main_v32 (F := F) x0 x2 x3
      ∧ after (chunk6 (F := F)) U (Proc.devRef .tc main_call3_v2) = val_main_call3_v2 (F := F) x1
      ∧ after (chunk6 (F := F)) U (Proc.devRef .tc main_call3_v4) = val_main_call3_v4 (F := F) := by
  simp only [chunk6, ops, List.drop_succ_cons, List.drop_zero, List.take_succ_cons, List.take_zero]
  -- main_v31 ← main_v9
  rw [after_cons]
  generalize hU' : HloOp.result _ U = U'
  have n_main_v31 : U' (Proc.devRef .tc main_v31) = val_main_v31 (F := F) x0 x2 x3 := by
    rw [← hU']; simp (disch := decide) only [nullary_result', unary_result', binary_result', ternary_result', quaternary_result', reshape_result', f_main_v9]; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v30 : U' (Proc.devRef .tc main_v30) = val_main_v30 (F := F) x0 x2 x4 x5 := by
    rw [← hU']; simp (disch := decide) only [nullary_result_ne', unary_result_ne', binary_result_ne', ternary_result_ne', quaternary_result_ne', reshape_result_ne']; exact f_main_v30
  clear hU' f_main_arg1 f_main_arg6 f_main_arg7 f_main_v6 f_main_v9 f_main_v10 f_main_v25 f_main_v30
  clear U; rename' U' => U
  rename' c_main_arg1 => f_main_arg1; rename' c_main_arg6 => f_main_arg6; rename' c_main_arg7 => f_main_arg7; rename' c_main_v6 => f_main_v6; rename' c_main_v9 => f_main_v9; rename' c_main_v10 => f_main_v10; rename' c_main_v25 => f_main_v25; rename' c_main_v30 => f_main_v30; rename' n_main_v31 => f_main_v31
  -- main_v32 ← main_v31
  rw [after_cons]
  generalize hU' : HloOp.result _ U = U'
  have n_main_v32 : U' (Proc.devRef .tc main_v32) = val_main_v32 (F := F) x0 x2 x3 := by
    rw [← hU']; simp (disch := decide) only [nullary_result', unary_result', binary_result', ternary_result', quaternary_result', reshape_result', f_main_v31]; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v30 : U' (Proc.devRef .tc main_v30) = val_main_v30 (F := F) x0 x2 x4 x5 := by
    rw [← hU']; simp (disch := decide) only [nullary_result_ne', unary_result_ne', binary_result_ne', ternary_result_ne', quaternary_result_ne', reshape_result_ne']; exact f_main_v30
  clear hU' f_main_arg1 f_main_arg6 f_main_arg7 f_main_v6 f_main_v9 f_main_v10 f_main_v25 f_main_v30 f_main_v31
  clear U; rename' U' => U
  rename' c_main_arg1 => f_main_arg1; rename' c_main_arg6 => f_main_arg6; rename' c_main_arg7 => f_main_arg7; rename' c_main_v6 => f_main_v6; rename' c_main_v9 => f_main_v9; rename' c_main_v10 => f_main_v10; rename' c_main_v25 => f_main_v25; rename' c_main_v30 => f_main_v30; rename' n_main_v32 => f_main_v32
  -- main_c_7 ← (a constant)
  rw [after_cons]
  generalize hU' : HloOp.result _ U = U'
  have n_main_c_7 : U' (Proc.devRef .tc main_c_7) = val_main_c_7 (F := F) := by
    rw [← hU']; simp (disch := decide) only [nullary_result', unary_result', binary_result', ternary_result', quaternary_result', reshape_result']; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v30 : U' (Proc.devRef .tc main_v30) = val_main_v30 (F := F) x0 x2 x4 x5 := by
    rw [← hU']; simp (disch := decide) only [nullary_result_ne', unary_result_ne', binary_result_ne', ternary_result_ne', quaternary_result_ne', reshape_result_ne']; exact f_main_v30
  have c_main_v32 : U' (Proc.devRef .tc main_v32) = val_main_v32 (F := F) x0 x2 x3 := by
    rw [← hU']; simp (disch := decide) only [nullary_result_ne', unary_result_ne', binary_result_ne', ternary_result_ne', quaternary_result_ne', reshape_result_ne']; exact f_main_v32
  clear hU' f_main_arg1 f_main_arg6 f_main_arg7 f_main_v6 f_main_v9 f_main_v10 f_main_v25 f_main_v30 f_main_v32
  clear U; rename' U' => U
  rename' c_main_arg1 => f_main_arg1; rename' c_main_arg6 => f_main_arg6; rename' c_main_arg7 => f_main_arg7; rename' c_main_v6 => f_main_v6; rename' c_main_v9 => f_main_v9; rename' c_main_v10 => f_main_v10; rename' c_main_v25 => f_main_v25; rename' c_main_v30 => f_main_v30; rename' c_main_v32 => f_main_v32; rename' n_main_c_7 => f_main_c_7
  -- main_v33 ← main_c_7
  rw [after_cons]
  generalize hU' : HloOp.result _ U = U'
  have n_main_v33 : U' (Proc.devRef .tc main_v33) = val_main_v33 (F := F) := by
    rw [← hU']; simp (disch := decide) only [nullary_result', unary_result', binary_result', ternary_result', quaternary_result', reshape_result', f_main_c_7]; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v30 : U' (Proc.devRef .tc main_v30) = val_main_v30 (F := F) x0 x2 x4 x5 := by
    rw [← hU']; simp (disch := decide) only [nullary_result_ne', unary_result_ne', binary_result_ne', ternary_result_ne', quaternary_result_ne', reshape_result_ne']; exact f_main_v30
  have c_main_v32 : U' (Proc.devRef .tc main_v32) = val_main_v32 (F := F) x0 x2 x3 := by
    rw [← hU']; simp (disch := decide) only [nullary_result_ne', unary_result_ne', binary_result_ne', ternary_result_ne', quaternary_result_ne', reshape_result_ne']; exact f_main_v32
  clear hU' f_main_arg1 f_main_arg6 f_main_arg7 f_main_v6 f_main_v9 f_main_v10 f_main_v25 f_main_v30 f_main_v32 f_main_c_7
  clear U; rename' U' => U
  rename' c_main_arg1 => f_main_arg1; rename' c_main_arg6 => f_main_arg6; rename' c_main_arg7 => f_main_arg7; rename' c_main_v6 => f_main_v6; rename' c_main_v9 => f_main_v9; rename' c_main_v10 => f_main_v10; rename' c_main_v25 => f_main_v25; rename' c_main_v30 => f_main_v30; rename' c_main_v32 => f_main_v32; rename' n_main_v33 => f_main_v33
  -- main_v34 ← main_arg1, main_v33
  rw [after_cons]
  generalize hU' : HloOp.result _ U = U'
  have n_main_v34 : U' (Proc.devRef .tc main_v34) = val_main_v34 (F := F) x1 := by
    rw [← hU']; simp (disch := decide) only [nullary_result', unary_result', binary_result', ternary_result', quaternary_result', reshape_result', f_main_arg1, f_main_v33]; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v30 : U' (Proc.devRef .tc main_v30) = val_main_v30 (F := F) x0 x2 x4 x5 := by
    rw [← hU']; simp (disch := decide) only [nullary_result_ne', unary_result_ne', binary_result_ne', ternary_result_ne', quaternary_result_ne', reshape_result_ne']; exact f_main_v30
  have c_main_v32 : U' (Proc.devRef .tc main_v32) = val_main_v32 (F := F) x0 x2 x3 := by
    rw [← hU']; simp (disch := decide) only [nullary_result_ne', unary_result_ne', binary_result_ne', ternary_result_ne', quaternary_result_ne', reshape_result_ne']; exact f_main_v32
  clear hU' f_main_arg1 f_main_arg6 f_main_arg7 f_main_v6 f_main_v9 f_main_v10 f_main_v25 f_main_v30 f_main_v32 f_main_v33
  clear U; rename' U' => U
  rename' c_main_arg1 => f_main_arg1; rename' c_main_arg6 => f_main_arg6; rename' c_main_arg7 => f_main_arg7; rename' c_main_v6 => f_main_v6; rename' c_main_v9 => f_main_v9; rename' c_main_v10 => f_main_v10; rename' c_main_v25 => f_main_v25; rename' c_main_v30 => f_main_v30; rename' c_main_v32 => f_main_v32; rename' n_main_v34 => f_main_v34
  -- main_c_8 ← (a constant)
  rw [after_cons]
  generalize hU' : HloOp.result _ U = U'
  have n_main_c_8 : U' (Proc.devRef .tc main_c_8) = val_main_c_8 (F := F) := by
    rw [← hU']; simp (disch := decide) only [nullary_result', unary_result', binary_result', ternary_result', quaternary_result', reshape_result']; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v30 : U' (Proc.devRef .tc main_v30) = val_main_v30 (F := F) x0 x2 x4 x5 := by
    rw [← hU']; simp (disch := decide) only [nullary_result_ne', unary_result_ne', binary_result_ne', ternary_result_ne', quaternary_result_ne', reshape_result_ne']; exact f_main_v30
  have c_main_v32 : U' (Proc.devRef .tc main_v32) = val_main_v32 (F := F) x0 x2 x3 := by
    rw [← hU']; simp (disch := decide) only [nullary_result_ne', unary_result_ne', binary_result_ne', ternary_result_ne', quaternary_result_ne', reshape_result_ne']; exact f_main_v32
  have c_main_v34 : U' (Proc.devRef .tc main_v34) = val_main_v34 (F := F) x1 := by
    rw [← hU']; simp (disch := decide) only [nullary_result_ne', unary_result_ne', binary_result_ne', ternary_result_ne', quaternary_result_ne', reshape_result_ne']; exact f_main_v34
  clear hU' f_main_arg1 f_main_arg6 f_main_arg7 f_main_v6 f_main_v9 f_main_v10 f_main_v25 f_main_v30 f_main_v32 f_main_v34
  clear U; rename' U' => U
  rename' c_main_arg1 => f_main_arg1; rename' c_main_arg6 => f_main_arg6; rename' c_main_arg7 => f_main_arg7; rename' c_main_v6 => f_main_v6; rename' c_main_v9 => f_main_v9; rename' c_main_v10 => f_main_v10; rename' c_main_v25 => f_main_v25; rename' c_main_v30 => f_main_v30; rename' c_main_v32 => f_main_v32; rename' c_main_v34 => f_main_v34; rename' n_main_c_8 => f_main_c_8
  -- main_c_9 ← (a constant)
  rw [after_cons]
  generalize hU' : HloOp.result _ U = U'
  have n_main_c_9 : U' (Proc.devRef .tc main_c_9) = val_main_c_9 (F := F) := by
    rw [← hU']; simp (disch := decide) only [nullary_result', unary_result', binary_result', ternary_result', quaternary_result', reshape_result']; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v30 : U' (Proc.devRef .tc main_v30) = val_main_v30 (F := F) x0 x2 x4 x5 := by
    rw [← hU']; simp (disch := decide) only [nullary_result_ne', unary_result_ne', binary_result_ne', ternary_result_ne', quaternary_result_ne', reshape_result_ne']; exact f_main_v30
  have c_main_v32 : U' (Proc.devRef .tc main_v32) = val_main_v32 (F := F) x0 x2 x3 := by
    rw [← hU']; simp (disch := decide) only [nullary_result_ne', unary_result_ne', binary_result_ne', ternary_result_ne', quaternary_result_ne', reshape_result_ne']; exact f_main_v32
  have c_main_v34 : U' (Proc.devRef .tc main_v34) = val_main_v34 (F := F) x1 := by
    rw [← hU']; simp (disch := decide) only [nullary_result_ne', unary_result_ne', binary_result_ne', ternary_result_ne', quaternary_result_ne', reshape_result_ne']; exact f_main_v34
  have c_main_c_8 : U' (Proc.devRef .tc main_c_8) = val_main_c_8 (F := F) := by
    rw [← hU']; simp (disch := decide) only [nullary_result_ne', unary_result_ne', binary_result_ne', ternary_result_ne', quaternary_result_ne', reshape_result_ne']; exact f_main_c_8
  clear hU' f_main_arg1 f_main_arg6 f_main_arg7 f_main_v6 f_main_v9 f_main_v10 f_main_v25 f_main_v30 f_main_v32 f_main_v34 f_main_c_8
  clear U; rename' U' => U
  rename' c_main_arg1 => f_main_arg1; rename' c_main_arg6 => f_main_arg6; rename' c_main_arg7 => f_main_arg7; rename' c_main_v6 => f_main_v6; rename' c_main_v9 => f_main_v9; rename' c_main_v10 => f_main_v10; rename' c_main_v25 => f_main_v25; rename' c_main_v30 => f_main_v30; rename' c_main_v32 => f_main_v32; rename' c_main_v34 => f_main_v34; rename' c_main_c_8 => f_main_c_8; rename' n_main_c_9 => f_main_c_9
  -- main_call3_v0 ← main_c_8
  rw [after_cons]
  generalize hU' : HloOp.result _ U = U'
  have n_main_call3_v0 : U' (Proc.devRef .tc main_call3_v0) = val_main_call3_v0 (F := F) := by
    rw [← hU']; simp (disch := decide) only [nullary_result', unary_result', binary_result', ternary_result', quaternary_result', reshape_result', f_main_c_8]; exact (cast_79 (F := F) (val_main_c_8 (F := F))).trans rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v30 : U' (Proc.devRef .tc main_v30) = val_main_v30 (F := F) x0 x2 x4 x5 := by
    rw [← hU']; simp (disch := decide) only [nullary_result_ne', unary_result_ne', binary_result_ne', ternary_result_ne', quaternary_result_ne', reshape_result_ne']; exact f_main_v30
  have c_main_v32 : U' (Proc.devRef .tc main_v32) = val_main_v32 (F := F) x0 x2 x3 := by
    rw [← hU']; simp (disch := decide) only [nullary_result_ne', unary_result_ne', binary_result_ne', ternary_result_ne', quaternary_result_ne', reshape_result_ne']; exact f_main_v32
  have c_main_v34 : U' (Proc.devRef .tc main_v34) = val_main_v34 (F := F) x1 := by
    rw [← hU']; simp (disch := decide) only [nullary_result_ne', unary_result_ne', binary_result_ne', ternary_result_ne', quaternary_result_ne', reshape_result_ne']; exact f_main_v34
  have c_main_c_9 : U' (Proc.devRef .tc main_c_9) = val_main_c_9 (F := F) := by
    rw [← hU']; simp (disch := decide) only [nullary_result_ne', unary_result_ne', binary_result_ne', ternary_result_ne', quaternary_result_ne', reshape_result_ne']; exact f_main_c_9
  clear hU' f_main_arg1 f_main_arg6 f_main_arg7 f_main_v6 f_main_v9 f_main_v10 f_main_v25 f_main_v30 f_main_v32 f_main_v34 f_main_c_8 f_main_c_9
  clear U; rename' U' => U
  rename' c_main_arg1 => f_main_arg1; rename' c_main_arg6 => f_main_arg6; rename' c_main_arg7 => f_main_arg7; rename' c_main_v6 => f_main_v6; rename' c_main_v9 => f_main_v9; rename' c_main_v10 => f_main_v10; rename' c_main_v25 => f_main_v25; rename' c_main_v30 => f_main_v30; rename' c_main_v32 => f_main_v32; rename' c_main_v34 => f_main_v34; rename' c_main_c_9 => f_main_c_9; rename' n_main_call3_v0 => f_main_call3_v0
  -- main_call3_v1 ← main_call3_v0
  rw [after_cons]
  generalize hU' : HloOp.result _ U = U'
  have n_main_call3_v1 : U' (Proc.devRef .tc main_call3_v1) = val_main_call3_v1 (F := F) := by
    rw [← hU']; simp (disch := decide) only [nullary_result', unary_result', binary_result', ternary_result', quaternary_result', reshape_result', f_main_call3_v0]; exact (cast_80 (F := F) (val_main_call3_v0 (F := F))).trans rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v30 : U' (Proc.devRef .tc main_v30) = val_main_v30 (F := F) x0 x2 x4 x5 := by
    rw [← hU']; simp (disch := decide) only [nullary_result_ne', unary_result_ne', binary_result_ne', ternary_result_ne', quaternary_result_ne', reshape_result_ne']; exact f_main_v30
  have c_main_v32 : U' (Proc.devRef .tc main_v32) = val_main_v32 (F := F) x0 x2 x3 := by
    rw [← hU']; simp (disch := decide) only [nullary_result_ne', unary_result_ne', binary_result_ne', ternary_result_ne', quaternary_result_ne', reshape_result_ne']; exact f_main_v32
  have c_main_v34 : U' (Proc.devRef .tc main_v34) = val_main_v34 (F := F) x1 := by
    rw [← hU']; simp (disch := decide) only [nullary_result_ne', unary_result_ne', binary_result_ne', ternary_result_ne', quaternary_result_ne', reshape_result_ne']; exact f_main_v34
  have c_main_c_9 : U' (Proc.devRef .tc main_c_9) = val_main_c_9 (F := F) := by
    rw [← hU']; simp (disch := decide) only [nullary_result_ne', unary_result_ne', binary_result_ne', ternary_result_ne', quaternary_result_ne', reshape_result_ne']; exact f_main_c_9
  clear hU' f_main_arg1 f_main_arg6 f_main_arg7 f_main_v6 f_main_v9 f_main_v10 f_main_v25 f_main_v30 f_main_v32 f_main_v34 f_main_c_9 f_main_call3_v0
  clear U; rename' U' => U
  rename' c_main_arg1 => f_main_arg1; rename' c_main_arg6 => f_main_arg6; rename' c_main_arg7 => f_main_arg7; rename' c_main_v6 => f_main_v6; rename' c_main_v9 => f_main_v9; rename' c_main_v10 => f_main_v10; rename' c_main_v25 => f_main_v25; rename' c_main_v30 => f_main_v30; rename' c_main_v32 => f_main_v32; rename' c_main_v34 => f_main_v34; rename' c_main_c_9 => f_main_c_9; rename' n_main_call3_v1 => f_main_call3_v1
  -- main_call3_v2 ← main_call3_v1, main_v34
  rw [after_cons]
  generalize hU' : HloOp.result _ U = U'
  have n_main_call3_v2 : U' (Proc.devRef .tc main_call3_v2) = val_main_call3_v2 (F := F) x1 := by
    rw [← hU']; simp (disch := decide) only [nullary_result', unary_result', binary_result', ternary_result', quaternary_result', reshape_result', f_main_call3_v1, f_main_v34]; exact (cast_81 (F := F) (val_main_call3_v1 (F := F)) (val_main_v34 (F := F) x1)).trans rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v30 : U' (Proc.devRef .tc main_v30) = val_main_v30 (F := F) x0 x2 x4 x5 := by
    rw [← hU']; simp (disch := decide) only [nullary_result_ne', unary_result_ne', binary_result_ne', ternary_result_ne', quaternary_result_ne', reshape_result_ne']; exact f_main_v30
  have c_main_v32 : U' (Proc.devRef .tc main_v32) = val_main_v32 (F := F) x0 x2 x3 := by
    rw [← hU']; simp (disch := decide) only [nullary_result_ne', unary_result_ne', binary_result_ne', ternary_result_ne', quaternary_result_ne', reshape_result_ne']; exact f_main_v32
  have c_main_c_9 : U' (Proc.devRef .tc main_c_9) = val_main_c_9 (F := F) := by
    rw [← hU']; simp (disch := decide) only [nullary_result_ne', unary_result_ne', binary_result_ne', ternary_result_ne', quaternary_result_ne', reshape_result_ne']; exact f_main_c_9
  clear hU' f_main_arg1 f_main_arg6 f_main_arg7 f_main_v6 f_main_v9 f_main_v10 f_main_v25 f_main_v30 f_main_v32 f_main_v34 f_main_c_9 f_main_call3_v1
  clear U; rename' U' => U
  rename' c_main_arg1 => f_main_arg1; rename' c_main_arg6 => f_main_arg6; rename' c_main_arg7 => f_main_arg7; rename' c_main_v6 => f_main_v6; rename' c_main_v9 => f_main_v9; rename' c_main_v10 => f_main_v10; rename' c_main_v25 => f_main_v25; rename' c_main_v30 => f_main_v30; rename' c_main_v32 => f_main_v32; rename' c_main_c_9 => f_main_c_9; rename' n_main_call3_v2 => f_main_call3_v2
  -- main_call3_v3 ← main_c_9
  rw [after_cons]
  generalize hU' : HloOp.result _ U = U'
  have n_main_call3_v3 : U' (Proc.devRef .tc main_call3_v3) = val_main_call3_v3 (F := F) := by
    rw [← hU']; simp (disch := decide) only [nullary_result', unary_result', binary_result', ternary_result', quaternary_result', reshape_result', f_main_c_9]; exact (cast_82 (F := F) (val_main_c_9 (F := F))).trans rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v30 : U' (Proc.devRef .tc main_v30) = val_main_v30 (F := F) x0 x2 x4 x5 := by
    rw [← hU']; simp (disch := decide) only [nullary_result_ne', unary_result_ne', binary_result_ne', ternary_result_ne', quaternary_result_ne', reshape_result_ne']; exact f_main_v30
  have c_main_v32 : U' (Proc.devRef .tc main_v32) = val_main_v32 (F := F) x0 x2 x3 := by
    rw [← hU']; simp (disch := decide) only [nullary_result_ne', unary_result_ne', binary_result_ne', ternary_result_ne', quaternary_result_ne', reshape_result_ne']; exact f_main_v32
  have c_main_call3_v2 : U' (Proc.devRef .tc main_call3_v2) = val_main_call3_v2 (F := F) x1 := by
    rw [← hU']; simp (disch := decide) only [nullary_result_ne', unary_result_ne', binary_result_ne', ternary_result_ne', quaternary_result_ne', reshape_result_ne']; exact f_main_call3_v2
  clear hU' f_main_arg1 f_main_arg6 f_main_arg7 f_main_v6 f_main_v9 f_main_v10 f_main_v25 f_main_v30 f_main_v32 f_main_c_9 f_main_call3_v2
  clear U; rename' U' => U
  rename' c_main_arg1 => f_main_arg1; rename' c_main_arg6 => f_main_arg6; rename' c_main_arg7 => f_main_arg7; rename' c_main_v6 => f_main_v6; rename' c_main_v9 => f_main_v9; rename' c_main_v10 => f_main_v10; rename' c_main_v25 => f_main_v25; rename' c_main_v30 => f_main_v30; rename' c_main_v32 => f_main_v32; rename' c_main_call3_v2 => f_main_call3_v2; rename' n_main_call3_v3 => f_main_call3_v3
  -- main_call3_v4 ← main_call3_v3
  rw [after_cons]
  generalize hU' : HloOp.result _ U = U'
  have n_main_call3_v4 : U' (Proc.devRef .tc main_call3_v4) = val_main_call3_v4 (F := F) := by
    rw [← hU']; simp (disch := decide) only [nullary_result', unary_result', binary_result', ternary_result', quaternary_result', reshape_result', f_main_call3_v3]; exact (cast_83 (F := F) (val_main_call3_v3 (F := F))).trans rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v30 : U' (Proc.devRef .tc main_v30) = val_main_v30 (F := F) x0 x2 x4 x5 := by
    rw [← hU']; simp (disch := decide) only [nullary_result_ne', unary_result_ne', binary_result_ne', ternary_result_ne', quaternary_result_ne', reshape_result_ne']; exact f_main_v30
  have c_main_v32 : U' (Proc.devRef .tc main_v32) = val_main_v32 (F := F) x0 x2 x3 := by
    rw [← hU']; simp (disch := decide) only [nullary_result_ne', unary_result_ne', binary_result_ne', ternary_result_ne', quaternary_result_ne', reshape_result_ne']; exact f_main_v32
  have c_main_call3_v2 : U' (Proc.devRef .tc main_call3_v2) = val_main_call3_v2 (F := F) x1 := by
    rw [← hU']; simp (disch := decide) only [nullary_result_ne', unary_result_ne', binary_result_ne', ternary_result_ne', quaternary_result_ne', reshape_result_ne']; exact f_main_call3_v2
  clear hU' f_main_arg1 f_main_arg6 f_main_arg7 f_main_v6 f_main_v9 f_main_v10 f_main_v25 f_main_v30 f_main_v32 f_main_call3_v2 f_main_call3_v3
  clear U; rename' U' => U
  rename' c_main_arg1 => f_main_arg1; rename' c_main_arg6 => f_main_arg6; rename' c_main_arg7 => f_main_arg7; rename' c_main_v6 => f_main_v6; rename' c_main_v9 => f_main_v9; rename' c_main_v10 => f_main_v10; rename' c_main_v25 => f_main_v25; rename' c_main_v30 => f_main_v30; rename' c_main_v32 => f_main_v32; rename' c_main_call3_v2 => f_main_call3_v2; rename' n_main_call3_v4 => f_main_call3_v4
  simp only [after_nil]
  exact ⟨f_main_arg1, f_main_arg6, f_main_arg7, f_main_v6, f_main_v9, f_main_v10, f_main_v25, f_main_v30, f_main_v32, f_main_call3_v2, f_main_call3_v4⟩

set_option maxHeartbeats 400000000 in
/-- Operations 84 to 95 of the line: from the stages of what is read at entry to the stages of what is read after. -/
theorem walk7 (U : Valuation τ sig (Elt F)) (x0 x1 : (⟨S4096, .i32⟩ : BufTy).Contents (Elt F)) (x2 : (⟨S50000x256, .f32⟩ : BufTy).Contents (Elt F)) (x3 : (⟨S2502x256, .f32⟩ : BufTy).Contents (Elt F)) (x4 : (⟨S64x256, .f32⟩ : BufTy).Contents (Elt F)) (x5 : (⟨S7500x64, .f32⟩ : BufTy).Contents (Elt F)) (x6 : (⟨S16x256, .f32⟩ : BufTy).Contents (Elt F)) (x7 : (⟨S40000x16, .f32⟩ : BufTy).Contents (Elt F))
    (f_main_arg1 : U (Proc.devRef .tc main_arg1) = x1)
    (f_main_arg6 : U (Proc.devRef .tc main_arg6) = x6)
    (f_main_arg7 : U (Proc.devRef .tc main_arg7) = x7)
    (f_main_v6 : U (Proc.devRef .tc main_v6) = val_main_v6 (F := F) x0 x2)
    (f_main_v9 : U (Proc.devRef .tc main_v9) = val_main_v9 (F := F) x0 x2 x3)
    (f_main_v10 : U (Proc.devRef .tc main_v10) = val_main_v10 (F := F))
    (f_main_v25 : U (Proc.devRef .tc main_v25) = val_main_v25 (F := F) x0 x1 x2 x3)
    (f_main_v30 : U (Proc.devRef .tc main_v30) = val_main_v30 (F := F) x0 x2 x4 x5)
    (f_main_v32 : U (Proc.devRef .tc main_v32) = val_main_v32 (F := F) x0 x2 x3)
    (f_main_call3_v2 : U (Proc.devRef .tc main_call3_v2) = val_main_call3_v2 (F := F) x1)
    (f_main_call3_v4 : U (Proc.devRef .tc main_call3_v4) = val_main_call3_v4 (F := F)) :
    after (chunk7 (F := F)) U (Proc.devRef .tc main_arg1) = x1
      ∧ after (chunk7 (F := F)) U (Proc.devRef .tc main_arg6) = x6
      ∧ after (chunk7 (F := F)) U (Proc.devRef .tc main_arg7) = x7
      ∧ after (chunk7 (F := F)) U (Proc.devRef .tc main_v6) = val_main_v6 (F := F) x0 x2
      ∧ after (chunk7 (F := F)) U (Proc.devRef .tc main_v9) = val_main_v9 (F := F) x0 x2 x3
      ∧ after (chunk7 (F := F)) U (Proc.devRef .tc main_v10) = val_main_v10 (F := F)
      ∧ after (chunk7 (F := F)) U (Proc.devRef .tc main_v25) = val_main_v25 (F := F) x0 x1 x2 x3
      ∧ after (chunk7 (F := F)) U (Proc.devRef .tc main_v30) = val_main_v30 (F := F) x0 x2 x4 x5
      ∧ after (chunk7 (F := F)) U (Proc.devRef .tc main_v32) = val_main_v32 (F := F) x0 x2 x3
      ∧ after (chunk7 (F := F)) U (Proc.devRef .tc main_v35) = val_main_v35 (F := F) x1
      ∧ after (chunk7 (F := F)) U (Proc.devRef .tc main_v40) = val_main_v40 (F := F)
      ∧ after (chunk7 (F := F)) U (Proc.devRef .tc main_v42) = val_main_v42 (F := F) x1
      ∧ after (chunk7 (F := F)) U (Proc.devRef .tc main_c_13) = val_main_c_13 (F := F) := by
  simp only [chunk7, ops, List.drop_succ_cons, List.drop_zero, List.take_succ_cons, List.take_zero]
  -- main_v35 ← main_call3_v4, main_call3_v2
  rw [after_cons]
  generalize hU' : HloOp.result _ U = U'
  have n_main_v35 : U' (Proc.devRef .tc main_v35) = val_main_v35 (F := F) x1 := by
    rw [← hU']; simp (disch := decide) only [nullary_result', unary_result', binary_result', ternary_result', quaternary_result', reshape_result', f_main_call3_v4, f_main_call3_v2]; exact (cast_84 (F := F) (val_main_call3_v4 (F := F)) (val_main_call3_v2 (F := F) x1)).trans rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v30 : U' (Proc.devRef .tc main_v30) = val_main_v30 (F := F) x0 x2 x4 x5 := by
    rw [← hU']; simp (disch := decide) only [nullary_result_ne', unary_result_ne', binary_result_ne', ternary_result_ne', quaternary_result_ne', reshape_result_ne']; exact f_main_v30
  have c_main_v32 : U' (Proc.devRef .tc main_v32) = val_main_v32 (F := F) x0 x2 x3 := by
    rw [← hU']; simp (disch := decide) only [nullary_result_ne', unary_result_ne', binary_result_ne', ternary_result_ne', quaternary_result_ne', reshape_result_ne']; exact f_main_v32
  clear hU' f_main_arg1 f_main_arg6 f_main_arg7 f_main_v6 f_main_v9 f_main_v10 f_main_v25 f_main_v30 f_main_v32 f_main_call3_v2 f_main_call3_v4
  clear U; rename' U' => U
  rename' c_main_arg1 => f_main_arg1; rename' c_main_arg6 => f_main_arg6; rename' c_main_arg7 => f_main_arg7; rename' c_main_v6 => f_main_v6; rename' c_main_v9 => f_main_v9; rename' c_main_v10 => f_main_v10; rename' c_main_v25 => f_main_v25; rename' c_main_v30 => f_main_v30; rename' c_main_v32 => f_main_v32; rename' n_main_v35 => f_main_v35
  -- main_c_10 ← (a constant)
  rw [after_cons]
  generalize hU' : HloOp.result _ U = U'
  have n_main_c_10 : U' (Proc.devRef .tc main_c_10) = val_main_c_10 (F := F) := by
    rw [← hU']; simp (disch := decide) only [nullary_result', unary_result', binary_result', ternary_result', quaternary_result', reshape_result']; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v30 : U' (Proc.devRef .tc main_v30) = val_main_v30 (F := F) x0 x2 x4 x5 := by
    rw [← hU']; simp (disch := decide) only [nullary_result_ne', unary_result_ne', binary_result_ne', ternary_result_ne', quaternary_result_ne', reshape_result_ne']; exact f_main_v30
  have c_main_v32 : U' (Proc.devRef .tc main_v32) = val_main_v32 (F := F) x0 x2 x3 := by
    rw [← hU']; simp (disch := decide) only [nullary_result_ne', unary_result_ne', binary_result_ne', ternary_result_ne', quaternary_result_ne', reshape_result_ne']; exact f_main_v32
  have c_main_v35 : U' (Proc.devRef .tc main_v35) = val_main_v35 (F := F) x1 := by
    rw [← hU']; simp (disch := decide) only [nullary_result_ne', unary_result_ne', binary_result_ne', ternary_result_ne', quaternary_result_ne', reshape_result_ne']; exact f_main_v35
  clear hU' f_main_arg1 f_main_arg6 f_main_arg7 f_main_v6 f_main_v9 f_main_v10 f_main_v25 f_main_v30 f_main_v32 f_main_v35
  clear U; rename' U' => U
  rename' c_main_arg1 => f_main_arg1; rename' c_main_arg6 => f_main_arg6; rename' c_main_arg7 => f_main_arg7; rename' c_main_v6 => f_main_v6; rename' c_main_v9 => f_main_v9; rename' c_main_v10 => f_main_v10; rename' c_main_v25 => f_main_v25; rename' c_main_v30 => f_main_v30; rename' c_main_v32 => f_main_v32; rename' c_main_v35 => f_main_v35; rename' n_main_c_10 => f_main_c_10
  -- main_v36 ← main_c_10
  rw [after_cons]
  generalize hU' : HloOp.result _ U = U'
  have n_main_v36 : U' (Proc.devRef .tc main_v36) = val_main_v36 (F := F) := by
    rw [← hU']; simp (disch := decide) only [nullary_result', unary_result', binary_result', ternary_result', quaternary_result', reshape_result', f_main_c_10]; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v30 : U' (Proc.devRef .tc main_v30) = val_main_v30 (F := F) x0 x2 x4 x5 := by
    rw [← hU']; simp (disch := decide) only [nullary_result_ne', unary_result_ne', binary_result_ne', ternary_result_ne', quaternary_result_ne', reshape_result_ne']; exact f_main_v30
  have c_main_v32 : U' (Proc.devRef .tc main_v32) = val_main_v32 (F := F) x0 x2 x3 := by
    rw [← hU']; simp (disch := decide) only [nullary_result_ne', unary_result_ne', binary_result_ne', ternary_result_ne', quaternary_result_ne', reshape_result_ne']; exact f_main_v32
  have c_main_v35 : U' (Proc.devRef .tc main_v35) = val_main_v35 (F := F) x1 := by
    rw [← hU']; simp (disch := decide) only [nullary_result_ne', unary_result_ne', binary_result_ne', ternary_result_ne', quaternary_result_ne', reshape_result_ne']; exact f_main_v35
  clear hU' f_main_arg1 f_main_arg6 f_main_arg7 f_main_v6 f_main_v9 f_main_v10 f_main_v25 f_main_v30 f_main_v32 f_main_v35 f_main_c_10
  clear U; rename' U' => U
  rename' c_main_arg1 => f_main_arg1; rename' c_main_arg6 => f_main_arg6; rename' c_main_arg7 => f_main_arg7; rename' c_main_v6 => f_main_v6; rename' c_main_v9 => f_main_v9; rename' c_main_v10 => f_main_v10; rename' c_main_v25 => f_main_v25; rename' c_main_v30 => f_main_v30; rename' c_main_v32 => f_main_v32; rename' c_main_v35 => f_main_v35; rename' n_main_v36 => f_main_v36
  -- main_v37 ← main_v10, main_v36
  rw [after_cons]
  generalize hU' : HloOp.result _ U = U'
  have n_main_v37 : U' (Proc.devRef .tc main_v37) = val_main_v37 (F := F) := by
    rw [← hU']; simp (disch := decide) only [nullary_result', unary_result', binary_result', ternary_result', quaternary_result', reshape_result', f_main_v10, f_main_v36]; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v30 : U' (Proc.devRef .tc main_v30) = val_main_v30 (F := F) x0 x2 x4 x5 := by
    rw [← hU']; simp (disch := decide) only [nullary_result_ne', unary_result_ne', binary_result_ne', ternary_result_ne', quaternary_result_ne', reshape_result_ne']; exact f_main_v30
  have c_main_v32 : U' (Proc.devRef .tc main_v32) = val_main_v32 (F := F) x0 x2 x3 := by
    rw [← hU']; simp (disch := decide) only [nullary_result_ne', unary_result_ne', binary_result_ne', ternary_result_ne', quaternary_result_ne', reshape_result_ne']; exact f_main_v32
  have c_main_v35 : U' (Proc.devRef .tc main_v35) = val_main_v35 (F := F) x1 := by
    rw [← hU']; simp (disch := decide) only [nullary_result_ne', unary_result_ne', binary_result_ne', ternary_result_ne', quaternary_result_ne', reshape_result_ne']; exact f_main_v35
  clear hU' f_main_arg1 f_main_arg6 f_main_arg7 f_main_v6 f_main_v9 f_main_v10 f_main_v25 f_main_v30 f_main_v32 f_main_v35 f_main_v36
  clear U; rename' U' => U
  rename' c_main_arg1 => f_main_arg1; rename' c_main_arg6 => f_main_arg6; rename' c_main_arg7 => f_main_arg7; rename' c_main_v6 => f_main_v6; rename' c_main_v9 => f_main_v9; rename' c_main_v10 => f_main_v10; rename' c_main_v25 => f_main_v25; rename' c_main_v30 => f_main_v30; rename' c_main_v32 => f_main_v32; rename' c_main_v35 => f_main_v35; rename' n_main_v37 => f_main_v37
  -- main_c_11 ← (a constant)
  rw [after_cons]
  generalize hU' : HloOp.result _ U = U'
  have n_main_c_11 : U' (Proc.devRef .tc main_c_11) = val_main_c_11 (F := F) := by
    rw [← hU']; simp (disch := decide) only [nullary_result', unary_result', binary_result', ternary_result', quaternary_result', reshape_result']; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v30 : U' (Proc.devRef .tc main_v30) = val_main_v30 (F := F) x0 x2 x4 x5 := by
    rw [← hU']; simp (disch := decide) only [nullary_result_ne', unary_result_ne', binary_result_ne', ternary_result_ne', quaternary_result_ne', reshape_result_ne']; exact f_main_v30
  have c_main_v32 : U' (Proc.devRef .tc main_v32) = val_main_v32 (F := F) x0 x2 x3 := by
    rw [← hU']; simp (disch := decide) only [nullary_result_ne', unary_result_ne', binary_result_ne', ternary_result_ne', quaternary_result_ne', reshape_result_ne']; exact f_main_v32
  have c_main_v35 : U' (Proc.devRef .tc main_v35) = val_main_v35 (F := F) x1 := by
    rw [← hU']; simp (disch := decide) only [nullary_result_ne', unary_result_ne', binary_result_ne', ternary_result_ne', quaternary_result_ne', reshape_result_ne']; exact f_main_v35
  have c_main_v37 : U' (Proc.devRef .tc main_v37) = val_main_v37 (F := F) := by
    rw [← hU']; simp (disch := decide) only [nullary_result_ne', unary_result_ne', binary_result_ne', ternary_result_ne', quaternary_result_ne', reshape_result_ne']; exact f_main_v37
  clear hU' f_main_arg1 f_main_arg6 f_main_arg7 f_main_v6 f_main_v9 f_main_v10 f_main_v25 f_main_v30 f_main_v32 f_main_v35 f_main_v37
  clear U; rename' U' => U
  rename' c_main_arg1 => f_main_arg1; rename' c_main_arg6 => f_main_arg6; rename' c_main_arg7 => f_main_arg7; rename' c_main_v6 => f_main_v6; rename' c_main_v9 => f_main_v9; rename' c_main_v10 => f_main_v10; rename' c_main_v25 => f_main_v25; rename' c_main_v30 => f_main_v30; rename' c_main_v32 => f_main_v32; rename' c_main_v35 => f_main_v35; rename' c_main_v37 => f_main_v37; rename' n_main_c_11 => f_main_c_11
  -- main_v38 ← main_c_11
  rw [after_cons]
  generalize hU' : HloOp.result _ U = U'
  have n_main_v38 : U' (Proc.devRef .tc main_v38) = val_main_v38 (F := F) := by
    rw [← hU']; simp (disch := decide) only [nullary_result', unary_result', binary_result', ternary_result', quaternary_result', reshape_result', f_main_c_11]; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v30 : U' (Proc.devRef .tc main_v30) = val_main_v30 (F := F) x0 x2 x4 x5 := by
    rw [← hU']; simp (disch := decide) only [nullary_result_ne', unary_result_ne', binary_result_ne', ternary_result_ne', quaternary_result_ne', reshape_result_ne']; exact f_main_v30
  have c_main_v32 : U' (Proc.devRef .tc main_v32) = val_main_v32 (F := F) x0 x2 x3 := by
    rw [← hU']; simp (disch := decide) only [nullary_result_ne', unary_result_ne', binary_result_ne', ternary_result_ne', quaternary_result_ne', reshape_result_ne']; exact f_main_v32
  have c_main_v35 : U' (Proc.devRef .tc main_v35) = val_main_v35 (F := F) x1 := by
    rw [← hU']; simp (disch := decide) only [nullary_result_ne', unary_result_ne', binary_result_ne', ternary_result_ne', quaternary_result_ne', reshape_result_ne']; exact f_main_v35
  have c_main_v37 : U' (Proc.devRef .tc main_v37) = val_main_v37 (F := F) := by
    rw [← hU']; simp (disch := decide) only [nullary_result_ne', unary_result_ne', binary_result_ne', ternary_result_ne', quaternary_result_ne', reshape_result_ne']; exact f_main_v37
  clear hU' f_main_arg1 f_main_arg6 f_main_arg7 f_main_v6 f_main_v9 f_main_v10 f_main_v25 f_main_v30 f_main_v32 f_main_v35 f_main_v37 f_main_c_11
  clear U; rename' U' => U
  rename' c_main_arg1 => f_main_arg1; rename' c_main_arg6 => f_main_arg6; rename' c_main_arg7 => f_main_arg7; rename' c_main_v6 => f_main_v6; rename' c_main_v9 => f_main_v9; rename' c_main_v10 => f_main_v10; rename' c_main_v25 => f_main_v25; rename' c_main_v30 => f_main_v30; rename' c_main_v32 => f_main_v32; rename' c_main_v35 => f_main_v35; rename' c_main_v37 => f_main_v37; rename' n_main_v38 => f_main_v38
  -- main_v39 ← main_v10, main_v38
  rw [after_cons]
  generalize hU' : HloOp.result _ U = U'
  have n_main_v39 : U' (Proc.devRef .tc main_v39) = val_main_v39 (F := F) := by
    rw [← hU']; simp (disch := decide) only [nullary_result', unary_result', binary_result', ternary_result', quaternary_result', reshape_result', f_main_v10, f_main_v38]; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v30 : U' (Proc.devRef .tc main_v30) = val_main_v30 (F := F) x0 x2 x4 x5 := by
    rw [← hU']; simp (disch := decide) only [nullary_result_ne', unary_result_ne', binary_result_ne', ternary_result_ne', quaternary_result_ne', reshape_result_ne']; exact f_main_v30
  have c_main_v32 : U' (Proc.devRef .tc main_v32) = val_main_v32 (F := F) x0 x2 x3 := by
    rw [← hU']; simp (disch := decide) only [nullary_result_ne', unary_result_ne', binary_result_ne', ternary_result_ne', quaternary_result_ne', reshape_result_ne']; exact f_main_v32
  have c_main_v35 : U' (Proc.devRef .tc main_v35) = val_main_v35 (F := F) x1 := by
    rw [← hU']; simp (disch := decide) only [nullary_result_ne', unary_result_ne', binary_result_ne', ternary_result_ne', quaternary_result_ne', reshape_result_ne']; exact f_main_v35
  have c_main_v37 : U' (Proc.devRef .tc main_v37) = val_main_v37 (F := F) := by
    rw [← hU']; simp (disch := decide) only [nullary_result_ne', unary_result_ne', binary_result_ne', ternary_result_ne', quaternary_result_ne', reshape_result_ne']; exact f_main_v37
  clear hU' f_main_arg1 f_main_arg6 f_main_arg7 f_main_v6 f_main_v9 f_main_v10 f_main_v25 f_main_v30 f_main_v32 f_main_v35 f_main_v37 f_main_v38
  clear U; rename' U' => U
  rename' c_main_arg1 => f_main_arg1; rename' c_main_arg6 => f_main_arg6; rename' c_main_arg7 => f_main_arg7; rename' c_main_v6 => f_main_v6; rename' c_main_v9 => f_main_v9; rename' c_main_v10 => f_main_v10; rename' c_main_v25 => f_main_v25; rename' c_main_v30 => f_main_v30; rename' c_main_v32 => f_main_v32; rename' c_main_v35 => f_main_v35; rename' c_main_v37 => f_main_v37; rename' n_main_v39 => f_main_v39
  -- main_v40 ← main_v37, main_v39, main_v10
  rw [after_cons]
  generalize hU' : HloOp.result _ U = U'
  have n_main_v40 : U' (Proc.devRef .tc main_v40) = val_main_v40 (F := F) := by
    rw [← hU']; simp (disch := decide) only [nullary_result', unary_result', binary_result', ternary_result', quaternary_result', reshape_result', f_main_v37, f_main_v39, f_main_v10]; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v30 : U' (Proc.devRef .tc main_v30) = val_main_v30 (F := F) x0 x2 x4 x5 := by
    rw [← hU']; simp (disch := decide) only [nullary_result_ne', unary_result_ne', binary_result_ne', ternary_result_ne', quaternary_result_ne', reshape_result_ne']; exact f_main_v30
  have c_main_v32 : U' (Proc.devRef .tc main_v32) = val_main_v32 (F := F) x0 x2 x3 := by
    rw [← hU']; simp (disch := decide) only [nullary_result_ne', unary_result_ne', binary_result_ne', ternary_result_ne', quaternary_result_ne', reshape_result_ne']; exact f_main_v32
  have c_main_v35 : U' (Proc.devRef .tc main_v35) = val_main_v35 (F := F) x1 := by
    rw [← hU']; simp (disch := decide) only [nullary_result_ne', unary_result_ne', binary_result_ne', ternary_result_ne', quaternary_result_ne', reshape_result_ne']; exact f_main_v35
  clear hU' f_main_arg1 f_main_arg6 f_main_arg7 f_main_v6 f_main_v9 f_main_v10 f_main_v25 f_main_v30 f_main_v32 f_main_v35 f_main_v37 f_main_v39
  clear U; rename' U' => U
  rename' c_main_arg1 => f_main_arg1; rename' c_main_arg6 => f_main_arg6; rename' c_main_arg7 => f_main_arg7; rename' c_main_v6 => f_main_v6; rename' c_main_v9 => f_main_v9; rename' c_main_v10 => f_main_v10; rename' c_main_v25 => f_main_v25; rename' c_main_v30 => f_main_v30; rename' c_main_v32 => f_main_v32; rename' c_main_v35 => f_main_v35; rename' n_main_v40 => f_main_v40
  -- main_c_12 ← (a constant)
  rw [after_cons]
  generalize hU' : HloOp.result _ U = U'
  have n_main_c_12 : U' (Proc.devRef .tc main_c_12) = val_main_c_12 (F := F) := by
    rw [← hU']; simp (disch := decide) only [nullary_result', unary_result', binary_result', ternary_result', quaternary_result', reshape_result']; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v30 : U' (Proc.devRef .tc main_v30) = val_main_v30 (F := F) x0 x2 x4 x5 := by
    rw [← hU']; simp (disch := decide) only [nullary_result_ne', unary_result_ne', binary_result_ne', ternary_result_ne', quaternary_result_ne', reshape_result_ne']; exact f_main_v30
  have c_main_v32 : U' (Proc.devRef .tc main_v32) = val_main_v32 (F := F) x0 x2 x3 := by
    rw [← hU']; simp (disch := decide) only [nullary_result_ne', unary_result_ne', binary_result_ne', ternary_result_ne', quaternary_result_ne', reshape_result_ne']; exact f_main_v32
  have c_main_v35 : U' (Proc.devRef .tc main_v35) = val_main_v35 (F := F) x1 := by
    rw [← hU']; simp (disch := decide) only [nullary_result_ne', unary_result_ne', binary_result_ne', ternary_result_ne', quaternary_result_ne', reshape_result_ne']; exact f_main_v35
  have c_main_v40 : U' (Proc.devRef .tc main_v40) = val_main_v40 (F := F) := by
    rw [← hU']; simp (disch := decide) only [nullary_result_ne', unary_result_ne', binary_result_ne', ternary_result_ne', quaternary_result_ne', reshape_result_ne']; exact f_main_v40
  clear hU' f_main_arg1 f_main_arg6 f_main_arg7 f_main_v6 f_main_v9 f_main_v10 f_main_v25 f_main_v30 f_main_v32 f_main_v35 f_main_v40
  clear U; rename' U' => U
  rename' c_main_arg1 => f_main_arg1; rename' c_main_arg6 => f_main_arg6; rename' c_main_arg7 => f_main_arg7; rename' c_main_v6 => f_main_v6; rename' c_main_v9 => f_main_v9; rename' c_main_v10 => f_main_v10; rename' c_main_v25 => f_main_v25; rename' c_main_v30 => f_main_v30; rename' c_main_v32 => f_main_v32; rename' c_main_v35 => f_main_v35; rename' c_main_v40 => f_main_v40; rename' n_main_c_12 => f_main_c_12
  -- main_v41 ← main_c_12
  rw [after_cons]
  generalize hU' : HloOp.result _ U = U'
  have n_main_v41 : U' (Proc.devRef .tc main_v41) = val_main_v41 (F := F) := by
    rw [← hU']; simp (disch := decide) only [nullary_result', unary_result', binary_result', ternary_result', quaternary_result', reshape_result', f_main_c_12]; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v30 : U' (Proc.devRef .tc main_v30) = val_main_v30 (F := F) x0 x2 x4 x5 := by
    rw [← hU']; simp (disch := decide) only [nullary_result_ne', unary_result_ne', binary_result_ne', ternary_result_ne', quaternary_result_ne', reshape_result_ne']; exact f_main_v30
  have c_main_v32 : U' (Proc.devRef .tc main_v32) = val_main_v32 (F := F) x0 x2 x3 := by
    rw [← hU']; simp (disch := decide) only [nullary_result_ne', unary_result_ne', binary_result_ne', ternary_result_ne', quaternary_result_ne', reshape_result_ne']; exact f_main_v32
  have c_main_v35 : U' (Proc.devRef .tc main_v35) = val_main_v35 (F := F) x1 := by
    rw [← hU']; simp (disch := decide) only [nullary_result_ne', unary_result_ne', binary_result_ne', ternary_result_ne', quaternary_result_ne', reshape_result_ne']; exact f_main_v35
  have c_main_v40 : U' (Proc.devRef .tc main_v40) = val_main_v40 (F := F) := by
    rw [← hU']; simp (disch := decide) only [nullary_result_ne', unary_result_ne', binary_result_ne', ternary_result_ne', quaternary_result_ne', reshape_result_ne']; exact f_main_v40
  clear hU' f_main_arg1 f_main_arg6 f_main_arg7 f_main_v6 f_main_v9 f_main_v10 f_main_v25 f_main_v30 f_main_v32 f_main_v35 f_main_v40 f_main_c_12
  clear U; rename' U' => U
  rename' c_main_arg1 => f_main_arg1; rename' c_main_arg6 => f_main_arg6; rename' c_main_arg7 => f_main_arg7; rename' c_main_v6 => f_main_v6; rename' c_main_v9 => f_main_v9; rename' c_main_v10 => f_main_v10; rename' c_main_v25 => f_main_v25; rename' c_main_v30 => f_main_v30; rename' c_main_v32 => f_main_v32; rename' c_main_v35 => f_main_v35; rename' c_main_v40 => f_main_v40; rename' n_main_v41 => f_main_v41
  -- main_v42 ← main_v35, main_v41
  rw [after_cons]
  generalize hU' : HloOp.result _ U = U'
  have n_main_v42 : U' (Proc.devRef .tc main_v42) = val_main_v42 (F := F) x1 := by
    rw [← hU']; simp (disch := decide) only [nullary_result', unary_result', binary_result', ternary_result', quaternary_result', reshape_result', f_main_v35, f_main_v41]; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v30 : U' (Proc.devRef .tc main_v30) = val_main_v30 (F := F) x0 x2 x4 x5 := by
    rw [← hU']; simp (disch := decide) only [nullary_result_ne', unary_result_ne', binary_result_ne', ternary_result_ne', quaternary_result_ne', reshape_result_ne']; exact f_main_v30
  have c_main_v32 : U' (Proc.devRef .tc main_v32) = val_main_v32 (F := F) x0 x2 x3 := by
    rw [← hU']; simp (disch := decide) only [nullary_result_ne', unary_result_ne', binary_result_ne', ternary_result_ne', quaternary_result_ne', reshape_result_ne']; exact f_main_v32
  have c_main_v35 : U' (Proc.devRef .tc main_v35) = val_main_v35 (F := F) x1 := by
    rw [← hU']; simp (disch := decide) only [nullary_result_ne', unary_result_ne', binary_result_ne', ternary_result_ne', quaternary_result_ne', reshape_result_ne']; exact f_main_v35
  have c_main_v40 : U' (Proc.devRef .tc main_v40) = val_main_v40 (F := F) := by
    rw [← hU']; simp (disch := decide) only [nullary_result_ne', unary_result_ne', binary_result_ne', ternary_result_ne', quaternary_result_ne', reshape_result_ne']; exact f_main_v40
  clear hU' f_main_arg1 f_main_arg6 f_main_arg7 f_main_v6 f_main_v9 f_main_v10 f_main_v25 f_main_v30 f_main_v32 f_main_v35 f_main_v40 f_main_v41
  clear U; rename' U' => U
  rename' c_main_arg1 => f_main_arg1; rename' c_main_arg6 => f_main_arg6; rename' c_main_arg7 => f_main_arg7; rename' c_main_v6 => f_main_v6; rename' c_main_v9 => f_main_v9; rename' c_main_v10 => f_main_v10; rename' c_main_v25 => f_main_v25; rename' c_main_v30 => f_main_v30; rename' c_main_v32 => f_main_v32; rename' c_main_v35 => f_main_v35; rename' c_main_v40 => f_main_v40; rename' n_main_v42 => f_main_v42
  -- main_c_13 ← (a constant)
  rw [after_cons]
  generalize hU' : HloOp.result _ U = U'
  have n_main_c_13 : U' (Proc.devRef .tc main_c_13) = val_main_c_13 (F := F) := by
    rw [← hU']; simp (disch := decide) only [nullary_result', unary_result', binary_result', ternary_result', quaternary_result', reshape_result']; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v30 : U' (Proc.devRef .tc main_v30) = val_main_v30 (F := F) x0 x2 x4 x5 := by
    rw [← hU']; simp (disch := decide) only [nullary_result_ne', unary_result_ne', binary_result_ne', ternary_result_ne', quaternary_result_ne', reshape_result_ne']; exact f_main_v30
  have c_main_v32 : U' (Proc.devRef .tc main_v32) = val_main_v32 (F := F) x0 x2 x3 := by
    rw [← hU']; simp (disch := decide) only [nullary_result_ne', unary_result_ne', binary_result_ne', ternary_result_ne', quaternary_result_ne', reshape_result_ne']; exact f_main_v32
  have c_main_v35 : U' (Proc.devRef .tc main_v35) = val_main_v35 (F := F) x1 := by
    rw [← hU']; simp (disch := decide) only [nullary_result_ne', unary_result_ne', binary_result_ne', ternary_result_ne', quaternary_result_ne', reshape_result_ne']; exact f_main_v35
  have c_main_v40 : U' (Proc.devRef .tc main_v40) = val_main_v40 (F := F) := by
    rw [← hU']; simp (disch := decide) only [nullary_result_ne', unary_result_ne', binary_result_ne', ternary_result_ne', quaternary_result_ne', reshape_result_ne']; exact f_main_v40
  have c_main_v42 : U' (Proc.devRef .tc main_v42) = val_main_v42 (F := F) x1 := by
    rw [← hU']; simp (disch := decide) only [nullary_result_ne', unary_result_ne', binary_result_ne', ternary_result_ne', quaternary_result_ne', reshape_result_ne']; exact f_main_v42
  clear hU' f_main_arg1 f_main_arg6 f_main_arg7 f_main_v6 f_main_v9 f_main_v10 f_main_v25 f_main_v30 f_main_v32 f_main_v35 f_main_v40 f_main_v42
  clear U; rename' U' => U
  rename' c_main_arg1 => f_main_arg1; rename' c_main_arg6 => f_main_arg6; rename' c_main_arg7 => f_main_arg7; rename' c_main_v6 => f_main_v6; rename' c_main_v9 => f_main_v9; rename' c_main_v10 => f_main_v10; rename' c_main_v25 => f_main_v25; rename' c_main_v30 => f_main_v30; rename' c_main_v32 => f_main_v32; rename' c_main_v35 => f_main_v35; rename' c_main_v40 => f_main_v40; rename' c_main_v42 => f_main_v42; rename' n_main_c_13 => f_main_c_13
  simp only [after_nil]
  exact ⟨f_main_arg1, f_main_arg6, f_main_arg7, f_main_v6, f_main_v9, f_main_v10, f_main_v25, f_main_v30, f_main_v32, f_main_v35, f_main_v40, f_main_v42, f_main_c_13⟩

end Cert.ReferenceIdeal.RunP

end
-- ==== Proof.RefRunWalk2.lean ====
/-
  Stretches of the reference's line, read one operation at a time.

  Folding a stretch over a valuation `U` that holds, at each buffer the stretch or a later one reads, that buffer's
  stage, the proof walks the stretch once. At each operation it shows that the one buffer the operation writes holds
  its stage — the operation's function applied to its operands' stages — and that every buffer still read later keeps
  what it held; then it forgets the valuation's history. A callee's operation moves its operands and result between a
  buffer's own type and the value's type; with the operations' functions kept folded, each such step is a transport
  along an equation of equal types, which reduces.
-/
import proofs.«428924_j53884659696080_3_alg».proof.Proof.RefRunCasts

set_option maxRecDepth 65536

noncomputable section

namespace Cert.ReferenceIdeal.RunP

open Cert.ReferenceIdeal Cert.ReferenceIdeal.Gen Idealize.ShloMosaic Idealize.ShloMosaic.TcCoe Idealize.SL.Sem Idealize.ShloMosaic.StableHlo Cert.ReferenceIdeal.ReadP Cert.ReferenceIdeal.ValueP

variable {F : FTy → Type} [FloatOps F]

-- the operations' functions stay folded, so that a transport around one reduces before anything else does
attribute [local irreducible] Host.exp Host.gather Host.log Host.reduce Host.reduceAdd Host.divf Host.negf addf addi broadcastInDim cmpi concatenate constant constantI extractStridedSlice iotaInDim maxsi minsi maximumf select shapeCast subf subi transpose

set_option maxHeartbeats 400000000 in
/-- Operations 96 to 107 of the line: from the stages of what is read at entry to the stages of what is read after. -/
theorem walk8 (U : Valuation τ sig (Elt F)) (x0 x1 : (⟨S4096, .i32⟩ : BufTy).Contents (Elt F)) (x2 : (⟨S50000x256, .f32⟩ : BufTy).Contents (Elt F)) (x3 : (⟨S2502x256, .f32⟩ : BufTy).Contents (Elt F)) (x4 : (⟨S64x256, .f32⟩ : BufTy).Contents (Elt F)) (x5 : (⟨S7500x64, .f32⟩ : BufTy).Contents (Elt F)) (x6 : (⟨S16x256, .f32⟩ : BufTy).Contents (Elt F)) (x7 : (⟨S40000x16, .f32⟩ : BufTy).Contents (Elt F))
    (f_main_arg1 : U (Proc.devRef .tc main_arg1) = x1)
    (f_main_arg6 : U (Proc.devRef .tc main_arg6) = x6)
    (f_main_arg7 : U (Proc.devRef .tc main_arg7) = x7)
    (f_main_v6 : U (Proc.devRef .tc main_v6) = val_main_v6 (F := F) x0 x2)
    (f_main_v9 : U (Proc.devRef .tc main_v9) = val_main_v9 (F := F) x0 x2 x3)
    (f_main_v10 : U (Proc.devRef .tc main_v10) = val_main_v10 (F := F))
    (f_main_v25 : U (Proc.devRef .tc main_v25) = val_main_v25 (F := F) x0 x1 x2 x3)
    (f_main_v30 : U (Proc.devRef .tc main_v30) = val_main_v30 (F := F) x0 x2 x4 x5)
    (f_main_v32 : U (Proc.devRef .tc main_v32) = val_main_v32 (F := F) x0 x2 x3)
    (f_main_v35 : U (Proc.devRef .tc main_v35) = val_main_v35 (F := F) x1)
    (f_main_v40 : U (Proc.devRef .tc main_v40) = val_main_v40 (F := F))
    (f_main_v42 : U (Proc.devRef .tc main_v42) = val_main_v42 (F := F) x1)
    (f_main_c_13 : U (Proc.devRef .tc main_c_13) = val_main_c_13 (F := F)) :
    after (chunk8 (F := F)) U (Proc.devRef .tc main_arg1) = x1
      ∧ after (chunk8 (F := F)) U (Proc.devRef .tc main_v9) = val_main_v9 (F := F) x0 x2 x3
      ∧ after (chunk8 (F := F)) U (Proc.devRef .tc main_v10) = val_main_v10 (F := F)
      ∧ after (chunk8 (F := F)) U (Proc.devRef .tc main_v25) = val_main_v25 (F := F) x0 x1 x2 x3
      ∧ after (chunk8 (F := F)) U (Proc.devRef .tc main_v50) = val_main_v50 (F := F) x0 x1 x2 x3 x4 x5
      ∧ after (chunk8 (F := F)) U (Proc.devRef .tc main_v54) = val_main_v54 (F := F) x0 x2 x6 x7 := by
  simp only [chunk8, ops, List.drop_succ_cons, List.drop_zero, List.take_succ_cons, List.take_zero]
  -- main_v43 ← main_c_13
  rw [after_cons]
  generalize hU' : HloOp.result _ U = U'
  have n_main_v43 : U' (Proc.devRef .tc main_v43) = val_main_v43 (F := F) := by
    rw [← hU']; simp (disch := decide) only [nullary_result', unary_result', binary_result', ternary_result', quaternary_result', reshape_result', f_main_c_13]; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v30 : U' (Proc.devRef .tc main_v30) = val_main_v30 (F := F) x0 x2 x4 x5 := by
    rw [← hU']; simp (disch := decide) only [nullary_result_ne', unary_result_ne', binary_result_ne', ternary_result_ne', quaternary_result_ne', reshape_result_ne']; exact f_main_v30
  have c_main_v32 : U' (Proc.devRef .tc main_v32) = val_main_v32 (F := F) x0 x2 x3 := by
    rw [← hU']; simp (disch := decide) only [nullary_result_ne', unary_result_ne', binary_result_ne', ternary_result_ne', quaternary_result_ne', reshape_result_ne']; exact f_main_v32
  have c_main_v35 : U' (Proc.devRef .tc main_v35) = val_main_v35 (F := F) x1 := by
    rw [← hU']; simp (disch := decide) only [nullary_result_ne', unary_result_ne', binary_result_ne', ternary_result_ne', quaternary_result_ne', reshape_result_ne']; exact f_main_v35
  have c_main_v40 : U' (Proc.devRef .tc main_v40) = val_main_v40 (F := F) := by
    rw [← hU']; simp (disch := decide) only [nullary_result_ne', unary_result_ne', binary_result_ne', ternary_result_ne', quaternary_result_ne', reshape_result_ne']; exact f_main_v40
  have c_main_v42 : U' (Proc.devRef .tc main_v42) = val_main_v42 (F := F) x1 := by
    rw [← hU']; simp (disch := decide) only [nullary_result_ne', unary_result_ne', binary_result_ne', ternary_result_ne', quaternary_result_ne', reshape_result_ne']; exact f_main_v42
  clear hU' f_main_arg1 f_main_arg6 f_main_arg7 f_main_v6 f_main_v9 f_main_v10 f_main_v25 f_main_v30 f_main_v32 f_main_v35 f_main_v40 f_main_v42 f_main_c_13
  clear U; rename' U' => U
  rename' c_main_arg1 => f_main_arg1; rename' c_main_arg6 => f_main_arg6; rename' c_main_arg7 => f_main_arg7; rename' c_main_v6 => f_main_v6; rename' c_main_v9 => f_main_v9; rename' c_main_v10 => f_main_v10; rename' c_main_v25 => f_main_v25; rename' c_main_v30 => f_main_v30; rename' c_main_v32 => f_main_v32; rename' c_main_v35 => f_main_v35; rename' c_main_v40 => f_main_v40; rename' c_main_v42 => f_main_v42; rename' n_main_v43 => f_main_v43
  -- main_v44 ← main_v35, main_v43
  rw [after_cons]
  generalize hU' : HloOp.result _ U = U'
  have n_main_v44 : U' (Proc.devRef .tc main_v44) = val_main_v44 (F := F) x1 := by
    rw [← hU']; simp (disch := decide) only [nullary_result', unary_result', binary_result', ternary_result', quaternary_result', reshape_result', f_main_v35, f_main_v43]; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v30 : U' (Proc.devRef .tc main_v30) = val_main_v30 (F := F) x0 x2 x4 x5 := by
    rw [← hU']; simp (disch := decide) only [nullary_result_ne', unary_result_ne', binary_result_ne', ternary_result_ne', quaternary_result_ne', reshape_result_ne']; exact f_main_v30
  have c_main_v32 : U' (Proc.devRef .tc main_v32) = val_main_v32 (F := F) x0 x2 x3 := by
    rw [← hU']; simp (disch := decide) only [nullary_result_ne', unary_result_ne', binary_result_ne', ternary_result_ne', quaternary_result_ne', reshape_result_ne']; exact f_main_v32
  have c_main_v35 : U' (Proc.devRef .tc main_v35) = val_main_v35 (F := F) x1 := by
    rw [← hU']; simp (disch := decide) only [nullary_result_ne', unary_result_ne', binary_result_ne', ternary_result_ne', quaternary_result_ne', reshape_result_ne']; exact f_main_v35
  have c_main_v40 : U' (Proc.devRef .tc main_v40) = val_main_v40 (F := F) := by
    rw [← hU']; simp (disch := decide) only [nullary_result_ne', unary_result_ne', binary_result_ne', ternary_result_ne', quaternary_result_ne', reshape_result_ne']; exact f_main_v40
  have c_main_v42 : U' (Proc.devRef .tc main_v42) = val_main_v42 (F := F) x1 := by
    rw [← hU']; simp (disch := decide) only [nullary_result_ne', unary_result_ne', binary_result_ne', ternary_result_ne', quaternary_result_ne', reshape_result_ne']; exact f_main_v42
  clear hU' f_main_arg1 f_main_arg6 f_main_arg7 f_main_v6 f_main_v9 f_main_v10 f_main_v25 f_main_v30 f_main_v32 f_main_v35 f_main_v40 f_main_v42 f_main_v43
  clear U; rename' U' => U
  rename' c_main_arg1 => f_main_arg1; rename' c_main_arg6 => f_main_arg6; rename' c_main_arg7 => f_main_arg7; rename' c_main_v6 => f_main_v6; rename' c_main_v9 => f_main_v9; rename' c_main_v10 => f_main_v10; rename' c_main_v25 => f_main_v25; rename' c_main_v30 => f_main_v30; rename' c_main_v32 => f_main_v32; rename' c_main_v35 => f_main_v35; rename' c_main_v40 => f_main_v40; rename' c_main_v42 => f_main_v42; rename' n_main_v44 => f_main_v44
  -- main_v45 ← main_v42, main_v44, main_v35
  rw [after_cons]
  generalize hU' : HloOp.result _ U = U'
  have n_main_v45 : U' (Proc.devRef .tc main_v45) = val_main_v45 (F := F) x1 := by
    rw [← hU']; simp (disch := decide) only [nullary_result', unary_result', binary_result', ternary_result', quaternary_result', reshape_result', f_main_v42, f_main_v44, f_main_v35]; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v30 : U' (Proc.devRef .tc main_v30) = val_main_v30 (F := F) x0 x2 x4 x5 := by
    rw [← hU']; simp (disch := decide) only [nullary_result_ne', unary_result_ne', binary_result_ne', ternary_result_ne', quaternary_result_ne', reshape_result_ne']; exact f_main_v30
  have c_main_v32 : U' (Proc.devRef .tc main_v32) = val_main_v32 (F := F) x0 x2 x3 := by
    rw [← hU']; simp (disch := decide) only [nullary_result_ne', unary_result_ne', binary_result_ne', ternary_result_ne', quaternary_result_ne', reshape_result_ne']; exact f_main_v32
  have c_main_v40 : U' (Proc.devRef .tc main_v40) = val_main_v40 (F := F) := by
    rw [← hU']; simp (disch := decide) only [nullary_result_ne', unary_result_ne', binary_result_ne', ternary_result_ne', quaternary_result_ne', reshape_result_ne']; exact f_main_v40
  clear hU' f_main_arg1 f_main_arg6 f_main_arg7 f_main_v6 f_main_v9 f_main_v10 f_main_v25 f_main_v30 f_main_v32 f_main_v35 f_main_v40 f_main_v42 f_main_v44
  clear U; rename' U' => U
  rename' c_main_arg1 => f_main_arg1; rename' c_main_arg6 => f_main_arg6; rename' c_main_arg7 => f_main_arg7; rename' c_main_v6 => f_main_v6; rename' c_main_v9 => f_main_v9; rename' c_main_v10 => f_main_v10; rename' c_main_v25 => f_main_v25; rename' c_main_v30 => f_main_v30; rename' c_main_v32 => f_main_v32; rename' c_main_v40 => f_main_v40; rename' n_main_v45 => f_main_v45
  -- main_v46 ← main_v40
  rw [after_cons]
  generalize hU' : HloOp.result _ U = U'
  have n_main_v46 : U' (Proc.devRef .tc main_v46) = val_main_v46 (F := F) := by
    rw [← hU']; simp (disch := decide) only [nullary_result', unary_result', binary_result', ternary_result', quaternary_result', reshape_result', f_main_v40]; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v30 : U' (Proc.devRef .tc main_v30) = val_main_v30 (F := F) x0 x2 x4 x5 := by
    rw [← hU']; simp (disch := decide) only [nullary_result_ne', unary_result_ne', binary_result_ne', ternary_result_ne', quaternary_result_ne', reshape_result_ne']; exact f_main_v30
  have c_main_v32 : U' (Proc.devRef .tc main_v32) = val_main_v32 (F := F) x0 x2 x3 := by
    rw [← hU']; simp (disch := decide) only [nullary_result_ne', unary_result_ne', binary_result_ne', ternary_result_ne', quaternary_result_ne', reshape_result_ne']; exact f_main_v32
  have c_main_v45 : U' (Proc.devRef .tc main_v45) = val_main_v45 (F := F) x1 := by
    rw [← hU']; simp (disch := decide) only [nullary_result_ne', unary_result_ne', binary_result_ne', ternary_result_ne', quaternary_result_ne', reshape_result_ne']; exact f_main_v45
  clear hU' f_main_arg1 f_main_arg6 f_main_arg7 f_main_v6 f_main_v9 f_main_v10 f_main_v25 f_main_v30 f_main_v32 f_main_v40 f_main_v45
  clear U; rename' U' => U
  rename' c_main_arg1 => f_main_arg1; rename' c_main_arg6 => f_main_arg6; rename' c_main_arg7 => f_main_arg7; rename' c_main_v6 => f_main_v6; rename' c_main_v9 => f_main_v9; rename' c_main_v10 => f_main_v10; rename' c_main_v25 => f_main_v25; rename' c_main_v30 => f_main_v30; rename' c_main_v32 => f_main_v32; rename' c_main_v45 => f_main_v45; rename' n_main_v46 => f_main_v46
  -- main_v47 ← main_v45
  rw [after_cons]
  generalize hU' : HloOp.result _ U = U'
  have n_main_v47 : U' (Proc.devRef .tc main_v47) = val_main_v47 (F := F) x1 := by
    rw [← hU']; simp (disch := decide) only [nullary_result', unary_result', binary_result', ternary_result', quaternary_result', reshape_result', f_main_v45]; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v30 : U' (Proc.devRef .tc main_v30) = val_main_v30 (F := F) x0 x2 x4 x5 := by
    rw [← hU']; simp (disch := decide) only [nullary_result_ne', unary_result_ne', binary_result_ne', ternary_result_ne', quaternary_result_ne', reshape_result_ne']; exact f_main_v30
  have c_main_v32 : U' (Proc.devRef .tc main_v32) = val_main_v32 (F := F) x0 x2 x3 := by
    rw [← hU']; simp (disch := decide) only [nullary_result_ne', unary_result_ne', binary_result_ne', ternary_result_ne', quaternary_result_ne', reshape_result_ne']; exact f_main_v32
  have c_main_v46 : U' (Proc.devRef .tc main_v46) = val_main_v46 (F := F) := by
    rw [← hU']; simp (disch := decide) only [nullary_result_ne', unary_result_ne', binary_result_ne', ternary_result_ne', quaternary_result_ne', reshape_result_ne']; exact f_main_v46
  clear hU' f_main_arg1 f_main_arg6 f_main_arg7 f_main_v6 f_main_v9 f_main_v10 f_main_v25 f_main_v30 f_main_v32 f_main_v45 f_main_v46
  clear U; rename' U' => U
  rename' c_main_arg1 => f_main_arg1; rename' c_main_arg6 => f_main_arg6; rename' c_main_arg7 => f_main_arg7; rename' c_main_v6 => f_main_v6; rename' c_main_v9 => f_main_v9; rename' c_main_v10 => f_main_v10; rename' c_main_v25 => f_main_v25; rename' c_main_v30 => f_main_v30; rename' c_main_v32 => f_main_v32; rename' c_main_v46 => f_main_v46; rename' n_main_v47 => f_main_v47
  -- main_v48 ← main_v46, main_v47
  rw [after_cons]
  generalize hU' : HloOp.result _ U = U'
  have n_main_v48 : U' (Proc.devRef .tc main_v48) = val_main_v48 (F := F) x1 := by
    rw [← hU']; simp (disch := decide) only [nullary_result', unary_result', binary_result', ternary_result', quaternary_result', reshape_result']; rw [f_main_v46, f_main_v47]; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v30 : U' (Proc.devRef .tc main_v30) = val_main_v30 (F := F) x0 x2 x4 x5 := by
    rw [← hU']; simp (disch := decide) only [nullary_result_ne', unary_result_ne', binary_result_ne', ternary_result_ne', quaternary_result_ne', reshape_result_ne']; exact f_main_v30
  have c_main_v32 : U' (Proc.devRef .tc main_v32) = val_main_v32 (F := F) x0 x2 x3 := by
    rw [← hU']; simp (disch := decide) only [nullary_result_ne', unary_result_ne', binary_result_ne', ternary_result_ne', quaternary_result_ne', reshape_result_ne']; exact f_main_v32
  clear hU' f_main_arg1 f_main_arg6 f_main_arg7 f_main_v6 f_main_v9 f_main_v10 f_main_v25 f_main_v30 f_main_v32 f_main_v46 f_main_v47
  clear U; rename' U' => U
  rename' c_main_arg1 => f_main_arg1; rename' c_main_arg6 => f_main_arg6; rename' c_main_arg7 => f_main_arg7; rename' c_main_v6 => f_main_v6; rename' c_main_v9 => f_main_v9; rename' c_main_v10 => f_main_v10; rename' c_main_v25 => f_main_v25; rename' c_main_v30 => f_main_v30; rename' c_main_v32 => f_main_v32; rename' n_main_v48 => f_main_v48
  -- main_v49 ← main_v30, main_v48
  rw [after_cons]
  generalize hU' : HloOp.result _ U = U'
  have n_main_v49 : U' (Proc.devRef .tc main_v49) = val_main_v49 (F := F) x0 x1 x2 x4 x5 := by
    rw [← hU']; simp (disch := decide) only [nullary_result', unary_result', binary_result', ternary_result', quaternary_result', reshape_result', f_main_v30, f_main_v48]; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v32 : U' (Proc.devRef .tc main_v32) = val_main_v32 (F := F) x0 x2 x3 := by
    rw [← hU']; simp (disch := decide) only [nullary_result_ne', unary_result_ne', binary_result_ne', ternary_result_ne', quaternary_result_ne', reshape_result_ne']; exact f_main_v32
  clear hU' f_main_arg1 f_main_arg6 f_main_arg7 f_main_v6 f_main_v9 f_main_v10 f_main_v25 f_main_v30 f_main_v32 f_main_v48
  clear U; rename' U' => U
  rename' c_main_arg1 => f_main_arg1; rename' c_main_arg6 => f_main_arg6; rename' c_main_arg7 => f_main_arg7; rename' c_main_v6 => f_main_v6; rename' c_main_v9 => f_main_v9; rename' c_main_v10 => f_main_v10; rename' c_main_v25 => f_main_v25; rename' c_main_v32 => f_main_v32; rename' n_main_v49 => f_main_v49
  -- main_v50 ← main_v32, main_v49
  rw [after_cons]
  generalize hU' : HloOp.result _ U = U'
  have n_main_v50 : U' (Proc.devRef .tc main_v50) = val_main_v50 (F := F) x0 x1 x2 x3 x4 x5 := by
    rw [← hU']; simp (disch := decide) only [nullary_result', unary_result', binary_result', ternary_result', quaternary_result', reshape_result', f_main_v32, f_main_v49]; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg6 : U' (Proc.devRef .tc main_arg6) = x6 := by
    rw [← hU']; simp (disch := decide) only [nullary_result_ne', unary_result_ne', binary_result_ne', ternary_result_ne', quaternary_result_ne', reshape_result_ne']; exact f_main_arg6
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  clear hU' f_main_arg1 f_main_arg6 f_main_arg7 f_main_v6 f_main_v9 f_main_v10 f_main_v25 f_main_v32 f_main_v49
  clear U; rename' U' => U
  rename' c_main_arg1 => f_main_arg1; rename' c_main_arg6 => f_main_arg6; rename' c_main_arg7 => f_main_arg7; rename' c_main_v6 => f_main_v6; rename' c_main_v9 => f_main_v9; rename' c_main_v10 => f_main_v10; rename' c_main_v25 => f_main_v25; rename' n_main_v50 => f_main_v50
  -- main_v51 ← main_arg6
  rw [after_cons]
  generalize hU' : HloOp.result _ U = U'
  have n_main_v51 : U' (Proc.devRef .tc main_v51) = val_main_v51 (F := F) x6 := by
    rw [← hU']; simp (disch := decide) only [nullary_result', unary_result', binary_result', ternary_result', quaternary_result', reshape_result', f_main_arg6]; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v6 : U' (Proc.devRef .tc main_v6) = val_main_v6 (F := F) x0 x2 := by
    rw [← hU']; simp (disch := decide) only [nullary_result_ne', unary_result_ne', binary_result_ne', ternary_result_ne', quaternary_result_ne', reshape_result_ne']; exact f_main_v6
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v50 : U' (Proc.devRef .tc main_v50) = val_main_v50 (F := F) x0 x1 x2 x3 x4 x5 := by
    rw [← hU']; simp (disch := decide) only [nullary_result_ne', unary_result_ne', binary_result_ne', ternary_result_ne', quaternary_result_ne', reshape_result_ne']; exact f_main_v50
  clear hU' f_main_arg1 f_main_arg6 f_main_arg7 f_main_v6 f_main_v9 f_main_v10 f_main_v25 f_main_v50
  clear U; rename' U' => U
  rename' c_main_arg1 => f_main_arg1; rename' c_main_arg7 => f_main_arg7; rename' c_main_v6 => f_main_v6; rename' c_main_v9 => f_main_v9; rename' c_main_v10 => f_main_v10; rename' c_main_v25 => f_main_v25; rename' c_main_v50 => f_main_v50; rename' n_main_v51 => f_main_v51
  -- main_v52 ← main_v6, main_v51
  rw [after_cons]
  generalize hU' : HloOp.result _ U = U'
  have n_main_v52 : U' (Proc.devRef .tc main_v52) = val_main_v52 (F := F) x0 x2 x6 := by
    rw [← hU']; simp (disch := decide) only [nullary_result', unary_result', binary_result', ternary_result', quaternary_result', reshape_result', f_main_v6, f_main_v51]; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_arg7 : U' (Proc.devRef .tc main_arg7) = x7 := by
    rw [← hU']; simp (disch := decide) only [nullary_result_ne', unary_result_ne', binary_result_ne', ternary_result_ne', quaternary_result_ne', reshape_result_ne']; exact f_main_arg7
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v50 : U' (Proc.devRef .tc main_v50) = val_main_v50 (F := F) x0 x1 x2 x3 x4 x5 := by
    rw [← hU']; simp (disch := decide) only [nullary_result_ne', unary_result_ne', binary_result_ne', ternary_result_ne', quaternary_result_ne', reshape_result_ne']; exact f_main_v50
  clear hU' f_main_arg1 f_main_arg7 f_main_v6 f_main_v9 f_main_v10 f_main_v25 f_main_v50 f_main_v51
  clear U; rename' U' => U
  rename' c_main_arg1 => f_main_arg1; rename' c_main_arg7 => f_main_arg7; rename' c_main_v9 => f_main_v9; rename' c_main_v10 => f_main_v10; rename' c_main_v25 => f_main_v25; rename' c_main_v50 => f_main_v50; rename' n_main_v52 => f_main_v52
  -- main_v53 ← main_arg7
  rw [after_cons]
  generalize hU' : HloOp.result _ U = U'
  have n_main_v53 : U' (Proc.devRef .tc main_v53) = val_main_v53 (F := F) x7 := by
    rw [← hU']; simp (disch := decide) only [nullary_result', unary_result', binary_result', ternary_result', quaternary_result', reshape_result', f_main_arg7]; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v50 : U' (Proc.devRef .tc main_v50) = val_main_v50 (F := F) x0 x1 x2 x3 x4 x5 := by
    rw [← hU']; simp (disch := decide) only [nullary_result_ne', unary_result_ne', binary_result_ne', ternary_result_ne', quaternary_result_ne', reshape_result_ne']; exact f_main_v50
  have c_main_v52 : U' (Proc.devRef .tc main_v52) = val_main_v52 (F := F) x0 x2 x6 := by
    rw [← hU']; simp (disch := decide) only [nullary_result_ne', unary_result_ne', binary_result_ne', ternary_result_ne', quaternary_result_ne', reshape_result_ne']; exact f_main_v52
  clear hU' f_main_arg1 f_main_arg7 f_main_v9 f_main_v10 f_main_v25 f_main_v50 f_main_v52
  clear U; rename' U' => U
  rename' c_main_arg1 => f_main_arg1; rename' c_main_v9 => f_main_v9; rename' c_main_v10 => f_main_v10; rename' c_main_v25 => f_main_v25; rename' c_main_v50 => f_main_v50; rename' c_main_v52 => f_main_v52; rename' n_main_v53 => f_main_v53
  -- main_v54 ← main_v52, main_v53
  rw [after_cons]
  generalize hU' : HloOp.result _ U = U'
  have n_main_v54 : U' (Proc.devRef .tc main_v54) = val_main_v54 (F := F) x0 x2 x6 x7 := by
    rw [← hU']; simp (disch := decide) only [nullary_result', unary_result', binary_result', ternary_result', quaternary_result', reshape_result', f_main_v52, f_main_v53]; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v50 : U' (Proc.devRef .tc main_v50) = val_main_v50 (F := F) x0 x1 x2 x3 x4 x5 := by
    rw [← hU']; simp (disch := decide) only [nullary_result_ne', unary_result_ne', binary_result_ne', ternary_result_ne', quaternary_result_ne', reshape_result_ne']; exact f_main_v50
  clear hU' f_main_arg1 f_main_v9 f_main_v10 f_main_v25 f_main_v50 f_main_v52 f_main_v53
  clear U; rename' U' => U
  rename' c_main_arg1 => f_main_arg1; rename' c_main_v9 => f_main_v9; rename' c_main_v10 => f_main_v10; rename' c_main_v25 => f_main_v25; rename' c_main_v50 => f_main_v50; rename' n_main_v54 => f_main_v54
  simp only [after_nil]
  exact ⟨f_main_arg1, f_main_v9, f_main_v10, f_main_v25, f_main_v50, f_main_v54⟩

set_option maxHeartbeats 400000000 in
/-- Operations 108 to 119 of the line: from the stages of what is read at entry to the stages of what is read after. -/
theorem walk9 (U : Valuation τ sig (Elt F)) (x0 x1 : (⟨S4096, .i32⟩ : BufTy).Contents (Elt F)) (x2 : (⟨S50000x256, .f32⟩ : BufTy).Contents (Elt F)) (x3 : (⟨S2502x256, .f32⟩ : BufTy).Contents (Elt F)) (x4 : (⟨S64x256, .f32⟩ : BufTy).Contents (Elt F)) (x5 : (⟨S7500x64, .f32⟩ : BufTy).Contents (Elt F)) (x6 : (⟨S16x256, .f32⟩ : BufTy).Contents (Elt F)) (x7 : (⟨S40000x16, .f32⟩ : BufTy).Contents (Elt F))
    (f_main_arg1 : U (Proc.devRef .tc main_arg1) = x1)
    (f_main_v9 : U (Proc.devRef .tc main_v9) = val_main_v9 (F := F) x0 x2 x3)
    (f_main_v10 : U (Proc.devRef .tc main_v10) = val_main_v10 (F := F))
    (f_main_v25 : U (Proc.devRef .tc main_v25) = val_main_v25 (F := F) x0 x1 x2 x3)
    (f_main_v50 : U (Proc.devRef .tc main_v50) = val_main_v50 (F := F) x0 x1 x2 x3 x4 x5)
    (f_main_v54 : U (Proc.devRef .tc main_v54) = val_main_v54 (F := F) x0 x2 x6 x7) :
    after (chunk9 (F := F)) U (Proc.devRef .tc main_arg1) = x1
      ∧ after (chunk9 (F := F)) U (Proc.devRef .tc main_v9) = val_main_v9 (F := F) x0 x2 x3
      ∧ after (chunk9 (F := F)) U (Proc.devRef .tc main_v10) = val_main_v10 (F := F)
      ∧ after (chunk9 (F := F)) U (Proc.devRef .tc main_v25) = val_main_v25 (F := F) x0 x1 x2 x3
      ∧ after (chunk9 (F := F)) U (Proc.devRef .tc main_v50) = val_main_v50 (F := F) x0 x1 x2 x3 x4 x5
      ∧ after (chunk9 (F := F)) U (Proc.devRef .tc main_call4_v5) = val_main_call4_v5 (F := F) x0 x2 x6 x7
      ∧ after (chunk9 (F := F)) U (Proc.devRef .tc main_call4_v8) = val_main_call4_v8 (F := F) x0 x2 x6 x7 := by
  simp only [chunk9, ops, List.drop_succ_cons, List.drop_zero, List.take_succ_cons, List.take_zero]
  -- main_call4_cst ← (a constant)
  rw [after_cons]
  generalize hU' : HloOp.result _ U = U'
  have n_main_call4_cst : U' (Proc.devRef .tc main_call4_cst) = val_main_call4_cst (F := F) := by
    rw [← hU']; simp (disch := decide) only [nullary_result', unary_result', binary_result', ternary_result', quaternary_result', reshape_result']; exact (cast_108 (F := F)).trans rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v50 : U' (Proc.devRef .tc main_v50) = val_main_v50 (F := F) x0 x1 x2 x3 x4 x5 := by
    rw [← hU']; simp (disch := decide) only [nullary_result_ne', unary_result_ne', binary_result_ne', ternary_result_ne', quaternary_result_ne', reshape_result_ne']; exact f_main_v50
  have c_main_v54 : U' (Proc.devRef .tc main_v54) = val_main_v54 (F := F) x0 x2 x6 x7 := by
    rw [← hU']; simp (disch := decide) only [nullary_result_ne', unary_result_ne', binary_result_ne', ternary_result_ne', quaternary_result_ne', reshape_result_ne']; exact f_main_v54
  clear hU' f_main_arg1 f_main_v9 f_main_v10 f_main_v25 f_main_v50 f_main_v54
  clear U; rename' U' => U
  rename' c_main_arg1 => f_main_arg1; rename' c_main_v9 => f_main_v9; rename' c_main_v10 => f_main_v10; rename' c_main_v25 => f_main_v25; rename' c_main_v50 => f_main_v50; rename' c_main_v54 => f_main_v54; rename' n_main_call4_cst => f_main_call4_cst
  -- main_call4_v0 ← main_v54, main_call4_cst
  rw [after_cons]
  generalize hU' : HloOp.result _ U = U'
  have n_main_call4_v0 : U' (Proc.devRef .tc main_call4_v0) = val_main_call4_v0 (F := F) x0 x2 x6 x7 := by
    rw [← hU']; simp (disch := decide) only [nullary_result', unary_result', binary_result', ternary_result', quaternary_result', reshape_result', f_main_v54, f_main_call4_cst]; exact (cast_109 (F := F) (val_main_v54 (F := F) x0 x2 x6 x7) (val_main_call4_cst (F := F))).trans rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v50 : U' (Proc.devRef .tc main_v50) = val_main_v50 (F := F) x0 x1 x2 x3 x4 x5 := by
    rw [← hU']; simp (disch := decide) only [nullary_result_ne', unary_result_ne', binary_result_ne', ternary_result_ne', quaternary_result_ne', reshape_result_ne']; exact f_main_v50
  have c_main_v54 : U' (Proc.devRef .tc main_v54) = val_main_v54 (F := F) x0 x2 x6 x7 := by
    rw [← hU']; simp (disch := decide) only [nullary_result_ne', unary_result_ne', binary_result_ne', ternary_result_ne', quaternary_result_ne', reshape_result_ne']; exact f_main_v54
  clear hU' f_main_arg1 f_main_v9 f_main_v10 f_main_v25 f_main_v50 f_main_v54 f_main_call4_cst
  clear U; rename' U' => U
  rename' c_main_arg1 => f_main_arg1; rename' c_main_v9 => f_main_v9; rename' c_main_v10 => f_main_v10; rename' c_main_v25 => f_main_v25; rename' c_main_v50 => f_main_v50; rename' c_main_v54 => f_main_v54; rename' n_main_call4_v0 => f_main_call4_v0
  -- main_call4_cst_0 ← (a constant)
  rw [after_cons]
  generalize hU' : HloOp.result _ U = U'
  have n_main_call4_cst_0 : U' (Proc.devRef .tc main_call4_cst_0) = val_main_call4_cst_0 (F := F) := by
    rw [← hU']; simp (disch := decide) only [nullary_result', unary_result', binary_result', ternary_result', quaternary_result', reshape_result']; exact (cast_110 (F := F)).trans rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v50 : U' (Proc.devRef .tc main_v50) = val_main_v50 (F := F) x0 x1 x2 x3 x4 x5 := by
    rw [← hU']; simp (disch := decide) only [nullary_result_ne', unary_result_ne', binary_result_ne', ternary_result_ne', quaternary_result_ne', reshape_result_ne']; exact f_main_v50
  have c_main_v54 : U' (Proc.devRef .tc main_v54) = val_main_v54 (F := F) x0 x2 x6 x7 := by
    rw [← hU']; simp (disch := decide) only [nullary_result_ne', unary_result_ne', binary_result_ne', ternary_result_ne', quaternary_result_ne', reshape_result_ne']; exact f_main_v54
  have c_main_call4_v0 : U' (Proc.devRef .tc main_call4_v0) = val_main_call4_v0 (F := F) x0 x2 x6 x7 := by
    rw [← hU']; simp (disch := decide) only [nullary_result_ne', unary_result_ne', binary_result_ne', ternary_result_ne', quaternary_result_ne', reshape_result_ne']; exact f_main_call4_v0
  clear hU' f_main_arg1 f_main_v9 f_main_v10 f_main_v25 f_main_v50 f_main_v54 f_main_call4_v0
  clear U; rename' U' => U
  rename' c_main_arg1 => f_main_arg1; rename' c_main_v9 => f_main_v9; rename' c_main_v10 => f_main_v10; rename' c_main_v25 => f_main_v25; rename' c_main_v50 => f_main_v50; rename' c_main_v54 => f_main_v54; rename' c_main_call4_v0 => f_main_call4_v0; rename' n_main_call4_cst_0 => f_main_call4_cst_0
  -- main_call4_v1 ← main_call4_cst_0
  rw [after_cons]
  generalize hU' : HloOp.result _ U = U'
  have n_main_call4_v1 : U' (Proc.devRef .tc main_call4_v1) = val_main_call4_v1 (F := F) := by
    rw [← hU']; simp (disch := decide) only [nullary_result', unary_result', binary_result', ternary_result', quaternary_result', reshape_result', f_main_call4_cst_0]; exact (cast_111 (F := F) (val_main_call4_cst_0 (F := F))).trans rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v50 : U' (Proc.devRef .tc main_v50) = val_main_v50 (F := F) x0 x1 x2 x3 x4 x5 := by
    rw [← hU']; simp (disch := decide) only [nullary_result_ne', unary_result_ne', binary_result_ne', ternary_result_ne', quaternary_result_ne', reshape_result_ne']; exact f_main_v50
  have c_main_v54 : U' (Proc.devRef .tc main_v54) = val_main_v54 (F := F) x0 x2 x6 x7 := by
    rw [← hU']; simp (disch := decide) only [nullary_result_ne', unary_result_ne', binary_result_ne', ternary_result_ne', quaternary_result_ne', reshape_result_ne']; exact f_main_v54
  have c_main_call4_v0 : U' (Proc.devRef .tc main_call4_v0) = val_main_call4_v0 (F := F) x0 x2 x6 x7 := by
    rw [← hU']; simp (disch := decide) only [nullary_result_ne', unary_result_ne', binary_result_ne', ternary_result_ne', quaternary_result_ne', reshape_result_ne']; exact f_main_call4_v0
  clear hU' f_main_arg1 f_main_v9 f_main_v10 f_main_v25 f_main_v50 f_main_v54 f_main_call4_v0 f_main_call4_cst_0
  clear U; rename' U' => U
  rename' c_main_arg1 => f_main_arg1; rename' c_main_v9 => f_main_v9; rename' c_main_v10 => f_main_v10; rename' c_main_v25 => f_main_v25; rename' c_main_v50 => f_main_v50; rename' c_main_v54 => f_main_v54; rename' c_main_call4_v0 => f_main_call4_v0; rename' n_main_call4_v1 => f_main_call4_v1
  -- main_call4_v2 ← main_call4_v1, main_call4_v0
  rw [after_cons]
  generalize hU' : HloOp.result _ U = U'
  have n_main_call4_v2 : U' (Proc.devRef .tc main_call4_v2) = val_main_call4_v2 (F := F) x0 x2 x6 x7 := by
    rw [← hU']; simp (disch := decide) only [nullary_result', unary_result', binary_result', ternary_result', quaternary_result', reshape_result', f_main_call4_v1, f_main_call4_v0]; exact (cast_112 (F := F) (val_main_call4_v1 (F := F)) (val_main_call4_v0 (F := F) x0 x2 x6 x7)).trans rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v50 : U' (Proc.devRef .tc main_v50) = val_main_v50 (F := F) x0 x1 x2 x3 x4 x5 := by
    rw [← hU']; simp (disch := decide) only [nullary_result_ne', unary_result_ne', binary_result_ne', ternary_result_ne', quaternary_result_ne', reshape_result_ne']; exact f_main_v50
  have c_main_v54 : U' (Proc.devRef .tc main_v54) = val_main_v54 (F := F) x0 x2 x6 x7 := by
    rw [← hU']; simp (disch := decide) only [nullary_result_ne', unary_result_ne', binary_result_ne', ternary_result_ne', quaternary_result_ne', reshape_result_ne']; exact f_main_v54
  clear hU' f_main_arg1 f_main_v9 f_main_v10 f_main_v25 f_main_v50 f_main_v54 f_main_call4_v0 f_main_call4_v1
  clear U; rename' U' => U
  rename' c_main_arg1 => f_main_arg1; rename' c_main_v9 => f_main_v9; rename' c_main_v10 => f_main_v10; rename' c_main_v25 => f_main_v25; rename' c_main_v50 => f_main_v50; rename' c_main_v54 => f_main_v54; rename' n_main_call4_v2 => f_main_call4_v2
  -- main_call4_v3 ← main_call4_v2
  rw [after_cons]
  generalize hU' : HloOp.result _ U = U'
  have n_main_call4_v3 : U' (Proc.devRef .tc main_call4_v3) = val_main_call4_v3 (F := F) x0 x2 x6 x7 := by
    rw [← hU']; simp (disch := decide) only [nullary_result', unary_result', binary_result', ternary_result', quaternary_result', reshape_result', f_main_call4_v2]; exact (cast_113 (F := F) (val_main_call4_v2 (F := F) x0 x2 x6 x7)).trans rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v50 : U' (Proc.devRef .tc main_v50) = val_main_v50 (F := F) x0 x1 x2 x3 x4 x5 := by
    rw [← hU']; simp (disch := decide) only [nullary_result_ne', unary_result_ne', binary_result_ne', ternary_result_ne', quaternary_result_ne', reshape_result_ne']; exact f_main_v50
  have c_main_v54 : U' (Proc.devRef .tc main_v54) = val_main_v54 (F := F) x0 x2 x6 x7 := by
    rw [← hU']; simp (disch := decide) only [nullary_result_ne', unary_result_ne', binary_result_ne', ternary_result_ne', quaternary_result_ne', reshape_result_ne']; exact f_main_v54
  clear hU' f_main_arg1 f_main_v9 f_main_v10 f_main_v25 f_main_v50 f_main_v54 f_main_call4_v2
  clear U; rename' U' => U
  rename' c_main_arg1 => f_main_arg1; rename' c_main_v9 => f_main_v9; rename' c_main_v10 => f_main_v10; rename' c_main_v25 => f_main_v25; rename' c_main_v50 => f_main_v50; rename' c_main_v54 => f_main_v54; rename' n_main_call4_v3 => f_main_call4_v3
  -- main_call4_v4 ← main_call4_v3
  rw [after_cons]
  generalize hU' : HloOp.result _ U = U'
  have n_main_call4_v4 : U' (Proc.devRef .tc main_call4_v4) = val_main_call4_v4 (F := F) x0 x2 x6 x7 := by
    rw [← hU']; simp (disch := decide) only [nullary_result', unary_result', binary_result', ternary_result', quaternary_result', reshape_result', f_main_call4_v3]; exact (cast_114 (F := F) (val_main_call4_v3 (F := F) x0 x2 x6 x7)).trans rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v50 : U' (Proc.devRef .tc main_v50) = val_main_v50 (F := F) x0 x1 x2 x3 x4 x5 := by
    rw [← hU']; simp (disch := decide) only [nullary_result_ne', unary_result_ne', binary_result_ne', ternary_result_ne', quaternary_result_ne', reshape_result_ne']; exact f_main_v50
  have c_main_v54 : U' (Proc.devRef .tc main_v54) = val_main_v54 (F := F) x0 x2 x6 x7 := by
    rw [← hU']; simp (disch := decide) only [nullary_result_ne', unary_result_ne', binary_result_ne', ternary_result_ne', quaternary_result_ne', reshape_result_ne']; exact f_main_v54
  clear hU' f_main_arg1 f_main_v9 f_main_v10 f_main_v25 f_main_v50 f_main_v54 f_main_call4_v3
  clear U; rename' U' => U
  rename' c_main_arg1 => f_main_arg1; rename' c_main_v9 => f_main_v9; rename' c_main_v10 => f_main_v10; rename' c_main_v25 => f_main_v25; rename' c_main_v50 => f_main_v50; rename' c_main_v54 => f_main_v54; rename' n_main_call4_v4 => f_main_call4_v4
  -- main_call4_v5 ← main_v54, main_call4_v4
  rw [after_cons]
  generalize hU' : HloOp.result _ U = U'
  have n_main_call4_v5 : U' (Proc.devRef .tc main_call4_v5) = val_main_call4_v5 (F := F) x0 x2 x6 x7 := by
    rw [← hU']; simp (disch := decide) only [nullary_result', unary_result', binary_result', ternary_result', quaternary_result', reshape_result', f_main_v54, f_main_call4_v4]; exact (cast_115 (F := F) (val_main_v54 (F := F) x0 x2 x6 x7) (val_main_call4_v4 (F := F) x0 x2 x6 x7)).trans rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v50 : U' (Proc.devRef .tc main_v50) = val_main_v50 (F := F) x0 x1 x2 x3 x4 x5 := by
    rw [← hU']; simp (disch := decide) only [nullary_result_ne', unary_result_ne', binary_result_ne', ternary_result_ne', quaternary_result_ne', reshape_result_ne']; exact f_main_v50
  clear hU' f_main_arg1 f_main_v9 f_main_v10 f_main_v25 f_main_v50 f_main_v54 f_main_call4_v4
  clear U; rename' U' => U
  rename' c_main_arg1 => f_main_arg1; rename' c_main_v9 => f_main_v9; rename' c_main_v10 => f_main_v10; rename' c_main_v25 => f_main_v25; rename' c_main_v50 => f_main_v50; rename' n_main_call4_v5 => f_main_call4_v5
  -- main_call4_v6 ← main_call4_v5
  rw [after_cons]
  generalize hU' : HloOp.result _ U = U'
  have n_main_call4_v6 : U' (Proc.devRef .tc main_call4_v6) = val_main_call4_v6 (F := F) x0 x2 x6 x7 := by
    rw [← hU']; simp (disch := decide) only [nullary_result', unary_result', binary_result', ternary_result', quaternary_result', reshape_result', f_main_call4_v5]; exact (cast_116 (F := F) (val_main_call4_v5 (F := F) x0 x2 x6 x7)).trans rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v50 : U' (Proc.devRef .tc main_v50) = val_main_v50 (F := F) x0 x1 x2 x3 x4 x5 := by
    rw [← hU']; simp (disch := decide) only [nullary_result_ne', unary_result_ne', binary_result_ne', ternary_result_ne', quaternary_result_ne', reshape_result_ne']; exact f_main_v50
  have c_main_call4_v5 : U' (Proc.devRef .tc main_call4_v5) = val_main_call4_v5 (F := F) x0 x2 x6 x7 := by
    rw [← hU']; simp (disch := decide) only [nullary_result_ne', unary_result_ne', binary_result_ne', ternary_result_ne', quaternary_result_ne', reshape_result_ne']; exact f_main_call4_v5
  clear hU' f_main_arg1 f_main_v9 f_main_v10 f_main_v25 f_main_v50 f_main_call4_v5
  clear U; rename' U' => U
  rename' c_main_arg1 => f_main_arg1; rename' c_main_v9 => f_main_v9; rename' c_main_v10 => f_main_v10; rename' c_main_v25 => f_main_v25; rename' c_main_v50 => f_main_v50; rename' c_main_call4_v5 => f_main_call4_v5; rename' n_main_call4_v6 => f_main_call4_v6
  -- main_call4_cst_1 ← (a constant)
  rw [after_cons]
  generalize hU' : HloOp.result _ U = U'
  have n_main_call4_cst_1 : U' (Proc.devRef .tc main_call4_cst_1) = val_main_call4_cst_1 (F := F) := by
    rw [← hU']; simp (disch := decide) only [nullary_result', unary_result', binary_result', ternary_result', quaternary_result', reshape_result']; exact (cast_117 (F := F)).trans rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v50 : U' (Proc.devRef .tc main_v50) = val_main_v50 (F := F) x0 x1 x2 x3 x4 x5 := by
    rw [← hU']; simp (disch := decide) only [nullary_result_ne', unary_result_ne', binary_result_ne', ternary_result_ne', quaternary_result_ne', reshape_result_ne']; exact f_main_v50
  have c_main_call4_v5 : U' (Proc.devRef .tc main_call4_v5) = val_main_call4_v5 (F := F) x0 x2 x6 x7 := by
    rw [← hU']; simp (disch := decide) only [nullary_result_ne', unary_result_ne', binary_result_ne', ternary_result_ne', quaternary_result_ne', reshape_result_ne']; exact f_main_call4_v5
  have c_main_call4_v6 : U' (Proc.devRef .tc main_call4_v6) = val_main_call4_v6 (F := F) x0 x2 x6 x7 := by
    rw [← hU']; simp (disch := decide) only [nullary_result_ne', unary_result_ne', binary_result_ne', ternary_result_ne', quaternary_result_ne', reshape_result_ne']; exact f_main_call4_v6
  clear hU' f_main_arg1 f_main_v9 f_main_v10 f_main_v25 f_main_v50 f_main_call4_v5 f_main_call4_v6
  clear U; rename' U' => U
  rename' c_main_arg1 => f_main_arg1; rename' c_main_v9 => f_main_v9; rename' c_main_v10 => f_main_v10; rename' c_main_v25 => f_main_v25; rename' c_main_v50 => f_main_v50; rename' c_main_call4_v5 => f_main_call4_v5; rename' c_main_call4_v6 => f_main_call4_v6; rename' n_main_call4_cst_1 => f_main_call4_cst_1
  -- main_call4_v7 ← main_call4_v6, main_call4_cst_1
  rw [after_cons]
  generalize hU' : HloOp.result _ U = U'
  have n_main_call4_v7 : U' (Proc.devRef .tc main_call4_v7) = val_main_call4_v7 (F := F) x0 x2 x6 x7 := by
    rw [← hU']; simp (disch := decide) only [nullary_result', unary_result', binary_result', ternary_result', quaternary_result', reshape_result', f_main_call4_v6, f_main_call4_cst_1]; exact (cast_118 (F := F) (val_main_call4_v6 (F := F) x0 x2 x6 x7) (val_main_call4_cst_1 (F := F))).trans rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v50 : U' (Proc.devRef .tc main_v50) = val_main_v50 (F := F) x0 x1 x2 x3 x4 x5 := by
    rw [← hU']; simp (disch := decide) only [nullary_result_ne', unary_result_ne', binary_result_ne', ternary_result_ne', quaternary_result_ne', reshape_result_ne']; exact f_main_v50
  have c_main_call4_v5 : U' (Proc.devRef .tc main_call4_v5) = val_main_call4_v5 (F := F) x0 x2 x6 x7 := by
    rw [← hU']; simp (disch := decide) only [nullary_result_ne', unary_result_ne', binary_result_ne', ternary_result_ne', quaternary_result_ne', reshape_result_ne']; exact f_main_call4_v5
  clear hU' f_main_arg1 f_main_v9 f_main_v10 f_main_v25 f_main_v50 f_main_call4_v5 f_main_call4_v6 f_main_call4_cst_1
  clear U; rename' U' => U
  rename' c_main_arg1 => f_main_arg1; rename' c_main_v9 => f_main_v9; rename' c_main_v10 => f_main_v10; rename' c_main_v25 => f_main_v25; rename' c_main_v50 => f_main_v50; rename' c_main_call4_v5 => f_main_call4_v5; rename' n_main_call4_v7 => f_main_call4_v7
  -- main_call4_v8 ← main_call4_v7
  rw [after_cons]
  generalize hU' : HloOp.result _ U = U'
  have n_main_call4_v8 : U' (Proc.devRef .tc main_call4_v8) = val_main_call4_v8 (F := F) x0 x2 x6 x7 := by
    rw [← hU']; simp (disch := decide) only [nullary_result', unary_result', binary_result', ternary_result', quaternary_result', reshape_result', f_main_call4_v7]; exact (cast_119 (F := F) (val_main_call4_v7 (F := F) x0 x2 x6 x7)).trans rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v50 : U' (Proc.devRef .tc main_v50) = val_main_v50 (F := F) x0 x1 x2 x3 x4 x5 := by
    rw [← hU']; simp (disch := decide) only [nullary_result_ne', unary_result_ne', binary_result_ne', ternary_result_ne', quaternary_result_ne', reshape_result_ne']; exact f_main_v50
  have c_main_call4_v5 : U' (Proc.devRef .tc main_call4_v5) = val_main_call4_v5 (F := F) x0 x2 x6 x7 := by
    rw [← hU']; simp (disch := decide) only [nullary_result_ne', unary_result_ne', binary_result_ne', ternary_result_ne', quaternary_result_ne', reshape_result_ne']; exact f_main_call4_v5
  clear hU' f_main_arg1 f_main_v9 f_main_v10 f_main_v25 f_main_v50 f_main_call4_v5 f_main_call4_v7
  clear U; rename' U' => U
  rename' c_main_arg1 => f_main_arg1; rename' c_main_v9 => f_main_v9; rename' c_main_v10 => f_main_v10; rename' c_main_v25 => f_main_v25; rename' c_main_v50 => f_main_v50; rename' c_main_call4_v5 => f_main_call4_v5; rename' n_main_call4_v8 => f_main_call4_v8
  simp only [after_nil]
  exact ⟨f_main_arg1, f_main_v9, f_main_v10, f_main_v25, f_main_v50, f_main_call4_v5, f_main_call4_v8⟩

set_option maxHeartbeats 400000000 in
/-- Operations 120 to 131 of the line: from the stages of what is read at entry to the stages of what is read after. -/
theorem walk10 (U : Valuation τ sig (Elt F)) (x0 x1 : (⟨S4096, .i32⟩ : BufTy).Contents (Elt F)) (x2 : (⟨S50000x256, .f32⟩ : BufTy).Contents (Elt F)) (x3 : (⟨S2502x256, .f32⟩ : BufTy).Contents (Elt F)) (x4 : (⟨S64x256, .f32⟩ : BufTy).Contents (Elt F)) (x5 : (⟨S7500x64, .f32⟩ : BufTy).Contents (Elt F)) (x6 : (⟨S16x256, .f32⟩ : BufTy).Contents (Elt F)) (x7 : (⟨S40000x16, .f32⟩ : BufTy).Contents (Elt F))
    (f_main_arg1 : U (Proc.devRef .tc main_arg1) = x1)
    (f_main_v9 : U (Proc.devRef .tc main_v9) = val_main_v9 (F := F) x0 x2 x3)
    (f_main_v10 : U (Proc.devRef .tc main_v10) = val_main_v10 (F := F))
    (f_main_v25 : U (Proc.devRef .tc main_v25) = val_main_v25 (F := F) x0 x1 x2 x3)
    (f_main_v50 : U (Proc.devRef .tc main_v50) = val_main_v50 (F := F) x0 x1 x2 x3 x4 x5)
    (f_main_call4_v5 : U (Proc.devRef .tc main_call4_v5) = val_main_call4_v5 (F := F) x0 x2 x6 x7)
    (f_main_call4_v8 : U (Proc.devRef .tc main_call4_v8) = val_main_call4_v8 (F := F) x0 x2 x6 x7) :
    after (chunk10 (F := F)) U (Proc.devRef .tc main_arg1) = x1
      ∧ after (chunk10 (F := F)) U (Proc.devRef .tc main_v10) = val_main_v10 (F := F)
      ∧ after (chunk10 (F := F)) U (Proc.devRef .tc main_v25) = val_main_v25 (F := F) x0 x1 x2 x3
      ∧ after (chunk10 (F := F)) U (Proc.devRef .tc main_v50) = val_main_v50 (F := F) x0 x1 x2 x3 x4 x5
      ∧ after (chunk10 (F := F)) U (Proc.devRef .tc main_v55) = val_main_v55 (F := F) x0 x2 x6 x7
      ∧ after (chunk10 (F := F)) U (Proc.devRef .tc main_v57) = val_main_v57 (F := F) x0 x2 x3
      ∧ after (chunk10 (F := F)) U (Proc.devRef .tc main_v59) = val_main_v59 (F := F) x1
      ∧ after (chunk10 (F := F)) U (Proc.devRef .tc main_c_16) = val_main_c_16 (F := F)
      ∧ after (chunk10 (F := F)) U (Proc.devRef .tc main_call5_v1) = val_main_call5_v1 (F := F) := by
  simp only [chunk10, ops, List.drop_succ_cons, List.drop_zero, List.take_succ_cons, List.take_zero]
  -- main_call4_v9 ← main_call4_v8
  rw [after_cons]
  generalize hU' : HloOp.result _ U = U'
  have n_main_call4_v9 : U' (Proc.devRef .tc main_call4_v9) = val_main_call4_v9 (F := F) x0 x2 x6 x7 := by
    rw [← hU']; simp (disch := decide) only [nullary_result', unary_result', binary_result', ternary_result', quaternary_result', reshape_result', f_main_call4_v8]; exact (cast_120 (F := F) (val_main_call4_v8 (F := F) x0 x2 x6 x7)).trans rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v50 : U' (Proc.devRef .tc main_v50) = val_main_v50 (F := F) x0 x1 x2 x3 x4 x5 := by
    rw [← hU']; simp (disch := decide) only [nullary_result_ne', unary_result_ne', binary_result_ne', ternary_result_ne', quaternary_result_ne', reshape_result_ne']; exact f_main_v50
  have c_main_call4_v5 : U' (Proc.devRef .tc main_call4_v5) = val_main_call4_v5 (F := F) x0 x2 x6 x7 := by
    rw [← hU']; simp (disch := decide) only [nullary_result_ne', unary_result_ne', binary_result_ne', ternary_result_ne', quaternary_result_ne', reshape_result_ne']; exact f_main_call4_v5
  clear hU' f_main_arg1 f_main_v9 f_main_v10 f_main_v25 f_main_v50 f_main_call4_v5 f_main_call4_v8
  clear U; rename' U' => U
  rename' c_main_arg1 => f_main_arg1; rename' c_main_v9 => f_main_v9; rename' c_main_v10 => f_main_v10; rename' c_main_v25 => f_main_v25; rename' c_main_v50 => f_main_v50; rename' c_main_call4_v5 => f_main_call4_v5; rename' n_main_call4_v9 => f_main_call4_v9
  -- main_call4_v10 ← main_call4_v9
  rw [after_cons]
  generalize hU' : HloOp.result _ U = U'
  have n_main_call4_v10 : U' (Proc.devRef .tc main_call4_v10) = val_main_call4_v10 (F := F) x0 x2 x6 x7 := by
    rw [← hU']; simp (disch := decide) only [nullary_result', unary_result', binary_result', ternary_result', quaternary_result', reshape_result', f_main_call4_v9]; exact (cast_121 (F := F) (val_main_call4_v9 (F := F) x0 x2 x6 x7)).trans rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v50 : U' (Proc.devRef .tc main_v50) = val_main_v50 (F := F) x0 x1 x2 x3 x4 x5 := by
    rw [← hU']; simp (disch := decide) only [nullary_result_ne', unary_result_ne', binary_result_ne', ternary_result_ne', quaternary_result_ne', reshape_result_ne']; exact f_main_v50
  have c_main_call4_v5 : U' (Proc.devRef .tc main_call4_v5) = val_main_call4_v5 (F := F) x0 x2 x6 x7 := by
    rw [← hU']; simp (disch := decide) only [nullary_result_ne', unary_result_ne', binary_result_ne', ternary_result_ne', quaternary_result_ne', reshape_result_ne']; exact f_main_call4_v5
  clear hU' f_main_arg1 f_main_v9 f_main_v10 f_main_v25 f_main_v50 f_main_call4_v5 f_main_call4_v9
  clear U; rename' U' => U
  rename' c_main_arg1 => f_main_arg1; rename' c_main_v9 => f_main_v9; rename' c_main_v10 => f_main_v10; rename' c_main_v25 => f_main_v25; rename' c_main_v50 => f_main_v50; rename' c_main_call4_v5 => f_main_call4_v5; rename' n_main_call4_v10 => f_main_call4_v10
  -- main_v55 ← main_call4_v5, main_call4_v10
  rw [after_cons]
  generalize hU' : HloOp.result _ U = U'
  have n_main_v55 : U' (Proc.devRef .tc main_v55) = val_main_v55 (F := F) x0 x2 x6 x7 := by
    rw [← hU']; simp (disch := decide) only [nullary_result', unary_result', binary_result', ternary_result', quaternary_result', reshape_result', f_main_call4_v5, f_main_call4_v10]; exact (cast_122 (F := F) (val_main_call4_v5 (F := F) x0 x2 x6 x7) (val_main_call4_v10 (F := F) x0 x2 x6 x7)).trans rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_v9 : U' (Proc.devRef .tc main_v9) = val_main_v9 (F := F) x0 x2 x3 := by
    rw [← hU']; simp (disch := decide) only [nullary_result_ne', unary_result_ne', binary_result_ne', ternary_result_ne', quaternary_result_ne', reshape_result_ne']; exact f_main_v9
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v50 : U' (Proc.devRef .tc main_v50) = val_main_v50 (F := F) x0 x1 x2 x3 x4 x5 := by
    rw [← hU']; simp (disch := decide) only [nullary_result_ne', unary_result_ne', binary_result_ne', ternary_result_ne', quaternary_result_ne', reshape_result_ne']; exact f_main_v50
  clear hU' f_main_arg1 f_main_v9 f_main_v10 f_main_v25 f_main_v50 f_main_call4_v5 f_main_call4_v10
  clear U; rename' U' => U
  rename' c_main_arg1 => f_main_arg1; rename' c_main_v9 => f_main_v9; rename' c_main_v10 => f_main_v10; rename' c_main_v25 => f_main_v25; rename' c_main_v50 => f_main_v50; rename' n_main_v55 => f_main_v55
  -- main_v56 ← main_v9
  rw [after_cons]
  generalize hU' : HloOp.result _ U = U'
  have n_main_v56 : U' (Proc.devRef .tc main_v56) = val_main_v56 (F := F) x0 x2 x3 := by
    rw [← hU']; simp (disch := decide) only [nullary_result', unary_result', binary_result', ternary_result', quaternary_result', reshape_result', f_main_v9]; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v50 : U' (Proc.devRef .tc main_v50) = val_main_v50 (F := F) x0 x1 x2 x3 x4 x5 := by
    rw [← hU']; simp (disch := decide) only [nullary_result_ne', unary_result_ne', binary_result_ne', ternary_result_ne', quaternary_result_ne', reshape_result_ne']; exact f_main_v50
  have c_main_v55 : U' (Proc.devRef .tc main_v55) = val_main_v55 (F := F) x0 x2 x6 x7 := by
    rw [← hU']; simp (disch := decide) only [nullary_result_ne', unary_result_ne', binary_result_ne', ternary_result_ne', quaternary_result_ne', reshape_result_ne']; exact f_main_v55
  clear hU' f_main_arg1 f_main_v9 f_main_v10 f_main_v25 f_main_v50 f_main_v55
  clear U; rename' U' => U
  rename' c_main_arg1 => f_main_arg1; rename' c_main_v10 => f_main_v10; rename' c_main_v25 => f_main_v25; rename' c_main_v50 => f_main_v50; rename' c_main_v55 => f_main_v55; rename' n_main_v56 => f_main_v56
  -- main_v57 ← main_v56
  rw [after_cons]
  generalize hU' : HloOp.result _ U = U'
  have n_main_v57 : U' (Proc.devRef .tc main_v57) = val_main_v57 (F := F) x0 x2 x3 := by
    rw [← hU']; simp (disch := decide) only [nullary_result', unary_result', binary_result', ternary_result', quaternary_result', reshape_result', f_main_v56]; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v50 : U' (Proc.devRef .tc main_v50) = val_main_v50 (F := F) x0 x1 x2 x3 x4 x5 := by
    rw [← hU']; simp (disch := decide) only [nullary_result_ne', unary_result_ne', binary_result_ne', ternary_result_ne', quaternary_result_ne', reshape_result_ne']; exact f_main_v50
  have c_main_v55 : U' (Proc.devRef .tc main_v55) = val_main_v55 (F := F) x0 x2 x6 x7 := by
    rw [← hU']; simp (disch := decide) only [nullary_result_ne', unary_result_ne', binary_result_ne', ternary_result_ne', quaternary_result_ne', reshape_result_ne']; exact f_main_v55
  clear hU' f_main_arg1 f_main_v10 f_main_v25 f_main_v50 f_main_v55 f_main_v56
  clear U; rename' U' => U
  rename' c_main_arg1 => f_main_arg1; rename' c_main_v10 => f_main_v10; rename' c_main_v25 => f_main_v25; rename' c_main_v50 => f_main_v50; rename' c_main_v55 => f_main_v55; rename' n_main_v57 => f_main_v57
  -- main_c_14 ← (a constant)
  rw [after_cons]
  generalize hU' : HloOp.result _ U = U'
  have n_main_c_14 : U' (Proc.devRef .tc main_c_14) = val_main_c_14 (F := F) := by
    rw [← hU']; simp (disch := decide) only [nullary_result', unary_result', binary_result', ternary_result', quaternary_result', reshape_result']; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v50 : U' (Proc.devRef .tc main_v50) = val_main_v50 (F := F) x0 x1 x2 x3 x4 x5 := by
    rw [← hU']; simp (disch := decide) only [nullary_result_ne', unary_result_ne', binary_result_ne', ternary_result_ne', quaternary_result_ne', reshape_result_ne']; exact f_main_v50
  have c_main_v55 : U' (Proc.devRef .tc main_v55) = val_main_v55 (F := F) x0 x2 x6 x7 := by
    rw [← hU']; simp (disch := decide) only [nullary_result_ne', unary_result_ne', binary_result_ne', ternary_result_ne', quaternary_result_ne', reshape_result_ne']; exact f_main_v55
  have c_main_v57 : U' (Proc.devRef .tc main_v57) = val_main_v57 (F := F) x0 x2 x3 := by
    rw [← hU']; simp (disch := decide) only [nullary_result_ne', unary_result_ne', binary_result_ne', ternary_result_ne', quaternary_result_ne', reshape_result_ne']; exact f_main_v57
  clear hU' f_main_arg1 f_main_v10 f_main_v25 f_main_v50 f_main_v55 f_main_v57
  clear U; rename' U' => U
  rename' c_main_arg1 => f_main_arg1; rename' c_main_v10 => f_main_v10; rename' c_main_v25 => f_main_v25; rename' c_main_v50 => f_main_v50; rename' c_main_v55 => f_main_v55; rename' c_main_v57 => f_main_v57; rename' n_main_c_14 => f_main_c_14
  -- main_v58 ← main_c_14
  rw [after_cons]
  generalize hU' : HloOp.result _ U = U'
  have n_main_v58 : U' (Proc.devRef .tc main_v58) = val_main_v58 (F := F) := by
    rw [← hU']; simp (disch := decide) only [nullary_result', unary_result', binary_result', ternary_result', quaternary_result', reshape_result', f_main_c_14]; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v50 : U' (Proc.devRef .tc main_v50) = val_main_v50 (F := F) x0 x1 x2 x3 x4 x5 := by
    rw [← hU']; simp (disch := decide) only [nullary_result_ne', unary_result_ne', binary_result_ne', ternary_result_ne', quaternary_result_ne', reshape_result_ne']; exact f_main_v50
  have c_main_v55 : U' (Proc.devRef .tc main_v55) = val_main_v55 (F := F) x0 x2 x6 x7 := by
    rw [← hU']; simp (disch := decide) only [nullary_result_ne', unary_result_ne', binary_result_ne', ternary_result_ne', quaternary_result_ne', reshape_result_ne']; exact f_main_v55
  have c_main_v57 : U' (Proc.devRef .tc main_v57) = val_main_v57 (F := F) x0 x2 x3 := by
    rw [← hU']; simp (disch := decide) only [nullary_result_ne', unary_result_ne', binary_result_ne', ternary_result_ne', quaternary_result_ne', reshape_result_ne']; exact f_main_v57
  clear hU' f_main_arg1 f_main_v10 f_main_v25 f_main_v50 f_main_v55 f_main_v57 f_main_c_14
  clear U; rename' U' => U
  rename' c_main_arg1 => f_main_arg1; rename' c_main_v10 => f_main_v10; rename' c_main_v25 => f_main_v25; rename' c_main_v50 => f_main_v50; rename' c_main_v55 => f_main_v55; rename' c_main_v57 => f_main_v57; rename' n_main_v58 => f_main_v58
  -- main_v59 ← main_arg1, main_v58
  rw [after_cons]
  generalize hU' : HloOp.result _ U = U'
  have n_main_v59 : U' (Proc.devRef .tc main_v59) = val_main_v59 (F := F) x1 := by
    rw [← hU']; simp (disch := decide) only [nullary_result', unary_result', binary_result', ternary_result', quaternary_result', reshape_result', f_main_arg1, f_main_v58]; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v50 : U' (Proc.devRef .tc main_v50) = val_main_v50 (F := F) x0 x1 x2 x3 x4 x5 := by
    rw [← hU']; simp (disch := decide) only [nullary_result_ne', unary_result_ne', binary_result_ne', ternary_result_ne', quaternary_result_ne', reshape_result_ne']; exact f_main_v50
  have c_main_v55 : U' (Proc.devRef .tc main_v55) = val_main_v55 (F := F) x0 x2 x6 x7 := by
    rw [← hU']; simp (disch := decide) only [nullary_result_ne', unary_result_ne', binary_result_ne', ternary_result_ne', quaternary_result_ne', reshape_result_ne']; exact f_main_v55
  have c_main_v57 : U' (Proc.devRef .tc main_v57) = val_main_v57 (F := F) x0 x2 x3 := by
    rw [← hU']; simp (disch := decide) only [nullary_result_ne', unary_result_ne', binary_result_ne', ternary_result_ne', quaternary_result_ne', reshape_result_ne']; exact f_main_v57
  clear hU' f_main_arg1 f_main_v10 f_main_v25 f_main_v50 f_main_v55 f_main_v57 f_main_v58
  clear U; rename' U' => U
  rename' c_main_arg1 => f_main_arg1; rename' c_main_v10 => f_main_v10; rename' c_main_v25 => f_main_v25; rename' c_main_v50 => f_main_v50; rename' c_main_v55 => f_main_v55; rename' c_main_v57 => f_main_v57; rename' n_main_v59 => f_main_v59
  -- main_c_15 ← (a constant)
  rw [after_cons]
  generalize hU' : HloOp.result _ U = U'
  have n_main_c_15 : U' (Proc.devRef .tc main_c_15) = val_main_c_15 (F := F) := by
    rw [← hU']; simp (disch := decide) only [nullary_result', unary_result', binary_result', ternary_result', quaternary_result', reshape_result']; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v50 : U' (Proc.devRef .tc main_v50) = val_main_v50 (F := F) x0 x1 x2 x3 x4 x5 := by
    rw [← hU']; simp (disch := decide) only [nullary_result_ne', unary_result_ne', binary_result_ne', ternary_result_ne', quaternary_result_ne', reshape_result_ne']; exact f_main_v50
  have c_main_v55 : U' (Proc.devRef .tc main_v55) = val_main_v55 (F := F) x0 x2 x6 x7 := by
    rw [← hU']; simp (disch := decide) only [nullary_result_ne', unary_result_ne', binary_result_ne', ternary_result_ne', quaternary_result_ne', reshape_result_ne']; exact f_main_v55
  have c_main_v57 : U' (Proc.devRef .tc main_v57) = val_main_v57 (F := F) x0 x2 x3 := by
    rw [← hU']; simp (disch := decide) only [nullary_result_ne', unary_result_ne', binary_result_ne', ternary_result_ne', quaternary_result_ne', reshape_result_ne']; exact f_main_v57
  have c_main_v59 : U' (Proc.devRef .tc main_v59) = val_main_v59 (F := F) x1 := by
    rw [← hU']; simp (disch := decide) only [nullary_result_ne', unary_result_ne', binary_result_ne', ternary_result_ne', quaternary_result_ne', reshape_result_ne']; exact f_main_v59
  clear hU' f_main_arg1 f_main_v10 f_main_v25 f_main_v50 f_main_v55 f_main_v57 f_main_v59
  clear U; rename' U' => U
  rename' c_main_arg1 => f_main_arg1; rename' c_main_v10 => f_main_v10; rename' c_main_v25 => f_main_v25; rename' c_main_v50 => f_main_v50; rename' c_main_v55 => f_main_v55; rename' c_main_v57 => f_main_v57; rename' c_main_v59 => f_main_v59; rename' n_main_c_15 => f_main_c_15
  -- main_c_16 ← (a constant)
  rw [after_cons]
  generalize hU' : HloOp.result _ U = U'
  have n_main_c_16 : U' (Proc.devRef .tc main_c_16) = val_main_c_16 (F := F) := by
    rw [← hU']; simp (disch := decide) only [nullary_result', unary_result', binary_result', ternary_result', quaternary_result', reshape_result']; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v50 : U' (Proc.devRef .tc main_v50) = val_main_v50 (F := F) x0 x1 x2 x3 x4 x5 := by
    rw [← hU']; simp (disch := decide) only [nullary_result_ne', unary_result_ne', binary_result_ne', ternary_result_ne', quaternary_result_ne', reshape_result_ne']; exact f_main_v50
  have c_main_v55 : U' (Proc.devRef .tc main_v55) = val_main_v55 (F := F) x0 x2 x6 x7 := by
    rw [← hU']; simp (disch := decide) only [nullary_result_ne', unary_result_ne', binary_result_ne', ternary_result_ne', quaternary_result_ne', reshape_result_ne']; exact f_main_v55
  have c_main_v57 : U' (Proc.devRef .tc main_v57) = val_main_v57 (F := F) x0 x2 x3 := by
    rw [← hU']; simp (disch := decide) only [nullary_result_ne', unary_result_ne', binary_result_ne', ternary_result_ne', quaternary_result_ne', reshape_result_ne']; exact f_main_v57
  have c_main_v59 : U' (Proc.devRef .tc main_v59) = val_main_v59 (F := F) x1 := by
    rw [← hU']; simp (disch := decide) only [nullary_result_ne', unary_result_ne', binary_result_ne', ternary_result_ne', quaternary_result_ne', reshape_result_ne']; exact f_main_v59
  have c_main_c_15 : U' (Proc.devRef .tc main_c_15) = val_main_c_15 (F := F) := by
    rw [← hU']; simp (disch := decide) only [nullary_result_ne', unary_result_ne', binary_result_ne', ternary_result_ne', quaternary_result_ne', reshape_result_ne']; exact f_main_c_15
  clear hU' f_main_arg1 f_main_v10 f_main_v25 f_main_v50 f_main_v55 f_main_v57 f_main_v59 f_main_c_15
  clear U; rename' U' => U
  rename' c_main_arg1 => f_main_arg1; rename' c_main_v10 => f_main_v10; rename' c_main_v25 => f_main_v25; rename' c_main_v50 => f_main_v50; rename' c_main_v55 => f_main_v55; rename' c_main_v57 => f_main_v57; rename' c_main_v59 => f_main_v59; rename' c_main_c_15 => f_main_c_15; rename' n_main_c_16 => f_main_c_16
  -- main_call5_v0 ← main_c_15
  rw [after_cons]
  generalize hU' : HloOp.result _ U = U'
  have n_main_call5_v0 : U' (Proc.devRef .tc main_call5_v0) = val_main_call5_v0 (F := F) := by
    rw [← hU']; simp (disch := decide) only [nullary_result', unary_result', binary_result', ternary_result', quaternary_result', reshape_result', f_main_c_15]; exact (cast_130 (F := F) (val_main_c_15 (F := F))).trans rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v50 : U' (Proc.devRef .tc main_v50) = val_main_v50 (F := F) x0 x1 x2 x3 x4 x5 := by
    rw [← hU']; simp (disch := decide) only [nullary_result_ne', unary_result_ne', binary_result_ne', ternary_result_ne', quaternary_result_ne', reshape_result_ne']; exact f_main_v50
  have c_main_v55 : U' (Proc.devRef .tc main_v55) = val_main_v55 (F := F) x0 x2 x6 x7 := by
    rw [← hU']; simp (disch := decide) only [nullary_result_ne', unary_result_ne', binary_result_ne', ternary_result_ne', quaternary_result_ne', reshape_result_ne']; exact f_main_v55
  have c_main_v57 : U' (Proc.devRef .tc main_v57) = val_main_v57 (F := F) x0 x2 x3 := by
    rw [← hU']; simp (disch := decide) only [nullary_result_ne', unary_result_ne', binary_result_ne', ternary_result_ne', quaternary_result_ne', reshape_result_ne']; exact f_main_v57
  have c_main_v59 : U' (Proc.devRef .tc main_v59) = val_main_v59 (F := F) x1 := by
    rw [← hU']; simp (disch := decide) only [nullary_result_ne', unary_result_ne', binary_result_ne', ternary_result_ne', quaternary_result_ne', reshape_result_ne']; exact f_main_v59
  have c_main_c_16 : U' (Proc.devRef .tc main_c_16) = val_main_c_16 (F := F) := by
    rw [← hU']; simp (disch := decide) only [nullary_result_ne', unary_result_ne', binary_result_ne', ternary_result_ne', quaternary_result_ne', reshape_result_ne']; exact f_main_c_16
  clear hU' f_main_arg1 f_main_v10 f_main_v25 f_main_v50 f_main_v55 f_main_v57 f_main_v59 f_main_c_15 f_main_c_16
  clear U; rename' U' => U
  rename' c_main_arg1 => f_main_arg1; rename' c_main_v10 => f_main_v10; rename' c_main_v25 => f_main_v25; rename' c_main_v50 => f_main_v50; rename' c_main_v55 => f_main_v55; rename' c_main_v57 => f_main_v57; rename' c_main_v59 => f_main_v59; rename' c_main_c_16 => f_main_c_16; rename' n_main_call5_v0 => f_main_call5_v0
  -- main_call5_v1 ← main_call5_v0
  rw [after_cons]
  generalize hU' : HloOp.result _ U = U'
  have n_main_call5_v1 : U' (Proc.devRef .tc main_call5_v1) = val_main_call5_v1 (F := F) := by
    rw [← hU']; simp (disch := decide) only [nullary_result', unary_result', binary_result', ternary_result', quaternary_result', reshape_result', f_main_call5_v0]; exact (cast_131 (F := F) (val_main_call5_v0 (F := F))).trans rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v50 : U' (Proc.devRef .tc main_v50) = val_main_v50 (F := F) x0 x1 x2 x3 x4 x5 := by
    rw [← hU']; simp (disch := decide) only [nullary_result_ne', unary_result_ne', binary_result_ne', ternary_result_ne', quaternary_result_ne', reshape_result_ne']; exact f_main_v50
  have c_main_v55 : U' (Proc.devRef .tc main_v55) = val_main_v55 (F := F) x0 x2 x6 x7 := by
    rw [← hU']; simp (disch := decide) only [nullary_result_ne', unary_result_ne', binary_result_ne', ternary_result_ne', quaternary_result_ne', reshape_result_ne']; exact f_main_v55
  have c_main_v57 : U' (Proc.devRef .tc main_v57) = val_main_v57 (F := F) x0 x2 x3 := by
    rw [← hU']; simp (disch := decide) only [nullary_result_ne', unary_result_ne', binary_result_ne', ternary_result_ne', quaternary_result_ne', reshape_result_ne']; exact f_main_v57
  have c_main_v59 : U' (Proc.devRef .tc main_v59) = val_main_v59 (F := F) x1 := by
    rw [← hU']; simp (disch := decide) only [nullary_result_ne', unary_result_ne', binary_result_ne', ternary_result_ne', quaternary_result_ne', reshape_result_ne']; exact f_main_v59
  have c_main_c_16 : U' (Proc.devRef .tc main_c_16) = val_main_c_16 (F := F) := by
    rw [← hU']; simp (disch := decide) only [nullary_result_ne', unary_result_ne', binary_result_ne', ternary_result_ne', quaternary_result_ne', reshape_result_ne']; exact f_main_c_16
  clear hU' f_main_arg1 f_main_v10 f_main_v25 f_main_v50 f_main_v55 f_main_v57 f_main_v59 f_main_c_16 f_main_call5_v0
  clear U; rename' U' => U
  rename' c_main_arg1 => f_main_arg1; rename' c_main_v10 => f_main_v10; rename' c_main_v25 => f_main_v25; rename' c_main_v50 => f_main_v50; rename' c_main_v55 => f_main_v55; rename' c_main_v57 => f_main_v57; rename' c_main_v59 => f_main_v59; rename' c_main_c_16 => f_main_c_16; rename' n_main_call5_v1 => f_main_call5_v1
  simp only [after_nil]
  exact ⟨f_main_arg1, f_main_v10, f_main_v25, f_main_v50, f_main_v55, f_main_v57, f_main_v59, f_main_c_16, f_main_call5_v1⟩

set_option maxHeartbeats 400000000 in
/-- Operations 132 to 143 of the line: from the stages of what is read at entry to the stages of what is read after. -/
theorem walk11 (U : Valuation τ sig (Elt F)) (x0 x1 : (⟨S4096, .i32⟩ : BufTy).Contents (Elt F)) (x2 : (⟨S50000x256, .f32⟩ : BufTy).Contents (Elt F)) (x3 : (⟨S2502x256, .f32⟩ : BufTy).Contents (Elt F)) (x4 : (⟨S64x256, .f32⟩ : BufTy).Contents (Elt F)) (x5 : (⟨S7500x64, .f32⟩ : BufTy).Contents (Elt F)) (x6 : (⟨S16x256, .f32⟩ : BufTy).Contents (Elt F)) (x7 : (⟨S40000x16, .f32⟩ : BufTy).Contents (Elt F))
    (f_main_arg1 : U (Proc.devRef .tc main_arg1) = x1)
    (f_main_v10 : U (Proc.devRef .tc main_v10) = val_main_v10 (F := F))
    (f_main_v25 : U (Proc.devRef .tc main_v25) = val_main_v25 (F := F) x0 x1 x2 x3)
    (f_main_v50 : U (Proc.devRef .tc main_v50) = val_main_v50 (F := F) x0 x1 x2 x3 x4 x5)
    (f_main_v55 : U (Proc.devRef .tc main_v55) = val_main_v55 (F := F) x0 x2 x6 x7)
    (f_main_v57 : U (Proc.devRef .tc main_v57) = val_main_v57 (F := F) x0 x2 x3)
    (f_main_v59 : U (Proc.devRef .tc main_v59) = val_main_v59 (F := F) x1)
    (f_main_c_16 : U (Proc.devRef .tc main_c_16) = val_main_c_16 (F := F))
    (f_main_call5_v1 : U (Proc.devRef .tc main_call5_v1) = val_main_call5_v1 (F := F)) :
    after (chunk11 (F := F)) U (Proc.devRef .tc main_arg1) = x1
      ∧ after (chunk11 (F := F)) U (Proc.devRef .tc main_v25) = val_main_v25 (F := F) x0 x1 x2 x3
      ∧ after (chunk11 (F := F)) U (Proc.devRef .tc main_v50) = val_main_v50 (F := F) x0 x1 x2 x3 x4 x5
      ∧ after (chunk11 (F := F)) U (Proc.devRef .tc main_v55) = val_main_v55 (F := F) x0 x2 x6 x7
      ∧ after (chunk11 (F := F)) U (Proc.devRef .tc main_v57) = val_main_v57 (F := F) x0 x2 x3
      ∧ after (chunk11 (F := F)) U (Proc.devRef .tc main_v60) = val_main_v60 (F := F) x1
      ∧ after (chunk11 (F := F)) U (Proc.devRef .tc main_v65) = val_main_v65 (F := F)
      ∧ after (chunk11 (F := F)) U (Proc.devRef .tc main_c_19) = val_main_c_19 (F := F) := by
  simp only [chunk11, ops, List.drop_succ_cons, List.drop_zero, List.take_succ_cons, List.take_zero]
  -- main_call5_v2 ← main_call5_v1, main_v59
  rw [after_cons]
  generalize hU' : HloOp.result _ U = U'
  have n_main_call5_v2 : U' (Proc.devRef .tc main_call5_v2) = val_main_call5_v2 (F := F) x1 := by
    rw [← hU']; simp (disch := decide) only [nullary_result', unary_result', binary_result', ternary_result', quaternary_result', reshape_result', f_main_call5_v1, f_main_v59]; exact (cast_132 (F := F) (val_main_call5_v1 (F := F)) (val_main_v59 (F := F) x1)).trans rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v50 : U' (Proc.devRef .tc main_v50) = val_main_v50 (F := F) x0 x1 x2 x3 x4 x5 := by
    rw [← hU']; simp (disch := decide) only [nullary_result_ne', unary_result_ne', binary_result_ne', ternary_result_ne', quaternary_result_ne', reshape_result_ne']; exact f_main_v50
  have c_main_v55 : U' (Proc.devRef .tc main_v55) = val_main_v55 (F := F) x0 x2 x6 x7 := by
    rw [← hU']; simp (disch := decide) only [nullary_result_ne', unary_result_ne', binary_result_ne', ternary_result_ne', quaternary_result_ne', reshape_result_ne']; exact f_main_v55
  have c_main_v57 : U' (Proc.devRef .tc main_v57) = val_main_v57 (F := F) x0 x2 x3 := by
    rw [← hU']; simp (disch := decide) only [nullary_result_ne', unary_result_ne', binary_result_ne', ternary_result_ne', quaternary_result_ne', reshape_result_ne']; exact f_main_v57
  have c_main_c_16 : U' (Proc.devRef .tc main_c_16) = val_main_c_16 (F := F) := by
    rw [← hU']; simp (disch := decide) only [nullary_result_ne', unary_result_ne', binary_result_ne', ternary_result_ne', quaternary_result_ne', reshape_result_ne']; exact f_main_c_16
  clear hU' f_main_arg1 f_main_v10 f_main_v25 f_main_v50 f_main_v55 f_main_v57 f_main_v59 f_main_c_16 f_main_call5_v1
  clear U; rename' U' => U
  rename' c_main_arg1 => f_main_arg1; rename' c_main_v10 => f_main_v10; rename' c_main_v25 => f_main_v25; rename' c_main_v50 => f_main_v50; rename' c_main_v55 => f_main_v55; rename' c_main_v57 => f_main_v57; rename' c_main_c_16 => f_main_c_16; rename' n_main_call5_v2 => f_main_call5_v2
  -- main_call5_v3 ← main_c_16
  rw [after_cons]
  generalize hU' : HloOp.result _ U = U'
  have n_main_call5_v3 : U' (Proc.devRef .tc main_call5_v3) = val_main_call5_v3 (F := F) := by
    rw [← hU']; simp (disch := decide) only [nullary_result', unary_result', binary_result', ternary_result', quaternary_result', reshape_result', f_main_c_16]; exact (cast_133 (F := F) (val_main_c_16 (F := F))).trans rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v50 : U' (Proc.devRef .tc main_v50) = val_main_v50 (F := F) x0 x1 x2 x3 x4 x5 := by
    rw [← hU']; simp (disch := decide) only [nullary_result_ne', unary_result_ne', binary_result_ne', ternary_result_ne', quaternary_result_ne', reshape_result_ne']; exact f_main_v50
  have c_main_v55 : U' (Proc.devRef .tc main_v55) = val_main_v55 (F := F) x0 x2 x6 x7 := by
    rw [← hU']; simp (disch := decide) only [nullary_result_ne', unary_result_ne', binary_result_ne', ternary_result_ne', quaternary_result_ne', reshape_result_ne']; exact f_main_v55
  have c_main_v57 : U' (Proc.devRef .tc main_v57) = val_main_v57 (F := F) x0 x2 x3 := by
    rw [← hU']; simp (disch := decide) only [nullary_result_ne', unary_result_ne', binary_result_ne', ternary_result_ne', quaternary_result_ne', reshape_result_ne']; exact f_main_v57
  have c_main_call5_v2 : U' (Proc.devRef .tc main_call5_v2) = val_main_call5_v2 (F := F) x1 := by
    rw [← hU']; simp (disch := decide) only [nullary_result_ne', unary_result_ne', binary_result_ne', ternary_result_ne', quaternary_result_ne', reshape_result_ne']; exact f_main_call5_v2
  clear hU' f_main_arg1 f_main_v10 f_main_v25 f_main_v50 f_main_v55 f_main_v57 f_main_c_16 f_main_call5_v2
  clear U; rename' U' => U
  rename' c_main_arg1 => f_main_arg1; rename' c_main_v10 => f_main_v10; rename' c_main_v25 => f_main_v25; rename' c_main_v50 => f_main_v50; rename' c_main_v55 => f_main_v55; rename' c_main_v57 => f_main_v57; rename' c_main_call5_v2 => f_main_call5_v2; rename' n_main_call5_v3 => f_main_call5_v3
  -- main_call5_v4 ← main_call5_v3
  rw [after_cons]
  generalize hU' : HloOp.result _ U = U'
  have n_main_call5_v4 : U' (Proc.devRef .tc main_call5_v4) = val_main_call5_v4 (F := F) := by
    rw [← hU']; simp (disch := decide) only [nullary_result', unary_result', binary_result', ternary_result', quaternary_result', reshape_result', f_main_call5_v3]; exact (cast_134 (F := F) (val_main_call5_v3 (F := F))).trans rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v50 : U' (Proc.devRef .tc main_v50) = val_main_v50 (F := F) x0 x1 x2 x3 x4 x5 := by
    rw [← hU']; simp (disch := decide) only [nullary_result_ne', unary_result_ne', binary_result_ne', ternary_result_ne', quaternary_result_ne', reshape_result_ne']; exact f_main_v50
  have c_main_v55 : U' (Proc.devRef .tc main_v55) = val_main_v55 (F := F) x0 x2 x6 x7 := by
    rw [← hU']; simp (disch := decide) only [nullary_result_ne', unary_result_ne', binary_result_ne', ternary_result_ne', quaternary_result_ne', reshape_result_ne']; exact f_main_v55
  have c_main_v57 : U' (Proc.devRef .tc main_v57) = val_main_v57 (F := F) x0 x2 x3 := by
    rw [← hU']; simp (disch := decide) only [nullary_result_ne', unary_result_ne', binary_result_ne', ternary_result_ne', quaternary_result_ne', reshape_result_ne']; exact f_main_v57
  have c_main_call5_v2 : U' (Proc.devRef .tc main_call5_v2) = val_main_call5_v2 (F := F) x1 := by
    rw [← hU']; simp (disch := decide) only [nullary_result_ne', unary_result_ne', binary_result_ne', ternary_result_ne', quaternary_result_ne', reshape_result_ne']; exact f_main_call5_v2
  clear hU' f_main_arg1 f_main_v10 f_main_v25 f_main_v50 f_main_v55 f_main_v57 f_main_call5_v2 f_main_call5_v3
  clear U; rename' U' => U
  rename' c_main_arg1 => f_main_arg1; rename' c_main_v10 => f_main_v10; rename' c_main_v25 => f_main_v25; rename' c_main_v50 => f_main_v50; rename' c_main_v55 => f_main_v55; rename' c_main_v57 => f_main_v57; rename' c_main_call5_v2 => f_main_call5_v2; rename' n_main_call5_v4 => f_main_call5_v4
  -- main_v60 ← main_call5_v4, main_call5_v2
  rw [after_cons]
  generalize hU' : HloOp.result _ U = U'
  have n_main_v60 : U' (Proc.devRef .tc main_v60) = val_main_v60 (F := F) x1 := by
    rw [← hU']; simp (disch := decide) only [nullary_result', unary_result', binary_result', ternary_result', quaternary_result', reshape_result', f_main_call5_v4, f_main_call5_v2]; exact (cast_135 (F := F) (val_main_call5_v4 (F := F)) (val_main_call5_v2 (F := F) x1)).trans rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v50 : U' (Proc.devRef .tc main_v50) = val_main_v50 (F := F) x0 x1 x2 x3 x4 x5 := by
    rw [← hU']; simp (disch := decide) only [nullary_result_ne', unary_result_ne', binary_result_ne', ternary_result_ne', quaternary_result_ne', reshape_result_ne']; exact f_main_v50
  have c_main_v55 : U' (Proc.devRef .tc main_v55) = val_main_v55 (F := F) x0 x2 x6 x7 := by
    rw [← hU']; simp (disch := decide) only [nullary_result_ne', unary_result_ne', binary_result_ne', ternary_result_ne', quaternary_result_ne', reshape_result_ne']; exact f_main_v55
  have c_main_v57 : U' (Proc.devRef .tc main_v57) = val_main_v57 (F := F) x0 x2 x3 := by
    rw [← hU']; simp (disch := decide) only [nullary_result_ne', unary_result_ne', binary_result_ne', ternary_result_ne', quaternary_result_ne', reshape_result_ne']; exact f_main_v57
  clear hU' f_main_arg1 f_main_v10 f_main_v25 f_main_v50 f_main_v55 f_main_v57 f_main_call5_v2 f_main_call5_v4
  clear U; rename' U' => U
  rename' c_main_arg1 => f_main_arg1; rename' c_main_v10 => f_main_v10; rename' c_main_v25 => f_main_v25; rename' c_main_v50 => f_main_v50; rename' c_main_v55 => f_main_v55; rename' c_main_v57 => f_main_v57; rename' n_main_v60 => f_main_v60
  -- main_c_17 ← (a constant)
  rw [after_cons]
  generalize hU' : HloOp.result _ U = U'
  have n_main_c_17 : U' (Proc.devRef .tc main_c_17) = val_main_c_17 (F := F) := by
    rw [← hU']; simp (disch := decide) only [nullary_result', unary_result', binary_result', ternary_result', quaternary_result', reshape_result']; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v50 : U' (Proc.devRef .tc main_v50) = val_main_v50 (F := F) x0 x1 x2 x3 x4 x5 := by
    rw [← hU']; simp (disch := decide) only [nullary_result_ne', unary_result_ne', binary_result_ne', ternary_result_ne', quaternary_result_ne', reshape_result_ne']; exact f_main_v50
  have c_main_v55 : U' (Proc.devRef .tc main_v55) = val_main_v55 (F := F) x0 x2 x6 x7 := by
    rw [← hU']; simp (disch := decide) only [nullary_result_ne', unary_result_ne', binary_result_ne', ternary_result_ne', quaternary_result_ne', reshape_result_ne']; exact f_main_v55
  have c_main_v57 : U' (Proc.devRef .tc main_v57) = val_main_v57 (F := F) x0 x2 x3 := by
    rw [← hU']; simp (disch := decide) only [nullary_result_ne', unary_result_ne', binary_result_ne', ternary_result_ne', quaternary_result_ne', reshape_result_ne']; exact f_main_v57
  have c_main_v60 : U' (Proc.devRef .tc main_v60) = val_main_v60 (F := F) x1 := by
    rw [← hU']; simp (disch := decide) only [nullary_result_ne', unary_result_ne', binary_result_ne', ternary_result_ne', quaternary_result_ne', reshape_result_ne']; exact f_main_v60
  clear hU' f_main_arg1 f_main_v10 f_main_v25 f_main_v50 f_main_v55 f_main_v57 f_main_v60
  clear U; rename' U' => U
  rename' c_main_arg1 => f_main_arg1; rename' c_main_v10 => f_main_v10; rename' c_main_v25 => f_main_v25; rename' c_main_v50 => f_main_v50; rename' c_main_v55 => f_main_v55; rename' c_main_v57 => f_main_v57; rename' c_main_v60 => f_main_v60; rename' n_main_c_17 => f_main_c_17
  -- main_v61 ← main_c_17
  rw [after_cons]
  generalize hU' : HloOp.result _ U = U'
  have n_main_v61 : U' (Proc.devRef .tc main_v61) = val_main_v61 (F := F) := by
    rw [← hU']; simp (disch := decide) only [nullary_result', unary_result', binary_result', ternary_result', quaternary_result', reshape_result', f_main_c_17]; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v50 : U' (Proc.devRef .tc main_v50) = val_main_v50 (F := F) x0 x1 x2 x3 x4 x5 := by
    rw [← hU']; simp (disch := decide) only [nullary_result_ne', unary_result_ne', binary_result_ne', ternary_result_ne', quaternary_result_ne', reshape_result_ne']; exact f_main_v50
  have c_main_v55 : U' (Proc.devRef .tc main_v55) = val_main_v55 (F := F) x0 x2 x6 x7 := by
    rw [← hU']; simp (disch := decide) only [nullary_result_ne', unary_result_ne', binary_result_ne', ternary_result_ne', quaternary_result_ne', reshape_result_ne']; exact f_main_v55
  have c_main_v57 : U' (Proc.devRef .tc main_v57) = val_main_v57 (F := F) x0 x2 x3 := by
    rw [← hU']; simp (disch := decide) only [nullary_result_ne', unary_result_ne', binary_result_ne', ternary_result_ne', quaternary_result_ne', reshape_result_ne']; exact f_main_v57
  have c_main_v60 : U' (Proc.devRef .tc main_v60) = val_main_v60 (F := F) x1 := by
    rw [← hU']; simp (disch := decide) only [nullary_result_ne', unary_result_ne', binary_result_ne', ternary_result_ne', quaternary_result_ne', reshape_result_ne']; exact f_main_v60
  clear hU' f_main_arg1 f_main_v10 f_main_v25 f_main_v50 f_main_v55 f_main_v57 f_main_v60 f_main_c_17
  clear U; rename' U' => U
  rename' c_main_arg1 => f_main_arg1; rename' c_main_v10 => f_main_v10; rename' c_main_v25 => f_main_v25; rename' c_main_v50 => f_main_v50; rename' c_main_v55 => f_main_v55; rename' c_main_v57 => f_main_v57; rename' c_main_v60 => f_main_v60; rename' n_main_v61 => f_main_v61
  -- main_v62 ← main_v10, main_v61
  rw [after_cons]
  generalize hU' : HloOp.result _ U = U'
  have n_main_v62 : U' (Proc.devRef .tc main_v62) = val_main_v62 (F := F) := by
    rw [← hU']; simp (disch := decide) only [nullary_result', unary_result', binary_result', ternary_result', quaternary_result', reshape_result', f_main_v10, f_main_v61]; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v50 : U' (Proc.devRef .tc main_v50) = val_main_v50 (F := F) x0 x1 x2 x3 x4 x5 := by
    rw [← hU']; simp (disch := decide) only [nullary_result_ne', unary_result_ne', binary_result_ne', ternary_result_ne', quaternary_result_ne', reshape_result_ne']; exact f_main_v50
  have c_main_v55 : U' (Proc.devRef .tc main_v55) = val_main_v55 (F := F) x0 x2 x6 x7 := by
    rw [← hU']; simp (disch := decide) only [nullary_result_ne', unary_result_ne', binary_result_ne', ternary_result_ne', quaternary_result_ne', reshape_result_ne']; exact f_main_v55
  have c_main_v57 : U' (Proc.devRef .tc main_v57) = val_main_v57 (F := F) x0 x2 x3 := by
    rw [← hU']; simp (disch := decide) only [nullary_result_ne', unary_result_ne', binary_result_ne', ternary_result_ne', quaternary_result_ne', reshape_result_ne']; exact f_main_v57
  have c_main_v60 : U' (Proc.devRef .tc main_v60) = val_main_v60 (F := F) x1 := by
    rw [← hU']; simp (disch := decide) only [nullary_result_ne', unary_result_ne', binary_result_ne', ternary_result_ne', quaternary_result_ne', reshape_result_ne']; exact f_main_v60
  clear hU' f_main_arg1 f_main_v10 f_main_v25 f_main_v50 f_main_v55 f_main_v57 f_main_v60 f_main_v61
  clear U; rename' U' => U
  rename' c_main_arg1 => f_main_arg1; rename' c_main_v10 => f_main_v10; rename' c_main_v25 => f_main_v25; rename' c_main_v50 => f_main_v50; rename' c_main_v55 => f_main_v55; rename' c_main_v57 => f_main_v57; rename' c_main_v60 => f_main_v60; rename' n_main_v62 => f_main_v62
  -- main_c_18 ← (a constant)
  rw [after_cons]
  generalize hU' : HloOp.result _ U = U'
  have n_main_c_18 : U' (Proc.devRef .tc main_c_18) = val_main_c_18 (F := F) := by
    rw [← hU']; simp (disch := decide) only [nullary_result', unary_result', binary_result', ternary_result', quaternary_result', reshape_result']; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v50 : U' (Proc.devRef .tc main_v50) = val_main_v50 (F := F) x0 x1 x2 x3 x4 x5 := by
    rw [← hU']; simp (disch := decide) only [nullary_result_ne', unary_result_ne', binary_result_ne', ternary_result_ne', quaternary_result_ne', reshape_result_ne']; exact f_main_v50
  have c_main_v55 : U' (Proc.devRef .tc main_v55) = val_main_v55 (F := F) x0 x2 x6 x7 := by
    rw [← hU']; simp (disch := decide) only [nullary_result_ne', unary_result_ne', binary_result_ne', ternary_result_ne', quaternary_result_ne', reshape_result_ne']; exact f_main_v55
  have c_main_v57 : U' (Proc.devRef .tc main_v57) = val_main_v57 (F := F) x0 x2 x3 := by
    rw [← hU']; simp (disch := decide) only [nullary_result_ne', unary_result_ne', binary_result_ne', ternary_result_ne', quaternary_result_ne', reshape_result_ne']; exact f_main_v57
  have c_main_v60 : U' (Proc.devRef .tc main_v60) = val_main_v60 (F := F) x1 := by
    rw [← hU']; simp (disch := decide) only [nullary_result_ne', unary_result_ne', binary_result_ne', ternary_result_ne', quaternary_result_ne', reshape_result_ne']; exact f_main_v60
  have c_main_v62 : U' (Proc.devRef .tc main_v62) = val_main_v62 (F := F) := by
    rw [← hU']; simp (disch := decide) only [nullary_result_ne', unary_result_ne', binary_result_ne', ternary_result_ne', quaternary_result_ne', reshape_result_ne']; exact f_main_v62
  clear hU' f_main_arg1 f_main_v10 f_main_v25 f_main_v50 f_main_v55 f_main_v57 f_main_v60 f_main_v62
  clear U; rename' U' => U
  rename' c_main_arg1 => f_main_arg1; rename' c_main_v10 => f_main_v10; rename' c_main_v25 => f_main_v25; rename' c_main_v50 => f_main_v50; rename' c_main_v55 => f_main_v55; rename' c_main_v57 => f_main_v57; rename' c_main_v60 => f_main_v60; rename' c_main_v62 => f_main_v62; rename' n_main_c_18 => f_main_c_18
  -- main_v63 ← main_c_18
  rw [after_cons]
  generalize hU' : HloOp.result _ U = U'
  have n_main_v63 : U' (Proc.devRef .tc main_v63) = val_main_v63 (F := F) := by
    rw [← hU']; simp (disch := decide) only [nullary_result', unary_result', binary_result', ternary_result', quaternary_result', reshape_result', f_main_c_18]; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v50 : U' (Proc.devRef .tc main_v50) = val_main_v50 (F := F) x0 x1 x2 x3 x4 x5 := by
    rw [← hU']; simp (disch := decide) only [nullary_result_ne', unary_result_ne', binary_result_ne', ternary_result_ne', quaternary_result_ne', reshape_result_ne']; exact f_main_v50
  have c_main_v55 : U' (Proc.devRef .tc main_v55) = val_main_v55 (F := F) x0 x2 x6 x7 := by
    rw [← hU']; simp (disch := decide) only [nullary_result_ne', unary_result_ne', binary_result_ne', ternary_result_ne', quaternary_result_ne', reshape_result_ne']; exact f_main_v55
  have c_main_v57 : U' (Proc.devRef .tc main_v57) = val_main_v57 (F := F) x0 x2 x3 := by
    rw [← hU']; simp (disch := decide) only [nullary_result_ne', unary_result_ne', binary_result_ne', ternary_result_ne', quaternary_result_ne', reshape_result_ne']; exact f_main_v57
  have c_main_v60 : U' (Proc.devRef .tc main_v60) = val_main_v60 (F := F) x1 := by
    rw [← hU']; simp (disch := decide) only [nullary_result_ne', unary_result_ne', binary_result_ne', ternary_result_ne', quaternary_result_ne', reshape_result_ne']; exact f_main_v60
  have c_main_v62 : U' (Proc.devRef .tc main_v62) = val_main_v62 (F := F) := by
    rw [← hU']; simp (disch := decide) only [nullary_result_ne', unary_result_ne', binary_result_ne', ternary_result_ne', quaternary_result_ne', reshape_result_ne']; exact f_main_v62
  clear hU' f_main_arg1 f_main_v10 f_main_v25 f_main_v50 f_main_v55 f_main_v57 f_main_v60 f_main_v62 f_main_c_18
  clear U; rename' U' => U
  rename' c_main_arg1 => f_main_arg1; rename' c_main_v10 => f_main_v10; rename' c_main_v25 => f_main_v25; rename' c_main_v50 => f_main_v50; rename' c_main_v55 => f_main_v55; rename' c_main_v57 => f_main_v57; rename' c_main_v60 => f_main_v60; rename' c_main_v62 => f_main_v62; rename' n_main_v63 => f_main_v63
  -- main_v64 ← main_v10, main_v63
  rw [after_cons]
  generalize hU' : HloOp.result _ U = U'
  have n_main_v64 : U' (Proc.devRef .tc main_v64) = val_main_v64 (F := F) := by
    rw [← hU']; simp (disch := decide) only [nullary_result', unary_result', binary_result', ternary_result', quaternary_result', reshape_result', f_main_v10, f_main_v63]; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_v10 : U' (Proc.devRef .tc main_v10) = val_main_v10 (F := F) := by
    rw [← hU']; simp (disch := decide) only [nullary_result_ne', unary_result_ne', binary_result_ne', ternary_result_ne', quaternary_result_ne', reshape_result_ne']; exact f_main_v10
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v50 : U' (Proc.devRef .tc main_v50) = val_main_v50 (F := F) x0 x1 x2 x3 x4 x5 := by
    rw [← hU']; simp (disch := decide) only [nullary_result_ne', unary_result_ne', binary_result_ne', ternary_result_ne', quaternary_result_ne', reshape_result_ne']; exact f_main_v50
  have c_main_v55 : U' (Proc.devRef .tc main_v55) = val_main_v55 (F := F) x0 x2 x6 x7 := by
    rw [← hU']; simp (disch := decide) only [nullary_result_ne', unary_result_ne', binary_result_ne', ternary_result_ne', quaternary_result_ne', reshape_result_ne']; exact f_main_v55
  have c_main_v57 : U' (Proc.devRef .tc main_v57) = val_main_v57 (F := F) x0 x2 x3 := by
    rw [← hU']; simp (disch := decide) only [nullary_result_ne', unary_result_ne', binary_result_ne', ternary_result_ne', quaternary_result_ne', reshape_result_ne']; exact f_main_v57
  have c_main_v60 : U' (Proc.devRef .tc main_v60) = val_main_v60 (F := F) x1 := by
    rw [← hU']; simp (disch := decide) only [nullary_result_ne', unary_result_ne', binary_result_ne', ternary_result_ne', quaternary_result_ne', reshape_result_ne']; exact f_main_v60
  have c_main_v62 : U' (Proc.devRef .tc main_v62) = val_main_v62 (F := F) := by
    rw [← hU']; simp (disch := decide) only [nullary_result_ne', unary_result_ne', binary_result_ne', ternary_result_ne', quaternary_result_ne', reshape_result_ne']; exact f_main_v62
  clear hU' f_main_arg1 f_main_v10 f_main_v25 f_main_v50 f_main_v55 f_main_v57 f_main_v60 f_main_v62 f_main_v63
  clear U; rename' U' => U
  rename' c_main_arg1 => f_main_arg1; rename' c_main_v10 => f_main_v10; rename' c_main_v25 => f_main_v25; rename' c_main_v50 => f_main_v50; rename' c_main_v55 => f_main_v55; rename' c_main_v57 => f_main_v57; rename' c_main_v60 => f_main_v60; rename' c_main_v62 => f_main_v62; rename' n_main_v64 => f_main_v64
  -- main_v65 ← main_v62, main_v64, main_v10
  rw [after_cons]
  generalize hU' : HloOp.result _ U = U'
  have n_main_v65 : U' (Proc.devRef .tc main_v65) = val_main_v65 (F := F) := by
    rw [← hU']; simp (disch := decide) only [nullary_result', unary_result', binary_result', ternary_result', quaternary_result', reshape_result', f_main_v62, f_main_v64, f_main_v10]; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v50 : U' (Proc.devRef .tc main_v50) = val_main_v50 (F := F) x0 x1 x2 x3 x4 x5 := by
    rw [← hU']; simp (disch := decide) only [nullary_result_ne', unary_result_ne', binary_result_ne', ternary_result_ne', quaternary_result_ne', reshape_result_ne']; exact f_main_v50
  have c_main_v55 : U' (Proc.devRef .tc main_v55) = val_main_v55 (F := F) x0 x2 x6 x7 := by
    rw [← hU']; simp (disch := decide) only [nullary_result_ne', unary_result_ne', binary_result_ne', ternary_result_ne', quaternary_result_ne', reshape_result_ne']; exact f_main_v55
  have c_main_v57 : U' (Proc.devRef .tc main_v57) = val_main_v57 (F := F) x0 x2 x3 := by
    rw [← hU']; simp (disch := decide) only [nullary_result_ne', unary_result_ne', binary_result_ne', ternary_result_ne', quaternary_result_ne', reshape_result_ne']; exact f_main_v57
  have c_main_v60 : U' (Proc.devRef .tc main_v60) = val_main_v60 (F := F) x1 := by
    rw [← hU']; simp (disch := decide) only [nullary_result_ne', unary_result_ne', binary_result_ne', ternary_result_ne', quaternary_result_ne', reshape_result_ne']; exact f_main_v60
  clear hU' f_main_arg1 f_main_v10 f_main_v25 f_main_v50 f_main_v55 f_main_v57 f_main_v60 f_main_v62 f_main_v64
  clear U; rename' U' => U
  rename' c_main_arg1 => f_main_arg1; rename' c_main_v25 => f_main_v25; rename' c_main_v50 => f_main_v50; rename' c_main_v55 => f_main_v55; rename' c_main_v57 => f_main_v57; rename' c_main_v60 => f_main_v60; rename' n_main_v65 => f_main_v65
  -- main_c_19 ← (a constant)
  rw [after_cons]
  generalize hU' : HloOp.result _ U = U'
  have n_main_c_19 : U' (Proc.devRef .tc main_c_19) = val_main_c_19 (F := F) := by
    rw [← hU']; simp (disch := decide) only [nullary_result', unary_result', binary_result', ternary_result', quaternary_result', reshape_result']; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v50 : U' (Proc.devRef .tc main_v50) = val_main_v50 (F := F) x0 x1 x2 x3 x4 x5 := by
    rw [← hU']; simp (disch := decide) only [nullary_result_ne', unary_result_ne', binary_result_ne', ternary_result_ne', quaternary_result_ne', reshape_result_ne']; exact f_main_v50
  have c_main_v55 : U' (Proc.devRef .tc main_v55) = val_main_v55 (F := F) x0 x2 x6 x7 := by
    rw [← hU']; simp (disch := decide) only [nullary_result_ne', unary_result_ne', binary_result_ne', ternary_result_ne', quaternary_result_ne', reshape_result_ne']; exact f_main_v55
  have c_main_v57 : U' (Proc.devRef .tc main_v57) = val_main_v57 (F := F) x0 x2 x3 := by
    rw [← hU']; simp (disch := decide) only [nullary_result_ne', unary_result_ne', binary_result_ne', ternary_result_ne', quaternary_result_ne', reshape_result_ne']; exact f_main_v57
  have c_main_v60 : U' (Proc.devRef .tc main_v60) = val_main_v60 (F := F) x1 := by
    rw [← hU']; simp (disch := decide) only [nullary_result_ne', unary_result_ne', binary_result_ne', ternary_result_ne', quaternary_result_ne', reshape_result_ne']; exact f_main_v60
  have c_main_v65 : U' (Proc.devRef .tc main_v65) = val_main_v65 (F := F) := by
    rw [← hU']; simp (disch := decide) only [nullary_result_ne', unary_result_ne', binary_result_ne', ternary_result_ne', quaternary_result_ne', reshape_result_ne']; exact f_main_v65
  clear hU' f_main_arg1 f_main_v25 f_main_v50 f_main_v55 f_main_v57 f_main_v60 f_main_v65
  clear U; rename' U' => U
  rename' c_main_arg1 => f_main_arg1; rename' c_main_v25 => f_main_v25; rename' c_main_v50 => f_main_v50; rename' c_main_v55 => f_main_v55; rename' c_main_v57 => f_main_v57; rename' c_main_v60 => f_main_v60; rename' c_main_v65 => f_main_v65; rename' n_main_c_19 => f_main_c_19
  simp only [after_nil]
  exact ⟨f_main_arg1, f_main_v25, f_main_v50, f_main_v55, f_main_v57, f_main_v60, f_main_v65, f_main_c_19⟩

end Cert.ReferenceIdeal.RunP

end
-- ==== Proof.RefRunWalk3.lean ====
/-
  Stretches of the reference's line, read one operation at a time.

  Folding a stretch over a valuation `U` that holds, at each buffer the stretch or a later one reads, that buffer's
  stage, the proof walks the stretch once. At each operation it shows that the one buffer the operation writes holds
  its stage — the operation's function applied to its operands' stages — and that every buffer still read later keeps
  what it held; then it forgets the valuation's history. A callee's operation moves its operands and result between a
  buffer's own type and the value's type; with the operations' functions kept folded, each such step is a transport
  along an equation of equal types, which reduces.
-/
import proofs.«428924_j53884659696080_3_alg».proof.Proof.RefRunCasts

set_option maxRecDepth 65536

noncomputable section

namespace Cert.ReferenceIdeal.RunP

open Cert.ReferenceIdeal Cert.ReferenceIdeal.Gen Idealize.ShloMosaic Idealize.ShloMosaic.TcCoe Idealize.SL.Sem Idealize.ShloMosaic.StableHlo Cert.ReferenceIdeal.ReadP Cert.ReferenceIdeal.ValueP

variable {F : FTy → Type} [FloatOps F]

-- the operations' functions stay folded, so that a transport around one reduces before anything else does
attribute [local irreducible] Host.exp Host.gather Host.log Host.reduce Host.reduceAdd Host.divf Host.negf addf addi broadcastInDim cmpi concatenate constant constantI extractStridedSlice iotaInDim maxsi minsi maximumf select shapeCast subf subi transpose

set_option maxHeartbeats 400000000 in
/-- Operations 144 to 155 of the line: from the stages of what is read at entry to the stages of what is read after. -/
theorem walk12 (U : Valuation τ sig (Elt F)) (x0 x1 : (⟨S4096, .i32⟩ : BufTy).Contents (Elt F)) (x2 : (⟨S50000x256, .f32⟩ : BufTy).Contents (Elt F)) (x3 : (⟨S2502x256, .f32⟩ : BufTy).Contents (Elt F)) (x4 : (⟨S64x256, .f32⟩ : BufTy).Contents (Elt F)) (x5 : (⟨S7500x64, .f32⟩ : BufTy).Contents (Elt F)) (x6 : (⟨S16x256, .f32⟩ : BufTy).Contents (Elt F)) (x7 : (⟨S40000x16, .f32⟩ : BufTy).Contents (Elt F))
    (f_main_arg1 : U (Proc.devRef .tc main_arg1) = x1)
    (f_main_v25 : U (Proc.devRef .tc main_v25) = val_main_v25 (F := F) x0 x1 x2 x3)
    (f_main_v50 : U (Proc.devRef .tc main_v50) = val_main_v50 (F := F) x0 x1 x2 x3 x4 x5)
    (f_main_v55 : U (Proc.devRef .tc main_v55) = val_main_v55 (F := F) x0 x2 x6 x7)
    (f_main_v57 : U (Proc.devRef .tc main_v57) = val_main_v57 (F := F) x0 x2 x3)
    (f_main_v60 : U (Proc.devRef .tc main_v60) = val_main_v60 (F := F) x1)
    (f_main_v65 : U (Proc.devRef .tc main_v65) = val_main_v65 (F := F))
    (f_main_c_19 : U (Proc.devRef .tc main_c_19) = val_main_c_19 (F := F)) :
    after (chunk12 (F := F)) U (Proc.devRef .tc main_arg1) = x1
      ∧ after (chunk12 (F := F)) U (Proc.devRef .tc main_v25) = val_main_v25 (F := F) x0 x1 x2 x3
      ∧ after (chunk12 (F := F)) U (Proc.devRef .tc main_v50) = val_main_v50 (F := F) x0 x1 x2 x3 x4 x5
      ∧ after (chunk12 (F := F)) U (Proc.devRef .tc main_v75) = val_main_v75 (F := F) x0 x1 x2 x3 x6 x7
      ∧ after (chunk12 (F := F)) U (Proc.devRef .tc main_c_21) = val_main_c_21 (F := F) := by
  simp only [chunk12, ops, List.drop_succ_cons, List.drop_zero, List.take_succ_cons, List.take_zero]
  -- main_v66 ← main_c_19
  rw [after_cons]
  generalize hU' : HloOp.result _ U = U'
  have n_main_v66 : U' (Proc.devRef .tc main_v66) = val_main_v66 (F := F) := by
    rw [← hU']; simp (disch := decide) only [nullary_result', unary_result', binary_result', ternary_result', quaternary_result', reshape_result', f_main_c_19]; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v50 : U' (Proc.devRef .tc main_v50) = val_main_v50 (F := F) x0 x1 x2 x3 x4 x5 := by
    rw [← hU']; simp (disch := decide) only [nullary_result_ne', unary_result_ne', binary_result_ne', ternary_result_ne', quaternary_result_ne', reshape_result_ne']; exact f_main_v50
  have c_main_v55 : U' (Proc.devRef .tc main_v55) = val_main_v55 (F := F) x0 x2 x6 x7 := by
    rw [← hU']; simp (disch := decide) only [nullary_result_ne', unary_result_ne', binary_result_ne', ternary_result_ne', quaternary_result_ne', reshape_result_ne']; exact f_main_v55
  have c_main_v57 : U' (Proc.devRef .tc main_v57) = val_main_v57 (F := F) x0 x2 x3 := by
    rw [← hU']; simp (disch := decide) only [nullary_result_ne', unary_result_ne', binary_result_ne', ternary_result_ne', quaternary_result_ne', reshape_result_ne']; exact f_main_v57
  have c_main_v60 : U' (Proc.devRef .tc main_v60) = val_main_v60 (F := F) x1 := by
    rw [← hU']; simp (disch := decide) only [nullary_result_ne', unary_result_ne', binary_result_ne', ternary_result_ne', quaternary_result_ne', reshape_result_ne']; exact f_main_v60
  have c_main_v65 : U' (Proc.devRef .tc main_v65) = val_main_v65 (F := F) := by
    rw [← hU']; simp (disch := decide) only [nullary_result_ne', unary_result_ne', binary_result_ne', ternary_result_ne', quaternary_result_ne', reshape_result_ne']; exact f_main_v65
  clear hU' f_main_arg1 f_main_v25 f_main_v50 f_main_v55 f_main_v57 f_main_v60 f_main_v65 f_main_c_19
  clear U; rename' U' => U
  rename' c_main_arg1 => f_main_arg1; rename' c_main_v25 => f_main_v25; rename' c_main_v50 => f_main_v50; rename' c_main_v55 => f_main_v55; rename' c_main_v57 => f_main_v57; rename' c_main_v60 => f_main_v60; rename' c_main_v65 => f_main_v65; rename' n_main_v66 => f_main_v66
  -- main_v67 ← main_v60, main_v66
  rw [after_cons]
  generalize hU' : HloOp.result _ U = U'
  have n_main_v67 : U' (Proc.devRef .tc main_v67) = val_main_v67 (F := F) x1 := by
    rw [← hU']; simp (disch := decide) only [nullary_result', unary_result', binary_result', ternary_result', quaternary_result', reshape_result', f_main_v60, f_main_v66]; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v50 : U' (Proc.devRef .tc main_v50) = val_main_v50 (F := F) x0 x1 x2 x3 x4 x5 := by
    rw [← hU']; simp (disch := decide) only [nullary_result_ne', unary_result_ne', binary_result_ne', ternary_result_ne', quaternary_result_ne', reshape_result_ne']; exact f_main_v50
  have c_main_v55 : U' (Proc.devRef .tc main_v55) = val_main_v55 (F := F) x0 x2 x6 x7 := by
    rw [← hU']; simp (disch := decide) only [nullary_result_ne', unary_result_ne', binary_result_ne', ternary_result_ne', quaternary_result_ne', reshape_result_ne']; exact f_main_v55
  have c_main_v57 : U' (Proc.devRef .tc main_v57) = val_main_v57 (F := F) x0 x2 x3 := by
    rw [← hU']; simp (disch := decide) only [nullary_result_ne', unary_result_ne', binary_result_ne', ternary_result_ne', quaternary_result_ne', reshape_result_ne']; exact f_main_v57
  have c_main_v60 : U' (Proc.devRef .tc main_v60) = val_main_v60 (F := F) x1 := by
    rw [← hU']; simp (disch := decide) only [nullary_result_ne', unary_result_ne', binary_result_ne', ternary_result_ne', quaternary_result_ne', reshape_result_ne']; exact f_main_v60
  have c_main_v65 : U' (Proc.devRef .tc main_v65) = val_main_v65 (F := F) := by
    rw [← hU']; simp (disch := decide) only [nullary_result_ne', unary_result_ne', binary_result_ne', ternary_result_ne', quaternary_result_ne', reshape_result_ne']; exact f_main_v65
  clear hU' f_main_arg1 f_main_v25 f_main_v50 f_main_v55 f_main_v57 f_main_v60 f_main_v65 f_main_v66
  clear U; rename' U' => U
  rename' c_main_arg1 => f_main_arg1; rename' c_main_v25 => f_main_v25; rename' c_main_v50 => f_main_v50; rename' c_main_v55 => f_main_v55; rename' c_main_v57 => f_main_v57; rename' c_main_v60 => f_main_v60; rename' c_main_v65 => f_main_v65; rename' n_main_v67 => f_main_v67
  -- main_c_20 ← (a constant)
  rw [after_cons]
  generalize hU' : HloOp.result _ U = U'
  have n_main_c_20 : U' (Proc.devRef .tc main_c_20) = val_main_c_20 (F := F) := by
    rw [← hU']; simp (disch := decide) only [nullary_result', unary_result', binary_result', ternary_result', quaternary_result', reshape_result']; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v50 : U' (Proc.devRef .tc main_v50) = val_main_v50 (F := F) x0 x1 x2 x3 x4 x5 := by
    rw [← hU']; simp (disch := decide) only [nullary_result_ne', unary_result_ne', binary_result_ne', ternary_result_ne', quaternary_result_ne', reshape_result_ne']; exact f_main_v50
  have c_main_v55 : U' (Proc.devRef .tc main_v55) = val_main_v55 (F := F) x0 x2 x6 x7 := by
    rw [← hU']; simp (disch := decide) only [nullary_result_ne', unary_result_ne', binary_result_ne', ternary_result_ne', quaternary_result_ne', reshape_result_ne']; exact f_main_v55
  have c_main_v57 : U' (Proc.devRef .tc main_v57) = val_main_v57 (F := F) x0 x2 x3 := by
    rw [← hU']; simp (disch := decide) only [nullary_result_ne', unary_result_ne', binary_result_ne', ternary_result_ne', quaternary_result_ne', reshape_result_ne']; exact f_main_v57
  have c_main_v60 : U' (Proc.devRef .tc main_v60) = val_main_v60 (F := F) x1 := by
    rw [← hU']; simp (disch := decide) only [nullary_result_ne', unary_result_ne', binary_result_ne', ternary_result_ne', quaternary_result_ne', reshape_result_ne']; exact f_main_v60
  have c_main_v65 : U' (Proc.devRef .tc main_v65) = val_main_v65 (F := F) := by
    rw [← hU']; simp (disch := decide) only [nullary_result_ne', unary_result_ne', binary_result_ne', ternary_result_ne', quaternary_result_ne', reshape_result_ne']; exact f_main_v65
  have c_main_v67 : U' (Proc.devRef .tc main_v67) = val_main_v67 (F := F) x1 := by
    rw [← hU']; simp (disch := decide) only [nullary_result_ne', unary_result_ne', binary_result_ne', ternary_result_ne', quaternary_result_ne', reshape_result_ne']; exact f_main_v67
  clear hU' f_main_arg1 f_main_v25 f_main_v50 f_main_v55 f_main_v57 f_main_v60 f_main_v65 f_main_v67
  clear U; rename' U' => U
  rename' c_main_arg1 => f_main_arg1; rename' c_main_v25 => f_main_v25; rename' c_main_v50 => f_main_v50; rename' c_main_v55 => f_main_v55; rename' c_main_v57 => f_main_v57; rename' c_main_v60 => f_main_v60; rename' c_main_v65 => f_main_v65; rename' c_main_v67 => f_main_v67; rename' n_main_c_20 => f_main_c_20
  -- main_v68 ← main_c_20
  rw [after_cons]
  generalize hU' : HloOp.result _ U = U'
  have n_main_v68 : U' (Proc.devRef .tc main_v68) = val_main_v68 (F := F) := by
    rw [← hU']; simp (disch := decide) only [nullary_result', unary_result', binary_result', ternary_result', quaternary_result', reshape_result', f_main_c_20]; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v50 : U' (Proc.devRef .tc main_v50) = val_main_v50 (F := F) x0 x1 x2 x3 x4 x5 := by
    rw [← hU']; simp (disch := decide) only [nullary_result_ne', unary_result_ne', binary_result_ne', ternary_result_ne', quaternary_result_ne', reshape_result_ne']; exact f_main_v50
  have c_main_v55 : U' (Proc.devRef .tc main_v55) = val_main_v55 (F := F) x0 x2 x6 x7 := by
    rw [← hU']; simp (disch := decide) only [nullary_result_ne', unary_result_ne', binary_result_ne', ternary_result_ne', quaternary_result_ne', reshape_result_ne']; exact f_main_v55
  have c_main_v57 : U' (Proc.devRef .tc main_v57) = val_main_v57 (F := F) x0 x2 x3 := by
    rw [← hU']; simp (disch := decide) only [nullary_result_ne', unary_result_ne', binary_result_ne', ternary_result_ne', quaternary_result_ne', reshape_result_ne']; exact f_main_v57
  have c_main_v60 : U' (Proc.devRef .tc main_v60) = val_main_v60 (F := F) x1 := by
    rw [← hU']; simp (disch := decide) only [nullary_result_ne', unary_result_ne', binary_result_ne', ternary_result_ne', quaternary_result_ne', reshape_result_ne']; exact f_main_v60
  have c_main_v65 : U' (Proc.devRef .tc main_v65) = val_main_v65 (F := F) := by
    rw [← hU']; simp (disch := decide) only [nullary_result_ne', unary_result_ne', binary_result_ne', ternary_result_ne', quaternary_result_ne', reshape_result_ne']; exact f_main_v65
  have c_main_v67 : U' (Proc.devRef .tc main_v67) = val_main_v67 (F := F) x1 := by
    rw [← hU']; simp (disch := decide) only [nullary_result_ne', unary_result_ne', binary_result_ne', ternary_result_ne', quaternary_result_ne', reshape_result_ne']; exact f_main_v67
  clear hU' f_main_arg1 f_main_v25 f_main_v50 f_main_v55 f_main_v57 f_main_v60 f_main_v65 f_main_v67 f_main_c_20
  clear U; rename' U' => U
  rename' c_main_arg1 => f_main_arg1; rename' c_main_v25 => f_main_v25; rename' c_main_v50 => f_main_v50; rename' c_main_v55 => f_main_v55; rename' c_main_v57 => f_main_v57; rename' c_main_v60 => f_main_v60; rename' c_main_v65 => f_main_v65; rename' c_main_v67 => f_main_v67; rename' n_main_v68 => f_main_v68
  -- main_v69 ← main_v60, main_v68
  rw [after_cons]
  generalize hU' : HloOp.result _ U = U'
  have n_main_v69 : U' (Proc.devRef .tc main_v69) = val_main_v69 (F := F) x1 := by
    rw [← hU']; simp (disch := decide) only [nullary_result', unary_result', binary_result', ternary_result', quaternary_result', reshape_result', f_main_v60, f_main_v68]; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v50 : U' (Proc.devRef .tc main_v50) = val_main_v50 (F := F) x0 x1 x2 x3 x4 x5 := by
    rw [← hU']; simp (disch := decide) only [nullary_result_ne', unary_result_ne', binary_result_ne', ternary_result_ne', quaternary_result_ne', reshape_result_ne']; exact f_main_v50
  have c_main_v55 : U' (Proc.devRef .tc main_v55) = val_main_v55 (F := F) x0 x2 x6 x7 := by
    rw [← hU']; simp (disch := decide) only [nullary_result_ne', unary_result_ne', binary_result_ne', ternary_result_ne', quaternary_result_ne', reshape_result_ne']; exact f_main_v55
  have c_main_v57 : U' (Proc.devRef .tc main_v57) = val_main_v57 (F := F) x0 x2 x3 := by
    rw [← hU']; simp (disch := decide) only [nullary_result_ne', unary_result_ne', binary_result_ne', ternary_result_ne', quaternary_result_ne', reshape_result_ne']; exact f_main_v57
  have c_main_v60 : U' (Proc.devRef .tc main_v60) = val_main_v60 (F := F) x1 := by
    rw [← hU']; simp (disch := decide) only [nullary_result_ne', unary_result_ne', binary_result_ne', ternary_result_ne', quaternary_result_ne', reshape_result_ne']; exact f_main_v60
  have c_main_v65 : U' (Proc.devRef .tc main_v65) = val_main_v65 (F := F) := by
    rw [← hU']; simp (disch := decide) only [nullary_result_ne', unary_result_ne', binary_result_ne', ternary_result_ne', quaternary_result_ne', reshape_result_ne']; exact f_main_v65
  have c_main_v67 : U' (Proc.devRef .tc main_v67) = val_main_v67 (F := F) x1 := by
    rw [← hU']; simp (disch := decide) only [nullary_result_ne', unary_result_ne', binary_result_ne', ternary_result_ne', quaternary_result_ne', reshape_result_ne']; exact f_main_v67
  clear hU' f_main_arg1 f_main_v25 f_main_v50 f_main_v55 f_main_v57 f_main_v60 f_main_v65 f_main_v67 f_main_v68
  clear U; rename' U' => U
  rename' c_main_arg1 => f_main_arg1; rename' c_main_v25 => f_main_v25; rename' c_main_v50 => f_main_v50; rename' c_main_v55 => f_main_v55; rename' c_main_v57 => f_main_v57; rename' c_main_v60 => f_main_v60; rename' c_main_v65 => f_main_v65; rename' c_main_v67 => f_main_v67; rename' n_main_v69 => f_main_v69
  -- main_v70 ← main_v67, main_v69, main_v60
  rw [after_cons]
  generalize hU' : HloOp.result _ U = U'
  have n_main_v70 : U' (Proc.devRef .tc main_v70) = val_main_v70 (F := F) x1 := by
    rw [← hU']; simp (disch := decide) only [nullary_result', unary_result', binary_result', ternary_result', quaternary_result', reshape_result', f_main_v67, f_main_v69, f_main_v60]; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v50 : U' (Proc.devRef .tc main_v50) = val_main_v50 (F := F) x0 x1 x2 x3 x4 x5 := by
    rw [← hU']; simp (disch := decide) only [nullary_result_ne', unary_result_ne', binary_result_ne', ternary_result_ne', quaternary_result_ne', reshape_result_ne']; exact f_main_v50
  have c_main_v55 : U' (Proc.devRef .tc main_v55) = val_main_v55 (F := F) x0 x2 x6 x7 := by
    rw [← hU']; simp (disch := decide) only [nullary_result_ne', unary_result_ne', binary_result_ne', ternary_result_ne', quaternary_result_ne', reshape_result_ne']; exact f_main_v55
  have c_main_v57 : U' (Proc.devRef .tc main_v57) = val_main_v57 (F := F) x0 x2 x3 := by
    rw [← hU']; simp (disch := decide) only [nullary_result_ne', unary_result_ne', binary_result_ne', ternary_result_ne', quaternary_result_ne', reshape_result_ne']; exact f_main_v57
  have c_main_v65 : U' (Proc.devRef .tc main_v65) = val_main_v65 (F := F) := by
    rw [← hU']; simp (disch := decide) only [nullary_result_ne', unary_result_ne', binary_result_ne', ternary_result_ne', quaternary_result_ne', reshape_result_ne']; exact f_main_v65
  clear hU' f_main_arg1 f_main_v25 f_main_v50 f_main_v55 f_main_v57 f_main_v60 f_main_v65 f_main_v67 f_main_v69
  clear U; rename' U' => U
  rename' c_main_arg1 => f_main_arg1; rename' c_main_v25 => f_main_v25; rename' c_main_v50 => f_main_v50; rename' c_main_v55 => f_main_v55; rename' c_main_v57 => f_main_v57; rename' c_main_v65 => f_main_v65; rename' n_main_v70 => f_main_v70
  -- main_v71 ← main_v65
  rw [after_cons]
  generalize hU' : HloOp.result _ U = U'
  have n_main_v71 : U' (Proc.devRef .tc main_v71) = val_main_v71 (F := F) := by
    rw [← hU']; simp (disch := decide) only [nullary_result', unary_result', binary_result', ternary_result', quaternary_result', reshape_result', f_main_v65]; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v50 : U' (Proc.devRef .tc main_v50) = val_main_v50 (F := F) x0 x1 x2 x3 x4 x5 := by
    rw [← hU']; simp (disch := decide) only [nullary_result_ne', unary_result_ne', binary_result_ne', ternary_result_ne', quaternary_result_ne', reshape_result_ne']; exact f_main_v50
  have c_main_v55 : U' (Proc.devRef .tc main_v55) = val_main_v55 (F := F) x0 x2 x6 x7 := by
    rw [← hU']; simp (disch := decide) only [nullary_result_ne', unary_result_ne', binary_result_ne', ternary_result_ne', quaternary_result_ne', reshape_result_ne']; exact f_main_v55
  have c_main_v57 : U' (Proc.devRef .tc main_v57) = val_main_v57 (F := F) x0 x2 x3 := by
    rw [← hU']; simp (disch := decide) only [nullary_result_ne', unary_result_ne', binary_result_ne', ternary_result_ne', quaternary_result_ne', reshape_result_ne']; exact f_main_v57
  have c_main_v70 : U' (Proc.devRef .tc main_v70) = val_main_v70 (F := F) x1 := by
    rw [← hU']; simp (disch := decide) only [nullary_result_ne', unary_result_ne', binary_result_ne', ternary_result_ne', quaternary_result_ne', reshape_result_ne']; exact f_main_v70
  clear hU' f_main_arg1 f_main_v25 f_main_v50 f_main_v55 f_main_v57 f_main_v65 f_main_v70
  clear U; rename' U' => U
  rename' c_main_arg1 => f_main_arg1; rename' c_main_v25 => f_main_v25; rename' c_main_v50 => f_main_v50; rename' c_main_v55 => f_main_v55; rename' c_main_v57 => f_main_v57; rename' c_main_v70 => f_main_v70; rename' n_main_v71 => f_main_v71
  -- main_v72 ← main_v70
  rw [after_cons]
  generalize hU' : HloOp.result _ U = U'
  have n_main_v72 : U' (Proc.devRef .tc main_v72) = val_main_v72 (F := F) x1 := by
    rw [← hU']; simp (disch := decide) only [nullary_result', unary_result', binary_result', ternary_result', quaternary_result', reshape_result', f_main_v70]; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v50 : U' (Proc.devRef .tc main_v50) = val_main_v50 (F := F) x0 x1 x2 x3 x4 x5 := by
    rw [← hU']; simp (disch := decide) only [nullary_result_ne', unary_result_ne', binary_result_ne', ternary_result_ne', quaternary_result_ne', reshape_result_ne']; exact f_main_v50
  have c_main_v55 : U' (Proc.devRef .tc main_v55) = val_main_v55 (F := F) x0 x2 x6 x7 := by
    rw [← hU']; simp (disch := decide) only [nullary_result_ne', unary_result_ne', binary_result_ne', ternary_result_ne', quaternary_result_ne', reshape_result_ne']; exact f_main_v55
  have c_main_v57 : U' (Proc.devRef .tc main_v57) = val_main_v57 (F := F) x0 x2 x3 := by
    rw [← hU']; simp (disch := decide) only [nullary_result_ne', unary_result_ne', binary_result_ne', ternary_result_ne', quaternary_result_ne', reshape_result_ne']; exact f_main_v57
  have c_main_v71 : U' (Proc.devRef .tc main_v71) = val_main_v71 (F := F) := by
    rw [← hU']; simp (disch := decide) only [nullary_result_ne', unary_result_ne', binary_result_ne', ternary_result_ne', quaternary_result_ne', reshape_result_ne']; exact f_main_v71
  clear hU' f_main_arg1 f_main_v25 f_main_v50 f_main_v55 f_main_v57 f_main_v70 f_main_v71
  clear U; rename' U' => U
  rename' c_main_arg1 => f_main_arg1; rename' c_main_v25 => f_main_v25; rename' c_main_v50 => f_main_v50; rename' c_main_v55 => f_main_v55; rename' c_main_v57 => f_main_v57; rename' c_main_v71 => f_main_v71; rename' n_main_v72 => f_main_v72
  -- main_v73 ← main_v71, main_v72
  rw [after_cons]
  generalize hU' : HloOp.result _ U = U'
  have n_main_v73 : U' (Proc.devRef .tc main_v73) = val_main_v73 (F := F) x1 := by
    rw [← hU']; simp (disch := decide) only [nullary_result', unary_result', binary_result', ternary_result', quaternary_result', reshape_result']; rw [f_main_v71, f_main_v72]; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v50 : U' (Proc.devRef .tc main_v50) = val_main_v50 (F := F) x0 x1 x2 x3 x4 x5 := by
    rw [← hU']; simp (disch := decide) only [nullary_result_ne', unary_result_ne', binary_result_ne', ternary_result_ne', quaternary_result_ne', reshape_result_ne']; exact f_main_v50
  have c_main_v55 : U' (Proc.devRef .tc main_v55) = val_main_v55 (F := F) x0 x2 x6 x7 := by
    rw [← hU']; simp (disch := decide) only [nullary_result_ne', unary_result_ne', binary_result_ne', ternary_result_ne', quaternary_result_ne', reshape_result_ne']; exact f_main_v55
  have c_main_v57 : U' (Proc.devRef .tc main_v57) = val_main_v57 (F := F) x0 x2 x3 := by
    rw [← hU']; simp (disch := decide) only [nullary_result_ne', unary_result_ne', binary_result_ne', ternary_result_ne', quaternary_result_ne', reshape_result_ne']; exact f_main_v57
  clear hU' f_main_arg1 f_main_v25 f_main_v50 f_main_v55 f_main_v57 f_main_v71 f_main_v72
  clear U; rename' U' => U
  rename' c_main_arg1 => f_main_arg1; rename' c_main_v25 => f_main_v25; rename' c_main_v50 => f_main_v50; rename' c_main_v55 => f_main_v55; rename' c_main_v57 => f_main_v57; rename' n_main_v73 => f_main_v73
  -- main_v74 ← main_v55, main_v73
  rw [after_cons]
  generalize hU' : HloOp.result _ U = U'
  have n_main_v74 : U' (Proc.devRef .tc main_v74) = val_main_v74 (F := F) x0 x1 x2 x6 x7 := by
    rw [← hU']; simp (disch := decide) only [nullary_result', unary_result', binary_result', ternary_result', quaternary_result', reshape_result', f_main_v55, f_main_v73]; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v50 : U' (Proc.devRef .tc main_v50) = val_main_v50 (F := F) x0 x1 x2 x3 x4 x5 := by
    rw [← hU']; simp (disch := decide) only [nullary_result_ne', unary_result_ne', binary_result_ne', ternary_result_ne', quaternary_result_ne', reshape_result_ne']; exact f_main_v50
  have c_main_v57 : U' (Proc.devRef .tc main_v57) = val_main_v57 (F := F) x0 x2 x3 := by
    rw [← hU']; simp (disch := decide) only [nullary_result_ne', unary_result_ne', binary_result_ne', ternary_result_ne', quaternary_result_ne', reshape_result_ne']; exact f_main_v57
  clear hU' f_main_arg1 f_main_v25 f_main_v50 f_main_v55 f_main_v57 f_main_v73
  clear U; rename' U' => U
  rename' c_main_arg1 => f_main_arg1; rename' c_main_v25 => f_main_v25; rename' c_main_v50 => f_main_v50; rename' c_main_v57 => f_main_v57; rename' n_main_v74 => f_main_v74
  -- main_v75 ← main_v57, main_v74
  rw [after_cons]
  generalize hU' : HloOp.result _ U = U'
  have n_main_v75 : U' (Proc.devRef .tc main_v75) = val_main_v75 (F := F) x0 x1 x2 x3 x6 x7 := by
    rw [← hU']; simp (disch := decide) only [nullary_result', unary_result', binary_result', ternary_result', quaternary_result', reshape_result', f_main_v57, f_main_v74]; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v50 : U' (Proc.devRef .tc main_v50) = val_main_v50 (F := F) x0 x1 x2 x3 x4 x5 := by
    rw [← hU']; simp (disch := decide) only [nullary_result_ne', unary_result_ne', binary_result_ne', ternary_result_ne', quaternary_result_ne', reshape_result_ne']; exact f_main_v50
  clear hU' f_main_arg1 f_main_v25 f_main_v50 f_main_v57 f_main_v74
  clear U; rename' U' => U
  rename' c_main_arg1 => f_main_arg1; rename' c_main_v25 => f_main_v25; rename' c_main_v50 => f_main_v50; rename' n_main_v75 => f_main_v75
  -- main_c_21 ← (a constant)
  rw [after_cons]
  generalize hU' : HloOp.result _ U = U'
  have n_main_c_21 : U' (Proc.devRef .tc main_c_21) = val_main_c_21 (F := F) := by
    rw [← hU']; simp (disch := decide) only [nullary_result', unary_result', binary_result', ternary_result', quaternary_result', reshape_result']; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v50 : U' (Proc.devRef .tc main_v50) = val_main_v50 (F := F) x0 x1 x2 x3 x4 x5 := by
    rw [← hU']; simp (disch := decide) only [nullary_result_ne', unary_result_ne', binary_result_ne', ternary_result_ne', quaternary_result_ne', reshape_result_ne']; exact f_main_v50
  have c_main_v75 : U' (Proc.devRef .tc main_v75) = val_main_v75 (F := F) x0 x1 x2 x3 x6 x7 := by
    rw [← hU']; simp (disch := decide) only [nullary_result_ne', unary_result_ne', binary_result_ne', ternary_result_ne', quaternary_result_ne', reshape_result_ne']; exact f_main_v75
  clear hU' f_main_arg1 f_main_v25 f_main_v50 f_main_v75
  clear U; rename' U' => U
  rename' c_main_arg1 => f_main_arg1; rename' c_main_v25 => f_main_v25; rename' c_main_v50 => f_main_v50; rename' c_main_v75 => f_main_v75; rename' n_main_c_21 => f_main_c_21
  simp only [after_nil]
  exact ⟨f_main_arg1, f_main_v25, f_main_v50, f_main_v75, f_main_c_21⟩

set_option maxHeartbeats 400000000 in
/-- Operations 156 to 167 of the line: from the stages of what is read at entry to the stages of what is read after. -/
theorem walk13 (U : Valuation τ sig (Elt F)) (x0 x1 : (⟨S4096, .i32⟩ : BufTy).Contents (Elt F)) (x2 : (⟨S50000x256, .f32⟩ : BufTy).Contents (Elt F)) (x3 : (⟨S2502x256, .f32⟩ : BufTy).Contents (Elt F)) (x4 : (⟨S64x256, .f32⟩ : BufTy).Contents (Elt F)) (x5 : (⟨S7500x64, .f32⟩ : BufTy).Contents (Elt F)) (x6 : (⟨S16x256, .f32⟩ : BufTy).Contents (Elt F)) (x7 : (⟨S40000x16, .f32⟩ : BufTy).Contents (Elt F))
    (f_main_arg1 : U (Proc.devRef .tc main_arg1) = x1)
    (f_main_v25 : U (Proc.devRef .tc main_v25) = val_main_v25 (F := F) x0 x1 x2 x3)
    (f_main_v50 : U (Proc.devRef .tc main_v50) = val_main_v50 (F := F) x0 x1 x2 x3 x4 x5)
    (f_main_v75 : U (Proc.devRef .tc main_v75) = val_main_v75 (F := F) x0 x1 x2 x3 x6 x7)
    (f_main_c_21 : U (Proc.devRef .tc main_c_21) = val_main_c_21 (F := F)) :
    after (chunk13 (F := F)) U (Proc.devRef .tc main_v81) = val_main_v81 (F := F) x0 x1 x2 x3 x4 x5 x6 x7
      ∧ after (chunk13 (F := F)) U (Proc.devRef .tc main_v84) = val_main_v84 (F := F) x0 x1 x2 x3 x4 x5 x6 x7 := by
  simp only [chunk13, ops, List.drop_succ_cons, List.drop_zero, List.take_succ_cons, List.take_zero]
  -- main_v76 ← main_c_21
  rw [after_cons]
  generalize hU' : HloOp.result _ U = U'
  have n_main_v76 : U' (Proc.devRef .tc main_v76) = val_main_v76 (F := F) := by
    rw [← hU']; simp (disch := decide) only [nullary_result', unary_result', binary_result', ternary_result', quaternary_result', reshape_result', f_main_c_21]; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v50 : U' (Proc.devRef .tc main_v50) = val_main_v50 (F := F) x0 x1 x2 x3 x4 x5 := by
    rw [← hU']; simp (disch := decide) only [nullary_result_ne', unary_result_ne', binary_result_ne', ternary_result_ne', quaternary_result_ne', reshape_result_ne']; exact f_main_v50
  have c_main_v75 : U' (Proc.devRef .tc main_v75) = val_main_v75 (F := F) x0 x1 x2 x3 x6 x7 := by
    rw [← hU']; simp (disch := decide) only [nullary_result_ne', unary_result_ne', binary_result_ne', ternary_result_ne', quaternary_result_ne', reshape_result_ne']; exact f_main_v75
  clear hU' f_main_arg1 f_main_v25 f_main_v50 f_main_v75 f_main_c_21
  clear U; rename' U' => U
  rename' c_main_arg1 => f_main_arg1; rename' c_main_v25 => f_main_v25; rename' c_main_v50 => f_main_v50; rename' c_main_v75 => f_main_v75; rename' n_main_v76 => f_main_v76
  -- main_v77 ← main_arg1, main_v76
  rw [after_cons]
  generalize hU' : HloOp.result _ U = U'
  have n_main_v77 : U' (Proc.devRef .tc main_v77) = val_main_v77 (F := F) x1 := by
    rw [← hU']; simp (disch := decide) only [nullary_result', unary_result', binary_result', ternary_result', quaternary_result', reshape_result', f_main_arg1, f_main_v76]; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v50 : U' (Proc.devRef .tc main_v50) = val_main_v50 (F := F) x0 x1 x2 x3 x4 x5 := by
    rw [← hU']; simp (disch := decide) only [nullary_result_ne', unary_result_ne', binary_result_ne', ternary_result_ne', quaternary_result_ne', reshape_result_ne']; exact f_main_v50
  have c_main_v75 : U' (Proc.devRef .tc main_v75) = val_main_v75 (F := F) x0 x1 x2 x3 x6 x7 := by
    rw [← hU']; simp (disch := decide) only [nullary_result_ne', unary_result_ne', binary_result_ne', ternary_result_ne', quaternary_result_ne', reshape_result_ne']; exact f_main_v75
  clear hU' f_main_arg1 f_main_v25 f_main_v50 f_main_v75 f_main_v76
  clear U; rename' U' => U
  rename' c_main_arg1 => f_main_arg1; rename' c_main_v25 => f_main_v25; rename' c_main_v50 => f_main_v50; rename' c_main_v75 => f_main_v75; rename' n_main_v77 => f_main_v77
  -- main_c_22 ← (a constant)
  rw [after_cons]
  generalize hU' : HloOp.result _ U = U'
  have n_main_c_22 : U' (Proc.devRef .tc main_c_22) = val_main_c_22 (F := F) := by
    rw [← hU']; simp (disch := decide) only [nullary_result', unary_result', binary_result', ternary_result', quaternary_result', reshape_result']; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v50 : U' (Proc.devRef .tc main_v50) = val_main_v50 (F := F) x0 x1 x2 x3 x4 x5 := by
    rw [← hU']; simp (disch := decide) only [nullary_result_ne', unary_result_ne', binary_result_ne', ternary_result_ne', quaternary_result_ne', reshape_result_ne']; exact f_main_v50
  have c_main_v75 : U' (Proc.devRef .tc main_v75) = val_main_v75 (F := F) x0 x1 x2 x3 x6 x7 := by
    rw [← hU']; simp (disch := decide) only [nullary_result_ne', unary_result_ne', binary_result_ne', ternary_result_ne', quaternary_result_ne', reshape_result_ne']; exact f_main_v75
  have c_main_v77 : U' (Proc.devRef .tc main_v77) = val_main_v77 (F := F) x1 := by
    rw [← hU']; simp (disch := decide) only [nullary_result_ne', unary_result_ne', binary_result_ne', ternary_result_ne', quaternary_result_ne', reshape_result_ne']; exact f_main_v77
  clear hU' f_main_arg1 f_main_v25 f_main_v50 f_main_v75 f_main_v77
  clear U; rename' U' => U
  rename' c_main_arg1 => f_main_arg1; rename' c_main_v25 => f_main_v25; rename' c_main_v50 => f_main_v50; rename' c_main_v75 => f_main_v75; rename' c_main_v77 => f_main_v77; rename' n_main_c_22 => f_main_c_22
  -- main_v78 ← main_c_22
  rw [after_cons]
  generalize hU' : HloOp.result _ U = U'
  have n_main_v78 : U' (Proc.devRef .tc main_v78) = val_main_v78 (F := F) := by
    rw [← hU']; simp (disch := decide) only [nullary_result', unary_result', binary_result', ternary_result', quaternary_result', reshape_result', f_main_c_22]; rfl
  have c_main_arg1 : U' (Proc.devRef .tc main_arg1) = x1 := by
    rw [← hU']; simp (disch := decide) only [nullary_result_ne', unary_result_ne', binary_result_ne', ternary_result_ne', quaternary_result_ne', reshape_result_ne']; exact f_main_arg1
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v50 : U' (Proc.devRef .tc main_v50) = val_main_v50 (F := F) x0 x1 x2 x3 x4 x5 := by
    rw [← hU']; simp (disch := decide) only [nullary_result_ne', unary_result_ne', binary_result_ne', ternary_result_ne', quaternary_result_ne', reshape_result_ne']; exact f_main_v50
  have c_main_v75 : U' (Proc.devRef .tc main_v75) = val_main_v75 (F := F) x0 x1 x2 x3 x6 x7 := by
    rw [← hU']; simp (disch := decide) only [nullary_result_ne', unary_result_ne', binary_result_ne', ternary_result_ne', quaternary_result_ne', reshape_result_ne']; exact f_main_v75
  have c_main_v77 : U' (Proc.devRef .tc main_v77) = val_main_v77 (F := F) x1 := by
    rw [← hU']; simp (disch := decide) only [nullary_result_ne', unary_result_ne', binary_result_ne', ternary_result_ne', quaternary_result_ne', reshape_result_ne']; exact f_main_v77
  clear hU' f_main_arg1 f_main_v25 f_main_v50 f_main_v75 f_main_v77 f_main_c_22
  clear U; rename' U' => U
  rename' c_main_arg1 => f_main_arg1; rename' c_main_v25 => f_main_v25; rename' c_main_v50 => f_main_v50; rename' c_main_v75 => f_main_v75; rename' c_main_v77 => f_main_v77; rename' n_main_v78 => f_main_v78
  -- main_v79 ← main_arg1, main_v78
  rw [after_cons]
  generalize hU' : HloOp.result _ U = U'
  have n_main_v79 : U' (Proc.devRef .tc main_v79) = val_main_v79 (F := F) x1 := by
    rw [← hU']; simp (disch := decide) only [nullary_result', unary_result', binary_result', ternary_result', quaternary_result', reshape_result', f_main_arg1, f_main_v78]; rfl
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v50 : U' (Proc.devRef .tc main_v50) = val_main_v50 (F := F) x0 x1 x2 x3 x4 x5 := by
    rw [← hU']; simp (disch := decide) only [nullary_result_ne', unary_result_ne', binary_result_ne', ternary_result_ne', quaternary_result_ne', reshape_result_ne']; exact f_main_v50
  have c_main_v75 : U' (Proc.devRef .tc main_v75) = val_main_v75 (F := F) x0 x1 x2 x3 x6 x7 := by
    rw [← hU']; simp (disch := decide) only [nullary_result_ne', unary_result_ne', binary_result_ne', ternary_result_ne', quaternary_result_ne', reshape_result_ne']; exact f_main_v75
  have c_main_v77 : U' (Proc.devRef .tc main_v77) = val_main_v77 (F := F) x1 := by
    rw [← hU']; simp (disch := decide) only [nullary_result_ne', unary_result_ne', binary_result_ne', ternary_result_ne', quaternary_result_ne', reshape_result_ne']; exact f_main_v77
  clear hU' f_main_arg1 f_main_v25 f_main_v50 f_main_v75 f_main_v77 f_main_v78
  clear U; rename' U' => U
  rename' c_main_v25 => f_main_v25; rename' c_main_v50 => f_main_v50; rename' c_main_v75 => f_main_v75; rename' c_main_v77 => f_main_v77; rename' n_main_v79 => f_main_v79
  -- main_v80 ← main_v79, main_v50, main_v75
  rw [after_cons]
  generalize hU' : HloOp.result _ U = U'
  have n_main_v80 : U' (Proc.devRef .tc main_v80) = val_main_v80 (F := F) x0 x1 x2 x3 x4 x5 x6 x7 := by
    rw [← hU']; simp (disch := decide) only [nullary_result', unary_result', binary_result', ternary_result', quaternary_result', reshape_result', f_main_v79, f_main_v50, f_main_v75]; exact (cast_161 (F := F) (val_main_v79 (F := F) x1) (val_main_v50 (F := F) x0 x1 x2 x3 x4 x5) (val_main_v75 (F := F) x0 x1 x2 x3 x6 x7)).trans rfl
  have c_main_v25 : U' (Proc.devRef .tc main_v25) = val_main_v25 (F := F) x0 x1 x2 x3 := by
    rw [← hU']; simp (disch := decide) only [nullary_result_ne', unary_result_ne', binary_result_ne', ternary_result_ne', quaternary_result_ne', reshape_result_ne']; exact f_main_v25
  have c_main_v77 : U' (Proc.devRef .tc main_v77) = val_main_v77 (F := F) x1 := by
    rw [← hU']; simp (disch := decide) only [nullary_result_ne', unary_result_ne', binary_result_ne', ternary_result_ne', quaternary_result_ne', reshape_result_ne']; exact f_main_v77
  clear hU' f_main_v25 f_main_v50 f_main_v75 f_main_v77 f_main_v79
  clear U; rename' U' => U
  rename' c_main_v25 => f_main_v25; rename' c_main_v77 => f_main_v77; rename' n_main_v80 => f_main_v80
  -- main_v81 ← main_v77, main_v25, main_v80
  rw [after_cons]
  generalize hU' : HloOp.result _ U = U'
  have n_main_v81 : U' (Proc.devRef .tc main_v81) = val_main_v81 (F := F) x0 x1 x2 x3 x4 x5 x6 x7 := by
    rw [← hU']; simp (disch := decide) only [nullary_result', unary_result', binary_result', ternary_result', quaternary_result', reshape_result', f_main_v77, f_main_v25, f_main_v80]; exact (cast_162 (F := F) (val_main_v77 (F := F) x1) (val_main_v25 (F := F) x0 x1 x2 x3) (val_main_v80 (F := F) x0 x1 x2 x3 x4 x5 x6 x7)).trans rfl
  clear hU' f_main_v25 f_main_v77 f_main_v80
  clear U; rename' U' => U
  rename' n_main_v81 => f_main_v81
  -- main_cst ← (a constant)
  rw [after_cons]
  generalize hU' : HloOp.result _ U = U'
  have n_main_cst : U' (Proc.devRef .tc main_cst) = val_main_cst (F := F) := by
    rw [← hU']; simp (disch := decide) only [nullary_result', unary_result', binary_result', ternary_result', quaternary_result', reshape_result']; rfl
  have c_main_v81 : U' (Proc.devRef .tc main_v81) = val_main_v81 (F := F) x0 x1 x2 x3 x4 x5 x6 x7 := by
    rw [← hU']; simp (disch := decide) only [nullary_result_ne', unary_result_ne', binary_result_ne', ternary_result_ne', quaternary_result_ne', reshape_result_ne']; exact f_main_v81
  clear hU' f_main_v81
  clear U; rename' U' => U
  rename' c_main_v81 => f_main_v81; rename' n_main_cst => f_main_cst
  -- main_v82 ← main_v81, main_cst
  rw [after_cons]
  generalize hU' : HloOp.result _ U = U'
  have n_main_v82 : U' (Proc.devRef .tc main_v82) = val_main_v82 (F := F) x0 x1 x2 x3 x4 x5 x6 x7 := by
    rw [← hU']; simp (disch := decide) only [nullary_result', unary_result', binary_result', ternary_result', quaternary_result', reshape_result', f_main_v81, f_main_cst]; rfl
  have c_main_v81 : U' (Proc.devRef .tc main_v81) = val_main_v81 (F := F) x0 x1 x2 x3 x4 x5 x6 x7 := by
    rw [← hU']; simp (disch := decide) only [nullary_result_ne', unary_result_ne', binary_result_ne', ternary_result_ne', quaternary_result_ne', reshape_result_ne']; exact f_main_v81
  clear hU' f_main_v81 f_main_cst
  clear U; rename' U' => U
  rename' c_main_v81 => f_main_v81; rename' n_main_v82 => f_main_v82
  -- main_cst_23 ← (a constant)
  rw [after_cons]
  generalize hU' : HloOp.result _ U = U'
  have n_main_cst_23 : U' (Proc.devRef .tc main_cst_23) = val_main_cst_23 (F := F) := by
    rw [← hU']; simp (disch := decide) only [nullary_result', unary_result', binary_result', ternary_result', quaternary_result', reshape_result']; rfl
  have c_main_v81 : U' (Proc.devRef .tc main_v81) = val_main_v81 (F := F) x0 x1 x2 x3 x4 x5 x6 x7 := by
    rw [← hU']; simp (disch := decide) only [nullary_result_ne', unary_result_ne', binary_result_ne', ternary_result_ne', quaternary_result_ne', reshape_result_ne']; exact f_main_v81
  have c_main_v82 : U' (Proc.devRef .tc main_v82) = val_main_v82 (F := F) x0 x1 x2 x3 x4 x5 x6 x7 := by
    rw [← hU']; simp (disch := decide) only [nullary_result_ne', unary_result_ne', binary_result_ne', ternary_result_ne', quaternary_result_ne', reshape_result_ne']; exact f_main_v82
  clear hU' f_main_v81 f_main_v82
  clear U; rename' U' => U
  rename' c_main_v81 => f_main_v81; rename' c_main_v82 => f_main_v82; rename' n_main_cst_23 => f_main_cst_23
  -- main_v83 ← main_v82, main_cst_23
  rw [after_cons]
  generalize hU' : HloOp.result _ U = U'
  have n_main_v83 : U' (Proc.devRef .tc main_v83) = val_main_v83 (F := F) x0 x1 x2 x3 x4 x5 x6 x7 := by
    rw [← hU']; simp (disch := decide) only [nullary_result', unary_result', binary_result', ternary_result', quaternary_result', reshape_result', f_main_v82, f_main_cst_23]; rfl
  have c_main_v81 : U' (Proc.devRef .tc main_v81) = val_main_v81 (F := F) x0 x1 x2 x3 x4 x5 x6 x7 := by
    rw [← hU']; simp (disch := decide) only [nullary_result_ne', unary_result_ne', binary_result_ne', ternary_result_ne', quaternary_result_ne', reshape_result_ne']; exact f_main_v81
  clear hU' f_main_v81 f_main_v82 f_main_cst_23
  clear U; rename' U' => U
  rename' c_main_v81 => f_main_v81; rename' n_main_v83 => f_main_v83
  -- main_v84 ← main_v83
  rw [after_cons]
  generalize hU' : HloOp.result _ U = U'
  have n_main_v84 : U' (Proc.devRef .tc main_v84) = val_main_v84 (F := F) x0 x1 x2 x3 x4 x5 x6 x7 := by
    rw [← hU']; simp (disch := decide) only [nullary_result', unary_result', binary_result', ternary_result', quaternary_result', reshape_result', f_main_v83]; rfl
  have c_main_v81 : U' (Proc.devRef .tc main_v81) = val_main_v81 (F := F) x0 x1 x2 x3 x4 x5 x6 x7 := by
    rw [← hU']; simp (disch := decide) only [nullary_result_ne', unary_result_ne', binary_result_ne', ternary_result_ne', quaternary_result_ne', reshape_result_ne']; exact f_main_v81
  clear hU' f_main_v81 f_main_v83
  clear U; rename' U' => U
  rename' c_main_v81 => f_main_v81; rename' n_main_v84 => f_main_v84
  simp only [after_nil]
  exact ⟨f_main_v81, f_main_v84⟩

end Cert.ReferenceIdeal.RunP

end
-- ==== Proof.RefRunProof.lean ====
/-
  The reference's run.

  The stretches of the line compose: each one's facts at its exit are the next one's at its entry. From the launch
  contents, which hold the arguments, the two result buffers end at their stages; with the library's rule for a line of
  host operations this is the run: every weakly fair execution terminates there, the arguments unchanged.
-/
import proofs.«428924_j53884659696080_3_alg».proof.Proof.RefRunWalk0
import proofs.«428924_j53884659696080_3_alg».proof.Proof.RefRunWalk1
import proofs.«428924_j53884659696080_3_alg».proof.Proof.RefRunWalk2
import proofs.«428924_j53884659696080_3_alg».proof.Proof.RefRunWalk3
import Idealize.ShloMosaic.Lib.Pipeline.Frame

set_option maxRecDepth 65536

noncomputable section

namespace Cert.ReferenceIdeal.RunP

open Cert.ReferenceIdeal Cert.ReferenceIdeal.Gen Idealize.ShloMosaic Idealize.ShloMosaic.TcCoe Idealize.SL.Sem Idealize.ShloMosaic.StableHlo Cert.ReferenceIdeal.ReadP Cert.ReferenceIdeal.ValueP

variable {F : FTy → Type} [FloatOps F]

/-- Folding the whole line over a valuation that holds the arguments leaves the two result buffers at their stages. -/
theorem results (U : Valuation τ sig (Elt F)) (x0 x1 : (⟨S4096, .i32⟩ : BufTy).Contents (Elt F)) (x2 : (⟨S50000x256, .f32⟩ : BufTy).Contents (Elt F)) (x3 : (⟨S2502x256, .f32⟩ : BufTy).Contents (Elt F)) (x4 : (⟨S64x256, .f32⟩ : BufTy).Contents (Elt F)) (x5 : (⟨S7500x64, .f32⟩ : BufTy).Contents (Elt F)) (x6 : (⟨S16x256, .f32⟩ : BufTy).Contents (Elt F)) (x7 : (⟨S40000x16, .f32⟩ : BufTy).Contents (Elt F))
    (f_main_arg0 : U (Proc.devRef .tc main_arg0) = x0) (f_main_arg1 : U (Proc.devRef .tc main_arg1) = x1) (f_main_arg2 : U (Proc.devRef .tc main_arg2) = x2) (f_main_arg3 : U (Proc.devRef .tc main_arg3) = x3) (f_main_arg4 : U (Proc.devRef .tc main_arg4) = x4) (f_main_arg5 : U (Proc.devRef .tc main_arg5) = x5) (f_main_arg6 : U (Proc.devRef .tc main_arg6) = x6) (f_main_arg7 : U (Proc.devRef .tc main_arg7) = x7) :
    after (ops (F := F)) U (Proc.devRef .tc main_v81) = val_main_v81 (F := F) x0 x1 x2 x3 x4 x5 x6 x7
      ∧ after (ops (F := F)) U (Proc.devRef .tc main_v84) = val_main_v84 (F := F) x0 x1 x2 x3 x4 x5 x6 x7 := by
  rw [ops_split, after_append, after_append, after_append, after_append, after_append, after_append, after_append, after_append, after_append, after_append, after_append, after_append, after_append]
  obtain ⟨g0_main_arg1, g0_main_arg4, g0_main_arg5, g0_main_arg6, g0_main_arg7, g0_main_v6, g0_main_v8, g0_main_call0_cst⟩ := walk0 (F := F) (U) x0 x1 x2 x3 x4 x5 x6 x7 f_main_arg0 f_main_arg1 f_main_arg2 f_main_arg3 f_main_arg4 f_main_arg5 f_main_arg6 f_main_arg7
  obtain ⟨g1_main_arg1, g1_main_arg4, g1_main_arg5, g1_main_arg6, g1_main_arg7, g1_main_v6, g1_main_call0_v5, g1_main_call0_v9⟩ := walk1 (F := F) (after (chunk0 (F := F)) (U)) x0 x1 x2 x3 x4 x5 x6 x7 g0_main_arg1 g0_main_arg4 g0_main_arg5 g0_main_arg6 g0_main_arg7 g0_main_v6 g0_main_v8 g0_main_call0_cst
  obtain ⟨g2_main_arg1, g2_main_arg4, g2_main_arg5, g2_main_arg6, g2_main_arg7, g2_main_v6, g2_main_v9, g2_main_v10, g2_main_v11, g2_main_c_3⟩ := walk2 (F := F) (after (chunk1 (F := F)) (after (chunk0 (F := F)) (U))) x0 x1 x2 x3 x4 x5 x6 x7 g1_main_arg1 g1_main_arg4 g1_main_arg5 g1_main_arg6 g1_main_arg7 g1_main_v6 g1_main_call0_v5 g1_main_call0_v9
  obtain ⟨g3_main_arg1, g3_main_arg4, g3_main_arg5, g3_main_arg6, g3_main_arg7, g3_main_v6, g3_main_v9, g3_main_v10, g3_main_v11, g3_main_v16, g3_main_v18, g3_main_v20⟩ := walk3 (F := F) (after (chunk2 (F := F)) (after (chunk1 (F := F)) (after (chunk0 (F := F)) (U)))) x0 x1 x2 x3 x4 x5 x6 x7 g2_main_arg1 g2_main_arg4 g2_main_arg5 g2_main_arg6 g2_main_arg7 g2_main_v6 g2_main_v9 g2_main_v10 g2_main_v11 g2_main_c_3
  obtain ⟨g4_main_arg1, g4_main_arg6, g4_main_arg7, g4_main_v6, g4_main_v9, g4_main_v10, g4_main_v25, g4_main_v29, g4_main_call2_v0, g4_main_call2_cst_0⟩ := walk4 (F := F) (after (chunk3 (F := F)) (after (chunk2 (F := F)) (after (chunk1 (F := F)) (after (chunk0 (F := F)) (U))))) x0 x1 x2 x3 x4 x5 x6 x7 g3_main_arg1 g3_main_arg4 g3_main_arg5 g3_main_arg6 g3_main_arg7 g3_main_v6 g3_main_v9 g3_main_v10 g3_main_v11 g3_main_v16 g3_main_v18 g3_main_v20
  obtain ⟨g5_main_arg1, g5_main_arg6, g5_main_arg7, g5_main_v6, g5_main_v9, g5_main_v10, g5_main_v25, g5_main_v30⟩ := walk5 (F := F) (after (chunk4 (F := F)) (after (chunk3 (F := F)) (after (chunk2 (F := F)) (after (chunk1 (F := F)) (after (chunk0 (F := F)) (U)))))) x0 x1 x2 x3 x4 x5 x6 x7 g4_main_arg1 g4_main_arg6 g4_main_arg7 g4_main_v6 g4_main_v9 g4_main_v10 g4_main_v25 g4_main_v29 g4_main_call2_v0 g4_main_call2_cst_0
  obtain ⟨g6_main_arg1, g6_main_arg6, g6_main_arg7, g6_main_v6, g6_main_v9, g6_main_v10, g6_main_v25, g6_main_v30, g6_main_v32, g6_main_call3_v2, g6_main_call3_v4⟩ := walk6 (F := F) (after (chunk5 (F := F)) (after (chunk4 (F := F)) (after (chunk3 (F := F)) (after (chunk2 (F := F)) (after (chunk1 (F := F)) (after (chunk0 (F := F)) (U))))))) x0 x1 x2 x3 x4 x5 x6 x7 g5_main_arg1 g5_main_arg6 g5_main_arg7 g5_main_v6 g5_main_v9 g5_main_v10 g5_main_v25 g5_main_v30
  obtain ⟨g7_main_arg1, g7_main_arg6, g7_main_arg7, g7_main_v6, g7_main_v9, g7_main_v10, g7_main_v25, g7_main_v30, g7_main_v32, g7_main_v35, g7_main_v40, g7_main_v42, g7_main_c_13⟩ := walk7 (F := F) (after (chunk6 (F := F)) (after (chunk5 (F := F)) (after (chunk4 (F := F)) (after (chunk3 (F := F)) (after (chunk2 (F := F)) (after (chunk1 (F := F)) (after (chunk0 (F := F)) (U)))))))) x0 x1 x2 x3 x4 x5 x6 x7 g6_main_arg1 g6_main_arg6 g6_main_arg7 g6_main_v6 g6_main_v9 g6_main_v10 g6_main_v25 g6_main_v30 g6_main_v32 g6_main_call3_v2 g6_main_call3_v4
  obtain ⟨g8_main_arg1, g8_main_v9, g8_main_v10, g8_main_v25, g8_main_v50, g8_main_v54⟩ := walk8 (F := F) (after (chunk7 (F := F)) (after (chunk6 (F := F)) (after (chunk5 (F := F)) (after (chunk4 (F := F)) (after (chunk3 (F := F)) (after (chunk2 (F := F)) (after (chunk1 (F := F)) (after (chunk0 (F := F)) (U))))))))) x0 x1 x2 x3 x4 x5 x6 x7 g7_main_arg1 g7_main_arg6 g7_main_arg7 g7_main_v6 g7_main_v9 g7_main_v10 g7_main_v25 g7_main_v30 g7_main_v32 g7_main_v35 g7_main_v40 g7_main_v42 g7_main_c_13
  obtain ⟨g9_main_arg1, g9_main_v9, g9_main_v10, g9_main_v25, g9_main_v50, g9_main_call4_v5, g9_main_call4_v8⟩ := walk9 (F := F) (after (chunk8 (F := F)) (after (chunk7 (F := F)) (after (chunk6 (F := F)) (after (chunk5 (F := F)) (after (chunk4 (F := F)) (after (chunk3 (F := F)) (after (chunk2 (F := F)) (after (chunk1 (F := F)) (after (chunk0 (F := F)) (U)))))))))) x0 x1 x2 x3 x4 x5 x6 x7 g8_main_arg1 g8_main_v9 g8_main_v10 g8_main_v25 g8_main_v50 g8_main_v54
  obtain ⟨g10_main_arg1, g10_main_v10, g10_main_v25, g10_main_v50, g10_main_v55, g10_main_v57, g10_main_v59, g10_main_c_16, g10_main_call5_v1⟩ := walk10 (F := F) (after (chunk9 (F := F)) (after (chunk8 (F := F)) (after (chunk7 (F := F)) (after (chunk6 (F := F)) (after (chunk5 (F := F)) (after (chunk4 (F := F)) (after (chunk3 (F := F)) (after (chunk2 (F := F)) (after (chunk1 (F := F)) (after (chunk0 (F := F)) (U))))))))))) x0 x1 x2 x3 x4 x5 x6 x7 g9_main_arg1 g9_main_v9 g9_main_v10 g9_main_v25 g9_main_v50 g9_main_call4_v5 g9_main_call4_v8
  obtain ⟨g11_main_arg1, g11_main_v25, g11_main_v50, g11_main_v55, g11_main_v57, g11_main_v60, g11_main_v65, g11_main_c_19⟩ := walk11 (F := F) (after (chunk10 (F := F)) (after (chunk9 (F := F)) (after (chunk8 (F := F)) (after (chunk7 (F := F)) (after (chunk6 (F := F)) (after (chunk5 (F := F)) (after (chunk4 (F := F)) (after (chunk3 (F := F)) (after (chunk2 (F := F)) (after (chunk1 (F := F)) (after (chunk0 (F := F)) (U)))))))))))) x0 x1 x2 x3 x4 x5 x6 x7 g10_main_arg1 g10_main_v10 g10_main_v25 g10_main_v50 g10_main_v55 g10_main_v57 g10_main_v59 g10_main_c_16 g10_main_call5_v1
  obtain ⟨g12_main_arg1, g12_main_v25, g12_main_v50, g12_main_v75, g12_main_c_21⟩ := walk12 (F := F) (after (chunk11 (F := F)) (after (chunk10 (F := F)) (after (chunk9 (F := F)) (after (chunk8 (F := F)) (after (chunk7 (F := F)) (after (chunk6 (F := F)) (after (chunk5 (F := F)) (after (chunk4 (F := F)) (after (chunk3 (F := F)) (after (chunk2 (F := F)) (after (chunk1 (F := F)) (after (chunk0 (F := F)) (U))))))))))))) x0 x1 x2 x3 x4 x5 x6 x7 g11_main_arg1 g11_main_v25 g11_main_v50 g11_main_v55 g11_main_v57 g11_main_v60 g11_main_v65 g11_main_c_19
  obtain ⟨g13_main_v81, g13_main_v84⟩ := walk13 (F := F) (after (chunk12 (F := F)) (after (chunk11 (F := F)) (after (chunk10 (F := F)) (after (chunk9 (F := F)) (after (chunk8 (F := F)) (after (chunk7 (F := F)) (after (chunk6 (F := F)) (after (chunk5 (F := F)) (after (chunk4 (F := F)) (after (chunk3 (F := F)) (after (chunk2 (F := F)) (after (chunk1 (F := F)) (after (chunk0 (F := F)) (U)))))))))))))) x0 x1 x2 x3 x4 x5 x6 x7 g12_main_arg1 g12_main_v25 g12_main_v50 g12_main_v75 g12_main_c_21
  exact ⟨g13_main_v81, g13_main_v84⟩

set_option maxRecDepth 8192 in
set_option maxHeartbeats 67200000 in
/-- On every device, for any float values, from any memory with zero counters: every weakly fair execution of the
    reference terminates with each result at its stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v81) = val_main_v81 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v84) = val_main_v84 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v81).trans (results (launchContents m c) _ _ _ _ _ _ _ _ rfl rfl rfl rfl rfl rfl rfl rfl).1,
      (h c main_v84).trans (results (launchContents m c) _ _ _ _ _ _ _ _ rfl rfl rfl rfl rfl rfl rfl rfl).2,
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq scopedRefs_eq scopedSems_eq defs main (fun _ => ops) main_eq (fun _ => ops_sub) m ρ)

end Cert.ReferenceIdeal.RunP

end
-- ==== Proof.Spec.lean ====
/-
  The function both programs compute, per token.

  A token has a 256-vector `h` (its embedding row) and a target word `tgt`. Three families of logits are
  linear in `h`: the head's 2502 (`h · Wh j`), and the two tails' 7500 and 40000, each through a low-rank
  projection (`(h · P k) · W c`). With `lsm z t = z t - max z - log ∑ exp (z - max z)` the log-softmax entry,
  the token's result is the head's entry at the clipped target when `tgt < 2500`; otherwise the head's entry of
  the cluster (column 2500 or 2501) plus the cluster's own entry at the target shifted into the cluster and clipped.
-/
import Idealize.ShloMosaic.PureOps.Ideal
import Idealize.ShloMosaic.Lib.ValueIdx

noncomputable section

namespace Cert.Spec

open Idealize.ShloMosaic

/-- A row's maximum, as the fold of `max` from `-∞`. -/
def rowMax {n : ℕ} (z : Fin n → EReal) : EReal := (Finset.univ : Finset (Fin n)).fold max ⊥ z

/-- The log-softmax entry of the row `z` at `t`, in the two-pass form: shift by the maximum, then subtract the
    logarithm of the sum of exponentials of the shifted row. -/
def lsm {n : ℕ} (z : Fin n → EReal) (t : Fin n) : EReal :=
  (z t - rowMax z) - Ideal.log (∑ j, Ideal.exp (z j - rowMax z))

/-- Logits linear in `h`: entry `j` is the inner product of `h` with row `j` of `W`. -/
def logits {K N : ℕ} (h : Fin K → EReal) (W : Fin N → Fin K → EReal) : Fin N → EReal := fun j => ∑ d, h d * W j d

/-- A signed 32-bit word clipped to `[0, hi]`, as a natural number. -/
def clipNat (hi : ℕ) (v : BitVec 32) : ℕ := (min (hi : ℤ) (max 0 v.toInt)).toNat

theorem clipNat_le (hi : ℕ) (v : BitVec 32) : clipNat hi v ≤ hi := by
  unfold clipNat; omega

theorem clipNat_lt {hi n : ℕ} (h : hi < n) (v : BitVec 32) : clipNat hi v < n :=
  lt_of_le_of_lt (clipNat_le hi v) h

/-- The clip as both programs spell it on words — `min hi (max 0 v)`, signed — has that natural number as its value. -/
theorem clip_toNat (hi : ℕ) (hhi : hi < 2 ^ 31) (v : BitVec 32) :
    (IntOp.minsi (BitVec.ofNat 32 hi) (IntOp.maxsi 0#32 v)).toNat = clipNat hi v := by
  have hv := v.isLt
  have hmod : hi % 4294967296 = hi := Nat.mod_eq_of_lt (by omega)
  have h0 : (0#32).toNat = 0 := rfl
  unfold clipNat IntOp.minsi IntOp.maxsi
  simp only [BitVec.slt, BitVec.toInt_eq_toNat_cond, BitVec.toNat_ofNat, decide_eq_true_eq]
  split_ifs <;> (try simp only [BitVec.toNat_ofNat, hmod]) <;> omega

/-- One token's result. -/
def tokenOut (tgt : BitVec 32) (h : Fin 256 → EReal) (Wh : Fin 2502 → Fin 256 → EReal)
    (P1 : Fin 64 → Fin 256 → EReal) (W1 : Fin 7500 → Fin 64 → EReal)
    (P2 : Fin 16 → Fin 256 → EReal) (W2 : Fin 40000 → Fin 16 → EReal) : EReal :=
  if tgt.slt 2500#32 then lsm (logits h Wh) ⟨clipNat 2499 tgt, clipNat_lt (by decide) tgt⟩
  else if tgt.slt 10000#32 then
    lsm (logits h Wh) ⟨2500, by decide⟩
      + lsm (logits (logits h P1) W1) ⟨clipNat 7499 (tgt - 2500#32), clipNat_lt (by decide) _⟩
  else
    lsm (logits h Wh) ⟨2501, by decide⟩
      + lsm (logits (logits h P2) W2) ⟨clipNat 39999 (tgt - 10000#32), clipNat_lt (by decide) _⟩

/-- The mean loss over the 4096 tokens, negated: the tail both programs apply to the per-token results. -/
def loss (out : (⟨1, ![4096]⟩ : Shape).Idx → EReal) : EReal :=
  -(Ideal.div (∑ j, out j) (Ideal.ofBits .f32 0x45800000#32))

end Cert.Spec

end
-- ==== Proof.RefValue.lean ====
/-
  The reference, read at one token.

  The reference gathers the tokens' embedding rows `H`, forms the head logits `H · Whᵀ` and the two tails' logits
  `(H · Pᵀ) · Wᵀ`, applies the two-pass log-softmax to each (row maximum from `-∞`, shift, exponentials summed,
  logarithm subtracted), reads one entry of each at the clipped target by a point gather, adds the cluster's head
  entry to each tail entry, and selects by the target's range. Its loss is the negated mean of the 4096 results.
-/
import proofs.«428924_j53884659696080_3_alg».proof.Proof.RefRead
import proofs.«428924_j53884659696080_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RefValue

open Idealize.ShloMosaic Idealize.ShloMosaic.ValueIdx Cert.ReferenceIdeal Cert.ReferenceIdeal.Gen Cert.ReferenceIdeal.ReadP

/-! ## The max-reduce over a row -/

/-- The reduced row index `n` with column `k` put back is `(n, k)`. -/
private theorem lift_row {m N : ℕ} (h : (⟨2, ![m, N]⟩ : Shape).Reduces [1] (⟨1, ![m]⟩ : Shape)) (n : Fin m)
    (k : Fin ((⟨2, ![m, N]⟩ : Shape).size 1)) : h.lift (ix1 n) k = ix2 n (⟨k.val, k.isLt⟩ : Fin N) := by
  funext c; apply Fin.ext
  fin_cases c <;> rfl

/-- The word `0xFF800000` is `-∞`. -/
theorem ninf_eq_bot : Ideal.ofBits .f32 0xFF800000#32 = (⊥ : EReal) := by
  simp [Ideal.ofBits, Ideal.ieee]

/-- From `-∞` the max-reduce over the columns, at row `n`, is the row's maximum. -/
theorem reduce_max_row {m N : ℕ} (x : FVec Ideal ⟨2, ![m, N]⟩ .f32)
    (h' : (⟨2, ![m, N]⟩ : Shape).ReducesTo [1] (⟨1, ![m]⟩ : Shape)) (hu : 0 < (⟨0, ![]⟩ : Shape).numel) (n : Fin m) :
    Host.reduce FloatOps.maximumf x (constant (⟨0, ![]⟩ : Shape) .f32 0xFF800000#32) h' hu (ix1 n)
      = Cert.Spec.rowMax (fun j : Fin N => x (ix2 n j)) := by
  have h : (⟨2, ![m, N]⟩ : Shape).Reduces [1] (⟨1, ![m]⟩ : Shape) := ⟨h'.1, Nat.one_pos, h'.2⟩
  rw [Host.reduce_eq_fold_single FloatOps.maximumf x _ h' h hu]
  have hf : (x ∘ h.lift (ix1 n)) = fun k : Fin N => x (ix2 n k) := funext fun k => congrArg x (lift_row h n k)
  rw [hf]
  show Finset.fold max (Ideal.ofBits .f32 0xFF800000#32) (fun k : Fin N => x (ix2 n k)) (Finset.univ : Finset (Fin N)) = _
  rw [ninf_eq_bot]
  rfl

/-! ## The three families of logits -/

/-- The head logits at `(n, j)`. -/
theorem v8_eq (a0 : (⟨S4096, .i32⟩ : BufTy).Contents (Elt Ideal)) (a2 : (⟨S50000x256, .f32⟩ : BufTy).Contents (Elt Ideal))
    (a3 : (⟨S2502x256, .f32⟩ : BufTy).Contents (Elt Ideal)) (n : Fin 4096) (j : Fin 2502) :
    val_main_v8 (F := Ideal) a0 a2 a3 (ix2 n j)
      = Cert.Spec.logits (fun d => val_main_v6 (F := Ideal) a0 a2 (ix2 n d)) (fun j d => a3 (ix2 j d)) j := by
  rw [val_main_v8_apply]
  unfold Cert.Spec.logits
  refine Finset.sum_congr rfl fun k _ => ?_
  rw [val_main_v7_apply]
  have e1 : lidx_main_v8 (ix2 n j) k = ix2 n k :=
    funext fun a => Fin.ext (by match a with | ⟨0, _⟩ => rfl | ⟨1, _⟩ => rfl)
  have e2 : idx_main_v7 (ridx_main_v8 (ix2 n j) k) = ix2 j k :=
    funext fun a => Fin.ext (by match a with | ⟨0, _⟩ => rfl | ⟨1, _⟩ => rfl)
  rw [e1, e2]

/-- The first tail's projection at `(n, q)`. -/
theorem v27_eq (a0 : (⟨S4096, .i32⟩ : BufTy).Contents (Elt Ideal)) (a2 : (⟨S50000x256, .f32⟩ : BufTy).Contents (Elt Ideal))
    (a4 : (⟨S64x256, .f32⟩ : BufTy).Contents (Elt Ideal)) (n : Fin 4096) (q : Fin 64) :
    val_main_v27 (F := Ideal) a0 a2 a4 (ix2 n q)
      = Cert.Spec.logits (fun d => val_main_v6 (F := Ideal) a0 a2 (ix2 n d)) (fun q d => a4 (ix2 q d)) q := by
  rw [val_main_v27_apply]
  unfold Cert.Spec.logits
  refine Finset.sum_congr rfl fun k _ => ?_
  rw [val_main_v26_apply]
  have e1 : lidx_main_v27 (ix2 n q) k = ix2 n k :=
    funext fun a => Fin.ext (by match a with | ⟨0, _⟩ => rfl | ⟨1, _⟩ => rfl)
  have e2 : idx_main_v26 (ridx_main_v27 (ix2 n q) k) = ix2 q k :=
    funext fun a => Fin.ext (by match a with | ⟨0, _⟩ => rfl | ⟨1, _⟩ => rfl)
  rw [e1, e2]

/-- The first tail's logits at `(n, c)`. -/
theorem v29_eq (a0 : (⟨S4096, .i32⟩ : BufTy).Contents (Elt Ideal)) (a2 : (⟨S50000x256, .f32⟩ : BufTy).Contents (Elt Ideal))
    (a4 : (⟨S64x256, .f32⟩ : BufTy).Contents (Elt Ideal)) (a5 : (⟨S7500x64, .f32⟩ : BufTy).Contents (Elt Ideal))
    (n : Fin 4096) (c : Fin 7500) :
    val_main_v29 (F := Ideal) a0 a2 a4 a5 (ix2 n c)
      = Cert.Spec.logits (Cert.Spec.logits (fun d => val_main_v6 (F := Ideal) a0 a2 (ix2 n d)) (fun q d => a4 (ix2 q d)))
          (fun cc q => a5 (ix2 cc q)) c := by
  rw [val_main_v29_apply]
  unfold Cert.Spec.logits
  refine Finset.sum_congr rfl fun k _ => ?_
  rw [val_main_v28_apply]
  have e1 : lidx_main_v29 (ix2 n c) k = ix2 n k :=
    funext fun a => Fin.ext (by match a with | ⟨0, _⟩ => rfl | ⟨1, _⟩ => rfl)
  have e2 : idx_main_v28 (ridx_main_v29 (ix2 n c) k) = ix2 c k :=
    funext fun a => Fin.ext (by match a with | ⟨0, _⟩ => rfl | ⟨1, _⟩ => rfl)
  rw [e1, e2, v27_eq]
  rfl

/-- The second tail's projection at `(n, q)`. -/
theorem v52_eq (a0 : (⟨S4096, .i32⟩ : BufTy).Contents (Elt Ideal)) (a2 : (⟨S50000x256, .f32⟩ : BufTy).Contents (Elt Ideal))
    (a6 : (⟨S16x256, .f32⟩ : BufTy).Contents (Elt Ideal)) (n : Fin 4096) (q : Fin 16) :
    val_main_v52 (F := Ideal) a0 a2 a6 (ix2 n q)
      = Cert.Spec.logits (fun d => val_main_v6 (F := Ideal) a0 a2 (ix2 n d)) (fun q d => a6 (ix2 q d)) q := by
  rw [val_main_v52_apply]
  unfold Cert.Spec.logits
  refine Finset.sum_congr rfl fun k _ => ?_
  rw [val_main_v51_apply]
  have e1 : lidx_main_v52 (ix2 n q) k = ix2 n k :=
    funext fun a => Fin.ext (by match a with | ⟨0, _⟩ => rfl | ⟨1, _⟩ => rfl)
  have e2 : idx_main_v51 (ridx_main_v52 (ix2 n q) k) = ix2 q k :=
    funext fun a => Fin.ext (by match a with | ⟨0, _⟩ => rfl | ⟨1, _⟩ => rfl)
  rw [e1, e2]

/-- The second tail's logits at `(n, c)`. -/
theorem v54_eq (a0 : (⟨S4096, .i32⟩ : BufTy).Contents (Elt Ideal)) (a2 : (⟨S50000x256, .f32⟩ : BufTy).Contents (Elt Ideal))
    (a6 : (⟨S16x256, .f32⟩ : BufTy).Contents (Elt Ideal)) (a7 : (⟨S40000x16, .f32⟩ : BufTy).Contents (Elt Ideal))
    (n : Fin 4096) (c : Fin 40000) :
    val_main_v54 (F := Ideal) a0 a2 a6 a7 (ix2 n c)
      = Cert.Spec.logits (Cert.Spec.logits (fun d => val_main_v6 (F := Ideal) a0 a2 (ix2 n d)) (fun q d => a6 (ix2 q d)))
          (fun cc q => a7 (ix2 cc q)) c := by
  rw [val_main_v54_apply]
  unfold Cert.Spec.logits
  refine Finset.sum_congr rfl fun k _ => ?_
  rw [val_main_v53_apply]
  have e1 : lidx_main_v54 (ix2 n c) k = ix2 n k :=
    funext fun a => Fin.ext (by match a with | ⟨0, _⟩ => rfl | ⟨1, _⟩ => rfl)
  have e2 : idx_main_v53 (ridx_main_v54 (ix2 n c) k) = ix2 c k :=
    funext fun a => Fin.ext (by match a with | ⟨0, _⟩ => rfl | ⟨1, _⟩ => rfl)
  rw [e1, e2, v52_eq]
  rfl

/-! ## The three log-softmax calls -/

/-- The head's log-softmax at `(n, j)`: the row maximum from `-∞`, the shift, the exponentials' sum from `0`, its logarithm. -/
theorem v9_eq (a0 : (⟨S4096, .i32⟩ : BufTy).Contents (Elt Ideal)) (a2 : (⟨S50000x256, .f32⟩ : BufTy).Contents (Elt Ideal))
    (a3 : (⟨S2502x256, .f32⟩ : BufTy).Contents (Elt Ideal)) (n : Fin 4096) (j : Fin 2502) :
    val_main_v9 (F := Ideal) a0 a2 a3 (ix2 n j)
      = Cert.Spec.lsm (fun j => val_main_v8 (F := Ideal) a0 a2 a3 (ix2 n j)) j := by
  have hmax : ∀ j : Fin 2502, val_main_call0_v4 (F := Ideal) a0 a2 a3 (ix2 n j)
      = Cert.Spec.rowMax (fun j => val_main_v8 (F := Ideal) a0 a2 a3 (ix2 n j)) := by
    intro j
    rw [val_main_call0_v4_apply, val_main_call0_v3_apply, val_main_call0_v2_apply, val_main_call0_v1_apply,
      val_main_call0_cst_0_apply]
    have e : idx_main_call0_v3 (idx_main_call0_v4 (ix2 n j)) = ix1 n :=
      funext fun a => Fin.ext (by match a with | ⟨0, _⟩ => rfl)
    rw [e]
    unfold val_main_call0_v0 val_main_call0_cst
    rw [reduce_max_row]
    show max (Ideal.ofBits .f32 0xFF800000#32) _ = _
    rw [ninf_eq_bot]
    exact max_eq_right bot_le
  have h5 : ∀ j : Fin 2502, val_main_call0_v5 (F := Ideal) a0 a2 a3 (ix2 n j)
      = val_main_v8 (F := Ideal) a0 a2 a3 (ix2 n j) - Cert.Spec.rowMax (fun j => val_main_v8 (F := Ideal) a0 a2 a3 (ix2 n j)) := by
    intro j
    rw [val_main_call0_v5_apply, hmax]
    rfl
  have hs : ∀ k : Fin 2502,
      val_main_call0_v6 (F := Ideal) a0 a2 a3 (idx_main_call0_v7 (idx_main_call0_v8 (idx_main_call0_v10 (ix2 n j))) k)
        = Ideal.exp (val_main_v8 (F := Ideal) a0 a2 a3 (ix2 n k)
            - Cert.Spec.rowMax (fun j => val_main_v8 (F := Ideal) a0 a2 a3 (ix2 n j))) := by
    intro k
    have e : idx_main_call0_v7 (idx_main_call0_v8 (idx_main_call0_v10 (ix2 n j))) k = ix2 n k :=
      funext fun a => Fin.ext (by match a with | ⟨0, _⟩ => rfl | ⟨1, _⟩ => rfl)
    rw [e, val_main_call0_v6_apply, h5]
    rfl
  rw [val_main_v9_apply, val_main_call0_v10_apply, val_main_call0_v9_apply, val_main_call0_v8_apply,
    val_main_call0_v7_apply, val_main_call0_cst_1_apply, h5, Finset.sum_congr rfl fun k _ => hs k]
  rw [Ideal.subf_def, Ideal.hostUnary_log_def, Ideal.ofBits_def, Ideal.ofBits_zero_f32, zero_add]
  rfl

/-- The first tail's log-softmax at `(n, j)`: the row maximum from `-∞`, the shift, the exponentials' sum from `0`, its logarithm. -/
theorem v30_eq (a0 : (⟨S4096, .i32⟩ : BufTy).Contents (Elt Ideal)) (a2 : (⟨S50000x256, .f32⟩ : BufTy).Contents (Elt Ideal))
    (a4 : (⟨S64x256, .f32⟩ : BufTy).Contents (Elt Ideal)) (a5 : (⟨S7500x64, .f32⟩ : BufTy).Contents (Elt Ideal)) (n : Fin 4096) (j : Fin 7500) :
    val_main_v30 (F := Ideal) a0 a2 a4 a5 (ix2 n j)
      = Cert.Spec.lsm (fun j => val_main_v29 (F := Ideal) a0 a2 a4 a5 (ix2 n j)) j := by
  have hmax : ∀ j : Fin 7500, val_main_call2_v4 (F := Ideal) a0 a2 a4 a5 (ix2 n j)
      = Cert.Spec.rowMax (fun j => val_main_v29 (F := Ideal) a0 a2 a4 a5 (ix2 n j)) := by
    intro j
    rw [val_main_call2_v4_apply, val_main_call2_v3_apply, val_main_call2_v2_apply, val_main_call2_v1_apply,
      val_main_call2_cst_0_apply]
    have e : idx_main_call2_v3 (idx_main_call2_v4 (ix2 n j)) = ix1 n :=
      funext fun a => Fin.ext (by match a with | ⟨0, _⟩ => rfl)
    rw [e]
    unfold val_main_call2_v0 val_main_call2_cst
    rw [reduce_max_row]
    show max (Ideal.ofBits .f32 0xFF800000#32) _ = _
    rw [ninf_eq_bot]
    exact max_eq_right bot_le
  have h5 : ∀ j : Fin 7500, val_main_call2_v5 (F := Ideal) a0 a2 a4 a5 (ix2 n j)
      = val_main_v29 (F := Ideal) a0 a2 a4 a5 (ix2 n j) - Cert.Spec.rowMax (fun j => val_main_v29 (F := Ideal) a0 a2 a4 a5 (ix2 n j)) := by
    intro j
    rw [val_main_call2_v5_apply, hmax]
    rfl
  have hs : ∀ k : Fin 7500,
      val_main_call2_v6 (F := Ideal) a0 a2 a4 a5 (idx_main_call2_v7 (idx_main_call2_v8 (idx_main_call2_v10 (ix2 n j))) k)
        = Ideal.exp (val_main_v29 (F := Ideal) a0 a2 a4 a5 (ix2 n k)
            - Cert.Spec.rowMax (fun j => val_main_v29 (F := Ideal) a0 a2 a4 a5 (ix2 n j))) := by
    intro k
    have e : idx_main_call2_v7 (idx_main_call2_v8 (idx_main_call2_v10 (ix2 n j))) k = ix2 n k :=
      funext fun a => Fin.ext (by match a with | ⟨0, _⟩ => rfl | ⟨1, _⟩ => rfl)
    rw [e, val_main_call2_v6_apply, h5]
    rfl
  rw [val_main_v30_apply, val_main_call2_v10_apply, val_main_call2_v9_apply, val_main_call2_v8_apply,
    val_main_call2_v7_apply, val_main_call2_cst_1_apply, h5, Finset.sum_congr rfl fun k _ => hs k]
  rw [Ideal.subf_def, Ideal.hostUnary_log_def, Ideal.ofBits_def, Ideal.ofBits_zero_f32, zero_add]
  rfl

/-- The second tail's log-softmax at `(n, j)`: the row maximum from `-∞`, the shift, the exponentials' sum from `0`, its logarithm. -/
theorem v55_eq (a0 : (⟨S4096, .i32⟩ : BufTy).Contents (Elt Ideal)) (a2 : (⟨S50000x256, .f32⟩ : BufTy).Contents (Elt Ideal))
    (a6 : (⟨S16x256, .f32⟩ : BufTy).Contents (Elt Ideal)) (a7 : (⟨S40000x16, .f32⟩ : BufTy).Contents (Elt Ideal)) (n : Fin 4096) (j : Fin 40000) :
    val_main_v55 (F := Ideal) a0 a2 a6 a7 (ix2 n j)
      = Cert.Spec.lsm (fun j => val_main_v54 (F := Ideal) a0 a2 a6 a7 (ix2 n j)) j := by
  have hmax : ∀ j : Fin 40000, val_main_call4_v4 (F := Ideal) a0 a2 a6 a7 (ix2 n j)
      = Cert.Spec.rowMax (fun j => val_main_v54 (F := Ideal) a0 a2 a6 a7 (ix2 n j)) := by
    intro j
    rw [val_main_call4_v4_apply, val_main_call4_v3_apply, val_main_call4_v2_apply, val_main_call4_v1_apply,
      val_main_call4_cst_0_apply]
    have e : idx_main_call4_v3 (idx_main_call4_v4 (ix2 n j)) = ix1 n :=
      funext fun a => Fin.ext (by match a with | ⟨0, _⟩ => rfl)
    rw [e]
    unfold val_main_call4_v0 val_main_call4_cst
    rw [reduce_max_row]
    show max (Ideal.ofBits .f32 0xFF800000#32) _ = _
    rw [ninf_eq_bot]
    exact max_eq_right bot_le
  have h5 : ∀ j : Fin 40000, val_main_call4_v5 (F := Ideal) a0 a2 a6 a7 (ix2 n j)
      = val_main_v54 (F := Ideal) a0 a2 a6 a7 (ix2 n j) - Cert.Spec.rowMax (fun j => val_main_v54 (F := Ideal) a0 a2 a6 a7 (ix2 n j)) := by
    intro j
    rw [val_main_call4_v5_apply, hmax]
    rfl
  have hs : ∀ k : Fin 40000,
      val_main_call4_v6 (F := Ideal) a0 a2 a6 a7 (idx_main_call4_v7 (idx_main_call4_v8 (idx_main_call4_v10 (ix2 n j))) k)
        = Ideal.exp (val_main_v54 (F := Ideal) a0 a2 a6 a7 (ix2 n k)
            - Cert.Spec.rowMax (fun j => val_main_v54 (F := Ideal) a0 a2 a6 a7 (ix2 n j))) := by
    intro k
    have e : idx_main_call4_v7 (idx_main_call4_v8 (idx_main_call4_v10 (ix2 n j))) k = ix2 n k :=
      funext fun a => Fin.ext (by match a with | ⟨0, _⟩ => rfl | ⟨1, _⟩ => rfl)
    rw [e, val_main_call4_v6_apply, h5]
    rfl
  rw [val_main_v55_apply, val_main_call4_v10_apply, val_main_call4_v9_apply, val_main_call4_v8_apply,
    val_main_call4_v7_apply, val_main_call4_cst_1_apply, h5, Finset.sum_congr rfl fun k _ => hs k]
  rw [Ideal.subf_def, Ideal.hostUnary_log_def, Ideal.ofBits_def, Ideal.ofBits_zero_f32, zero_add]
  rfl

/-! ## Index words -/

/-- A word below `2^31` has its unsigned value as its signed value. -/
theorem word_toInt_of_lt (w : BitVec 32) (h : w.toNat < 2 ^ 31) : w.toInt = (w.toNat : ℤ) := by
  rw [BitVec.toInt_eq_toNat_cond, if_pos (by omega)]

/-- Such a word is not below zero, signed. -/
theorem word_not_slt_zero (w : BitVec 32) (h : w.toNat < 2 ^ 31) : w.slt 0#32 = false := by
  have h0 : (0#32).toInt = 0 := rfl
  simp only [BitVec.slt, word_toInt_of_lt w h, h0]
  simp

/-- The negative-index normalisation `select (w < 0) (w + c) w` leaves a word below `2^31` alone. -/
theorem normalise_nonneg (w c : BitVec 32) (h : w.toNat < 2 ^ 31) :
    Scalar.select (IntOp.cmpi .slt w 0#32) (IntOp.addi w c) w = w := by
  have hc : IntOp.cmpi .slt w 0#32 = 0#1 := by
    show BitVec.ofBool (w.slt 0#32) = 0#1
    rw [word_not_slt_zero w h]; rfl
  rw [hc]
  exact select_zero _ _

/-- The clipped word `min hi (max 0 v)` is below `2^31`. -/
theorem clip_lt (hi : ℕ) (hhi : hi < 2 ^ 31) (v : BitVec 32) :
    (IntOp.minsi (BitVec.ofNat 32 hi) (IntOp.maxsi 0#32 v)).toNat < 2 ^ 31 := by
  rw [Cert.Spec.clip_toNat hi hhi v]
  have := Cert.Spec.clipNat_le hi v
  omega

/-- Read signed, the clipped word is `clipNat hi v`. -/
theorem clip_toInt_toNat (hi : ℕ) (hhi : hi < 2 ^ 31) (v : BitVec 32) :
    (IntOp.minsi (BitVec.ofNat 32 hi) (IntOp.maxsi 0#32 v)).toInt.toNat = Cert.Spec.clipNat hi v := by
  rw [word_toInt_of_lt _ (clip_lt hi hhi v), Int.toNat_natCast, Cert.Spec.clip_toNat hi hhi v]

/-- Read signed, the word of a row number is the row number. -/
theorem row_toInt_toNat (n : Fin 4096) : (BitVec.ofNat 32 n.val).toInt.toNat = n.val := by
  have hn : (BitVec.ofNat 32 n.val).toNat = n.val := by
    rw [BitVec.toNat_ofNat]; exact Nat.mod_eq_of_lt (by have := n.isLt; omega)
  rw [word_toInt_of_lt _ (by rw [hn]; have := n.isLt; omega), Int.toNat_natCast, hn]

/-! ## The start indices of the three point gathers -/

/-- The row word of token `n` (an iota; the negative-index normalisation leaves it alone). -/
theorem v16_eq (n : Fin 4096) : val_main_v16 (F := Ideal) (ix1 n) = BitVec.ofNat 32 n.val := by
  have e : val_main_v10 (F := Ideal) (ix1 n) = BitVec.ofNat 32 n.val := rfl
  rw [val_main_v16_apply, val_main_v13_apply, val_main_v15_apply, val_main_v12_apply, val_main_c_3_apply, e]
  refine normalise_nonneg _ _ ?_
  rw [BitVec.toNat_ofNat]
  have := n.isLt
  have := Nat.mod_le n.val (2 ^ 32)
  omega

/-- The row word of token `n` (an iota; the negative-index normalisation leaves it alone). -/
theorem v40_eq (n : Fin 4096) : val_main_v40 (F := Ideal) (ix1 n) = BitVec.ofNat 32 n.val := by
  have e : val_main_v10 (F := Ideal) (ix1 n) = BitVec.ofNat 32 n.val := rfl
  rw [val_main_v40_apply, val_main_v37_apply, val_main_v39_apply, val_main_v36_apply, val_main_c_10_apply, e]
  refine normalise_nonneg _ _ ?_
  rw [BitVec.toNat_ofNat]
  have := n.isLt
  have := Nat.mod_le n.val (2 ^ 32)
  omega

/-- The row word of token `n` (an iota; the negative-index normalisation leaves it alone). -/
theorem v65_eq (n : Fin 4096) : val_main_v65 (F := Ideal) (ix1 n) = BitVec.ofNat 32 n.val := by
  have e : val_main_v10 (F := Ideal) (ix1 n) = BitVec.ofNat 32 n.val := rfl
  rw [val_main_v65_apply, val_main_v62_apply, val_main_v64_apply, val_main_v61_apply, val_main_c_17_apply, e]
  refine normalise_nonneg _ _ ?_
  rw [BitVec.toNat_ofNat]
  have := n.isLt
  have := Nat.mod_le n.val (2 ^ 32)
  omega

/-- The clipped target word of token `n`. -/
theorem v11_eq (a1 : (⟨S4096, .i32⟩ : BufTy).Contents (Elt Ideal)) (n : Fin 4096) :
    val_main_v11 (F := Ideal) a1 (ix1 n) = IntOp.minsi (BitVec.ofNat 32 2499) (IntOp.maxsi 0#32 (a1 (ix1 n))) := by
  rw [val_main_v11_apply, val_main_call1_v4_apply, val_main_call1_v3_apply, val_main_c_2_apply,
    val_main_call1_v2_apply, val_main_call1_v1_apply, val_main_call1_v0_apply, val_main_c_1_apply]

/-- The clipped first-tail word of token `n`. -/
theorem v35_eq (a1 : (⟨S4096, .i32⟩ : BufTy).Contents (Elt Ideal)) (n : Fin 4096) :
    val_main_v35 (F := Ideal) a1 (ix1 n) = IntOp.minsi (BitVec.ofNat 32 7499) (IntOp.maxsi 0#32 (a1 (ix1 n) - 2500#32)) := by
  rw [val_main_v35_apply, val_main_call3_v4_apply, val_main_call3_v3_apply, val_main_c_9_apply,
    val_main_call3_v2_apply, val_main_call3_v1_apply, val_main_call3_v0_apply, val_main_c_8_apply, val_main_v34_apply, val_main_v33_apply, val_main_c_7_apply]
  rfl

/-- The clipped second-tail word of token `n`. -/
theorem v60_eq (a1 : (⟨S4096, .i32⟩ : BufTy).Contents (Elt Ideal)) (n : Fin 4096) :
    val_main_v60 (F := Ideal) a1 (ix1 n) = IntOp.minsi (BitVec.ofNat 32 39999) (IntOp.maxsi 0#32 (a1 (ix1 n) - 10000#32)) := by
  rw [val_main_v60_apply, val_main_call5_v4_apply, val_main_call5_v3_apply, val_main_c_16_apply,
    val_main_call5_v2_apply, val_main_call5_v1_apply, val_main_call5_v0_apply, val_main_c_15_apply, val_main_v59_apply, val_main_v58_apply, val_main_c_14_apply]
  rfl

/-- The column word of token `n`: the clipped word, which the negative-index normalisation leaves alone. -/
theorem v21_eq (a1 : (⟨S4096, .i32⟩ : BufTy).Contents (Elt Ideal)) (n : Fin 4096) :
    val_main_v21 (F := Ideal) a1 (ix1 n) = val_main_v11 (F := Ideal) a1 (ix1 n) := by
  rw [val_main_v21_apply, val_main_v18_apply, val_main_v20_apply, val_main_v17_apply, val_main_c_5_apply]
  refine normalise_nonneg _ _ ?_
  rw [v11_eq]
  exact clip_lt 2499 (by norm_num) _

/-- The column word of token `n`: the clipped word, which the negative-index normalisation leaves alone. -/
theorem v45_eq (a1 : (⟨S4096, .i32⟩ : BufTy).Contents (Elt Ideal)) (n : Fin 4096) :
    val_main_v45 (F := Ideal) a1 (ix1 n) = val_main_v35 (F := Ideal) a1 (ix1 n) := by
  rw [val_main_v45_apply, val_main_v42_apply, val_main_v44_apply, val_main_v41_apply, val_main_c_12_apply]
  refine normalise_nonneg _ _ ?_
  rw [v35_eq]
  exact clip_lt 7499 (by norm_num) _

/-- The column word of token `n`: the clipped word, which the negative-index normalisation leaves alone. -/
theorem v70_eq (a1 : (⟨S4096, .i32⟩ : BufTy).Contents (Elt Ideal)) (n : Fin 4096) :
    val_main_v70 (F := Ideal) a1 (ix1 n) = val_main_v60 (F := Ideal) a1 (ix1 n) := by
  rw [val_main_v70_apply, val_main_v67_apply, val_main_v69_apply, val_main_v66_apply, val_main_c_19_apply]
  refine normalise_nonneg _ _ ?_
  rw [v60_eq]
  exact clip_lt 39999 (by norm_num) _

/-- Component 0 of token `n`'s start index is its row word. -/
theorem v24_zero (a1 : (⟨S4096, .i32⟩ : BufTy).Contents (Elt Ideal)) (n : Fin 4096) :
    val_main_v24 (F := Ideal) a1 (ix2 n 0) = BitVec.ofNat 32 n.val := by
  unfold val_main_v24
  rw [concatenate_pair_apply_left (t := S4096x2) (s₁ := S4096x1) (s₂ := S4096x1) (1 : Fin 2) _ _
    concatenates_S4096x1_S4096x1_S4096x2_d1 (ix2 n (0 : Fin 2)) rfl
    (ix2 n (0 : Fin 1)) (fun b => by match b with | ⟨0, _⟩ => rfl | ⟨1, _⟩ => rfl)]
  rw [val_main_v22_apply]
  exact v16_eq n

/-- Component 1 of token `n`'s start index is its column word. -/
theorem v24_one (a1 : (⟨S4096, .i32⟩ : BufTy).Contents (Elt Ideal)) (n : Fin 4096) :
    val_main_v24 (F := Ideal) a1 (ix2 n 1) = val_main_v21 (F := Ideal) a1 (ix1 n) := by
  unfold val_main_v24
  rw [concatenate_pair_apply_right (t := S4096x2) (s₁ := S4096x1) (s₂ := S4096x1) (1 : Fin 2) _ _
    concatenates_S4096x1_S4096x1_S4096x2_d1 (ix2 n (1 : Fin 2)) rfl rfl
    (ix2 n (0 : Fin 1)) (fun b hb => by match b with | ⟨0, _⟩ => rfl | ⟨1, _⟩ => exact absurd rfl hb) rfl]
  rw [val_main_v23_apply]
  exact congrArg _ (funext fun a => Fin.ext (by match a with | ⟨0, _⟩ => rfl))

/-- Component 0 of token `n`'s start index is its row word. -/
theorem v48_zero (a1 : (⟨S4096, .i32⟩ : BufTy).Contents (Elt Ideal)) (n : Fin 4096) :
    val_main_v48 (F := Ideal) a1 (ix2 n 0) = BitVec.ofNat 32 n.val := by
  unfold val_main_v48
  rw [concatenate_pair_apply_left (t := S4096x2) (s₁ := S4096x1) (s₂ := S4096x1) (1 : Fin 2) _ _
    concatenates_S4096x1_S4096x1_S4096x2_d1 (ix2 n (0 : Fin 2)) rfl
    (ix2 n (0 : Fin 1)) (fun b => by match b with | ⟨0, _⟩ => rfl | ⟨1, _⟩ => rfl)]
  rw [val_main_v46_apply]
  exact v40_eq n

/-- Component 1 of token `n`'s start index is its column word. -/
theorem v48_one (a1 : (⟨S4096, .i32⟩ : BufTy).Contents (Elt Ideal)) (n : Fin 4096) :
    val_main_v48 (F := Ideal) a1 (ix2 n 1) = val_main_v45 (F := Ideal) a1 (ix1 n) := by
  unfold val_main_v48
  rw [concatenate_pair_apply_right (t := S4096x2) (s₁ := S4096x1) (s₂ := S4096x1) (1 : Fin 2) _ _
    concatenates_S4096x1_S4096x1_S4096x2_d1 (ix2 n (1 : Fin 2)) rfl rfl
    (ix2 n (0 : Fin 1)) (fun b hb => by match b with | ⟨0, _⟩ => rfl | ⟨1, _⟩ => exact absurd rfl hb) rfl]
  rw [val_main_v47_apply]
  exact congrArg _ (funext fun a => Fin.ext (by match a with | ⟨0, _⟩ => rfl))

/-- Component 0 of token `n`'s start index is its row word. -/
theorem v73_zero (a1 : (⟨S4096, .i32⟩ : BufTy).Contents (Elt Ideal)) (n : Fin 4096) :
    val_main_v73 (F := Ideal) a1 (ix2 n 0) = BitVec.ofNat 32 n.val := by
  unfold val_main_v73
  rw [concatenate_pair_apply_left (t := S4096x2) (s₁ := S4096x1) (s₂ := S4096x1) (1 : Fin 2) _ _
    concatenates_S4096x1_S4096x1_S4096x2_d1 (ix2 n (0 : Fin 2)) rfl
    (ix2 n (0 : Fin 1)) (fun b => by match b with | ⟨0, _⟩ => rfl | ⟨1, _⟩ => rfl)]
  rw [val_main_v71_apply]
  exact v65_eq n

/-- Component 1 of token `n`'s start index is its column word. -/
theorem v73_one (a1 : (⟨S4096, .i32⟩ : BufTy).Contents (Elt Ideal)) (n : Fin 4096) :
    val_main_v73 (F := Ideal) a1 (ix2 n 1) = val_main_v70 (F := Ideal) a1 (ix1 n) := by
  unfold val_main_v73
  rw [concatenate_pair_apply_right (t := S4096x2) (s₁ := S4096x1) (s₂ := S4096x1) (1 : Fin 2) _ _
    concatenates_S4096x1_S4096x1_S4096x2_d1 (ix2 n (1 : Fin 2)) rfl rfl
    (ix2 n (0 : Fin 1)) (fun b hb => by match b with | ⟨0, _⟩ => rfl | ⟨1, _⟩ => exact absurd rfl hb) rfl]
  rw [val_main_v72_apply]
  exact congrArg _ (funext fun a => Fin.ext (by match a with | ⟨0, _⟩ => rfl))

/-! ## The point gather -/

/-- The dimension numbers of a point gather of a `[4096, N]` operand at `[4096, 2]` start indices `[row, column]`. -/
abbrev pointDims (N : ℕ)
    (wf : GatherDims.WF ⟨2, ![4096, N]⟩ ⟨2, ![4096, 2]⟩ ⟨1, ![4096]⟩ [] [0, 1] [] [0, 1] [] 1 ![1, 1]) :
    GatherDims ⟨2, ![4096, N]⟩ ⟨2, ![4096, 2]⟩ ⟨1, ![4096]⟩ where
  offsetDims := []
  collapsedSliceDims := [0, 1]
  operandBatchingDims := []
  startIndicesBatchingDims := []
  startIndexMap := [0, 1]
  indexVectorDim := 1
  sliceSizes := ![1, 1]
  wf := wf

/-- The point gather at `n`: when the start index `[row, column]` of `n` reads, signed, as `n` and as a column `c` in
    range, the clamp is the identity and the element read is the operand's at `(n, c)`. -/
theorem point_gather_apply {α : Type} {N : ℕ}
    (wf : GatherDims.WF ⟨2, ![4096, N]⟩ ⟨2, ![4096, 2]⟩ ⟨1, ![4096]⟩ [] [0, 1] [] [0, 1] [] 1 ![1, 1])
    (x : (⟨2, ![4096, N]⟩ : Shape).Idx → α) (idx : IVec ⟨2, ![4096, 2]⟩ 32) (n : Fin 4096) (c : Fin N)
    (h0 : (idx (ix2 n 0)).toInt.toNat = n.val) (h1 : (idx (ix2 n 1)).toInt.toNat = c.val) :
    Host.gather (pointDims N wf) x idx (ix1 n) = x (ix2 n c) := by
  unfold Host.gather
  congr 1
  funext a
  refine Fin.ext ?_
  show (pointDims N wf).start (ix1 n) idx a + (pointDims N wf).batchCoord (ix1 n) a + (pointDims N wf).offCoord (ix1 n) a = _
  have hmem : a ∈ (pointDims N wf).collapsedSliceDims := by
    show a ∈ [(0 : Fin 2), 1]
    match a with
    | ⟨0, _⟩ => simp
    | ⟨1, _⟩ => simp
  rw [GatherDims.batchCoord_eq_zero _ _ _ List.not_mem_nil,
    GatherDims.offCoord_eq_zero _ _ _ (fun h => ((GatherDims.mem_sKept _ _).mp h).1 hmem)]
  simp only [Nat.add_zero]
  unfold GatherDims.start
  rw [dif_pos (show a ∈ (pointDims N wf).startIndexMap from hmem)]
  match a with
  | ⟨0, _⟩ =>
    have hsi : (pointDims N wf).siIdx (ix1 n) ⟨List.idxOf (⟨0, by decide⟩ : Fin 2) (pointDims N wf).startIndexMap,
        List.idxOf_lt_length_iff.2 hmem⟩ = ix2 n 0 := by
      funext b; refine Fin.ext ?_
      match b with
      | ⟨0, _⟩ => rfl
      | ⟨1, _⟩ => rfl
    rw [hsi, h0]
    show min n.val (4096 - 1) = n.val
    have := n.isLt; omega
  | ⟨1, _⟩ =>
    have hsi : (pointDims N wf).siIdx (ix1 n) ⟨List.idxOf (⟨1, by decide⟩ : Fin 2) (pointDims N wf).startIndexMap,
        List.idxOf_lt_length_iff.2 hmem⟩ = ix2 n 1 := by
      funext b; refine Fin.ext ?_
      match b with
      | ⟨0, _⟩ => rfl
      | ⟨1, _⟩ => rfl
    rw [hsi, h1]
    show min c.val (N - 1) = c.val
    have := c.isLt; omega

/-! ## The gathered entries -/

/-- The head's log-softmax entry at token `n`'s clipped target. -/
theorem v25_eq (a0 a1 : (⟨S4096, .i32⟩ : BufTy).Contents (Elt Ideal)) (a2 : (⟨S50000x256, .f32⟩ : BufTy).Contents (Elt Ideal)) (a3 : (⟨S2502x256, .f32⟩ : BufTy).Contents (Elt Ideal)) (n : Fin 4096) :
    val_main_v25 (F := Ideal) a0 a1 a2 a3 (ix1 n)
      = val_main_v9 (F := Ideal) a0 a2 a3 (ix2 n ⟨Cert.Spec.clipNat 2499 (a1 (ix1 n)), Cert.Spec.clipNat_lt (by decide) _⟩) := by
  unfold val_main_v25
  exact point_gather_apply gather_S4096x2502_S4096x2_S4096_n_01_n_n_01_1_11_wf _ _ n ⟨_, _⟩
    (by rw [v24_zero]; exact row_toInt_toNat n)
    (by rw [v24_one, v21_eq, v11_eq]; exact clip_toInt_toNat 2499 (by norm_num) _)

/-- The first tail's log-softmax entry at token `n`'s target, shifted into the cluster and clipped. -/
theorem v49_eq (a0 a1 : (⟨S4096, .i32⟩ : BufTy).Contents (Elt Ideal)) (a2 : (⟨S50000x256, .f32⟩ : BufTy).Contents (Elt Ideal)) (a4 : (⟨S64x256, .f32⟩ : BufTy).Contents (Elt Ideal)) (a5 : (⟨S7500x64, .f32⟩ : BufTy).Contents (Elt Ideal)) (n : Fin 4096) :
    val_main_v49 (F := Ideal) a0 a1 a2 a4 a5 (ix1 n)
      = val_main_v30 (F := Ideal) a0 a2 a4 a5 (ix2 n ⟨Cert.Spec.clipNat 7499 (a1 (ix1 n) - 2500#32), Cert.Spec.clipNat_lt (by decide) _⟩) := by
  unfold val_main_v49
  exact point_gather_apply gather_S4096x7500_S4096x2_S4096_n_01_n_n_01_1_11_wf _ _ n ⟨_, _⟩
    (by rw [v48_zero]; exact row_toInt_toNat n)
    (by rw [v48_one, v45_eq, v35_eq]; exact clip_toInt_toNat 7499 (by norm_num) _)

/-- The second tail's log-softmax entry at token `n`'s target, shifted into the cluster and clipped. -/
theorem v74_eq (a0 a1 : (⟨S4096, .i32⟩ : BufTy).Contents (Elt Ideal)) (a2 : (⟨S50000x256, .f32⟩ : BufTy).Contents (Elt Ideal)) (a6 : (⟨S16x256, .f32⟩ : BufTy).Contents (Elt Ideal)) (a7 : (⟨S40000x16, .f32⟩ : BufTy).Contents (Elt Ideal)) (n : Fin 4096) :
    val_main_v74 (F := Ideal) a0 a1 a2 a6 a7 (ix1 n)
      = val_main_v55 (F := Ideal) a0 a2 a6 a7 (ix2 n ⟨Cert.Spec.clipNat 39999 (a1 (ix1 n) - 10000#32), Cert.Spec.clipNat_lt (by decide) _⟩) := by
  unfold val_main_v74
  exact point_gather_apply gather_S4096x40000_S4096x2_S4096_n_01_n_n_01_1_11_wf _ _ n ⟨_, _⟩
    (by rw [v73_zero]; exact row_toInt_toNat n)
    (by rw [v73_one, v70_eq, v60_eq]; exact clip_toInt_toNat 39999 (by norm_num) _)

/-- Column 2500 of the head's log-softmax at token `n`: the first cluster's entry. -/
theorem v32_eq (a0 : (⟨S4096, .i32⟩ : BufTy).Contents (Elt Ideal)) (a2 : (⟨S50000x256, .f32⟩ : BufTy).Contents (Elt Ideal)) (a3 : (⟨S2502x256, .f32⟩ : BufTy).Contents (Elt Ideal)) (n : Fin 4096) :
    val_main_v32 (F := Ideal) a0 a2 a3 (ix1 n) = val_main_v9 (F := Ideal) a0 a2 a3 (ix2 n ⟨2500, by decide⟩) := by
  rw [val_main_v32_apply, val_main_v31_apply]
  refine congrArg _ (funext fun a => Fin.ext ?_)
  match a with
  | ⟨0, _⟩ => exact Nat.div_one _
  | ⟨1, _⟩ => rfl

/-- Column 2501 of the head's log-softmax at token `n`: the second cluster's entry. -/
theorem v57_eq (a0 : (⟨S4096, .i32⟩ : BufTy).Contents (Elt Ideal)) (a2 : (⟨S50000x256, .f32⟩ : BufTy).Contents (Elt Ideal)) (a3 : (⟨S2502x256, .f32⟩ : BufTy).Contents (Elt Ideal)) (n : Fin 4096) :
    val_main_v57 (F := Ideal) a0 a2 a3 (ix1 n) = val_main_v9 (F := Ideal) a0 a2 a3 (ix2 n ⟨2501, by decide⟩) := by
  rw [val_main_v57_apply, val_main_v56_apply]
  refine congrArg _ (funext fun a => Fin.ext ?_)
  match a with
  | ⟨0, _⟩ => exact Nat.div_one _
  | ⟨1, _⟩ => rfl

/-! ## The two theorems -/

/-- A select on a signed comparison is the `if` on it. -/
theorem select_slt {α : Type} (x y : BitVec 32) (p q : α) :
    Scalar.select (IntOp.cmpi .slt x y) p q = if x.slt y then p else q := by
  show (if BitVec.ofBool (x.slt y) = 1#1 then p else q) = _
  cases x.slt y <;> simp

/-- Token `n`'s result is the token function of its target word, its gathered embedding row and the weights. -/
theorem out_apply (a0 a1 : (⟨S4096, .i32⟩ : BufTy).Contents (Elt Ideal)) (a2 : (⟨S50000x256, .f32⟩ : BufTy).Contents (Elt Ideal))
    (a3 : (⟨S2502x256, .f32⟩ : BufTy).Contents (Elt Ideal)) (a4 : (⟨S64x256, .f32⟩ : BufTy).Contents (Elt Ideal)) (a5 : (⟨S7500x64, .f32⟩ : BufTy).Contents (Elt Ideal))
    (a6 : (⟨S16x256, .f32⟩ : BufTy).Contents (Elt Ideal)) (a7 : (⟨S40000x16, .f32⟩ : BufTy).Contents (Elt Ideal)) (n : Fin 4096) :
    val_main_v81 (F := Ideal) a0 a1 a2 a3 a4 a5 a6 a7 (ix1 n)
      = Cert.Spec.tokenOut (a1 (ix1 n)) (fun d => val_main_v6 (F := Ideal) a0 a2 (ix2 n d)) (fun j d => a3 (ix2 j d))
          (fun q d => a4 (ix2 q d)) (fun cc q => a5 (ix2 cc q))
          (fun q d => a6 (ix2 q d)) (fun cc q => a7 (ix2 cc q)) := by
  -- the three rows of logits, as functions of the column
  have e8 : (fun j => val_main_v8 (F := Ideal) a0 a2 a3 (ix2 n j))
      = Cert.Spec.logits (fun d => val_main_v6 (F := Ideal) a0 a2 (ix2 n d)) (fun j d => a3 (ix2 j d)) :=
    funext fun j => v8_eq a0 a2 a3 n j
  have e29 : (fun j => val_main_v29 (F := Ideal) a0 a2 a4 a5 (ix2 n j))
      = Cert.Spec.logits (Cert.Spec.logits (fun d => val_main_v6 (F := Ideal) a0 a2 (ix2 n d)) (fun q d => a4 (ix2 q d)))
          (fun cc q => a5 (ix2 cc q)) :=
    funext fun j => v29_eq a0 a2 a4 a5 n j
  have e54 : (fun j => val_main_v54 (F := Ideal) a0 a2 a6 a7 (ix2 n j))
      = Cert.Spec.logits (Cert.Spec.logits (fun d => val_main_v6 (F := Ideal) a0 a2 (ix2 n d)) (fun q d => a6 (ix2 q d)))
          (fun cc q => a7 (ix2 cc q)) :=
    funext fun j => v54_eq a0 a2 a6 a7 n j
  -- the two selects are the two range tests on the target word; each branch is a gathered log-softmax entry,
  -- the two tails' with the cluster's head entry added
  rw [val_main_v81_apply, val_main_v77_apply, val_main_v76_apply, val_main_c_21_apply, select_slt,
    val_main_v80_apply, val_main_v79_apply, val_main_v78_apply, val_main_c_22_apply, select_slt,
    val_main_v50_apply, val_main_v75_apply, v25_eq, v32_eq, v57_eq, v49_eq, v74_eq]
  -- each log-softmax entry is `lsm` of its row of logits
  simp only [v9_eq, v30_eq, v55_eq, e8, e29, e54]
  rfl

/-- The loss is the negated mean of the per-token results. -/
theorem loss_eq (a0 a1 : (⟨S4096, .i32⟩ : BufTy).Contents (Elt Ideal)) (a2 : (⟨S50000x256, .f32⟩ : BufTy).Contents (Elt Ideal))
    (a3 : (⟨S2502x256, .f32⟩ : BufTy).Contents (Elt Ideal)) (a4 : (⟨S64x256, .f32⟩ : BufTy).Contents (Elt Ideal)) (a5 : (⟨S7500x64, .f32⟩ : BufTy).Contents (Elt Ideal))
    (a6 : (⟨S16x256, .f32⟩ : BufTy).Contents (Elt Ideal)) (a7 : (⟨S40000x16, .f32⟩ : BufTy).Contents (Elt Ideal)) :
    val_main_v84 (F := Ideal) a0 a1 a2 a3 a4 a5 a6 a7
      = fun _ => Cert.Spec.loss (val_main_v81 (F := Ideal) a0 a1 a2 a3 a4 a5 a6 a7) := by
  funext i
  rw [val_main_v84_apply, val_main_v83_apply, val_main_v82_apply, val_main_cst_apply, val_main_cst_23_apply]
  -- the sum starts from the word `0`, which is zero; negation and division are the extended reals'
  rw [Ideal.hostNegf_def, Ideal.negf_def, Ideal.hostDivf_def, Ideal.ofBits_def, Ideal.ofBits_zero_f32, zero_add]
  rfl

end Cert.ReferenceIdeal.RefValue

end
-- ==== Proof.Finite.lean ====
/-
  The precondition read: every float input holds real numbers.

  The printed predicate is the conjunction, over the six float arrays, of "every entry's absolute value is below
  `+∞`". An extended real whose absolute value is below `+∞` is neither infinity, so it is a real.
-/
import proofs.«428924_j53884659696080_3_alg».proof.Pre_finite_inputs
import proofs.«428924_j53884659696080_3_alg».proof.Proof.Gen.Pre_finite_inputs
import Idealize.ShloMosaic.Lib.ReduceAll
import Idealize.ShloMosaic.Lib.ValueIdx

noncomputable section

namespace Cert.Finite

open Idealize.ShloMosaic Cert.Pre_finite_inputs

/-- The scalar shape has a single index. -/
private instance : Subsingleton S_.Idx := ⟨fun a b => funext fun d => d.elim0⟩

/-- The word `0x7F800000` read as a 32-bit float is `+∞`: all-ones exponent, zero fraction, sign clear. -/
private theorem top_f32 : Ideal.ofBits .f32 0x7F800000#32 = ⊤ := by
  simp [Ideal.ofBits, Ideal.ieee]

/-- An extended real whose absolute value `max x (-x)` lies strictly below `+∞` is a real: at `-∞` and at `+∞` the
    absolute value is `+∞`, which is not below itself. -/
private theorem real_of_abs_lt_top (x : EReal)
    (h : Ideal.cmp .olt (max x (-x)) (Ideal.ofBits .f32 0x7F800000#32) = 1#1) : ∃ a : ℝ, x = (a : EReal) := by
  rw [top_f32] at h
  induction x using EReal.rec with
  | bot => simp [Ideal.cmp] at h
  | coe r => exact ⟨r, rfl⟩
  | top => simp [Ideal.cmp] at h

/-- One conjunct of the predicate: if the conjunction over all entries of `|x| < +∞` is true, every entry of `x` is a
    real. A conjunction that is true has every term true, and each term is the elementwise comparison above. -/
private theorem all_real {s : Shape} {axes : List (Fin s.rank)} (x : FVec Ideal s .f32)
    (hb : S_.BroadcastsInDim s (![] : Fin 0 → Fin s.rank)) (hr : s.ReducesTo axes S_) (hu : 0 < S_.numel)
    (j0 : S_.Idx)
    (e : Host.reduce IntOp.andi (cmpf .olt (Host.absf x) (broadcastInDim s ![] hb (constant S_ .f32 0x7F800000#32)))
      (constantI S_ 1 1#1) hr hu j0 = 1#1) :
    ∀ j, ∃ a : ℝ, x j = (a : EReal) := by
  intro j
  have h1 := Host.reduce_andi_all _ _ hr hu _ e j
  exact real_of_abs_lt_top (x j) h1

/-- Under the precondition each of the six float arrays is real entry by entry. -/
theorem real_of_pre [Cert.Pre_finite_inputs.Facts] (a0 a1 : IVec S4096 32) (a2 : FVec Ideal S50000x256 .f32)
    (a3 : FVec Ideal S2502x256 .f32) (a4 : FVec Ideal S64x256 .f32) (a5 : FVec Ideal S7500x64 .f32)
    (a6 : FVec Ideal S16x256 .f32) (a7 : FVec Ideal S40000x16 .f32)
    (h : Cert.Pre_finite_inputs.fn (F := Ideal) a0 a1 a2 a3 a4 a5 a6 a7 = fun _ => 1#1) :
    (∀ j, ∃ a : ℝ, a2 j = (a : EReal)) ∧ (∀ j, ∃ a : ℝ, a3 j = (a : EReal)) ∧ (∀ j, ∃ a : ℝ, a4 j = (a : EReal))
      ∧ (∀ j, ∃ a : ℝ, a5 j = (a : EReal)) ∧ (∀ j, ∃ a : ℝ, a6 j = (a : EReal)) ∧ (∀ j, ∃ a : ℝ, a7 j = (a : EReal)) := by
  -- the predicate at the scalar shape's one index: a six-fold conjunction, one term per float array
  have h0 := congrFun h ValueIdx.ix0
  dsimp only [fn, fn_part1, Idealize.ShloMosaic.andi] at h0
  -- a conjunction of bits is 1 exactly when both are
  simp only [IntOp.andi_eq_one] at h0
  obtain ⟨⟨⟨⟨⟨h2, h3⟩, h4⟩, h5⟩, h6⟩, h7⟩ := h0
  exact ⟨all_real a2 _ _ _ _ h2, all_real a3 _ _ _ _ h3, all_real a4 _ _ _ _ h4, all_real a5 _ _ _ _ h5,
    all_real a6 _ _ _ _ h6, all_real a7 _ _ _ _ h7⟩

end Cert.Finite

end
-- ==== Proof.LseAlgebra.lean ====
/-
  Log-sum-exp over the reals, as the two programs compute it.

  For a finite family of real logits `z` with maximum `M`, the log-softmax entry at `t` is
  `z t - M - log (∑ j, exp (z j - M))`. The streamed form keeps a running maximum `m` and a running
  sum `l = ∑ exp (z j - m)` over the columns seen so far; when the maximum grows from `m` to `m'`
  the old sum is rescaled by `exp (m - m')`, because `exp (z j - m) * exp (m - m') = exp (z j - m')`.
  Columns masked to `-∞` drop out of both: `max` ignores them and `exp (-∞) = 0`.
-/
import proofs.«428924_j53884659696080_3_alg».proof.Proof.Spec

noncomputable section

namespace Cert.Lse

open Idealize.ShloMosaic Cert.Spec

/-- The row maximum is the supremum of the row over all its columns. -/
theorem rowMax_eq_sup {n : ℕ} (z : Fin n → EReal) : rowMax z = Finset.univ.sup z := rfl

/-- Coercion from the reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Picking an entry by a mask and a maximum: with every other column at `-∞`, the row's maximum is the entry. -/
theorem pick_eq {n : ℕ} (z : Fin n → EReal) (t : Fin n) :
    rowMax (fun j => if j = t then z j else ⊥) = z t := by
  rw [rowMax_eq_sup]
  apply le_antisymm
  · apply Finset.sup_le
    intro j _
    by_cases h : j = t
    · simp [h]
    · simp [h]
  · have := Finset.le_sup (f := fun j => if j = t then z j else ⊥) (Finset.mem_univ t)
    simpa using this

/-- The one-pass spelling `z t - (M + log S)` of the log-softmax entry is the two-pass one, for real logits. -/
theorem head_form {n : ℕ} (z : Fin n → EReal) (hz : ∀ j, ∃ a : ℝ, z j = (a : EReal)) (t : Fin n) :
    z t - (rowMax z + Ideal.log (∑ j, Ideal.exp (z j - rowMax z))) = lsm z t := by
  choose a ha using hz
  have hz' : z = fun j => (a j : EReal) := funext ha
  subst hz'
  -- the maximum of a nonempty real row is one of its entries, hence real
  obtain ⟨i, -, hi⟩ := Finset.exists_mem_eq_sup Finset.univ ⟨t, Finset.mem_univ t⟩ (fun j => (a j : EReal))
  have hM : rowMax (fun j => (a j : EReal)) = (a i : EReal) := hi
  unfold lsm
  rw [hM]
  -- the sum of exponentials is a positive real
  have hS : ∑ j, Ideal.exp ((a j : EReal) - (a i : EReal)) = ((∑ j, Real.exp (a j - a i) : ℝ) : EReal) := by
    rw [coe_sum]
    refine Finset.sum_congr rfl fun j _ => ?_
    rw [← EReal.coe_sub, Ideal.exp_coe]
  rw [hS]
  have hpos : 0 < ∑ j, Real.exp (a j - a i) :=
    Finset.sum_pos (fun j _ => Real.exp_pos _) ⟨t, Finset.mem_univ t⟩
  rw [Ideal.log_coe, if_neg (not_le.mpr hpos)]
  -- on the reals, a - (M + L) = (a - M) - L
  rw [← EReal.coe_add, ← EReal.coe_sub, ← EReal.coe_sub, ← EReal.coe_sub]
  congr 1; ring

/-- The carried triple of the streamed log-softmax: running maximum, running sum, the target's logit so far. -/
abbrev St := EReal × EReal × EReal

/-- One chunk's update from its masked logits `y` and the columns `hit` that match the target. -/
def step {cb : ℕ} (y : Fin cb → EReal) (hit : Fin cb → Bool) (s : St) : St :=
  (max s.1 (rowMax y),
   s.2.1 * Ideal.exp (s.1 - max s.1 (rowMax y)) + ∑ j, Ideal.exp (y j - max s.1 (rowMax y)),
   max s.2.2 (rowMax fun j => if hit j then y j else ⊥))

/-- The carried triple before chunk `k`, from `(-∞, 0, -∞)`. -/
def run {cb : ℕ} (nch : ℕ) (y : Fin nch → Fin cb → EReal) (hit : Fin nch → Fin cb → Bool) : ℕ → St
  | 0 => (⊥, 0, ⊥)
  | k + 1 => if h : k < nch then step (y ⟨k, h⟩) (hit ⟨k, h⟩) (run nch y hit k) else run nch y hit k

/-- The row continued past its end by `-∞`. -/
private def ext {R : ℕ} (z : Fin R → EReal) (i : ℕ) : EReal := if h : i < R then z ⟨i, h⟩ else ⊥

private theorem ext_val {R : ℕ} (z : Fin R → EReal) (j : Fin R) : ext z j.val = z j := by
  simp [ext]

private theorem ext_ge {R : ℕ} (z : Fin R → EReal) {i : ℕ} (h : R ≤ i) : ext z i = ⊥ :=
  dif_neg (not_lt.mpr h)

private theorem exp_nonneg (x : EReal) : 0 ≤ Ideal.exp x := by
  induction x using EReal.rec with
  | bot => simp
  | coe r => rw [Ideal.exp_coe]; exact_mod_cast (Real.exp_pos r).le
  | top => simp

/-- Multiplication distributes over a finite sum of nonnegative extended reals. -/
private theorem sum_mul_nonneg {ι : Type*} (s : Finset ι) (f : ι → EReal) (hf : ∀ i ∈ s, 0 ≤ f i) (c : EReal) :
    (∑ i ∈ s, f i) * c = ∑ i ∈ s, f i * c := by
  classical
  induction s using Finset.induction_on with
  | empty => simp
  | insert a s ha ih =>
    rw [Finset.sum_insert ha, Finset.sum_insert ha,
      EReal.right_distrib_of_nonneg (hf a (Finset.mem_insert_self a s))
        (Finset.sum_nonneg fun i hi => hf i (Finset.mem_insert_of_mem hi)),
      ih fun i hi => hf i (Finset.mem_insert_of_mem hi)]

/-- Rescaling: `exp (x - M) * exp (M - r) = exp (x - r)` for `x ≤ M < ∞` and real `r`; at `x = -∞` both sides vanish. -/
private theorem exp_rescale (x M : EReal) (r : ℝ) (hx : x ≤ M) (hM : M ≠ ⊤) :
    Ideal.exp (x - M) * Ideal.exp (M - r) = Ideal.exp (x - r) := by
  induction M using EReal.rec with
  | bot =>
    have : x = ⊥ := le_bot_iff.mp hx
    subst this
    simp [EReal.bot_sub]
  | coe M =>
    induction x using EReal.rec with
    | bot => simp [EReal.bot_sub]
    | coe a =>
      rw [← EReal.coe_sub, ← EReal.coe_sub, ← EReal.coe_sub, Ideal.exp_coe, Ideal.exp_coe, Ideal.exp_coe,
        ← EReal.coe_mul, ← Real.exp_add]
      congr 2; ring
    | top => simp at hx
  | top => exact absurd rfl hM

/-- A chunk's row maximum is the supremum of the continued row over the chunk's columns. -/
private theorem rowMax_shift {cb : ℕ} (f : ℕ → EReal) (b : ℕ) (Y : Fin cb → EReal)
    (hY : ∀ j, Y j = f (b + j.val)) : rowMax Y = (Finset.Ico b (b + cb)).sup f := by
  rw [rowMax_eq_sup]
  apply le_antisymm
  · apply Finset.sup_le
    intro j _
    rw [hY]
    exact Finset.le_sup (f := f) (Finset.mem_Ico.mpr ⟨Nat.le_add_right _ _, Nat.add_lt_add_left j.isLt _⟩)
  · apply Finset.sup_le
    intro i hi
    obtain ⟨h1, h2⟩ := Finset.mem_Ico.mp hi
    have e : f i = Y ⟨i - b, by omega⟩ := by
      rw [hY]; congr 1; simp only; omega
    rw [e]
    exact Finset.le_sup (f := Y) (Finset.mem_univ _)

/-- A sum over a chunk's columns is the sum over the matching stretch of the continued row. -/
private theorem sum_shift {cb : ℕ} (f : ℕ → EReal) (b : ℕ) (Y : Fin cb → EReal)
    (hY : ∀ j, Y j = f (b + j.val)) (g : EReal → EReal) :
    ∑ j, g (Y j) = ∑ i ∈ Finset.Ico b (b + cb), g (f i) := by
  rw [Finset.sum_Ico_eq_sum_range, Nat.add_sub_cancel_left,
    ← Fin.sum_univ_eq_sum_range (fun j => g (f (b + j)))]
  exact Finset.sum_congr rfl fun j _ => by rw [hY]

/-- The first `b + cb` columns are the first `b` and then the chunk. -/
private theorem range_add (b cb : ℕ) : Finset.range (b + cb) = Finset.range b ∪ Finset.Ico b (b + cb) := by
  ext i; simp only [Finset.mem_range, Finset.mem_union, Finset.mem_Ico]; omega

/-- One chunk's update carries the invariant from the first `b` columns to the first `b + cb`:
    the maximum so far, the sum of exponentials shifted by it, and the target's logit if already met. -/
private theorem step_inv {cb : ℕ} (f : ℕ → EReal) (hf : ∀ i, f i ≠ ⊤) (t b : ℕ) (hb : f b ≠ ⊥) (hcb : 0 < cb)
    (Y : Fin cb → EReal) (hY : ∀ j, Y j = f (b + j.val))
    (hit : Fin cb → Bool) (hhit : ∀ j, hit j = true ↔ b + j.val = t) :
    step Y hit ((Finset.range b).sup f,
        ∑ i ∈ Finset.range b, Ideal.exp (f i - (Finset.range b).sup f),
        (Finset.range b).sup fun i => if i = t then f i else ⊥) =
      ((Finset.range (b + cb)).sup f,
        ∑ i ∈ Finset.range (b + cb), Ideal.exp (f i - (Finset.range (b + cb)).sup f),
        (Finset.range (b + cb)).sup fun i => if i = t then f i else ⊥) := by
  -- the new maximum is the supremum over the longer stretch
  have hmax : max ((Finset.range b).sup f) (rowMax Y) = (Finset.range (b + cb)).sup f := by
    rw [rowMax_shift f b Y hY, range_add, Finset.sup_union]
  -- and it is a real number
  have hlt : (Finset.range (b + cb)).sup f < ⊤ :=
    (Finset.sup_lt_iff bot_lt_top).mpr fun i _ => lt_top_iff_ne_top.mpr (hf i)
  have hge : f b ≤ (Finset.range (b + cb)).sup f :=
    Finset.le_sup (f := f) (Finset.mem_range.mpr (by omega))
  have hne_bot : (Finset.range (b + cb)).sup f ≠ ⊥ := fun h => hb (le_bot_iff.mp (h ▸ hge))
  obtain ⟨r, hr⟩ : ∃ r : ℝ, (Finset.range (b + cb)).sup f = (r : EReal) :=
    ⟨_, (EReal.coe_toReal hlt.ne hne_bot).symm⟩
  have hMk : (Finset.range b).sup f ≠ ⊤ :=
    ((Finset.sup_lt_iff bot_lt_top).mpr fun i _ => lt_top_iff_ne_top.mpr (hf i)).ne
  -- the target's logit
  have hpick : max ((Finset.range b).sup fun i => if i = t then f i else ⊥)
      (rowMax fun j => if hit j then Y j else ⊥) =
      (Finset.range (b + cb)).sup fun i => if i = t then f i else ⊥ := by
    rw [rowMax_shift (fun i => if i = t then f i else ⊥) b (fun j => if hit j then Y j else ⊥), range_add,
      Finset.sup_union]
    intro j
    by_cases h : hit j = true
    · rw [if_pos h, if_pos ((hhit j).mp h), hY]
    · rw [if_neg h, if_neg (fun h' => h ((hhit j).mpr h'))]
  unfold step
  simp only
  rw [hmax, hpick, hr]
  refine Prod.ext rfl (Prod.ext ?_ rfl)
  simp only
  -- the old sum rescales term by term, the chunk's sum is the sum over its stretch
  rw [sum_mul_nonneg _ _ (fun i _ => exp_nonneg _),
    sum_shift f b Y hY (fun x => Ideal.exp (x - (r : EReal))), range_add]
  rw [Finset.sum_union]
  · congr 1
    refine Finset.sum_congr rfl fun i hi => ?_
    exact exp_rescale (f i) _ r (Finset.le_sup (f := f) hi) hMk
  · rw [Finset.disjoint_left]
    intro i h1 h2
    have := Finset.mem_range.mp h1
    have := (Finset.mem_Ico.mp h2).1
    omega

/-- After all chunks the streamed triple gives the log-softmax entry of the unpadded row: the `R` real logits `z`
    laid out in `nch` chunks of `cb` columns, the columns from `R` on masked to `-∞`, every chunk holding at least
    one real column, the target `t` among the real columns. -/
theorem stream_final {cb nch R : ℕ} (hR : R ≤ nch * cb) (hlast : ∀ c : Fin nch, c.val * cb < R)
    (z : Fin R → EReal) (hz : ∀ j, ∃ a : ℝ, z j = (a : EReal)) (t : Fin R)
    (y : Fin nch → Fin cb → EReal)
    (hy : ∀ c j, y c j = if h : c.val * cb + j.val < R then z ⟨c.val * cb + j.val, h⟩ else ⊥)
    (hit : Fin nch → Fin cb → Bool) (hhit : ∀ c j, hit c j = true ↔ c.val * cb + j.val = t.val) :
    (run nch y hit nch).2.2 - ((run nch y hit nch).1 + Ideal.log (run nch y hit nch).2.1) = lsm z t := by
  have hf : ∀ i, ext z i ≠ ⊤ := by
    intro i
    unfold ext
    split_ifs with h
    · obtain ⟨a, ha⟩ := hz ⟨i, h⟩
      rw [ha]; exact EReal.coe_ne_top a
    · exact bot_ne_top
  -- the invariant before chunk `k`: maximum, shifted sum and target's logit over the first `k * cb` columns
  have inv : ∀ k, k ≤ nch → run nch y hit k =
      ((Finset.range (k * cb)).sup (ext z),
        ∑ i ∈ Finset.range (k * cb), Ideal.exp (ext z i - (Finset.range (k * cb)).sup (ext z)),
        (Finset.range (k * cb)).sup fun i => if i = t.val then ext z i else ⊥) := by
    intro k
    induction k with
    | zero => intro _; simp [run]
    | succ k ih =>
      intro hk
      have hk' : k < nch := hk
      have hR' := hlast ⟨k, hk'⟩
      have hcb : 0 < cb := by
        rcases Nat.eq_zero_or_pos cb with h0 | h0
        · subst h0; simp at hR' hR; omega
        · exact h0
      have hb : ext z (k * cb) ≠ ⊥ := by
        unfold ext
        rw [dif_pos hR']
        obtain ⟨a, ha⟩ := hz ⟨k * cb, hR'⟩
        rw [ha]; exact EReal.coe_ne_bot a
      rw [run, dif_pos hk', ih hk'.le, Nat.succ_mul]
      exact step_inv (ext z) hf t.val (k * cb) hb hcb (y ⟨k, hk'⟩) (fun j => hy ⟨k, hk'⟩ j)
        (hit ⟨k, hk'⟩) (fun j => hhit ⟨k, hk'⟩ j)
  rw [inv nch le_rfl]
  simp only
  -- over all chunks the stretch covers the whole row; the columns past its end contribute nothing
  have h1 : (Finset.range (nch * cb)).sup (ext z) = rowMax z := by
    rw [rowMax_eq_sup]
    apply le_antisymm
    · apply Finset.sup_le
      intro i _
      unfold ext
      split_ifs with h
      · exact Finset.le_sup (f := z) (Finset.mem_univ _)
      · exact bot_le
    · apply Finset.sup_le
      intro j _
      rw [← ext_val z j]
      exact Finset.le_sup (f := ext z) (Finset.mem_range.mpr (lt_of_lt_of_le j.isLt hR))
  have h2 : ∑ i ∈ Finset.range (nch * cb), Ideal.exp (ext z i - rowMax z) =
      ∑ j, Ideal.exp (z j - rowMax z) := by
    rw [← Finset.sum_subset (Finset.range_mono hR) (f := fun i => Ideal.exp (ext z i - rowMax z))]
    · rw [← Fin.sum_univ_eq_sum_range (fun i => Ideal.exp (ext z i - rowMax z))]
      exact Finset.sum_congr rfl fun j _ => by rw [ext_val]
    · intro i _ hi
      rw [ext_ge z (not_lt.mp fun h => hi (Finset.mem_range.mpr h)), EReal.bot_sub, Ideal.exp_bot]
  have h3 : ((Finset.range (nch * cb)).sup fun i => if i = t.val then ext z i else ⊥) = z t := by
    apply le_antisymm
    · apply Finset.sup_le
      intro i _
      split_ifs with h
      · rw [h, ext_val]
      · exact bot_le
    · have := Finset.le_sup (f := fun i => if i = t.val then ext z i else ⊥)
        (Finset.mem_range.mpr (lt_of_lt_of_le t.isLt hR))
      simpa [ext_val] using this
  rw [h1, h2, h3]
  exact head_form z hz t

/-- A finite sum of products of reals is a real. -/
theorem logits_real {K N : ℕ} (h : Fin K → EReal) (W : Fin N → Fin K → EReal)
    (hh : ∀ d, ∃ a : ℝ, h d = (a : EReal)) (hW : ∀ j d, ∃ a : ℝ, W j d = (a : EReal)) (j : Fin N) :
    ∃ a : ℝ, logits h W j = (a : EReal) := by
  choose a ha using hh
  choose b hb using hW
  refine ⟨∑ d, a d * b j d, ?_⟩
  unfold logits
  rw [coe_sum]
  refine Finset.sum_congr rfl fun d _ => ?_
  rw [ha, hb, EReal.coe_mul]

end Cert.Lse

end
-- ==== Proof.KHead.lean ====
/-
  The head of the kernel's body at one row of a block.

  Row `r` of the block has the 2502 head logits `z j = ∑ d, x0 (r, d) * x2 (d, j)` (the block of embedding rows
  times the transposed head weights). The body forms `M + log ∑ exp (z - M)` once, and picks three entries of `z`
  by masking every other column to `-∞` and taking the row maximum: the clipped target's, column 2500's and column
  2501's. Each pick minus the log-sum-exp is the log-softmax entry.
-/
import proofs.«428924_j53884659696080_3_alg».proof.Proof.Gen.KernelIdeal.Skeleton
import proofs.«428924_j53884659696080_3_alg».proof.Proof.Spec
import proofs.«428924_j53884659696080_3_alg».proof.Proof.LseAlgebra
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HeadVal

open Idealize.ShloMosaic Idealize.ShloMosaic.ValueIdx Cert.KernelIdeal Cert.KernelIdeal.Gen

/-- Row `r`'s head logits from the block of embedding rows `x0` and the transposed head weights `x2`. -/
def zH (x0 : Vec Ideal S256x256 .bf16) (x2 : Vec Ideal S256x2502 .bf16) (r : Fin 256) : Fin 2502 → EReal :=
  Cert.Spec.logits (fun d => x0 (ix2 r d)) (fun j d => x2 (ix2 d j))

/-! ## The matrix product at an entry

The dot contracts the left operand's axis 1 with the right operand's axis 0; the four lemmas below name, axis by axis,
the operand entries that enter output entry `i` at contraction coordinate `q`. -/

theorem lhs_pay9_0 (i : S256x2502.Idx) (q : dot_S256x256_S256x2502_S256x2502_1_0_0_1_n_n.contr.Idx) :
    (dot_S256x256_S256x2502_S256x2502_1_0_0_1_n_n.lhsIdx i q 0).val = (i 0).val := by
  unfold DotDims.lhsIdx
  rw [dif_neg (show ¬(0 : Fin S256x256.rank) ∈ dot_S256x256_S256x2502_S256x2502_1_0_0_1_n_n.lhsBatch by decide), dif_pos (show (0 : Fin S256x256.rank) ∈ dot_S256x256_S256x2502_S256x2502_1_0_0_1_n_n.lhsNonContracting by decide)]
  rfl
theorem lhs_pay9_1 (i : S256x2502.Idx) (q : dot_S256x256_S256x2502_S256x2502_1_0_0_1_n_n.contr.Idx) :
    (dot_S256x256_S256x2502_S256x2502_1_0_0_1_n_n.lhsIdx i q 1).val = (q ⟨0, by decide⟩).val :=
  dot_S256x256_S256x2502_S256x2502_1_0_0_1_n_n.lhsIdx_val_of_single rfl i q
theorem rhs_pay9_0 (i : S256x2502.Idx) (q : dot_S256x256_S256x2502_S256x2502_1_0_0_1_n_n.contr.Idx) :
    (dot_S256x256_S256x2502_S256x2502_1_0_0_1_n_n.rhsIdx i q 0).val = (q ⟨0, by decide⟩).val :=
  dot_S256x256_S256x2502_S256x2502_1_0_0_1_n_n.rhsIdx_val_of_single rfl i q
theorem rhs_pay9_1 (i : S256x2502.Idx) (q : dot_S256x256_S256x2502_S256x2502_1_0_0_1_n_n.contr.Idx) :
    (dot_S256x256_S256x2502_S256x2502_1_0_0_1_n_n.rhsIdx i q 1).val = (i 1).val := by
  unfold DotDims.rhsIdx
  rw [dif_neg (show ¬(1 : Fin S256x2502.rank) ∈ dot_S256x256_S256x2502_S256x2502_1_0_0_1_n_n.rhsBatch by decide), dif_pos (show (1 : Fin S256x2502.rank) ∈ dot_S256x256_S256x2502_S256x2502_1_0_0_1_n_n.rhsNonContracting by decide)]
  rfl

/-- Entry `(r, j)` of the product is row `r`'s logit `j`: the sum over `d` of `x0 (r, d) * x2 (d, j)`. -/
theorem pay9_apply (x0 : Vec Ideal S256x256 .bf16) (x2 : Vec Ideal S256x2502 .bf16) (r : Fin 256) (j : Fin 2502) :
    k0_pay9 (F := Ideal) x0 x2 (ix2 r j) = zH x0 x2 r j := by
  unfold k0_pay9 k0_pay7
  show FloatOps.matmul dot_S256x256_S256x2502_S256x2502_1_0_0_1_n_n none (shapeCast S256x256 (x0 : FVec Ideal S256x256 .bf16) shapeCasts_S256x256_S256x256)
    (shapeCast S256x2502 (x2 : FVec Ideal S256x2502 .bf16) shapeCasts_S256x2502_S256x2502)
    (constant (F := Ideal) S256x2502 .f32 0x00000000#32) (ix2 r j) = _
  rw [shapeCast_self, shapeCast_self, Ideal.matmul_constant_zero_apply,
    ← Equiv.sum_comp (contrEquiv1 dot_S256x256_S256x2502_S256x2502_1_0_0_1_n_n 256 rfl rfl).symm]
  unfold zH Cert.Spec.logits
  refine Finset.sum_congr rfl fun k _ => ?_
  have hk := contrEquiv1_symm_val dot_S256x256_S256x2502_S256x2502_1_0_0_1_n_n 256 rfl rfl k
  have el : dot_S256x256_S256x2502_S256x2502_1_0_0_1_n_n.lhsIdx (ix2 r j) ((contrEquiv1 dot_S256x256_S256x2502_S256x2502_1_0_0_1_n_n 256 rfl rfl).symm k) = ix2 r k := funext fun a => Fin.ext (by
    match a with
    | ⟨0, _⟩ => exact lhs_pay9_0 _ _
    | ⟨1, _⟩ => exact (lhs_pay9_1 _ _).trans hk)
  have er : dot_S256x256_S256x2502_S256x2502_1_0_0_1_n_n.rhsIdx (ix2 r j) ((contrEquiv1 dot_S256x256_S256x2502_S256x2502_1_0_0_1_n_n 256 rfl rfl).symm k) = ix2 k j := funext fun a => Fin.ext (by
    match a with
    | ⟨0, _⟩ => exact (rhs_pay9_0 _ _).trans hk
    | ⟨1, _⟩ => exact rhs_pay9_1 _ _)
  rw [el, er]

/-! ## The keepdims column forms, and a row's maximum and sum -/

/-- A vector of `a` entries cast to a column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` columns reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The bit pattern of `-∞` denotes the bottom of the extended reals. -/
theorem ofBits_neg_inf : (FloatOps.ofBits (F := Ideal) .f32 0xFF800000#32 : EReal) = ⊥ := by
  show Ideal.ofBits .f32 0xFF800000#32 = ⊥
  simp [Ideal.ofBits, Ideal.ieee]

/-- The index over row `r` with column `k` inserted is `(r, k)`. -/
theorem lift_row (r : Fin 256) (k : Fin 2502) :
    reduces_S256x2502_S256.lift (ix1 r) k = ix2 r k :=
  funext fun a => Fin.ext (by
    match a with
    | ⟨0, _⟩ => rfl
    | ⟨1, _⟩ => rfl)

/-- The maximum over the columns, from `-∞`, at row `r` is the row's maximum. -/
theorem rowmax_apply (src : FVec Ideal S256x2502 .f32) (r : Fin 256) :
    multiReduction (F := Ideal) .maximumf [1] S256 src 0xFF800000#32 reduces_S256x2502_S256 (.inl rfl) rfl (ix1 r)
      = Cert.Spec.rowMax (fun j : Fin 2502 => src (ix2 r j)) := by
  refine (Ideal.multiReduction_maximumf_single src 0xFF800000#32 reduces_S256x2502_S256 (.inl rfl) rfl (ix1 r)).trans ?_
  rw [ofBits_neg_inf]
  unfold Cert.Spec.rowMax
  have hl : (src ∘ reduces_S256x2502_S256.lift (ix1 r)) = fun j : Fin 2502 => src (ix2 r j) :=
    funext fun k => congrArg src (lift_row r k)
  rw [hl]
  rfl

/-- The sum over the columns at row `r` is the row's sum. -/
theorem rowsum_apply (src : FVec Ideal S256x2502 .f32) (r : Fin 256) :
    multiReduction (F := Ideal) .add [1] S256 src 0x00000000#32 reduces_S256x2502_S256 (.inl rfl) rfl (ix1 r)
      = ∑ j : Fin 2502, src (ix2 r j) := by
  refine (Ideal.multiReduction_add_single src 0x00000000#32 reduces_S256x2502_S256 (.inl rfl) rfl (ix1 r)).trans ?_
  exact Finset.sum_congr rfl fun k _ => congrArg src (lift_row r k)

/-! ## The log-sum-exp column -/

/-- The kernel's column of row maxima of the logits. -/
private def mcol (x0 : Vec Ideal S256x256 .bf16) (x2 : Vec Ideal S256x2502 .bf16) : FVec Ideal S256x1 .f32 :=
  shapeCast S256x1 (multiReduction (F := Ideal) .maximumf [1] S256 (k0_pay9 (F := Ideal) x0 x2) 0xFF800000#32
    reduces_S256x2502_S256 (.inl rfl) rfl) shapeCasts_S256_S256x1

/-- At row `r` it is the maximum of row `r`'s logits. -/
theorem mcol_apply (x0 : Vec Ideal S256x256 .bf16) (x2 : Vec Ideal S256x2502 .bf16) (r : Fin 256) (u : Fin 1) :
    mcol x0 x2 (ix2 r u) = Cert.Spec.rowMax (zH x0 x2 r) := by
  unfold mcol
  refine (shapeCast_a_a1_apply (multiReduction (F := Ideal) .maximumf [1] S256 (k0_pay9 (F := Ideal) x0 x2) 0xFF800000#32
    reduces_S256x2502_S256 (.inl rfl) rfl) shapeCasts_S256_S256x1 r u).trans ?_
  refine (rowmax_apply (k0_pay9 (F := Ideal) x0 x2) r).trans ?_
  exact congrArg Cert.Spec.rowMax (funext fun j => pay9_apply x0 x2 r j)

/-- The kernel's exponentials of the logits less their row maximum. -/
private def ecol (x0 : Vec Ideal S256x256 .bf16) (x2 : Vec Ideal S256x2502 .bf16) : FVec Ideal S256x2502 .f32 :=
  exp (subf (k0_pay9 (F := Ideal) x0 x2) (broadcastTo S256x2502 (mcol x0 x2) broadcasts_S256x1_S256x2502))

theorem ecol_apply (x0 : Vec Ideal S256x256 .bf16) (x2 : Vec Ideal S256x2502 .bf16) (r : Fin 256) (j : Fin 2502) :
    ecol x0 x2 (ix2 r j) = Ideal.exp (zH x0 x2 r j - Cert.Spec.rowMax (zH x0 x2 r)) := by
  show Ideal.exp (k0_pay9 (F := Ideal) x0 x2 (ix2 r j)
    - broadcastTo S256x2502 (mcol x0 x2) broadcasts_S256x1_S256x2502 (ix2 r j)) = _
  rw [broadcastTo_a1_ab_apply (mcol x0 x2) broadcasts_S256x1_S256x2502 r j, mcol_apply, pay9_apply]

/-- Row `r` of the log-sum-exp column: `M + log ∑ exp (z - M)` with `M` the row maximum. -/
theorem pay10_apply (x0 : Vec Ideal S256x256 .bf16) (x2 : Vec Ideal S256x2502 .bf16) (r : Fin 256) :
    k0_pay10 (F := Ideal) x0 x2 (ix2 r 0)
      = Cert.Spec.rowMax (zH x0 x2 r)
        + Ideal.log (∑ j, Ideal.exp (zH x0 x2 r j - Cert.Spec.rowMax (zH x0 x2 r))) := by
  show mcol x0 x2 (ix2 r 0) + Ideal.log (shapeCast S256x1 (multiReduction (F := Ideal) .add [1] S256 (ecol x0 x2) 0x00000000#32
    reduces_S256x2502_S256 (.inl rfl) rfl) shapeCasts_S256_S256x1 (ix2 r 0)) = _
  rw [mcol_apply, shapeCast_a_a1_apply (multiReduction (F := Ideal) .add [1] S256 (ecol x0 x2) 0x00000000#32
    reduces_S256x2502_S256 (.inl rfl) rfl) shapeCasts_S256_S256x1 r 0, rowsum_apply (ecol x0 x2) r]
  exact congrArg (fun s => Cert.Spec.rowMax (zH x0 x2 r) + Ideal.log s)
    (Finset.sum_congr rfl fun j _ => ecol_apply x0 x2 r j)

/-! ## A pick: mask every other column to `-∞`, then take the row maximum -/

/-- The kernel's named sentinel is `-∞` at the ideal values, by the certificate's table. -/
theorem neg_big_eq :
    Named.named (F := Ideal) Cert.KernelIdeal.κ "neg_big" (φ := .f32) 0xFF333332#32 = (⊥ : EReal) :=
  IdealRules.named_const.ideal_named_scalar _ _ _ _ rfl

/-- A column number below `2502`, as a 32-bit word, equals a word exactly when it is the word's value. -/
theorem ofNat_eq_iff (j : Fin 2502) (w : BitVec 32) : BitVec.ofNat 32 j.val = w ↔ j.val = w.toNat := by
  constructor
  · intro h
    rw [← h, BitVec.toNat_ofNat]
    have := j.isLt
    omega
  · intro h
    apply BitVec.eq_of_toNat_eq
    rw [BitVec.toNat_ofNat, h]
    exact Nat.mod_eq_of_lt w.isLt

/-- The logits with every column whose number is not the word `w (r, j)` masked to `-∞`, at `(r, j)`. -/
theorem masked_apply (x0 : Vec Ideal S256x256 .bf16) (x2 : Vec Ideal S256x2502 .bf16) (w : IVec S256x2502 32)
    (r : Fin 256) (j : Fin 2502) :
    select (cmpi .eq (iota .tc S256x2502 32 [1] iota_S256x2502_d1_w32) w) (k0_pay9 (F := Ideal) x0 x2)
        (broadcast S256x2502 (Named.named (F := Ideal) Cert.KernelIdeal.κ "neg_big" (φ := .f32) 0xFF333332#32)) (ix2 r j)
      = if BitVec.ofNat 32 j.val = w (ix2 r j) then zH x0 x2 r j else ⊥ := by
  show Scalar.select (IntOp.cmpi .eq (BitVec.ofNat 32 (0 * 2502 + j.val)) (w (ix2 r j)))
    (k0_pay9 (F := Ideal) x0 x2 (ix2 r j))
    (Named.named (F := Ideal) Cert.KernelIdeal.κ "neg_big" (φ := .f32) 0xFF333332#32) = _
  rw [pay9_apply, neg_big_eq, Nat.zero_mul, Nat.zero_add]
  unfold Scalar.select IntOp.cmpi
  by_cases h : BitVec.ofNat 32 j.val = w (ix2 r j)
  · simp [h]
  · have hb : (BitVec.ofNat 32 j.val == w (ix2 r j)) = false := beq_eq_false_iff_ne.mpr h
    simp [h, hb]

/-- The row maximum of the masked logits is the logit at the column `t` the words name. -/
theorem pick_apply (x0 : Vec Ideal S256x256 .bf16) (x2 : Vec Ideal S256x2502 .bf16) (w : IVec S256x2502 32)
    (r : Fin 256) (t : Fin 2502) (ht : ∀ j : Fin 2502, (w (ix2 r j)).toNat = t.val) :
    multiReduction (F := Ideal) .maximumf [1] S256
        (select (cmpi .eq (iota .tc S256x2502 32 [1] iota_S256x2502_d1_w32) w) (k0_pay9 (F := Ideal) x0 x2)
          (broadcast S256x2502 (Named.named (F := Ideal) Cert.KernelIdeal.κ "neg_big" (φ := .f32) 0xFF333332#32)))
        0xFF800000#32 reduces_S256x2502_S256 (.inl rfl) rfl (ix1 r)
      = zH x0 x2 r t := by
  refine (rowmax_apply _ r).trans ?_
  have hrow : (fun j : Fin 2502 =>
      select (cmpi .eq (iota .tc S256x2502 32 [1] iota_S256x2502_d1_w32) w) (k0_pay9 (F := Ideal) x0 x2)
        (broadcast S256x2502 (Named.named (F := Ideal) Cert.KernelIdeal.κ "neg_big" (φ := .f32) 0xFF333332#32)) (ix2 r j))
      = fun j => if j = t then zH x0 x2 r j else ⊥ := by
    funext j
    rw [masked_apply]
    by_cases h : j = t
    · rw [if_pos h, if_pos ((ofNat_eq_iff j _).2 (by rw [ht j, h]))]
    · rw [if_neg h, if_neg (fun e => h (Fin.ext (((ofNat_eq_iff j _).1 e).trans (ht j))))]
  rw [hrow]
  exact Cert.Lse.pick_eq (zH x0 x2 r) t

/-- Row `r`'s logits are real when the two blocks are. -/
theorem zH_real (x0 : Vec Ideal S256x256 .bf16) (x2 : Vec Ideal S256x2502 .bf16)
    (h0 : ∀ j, ∃ a : ℝ, x0 j = (a : EReal)) (h2 : ∀ j, ∃ a : ℝ, x2 j = (a : EReal)) (r : Fin 256) (j : Fin 2502) :
    ∃ a : ℝ, zH x0 x2 r j = (a : EReal) :=
  Cert.Lse.logits_real (fun d => x0 (ix2 r d)) (fun j d => x2 (ix2 d j)) (fun d => h0 _) (fun j d => h2 _) j

/-- A picked logit less the log-sum-exp column at row `r` is the log-softmax entry. -/
theorem pick_sub (x0 : Vec Ideal S256x256 .bf16) (x2 : Vec Ideal S256x2502 .bf16)
    (h0 : ∀ j, ∃ a : ℝ, x0 j = (a : EReal)) (h2 : ∀ j, ∃ a : ℝ, x2 j = (a : EReal)) (r : Fin 256) (t : Fin 2502) :
    zH x0 x2 r t - k0_pay10 (F := Ideal) x0 x2 (ix2 r 0) = Cert.Spec.lsm (zH x0 x2 r) t := by
  rw [pay10_apply]
  exact Cert.Lse.head_form (zH x0 x2 r) (zH_real x0 x2 h0 h2 r) t

/-- The pick at the clipped target, minus the log-sum-exp, is the log-softmax entry there. -/
theorem head_a (x0 : Vec Ideal S256x256 .bf16) (x1 : Vec Ideal S256x1 .i32) (x2 : Vec Ideal S256x2502 .bf16)
    (h0 : ∀ j, ∃ a : ℝ, x0 j = (a : EReal)) (h2 : ∀ j, ∃ a : ℝ, x2 j = (a : EReal)) (r : Fin 256) :
    k0_pay11 (F := Ideal) x0 x1 x2 (ix2 r 0)
      = Cert.Spec.lsm (zH x0 x2 r) ⟨Cert.Spec.clipNat 2499 (x1 (ix2 r 0)), Cert.Spec.clipNat_lt (by decide) _⟩ := by
  -- the compared word, at every column of row `r`, is the target clipped into `[0, 2499]`
  have ht : ∀ j : Fin 2502, ((broadcastTo S256x2502 (minsi (broadcast S256x1 2499#32) (maxsi (broadcast S256x1 0#32) (k0_pay8 (F := Ideal) x1))) broadcasts_S256x1_S256x2502) (ix2 r j)).toNat = Cert.Spec.clipNat 2499 (x1 (ix2 r 0)) := by
    intro j
    rw [broadcastTo_a1_ab_apply _ broadcasts_S256x1_S256x2502 r j]
    show (IntOp.minsi 2499#32 (IntOp.maxsi 0#32
      (shapeCast S256x1 (x1 : IVec S256x1 32) shapeCasts_S256x1_S256x1 (ix2 r 0)))).toNat = _
    rw [shapeCast_self]
    exact Cert.Spec.clip_toNat 2499 (by norm_num) _
  show shapeCast S256x1 (multiReduction (F := Ideal) .maximumf [1] S256
      (select (cmpi .eq (iota .tc S256x2502 32 [1] iota_S256x2502_d1_w32) (broadcastTo S256x2502 (minsi (broadcast S256x1 2499#32) (maxsi (broadcast S256x1 0#32) (k0_pay8 (F := Ideal) x1))) broadcasts_S256x1_S256x2502)) (k0_pay9 (F := Ideal) x0 x2)
        (broadcast S256x2502 (Named.named (F := Ideal) Cert.KernelIdeal.κ "neg_big" (φ := .f32) 0xFF333332#32)))
      0xFF800000#32 reduces_S256x2502_S256 (.inl rfl) rfl) shapeCasts_S256_S256x1 (ix2 r 0)
    - k0_pay10 (F := Ideal) x0 x2 (ix2 r 0) = _
  rw [shapeCast_a_a1_apply _ shapeCasts_S256_S256x1 r 0,
    pick_apply x0 x2 (broadcastTo S256x2502 (minsi (broadcast S256x1 2499#32) (maxsi (broadcast S256x1 0#32) (k0_pay8 (F := Ideal) x1))) broadcasts_S256x1_S256x2502) r ⟨Cert.Spec.clipNat 2499 (x1 (ix2 r 0)), Cert.Spec.clipNat_lt (by decide) _⟩ ht]
  exact pick_sub x0 x2 h0 h2 r _

/-- The pick at column 2500 (the first tail's cluster), minus the log-sum-exp. -/
theorem head_b (x0 : Vec Ideal S256x256 .bf16) (x2 : Vec Ideal S256x2502 .bf16)
    (h0 : ∀ j, ∃ a : ℝ, x0 j = (a : EReal)) (h2 : ∀ j, ∃ a : ℝ, x2 j = (a : EReal)) (r : Fin 256) :
    k0_pay12 (F := Ideal) x0 x2 (ix2 r 0) = Cert.Spec.lsm (zH x0 x2 r) ⟨2500, by decide⟩ := by
  show shapeCast S256x1 (multiReduction (F := Ideal) .maximumf [1] S256
      (select (cmpi .eq (iota .tc S256x2502 32 [1] iota_S256x2502_d1_w32) (broadcast S256x2502 2500#32)) (k0_pay9 (F := Ideal) x0 x2)
        (broadcast S256x2502 (Named.named (F := Ideal) Cert.KernelIdeal.κ "neg_big" (φ := .f32) 0xFF333332#32)))
      0xFF800000#32 reduces_S256x2502_S256 (.inl rfl) rfl) shapeCasts_S256_S256x1 (ix2 r 0)
    - k0_pay10 (F := Ideal) x0 x2 (ix2 r 0) = _
  rw [shapeCast_a_a1_apply _ shapeCasts_S256_S256x1 r 0,
    pick_apply x0 x2 (broadcast S256x2502 2500#32) r ⟨2500, by decide⟩ (fun _ => rfl)]
  exact pick_sub x0 x2 h0 h2 r _

/-- The pick at column 2501 (the second tail's cluster), minus the log-sum-exp. -/
theorem head_c (x0 : Vec Ideal S256x256 .bf16) (x2 : Vec Ideal S256x2502 .bf16)
    (h0 : ∀ j, ∃ a : ℝ, x0 j = (a : EReal)) (h2 : ∀ j, ∃ a : ℝ, x2 j = (a : EReal)) (r : Fin 256) :
    k0_pay14 (F := Ideal) (k0_pay10 (F := Ideal) x0 x2) (k0_pay13 (F := Ideal) x0 x2) (ix2 r 0)
      = Cert.Spec.lsm (zH x0 x2 r) ⟨2501, by decide⟩ := by
  show shapeCast S256x1 (multiReduction (F := Ideal) .maximumf [1] S256
      (select (cmpi .eq (iota .tc S256x2502 32 [1] iota_S256x2502_d1_w32) (broadcast S256x2502 2501#32)) (k0_pay9 (F := Ideal) x0 x2)
        (broadcast S256x2502 (Named.named (F := Ideal) Cert.KernelIdeal.κ "neg_big" (φ := .f32) 0xFF333332#32)))
      0xFF800000#32 reduces_S256x2502_S256 (.inl rfl) rfl) shapeCasts_S256_S256x1 (ix2 r 0)
    - k0_pay10 (F := Ideal) x0 x2 (ix2 r 0) = _
  rw [shapeCast_a_a1_apply _ shapeCasts_S256_S256x1 r 0,
    pick_apply x0 x2 (broadcast S256x2502 2501#32) r ⟨2501, by decide⟩ (fun _ => rfl)]
  exact pick_sub x0 x2 h0 h2 r _

end Cert.KernelIdeal.HeadVal

end
-- ==== Proof.KTail1.lean ====
/-
  The first tail's streamed log-softmax at one row of a block.

  The loop runs over 5 chunks of 1536 columns of the padded weights `x4` (64 × 7680; columns from 7500 on are
  padding). In chunk `k` the logits of row `r` are `∑ q, hid q * x4 (q, 1536 k + j)`, where
  `hid q = ∑ d, v1 (r, d) * v48 (d, q)` is the row's projection; columns at or past 7500 are masked to `-∞`.
  The carried triple is the running maximum, the running sum of exponentials rescaled to it, and the masked
  maximum that picks the target's logit. After the last chunk `tv - (m + log l)` is the log-softmax entry of the
  7500 real logits at the target `clip (tgt - 2500, 0, 7499)`.
-/
import proofs.«428924_j53884659696080_3_alg».proof.Proof.Gen.KernelIdeal.Loops
import proofs.«428924_j53884659696080_3_alg».proof.Proof.Spec
import proofs.«428924_j53884659696080_3_alg».proof.Proof.LseAlgebra
import Idealize.ShloMosaic.Lib.ValueIdx
import Idealize.ShloMosaic.Lib.ValueLayout
import Idealize.ShloMosaic.Lib.Pipeline.Value
import Idealize.ShloMosaic.PureOps.Ideal.Laws

set_option maxRecDepth 8192

noncomputable section

namespace Cert.KernelIdeal.Tail1Val

open Idealize.ShloMosaic Idealize.ShloMosaic.ValueIdx Cert.KernelIdeal Cert.KernelIdeal.Gen

/-! ## One trip's yield -/

/-- The chunk of trip `k`: columns `1536 k … 1536 k + 1535` of the padded weights. -/
def chunk (x4 : Vec Ideal S64x7680 .bf16) (k : Fin k0_t1_loop.trips) : Vec Ideal S64x1536 .bf16 :=
  View.ld x4 (Rect.unit (s := S64x7680) (k0_off1 k) S64x1536.size (k0_off1_inb k))

/-- What trip `k` yields from the carried triple: the three payloads over the chunk of the weights. -/
theorem tripR_eq (c : Dev nD) (i : grid0.Coords) (arg1 : Memref sig .tc .vmem S256x256 .bf16) (harg1 : arg1.IsWhole) (arg2 : Memref sig .tc .vmem S256x1 .i32) (harg2 : arg2.IsWhole) (arg3 : Memref sig .tc .vmem S256x2502 .bf16) (harg3 : arg3.IsWhole) (arg4 : Memref sig .tc .vmem S256x64 .bf16) (harg4 : arg4.IsWhole) (arg5 : Memref sig .tc .vmem S64x7680 .bf16) (harg5 : arg5.IsWhole) (arg6 : Memref sig .tc .vmem S256x16 .bf16) (harg6 : arg6.IsWhole) (arg7 : Memref sig .tc .vmem S16x40960 .bf16) (harg7 : arg7.IsWhole) (arg8 : Memref sig .tc .vmem S256 .f32) (harg8 : arg8.IsWhole)
    (v1 : FVec Ideal S256x256 .bf16) (v3 : IVec S256x1 32) (v15 v34 : FVec Ideal S256x1 .f32) (v39 : FVec Ideal S256 .f32)
    (v48 : Vec Ideal S256x64 .bf16) (x4 : Vec Ideal S64x7680 .bf16) (k : Fin k0_t1_loop.trips)
    (acc : FVec Ideal S256x1 .f32 × FVec Ideal S256x1 .f32 × FVec Ideal S256x1 .f32) :
    tripR_k0_t1 (F := Ideal) Variants.none c none i arg1 harg1 arg2 harg2 arg3 harg3 arg4 harg4 arg5 harg5 arg6 harg6 arg7 harg7 arg8 harg8 v1 v3 v15 v34 v39 v48 (harg5.unread x4) k acc
      = (k0_pay20 (F := Ideal) v1 v48 k acc.1 (chunk x4 k), k0_pay21 (F := Ideal) v1 v48 k acc.1 acc.2.1 (chunk x4 k),
          k0_pay22 (F := Ideal) v1 v3 v48 k acc.2.2 (chunk x4 k)) := by
  have e : View.readAt (Elt Ideal) arg5.view (Rect.unit (s := S64x7680) (k0_off1 k) S64x1536.size (k0_off1_inb k)).toLoadRect (harg5.unread x4) = chunk x4 k := by
    rw [View.readAt_eq_ld, harg5.read_unread]; rfl
  unfold tripR_k0_t1 trip_k0_t1
  dsimp only
  rw [e]

/-! ## The two products at an index -/

theorem lhsA_0 (i : S256x64.Idx) (q : dot_S256x256_S256x64_S256x64_1_0_0_1_n_n.contr.Idx) :
    (dot_S256x256_S256x64_S256x64_1_0_0_1_n_n.lhsIdx i q 0).val = (i 0).val := by
  unfold DotDims.lhsIdx
  rw [dif_neg (show ¬(0 : Fin S256x256.rank) ∈ dot_S256x256_S256x64_S256x64_1_0_0_1_n_n.lhsBatch by decide), dif_pos (show (0 : Fin S256x256.rank) ∈ dot_S256x256_S256x64_S256x64_1_0_0_1_n_n.lhsNonContracting by decide)]
  rfl
theorem lhsA_1 (i : S256x64.Idx) (q : dot_S256x256_S256x64_S256x64_1_0_0_1_n_n.contr.Idx) :
    (dot_S256x256_S256x64_S256x64_1_0_0_1_n_n.lhsIdx i q 1).val = (q ⟨0, by decide⟩).val :=
  dot_S256x256_S256x64_S256x64_1_0_0_1_n_n.lhsIdx_val_of_single rfl i q
theorem rhsA_0 (i : S256x64.Idx) (q : dot_S256x256_S256x64_S256x64_1_0_0_1_n_n.contr.Idx) :
    (dot_S256x256_S256x64_S256x64_1_0_0_1_n_n.rhsIdx i q 0).val = (q ⟨0, by decide⟩).val :=
  dot_S256x256_S256x64_S256x64_1_0_0_1_n_n.rhsIdx_val_of_single rfl i q
theorem rhsA_1 (i : S256x64.Idx) (q : dot_S256x256_S256x64_S256x64_1_0_0_1_n_n.contr.Idx) :
    (dot_S256x256_S256x64_S256x64_1_0_0_1_n_n.rhsIdx i q 1).val = (i 1).val := by
  unfold DotDims.rhsIdx
  rw [dif_neg (show ¬(1 : Fin S256x64.rank) ∈ dot_S256x256_S256x64_S256x64_1_0_0_1_n_n.rhsBatch by decide), dif_pos (show (1 : Fin S256x64.rank) ∈ dot_S256x256_S256x64_S256x64_1_0_0_1_n_n.rhsNonContracting by decide)]
  rfl

/-- The product into a zero accumulator, at `(r, c)`: the sum over the contracted coordinate. -/
theorem matmulA_apply (a : FVec Ideal S256x256 .bf16) (b : FVec Ideal S256x64 .bf16) (r : Fin 256) (c : Fin 64) :
    matmul dot_S256x256_S256x64_S256x64_1_0_0_1_n_n none a b (constant (F := Ideal) S256x64 .f32 0x00000000#32) (ix2 r c)
      = ∑ d : Fin 256, a (ix2 r d) * b (ix2 d c) := by
  simp only [matmul]
  rw [Ideal.matmul_constant_zero_apply, ← Equiv.sum_comp (contrEquiv1 dot_S256x256_S256x64_S256x64_1_0_0_1_n_n 256 rfl rfl).symm]
  refine Finset.sum_congr rfl fun k _ => ?_
  have hk := contrEquiv1_symm_val dot_S256x256_S256x64_S256x64_1_0_0_1_n_n 256 rfl rfl k
  have el : dot_S256x256_S256x64_S256x64_1_0_0_1_n_n.lhsIdx (ix2 r c) ((contrEquiv1 dot_S256x256_S256x64_S256x64_1_0_0_1_n_n 256 rfl rfl).symm k) = ix2 r k := funext fun a => Fin.ext (by
    match a with
    | ⟨0, _⟩ => exact lhsA_0 _ _
    | ⟨1, _⟩ => exact (lhsA_1 _ _).trans hk)
  have er : dot_S256x256_S256x64_S256x64_1_0_0_1_n_n.rhsIdx (ix2 r c) ((contrEquiv1 dot_S256x256_S256x64_S256x64_1_0_0_1_n_n 256 rfl rfl).symm k) = ix2 k c := funext fun a => Fin.ext (by
    match a with
    | ⟨0, _⟩ => exact (rhsA_0 _ _).trans hk
    | ⟨1, _⟩ => exact rhsA_1 _ _)
  rw [el, er]

theorem lhsB_0 (i : S256x1536.Idx) (q : dot_S256x64_S64x1536_S256x1536_1_0_0_1_n_n.contr.Idx) :
    (dot_S256x64_S64x1536_S256x1536_1_0_0_1_n_n.lhsIdx i q 0).val = (i 0).val := by
  unfold DotDims.lhsIdx
  rw [dif_neg (show ¬(0 : Fin S256x64.rank) ∈ dot_S256x64_S64x1536_S256x1536_1_0_0_1_n_n.lhsBatch by decide), dif_pos (show (0 : Fin S256x64.rank) ∈ dot_S256x64_S64x1536_S256x1536_1_0_0_1_n_n.lhsNonContracting by decide)]
  rfl
theorem lhsB_1 (i : S256x1536.Idx) (q : dot_S256x64_S64x1536_S256x1536_1_0_0_1_n_n.contr.Idx) :
    (dot_S256x64_S64x1536_S256x1536_1_0_0_1_n_n.lhsIdx i q 1).val = (q ⟨0, by decide⟩).val :=
  dot_S256x64_S64x1536_S256x1536_1_0_0_1_n_n.lhsIdx_val_of_single rfl i q
theorem rhsB_0 (i : S256x1536.Idx) (q : dot_S256x64_S64x1536_S256x1536_1_0_0_1_n_n.contr.Idx) :
    (dot_S256x64_S64x1536_S256x1536_1_0_0_1_n_n.rhsIdx i q 0).val = (q ⟨0, by decide⟩).val :=
  dot_S256x64_S64x1536_S256x1536_1_0_0_1_n_n.rhsIdx_val_of_single rfl i q
theorem rhsB_1 (i : S256x1536.Idx) (q : dot_S256x64_S64x1536_S256x1536_1_0_0_1_n_n.contr.Idx) :
    (dot_S256x64_S64x1536_S256x1536_1_0_0_1_n_n.rhsIdx i q 1).val = (i 1).val := by
  unfold DotDims.rhsIdx
  rw [dif_neg (show ¬(1 : Fin S64x1536.rank) ∈ dot_S256x64_S64x1536_S256x1536_1_0_0_1_n_n.rhsBatch by decide), dif_pos (show (1 : Fin S64x1536.rank) ∈ dot_S256x64_S64x1536_S256x1536_1_0_0_1_n_n.rhsNonContracting by decide)]
  rfl

/-- The product into a zero accumulator, at `(r, c)`: the sum over the contracted coordinate. -/
theorem matmulB_apply (a : FVec Ideal S256x64 .bf16) (b : FVec Ideal S64x1536 .bf16) (r : Fin 256) (c : Fin 1536) :
    matmul dot_S256x64_S64x1536_S256x1536_1_0_0_1_n_n none a b (constant (F := Ideal) S256x1536 .f32 0x00000000#32) (ix2 r c)
      = ∑ d : Fin 64, a (ix2 r d) * b (ix2 d c) := by
  simp only [matmul]
  rw [Ideal.matmul_constant_zero_apply, ← Equiv.sum_comp (contrEquiv1 dot_S256x64_S64x1536_S256x1536_1_0_0_1_n_n 64 rfl rfl).symm]
  refine Finset.sum_congr rfl fun k _ => ?_
  have hk := contrEquiv1_symm_val dot_S256x64_S64x1536_S256x1536_1_0_0_1_n_n 64 rfl rfl k
  have el : dot_S256x64_S64x1536_S256x1536_1_0_0_1_n_n.lhsIdx (ix2 r c) ((contrEquiv1 dot_S256x64_S64x1536_S256x1536_1_0_0_1_n_n 64 rfl rfl).symm k) = ix2 r k := funext fun a => Fin.ext (by
    match a with
    | ⟨0, _⟩ => exact lhsB_0 _ _
    | ⟨1, _⟩ => exact (lhsB_1 _ _).trans hk)
  have er : dot_S256x64_S64x1536_S256x1536_1_0_0_1_n_n.rhsIdx (ix2 r c) ((contrEquiv1 dot_S256x64_S64x1536_S256x1536_1_0_0_1_n_n 64 rfl rfl).symm k) = ix2 k c := funext fun a => Fin.ext (by
    match a with
    | ⟨0, _⟩ => exact (rhsB_0 _ _).trans hk
    | ⟨1, _⟩ => exact rhsB_1 _ _)
  rw [el, er]

/-! ## Layout: a column of row values -/

/-- A vector of `a` row values cast to a column reads, at `(i, u)`, the value of row `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along its rows reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two row reductions -/

theorem ofBits_neg_inf : Ideal.ofBits .f32 0xFF800000#32 = ⊥ := by simp [Ideal.ofBits, Ideal.ieee]

/-- The maximum over a row: the fold of `max` from `-∞` over the row's entries. -/
theorem rowMax_apply (src : FVec Ideal S256x1536 .f32) (r : Fin 256) :
    multiReduction (F := Ideal) .maximumf [1] S256 src 0xFF800000#32 reduces_S256x1536_S256 (.inl rfl) rfl (ix1 r)
      = (Finset.univ : Finset (Fin 1536)).fold max ⊥ (fun j => src (ix2 r j)) := by
  refine (Ideal.multiReduction_maximumf_single src 0xFF800000#32 reduces_S256x1536_S256 (.inl rfl) rfl (ix1 r)).trans ?_
  show (Finset.univ : Finset (Fin 1536)).fold max (Ideal.ofBits .f32 0xFF800000#32) _ = _
  rw [ofBits_neg_inf]
  congr 1
  funext j
  show src _ = src _
  congr 1
  funext a
  match a with
  | ⟨0, _⟩ => rfl
  | ⟨1, _⟩ => rfl

/-- The sum over a row. -/
theorem rowSum_apply (src : FVec Ideal S256x1536 .f32) (r : Fin 256) :
    multiReduction (F := Ideal) .add [1] S256 src 0x00000000#32 reduces_S256x1536_S256 (.inl rfl) rfl (ix1 r)
      = ∑ j : Fin 1536, src (ix2 r j) := by
  refine (Ideal.multiReduction_add_single src 0x00000000#32 reduces_S256x1536_S256 (.inl rfl) rfl (ix1 r)).trans ?_
  refine Finset.sum_congr rfl fun j _ => ?_
  congr 1
  funext a
  match a with
  | ⟨0, _⟩ => rfl
  | ⟨1, _⟩ => rfl

/-! ## Words: the column number and the two compares -/

theorem toInt_word (n : ℕ) (hn : n < 2 ^ 31) : (BitVec.ofNat 32 n).toInt = (n : ℤ) := by
  have h1 : (BitVec.ofNat 32 n).toNat = n := by
    rw [BitVec.toNat_ofNat]; omega
  rw [BitVec.toInt_eq_toNat_of_lt (by rw [h1]; omega), h1]

theorem word_toNat (n : ℕ) (hn : n < 2 ^ 32) : (BitVec.ofNat 32 n).toNat = n := by
  rw [BitVec.toNat_ofNat]; omega

/-- The signed compare of two small words is the compare of the numbers. -/
theorem slt_word (n m : ℕ) (hn : n < 2 ^ 31) (hm : m < 2 ^ 31) :
    IntOp.cmpi .slt (BitVec.ofNat 32 n) (BitVec.ofNat 32 m) = (1 : BitVec 1) ↔ n < m := by
  show BitVec.ofBool ((BitVec.ofNat 32 n).slt (BitVec.ofNat 32 m)) = 1#1 ↔ _
  rw [BitVec.slt, toInt_word n hn, toInt_word m hm]
  by_cases h : n < m
  · simp [h]
  · simp [h]

/-- The equality compare of two words is the equality of their numbers. -/
theorem eq_word (x y : BitVec 32) : IntOp.cmpi .eq x y = (1 : BitVec 1) ↔ x.toNat = y.toNat := by
  show BitVec.ofBool (x == y) = 1#1 ↔ _
  by_cases h : x = y
  · subst h; simp
  · have hb : (x == y) = false := beq_false_of_ne h
    have : ¬ x.toNat = y.toNat := fun e => h (BitVec.eq_of_toNat_eq e)
    rw [hb]; simp [this]

/-- Chunk `k`'s first column times the chunk width, plus the lane, as a word: no wrap. -/
theorem col_word (k j : ℕ) (hk : k < 5) (hj : j < 1536) :
    IntOp.addi (Scalar.muli (Scf.iv 0#32 1#32 k) 1536#32) (BitVec.ofNat 32 (0 * 1536 + j)) = BitVec.ofNat 32 (1536 * k + j) := by
  apply BitVec.eq_of_toNat_eq
  simp [IntOp.addi, Scalar.muli, IntOp.muli, Scf.iv, BitVec.toNat_add, BitVec.toNat_mul, BitVec.toNat_ofNat]
  omega

theorem trip_lt (k : Fin k0_t1_loop.trips) : k.val < 5 := Nat.lt_of_lt_of_le k.isLt k0_t1_abs.2.1

/-- The column word of chunk `k` at lane `j` (the same on every row). -/
theorem pay18_apply (k : Fin k0_t1_loop.trips) (r : Fin 256) (j : Fin 1536) :
    k0_pay18 k (ix2 r j) = BitVec.ofNat 32 (1536 * k.val + j.val) := by
  unfold k0_pay18
  exact col_word k.val j.val (trip_lt k) j.isLt

/-! ## The chunk of the weights, and the trip's three payloads at a row -/

/-- The chunk at `(q, j)` is the padded weights at `(q, 1536 k + j)`. -/
theorem chunk_apply (x4 : Vec Ideal S64x7680 .bf16) (k : Fin k0_t1_loop.trips) (q : Fin 64) (j : Fin 1536)
    (h : 1536 * k.val + j.val < 7680) :
    chunk x4 k (ix2 q j) = x4 (ix2 q ⟨1536 * k.val + j.val, h⟩) := by
  show x4 _ = x4 _
  congr 1
  funext a
  refine Fin.ext ?_
  match a with
  | ⟨0, _⟩ =>
    show k0_off1 k 0 + 1 * q.val = q.val
    rw [k0_off1_eq]; simp
  | ⟨1, _⟩ =>
    show k0_off1 k 1 + 1 * j.val = 1536 * k.val + j.val
    rw [k0_off1_eq]; simp

/-- The chunk's masked logits at `(r, j)`: the row's projection against column `j` of the chunk where the
    column `1536 k + j` is a real one, `-∞` on the padding. -/
theorem pay19_apply (v1 : FVec Ideal S256x256 .bf16) (v48 : Vec Ideal S256x64 .bf16) (k : Fin k0_t1_loop.trips)
    (ch : Vec Ideal S64x1536 .bf16) (r : Fin 256) (j : Fin 1536) :
    k0_pay19 (F := Ideal) v1 v48 k ch (ix2 r j)
      = if 1536 * k.val + j.val < 7500 then ∑ q : Fin 64, (∑ d : Fin 256, v1 (ix2 r d) * v48 (ix2 d q)) * ch (ix2 q j)
        else ⊥ := by
  have hk := trip_lt k
  have hj := j.isLt
  unfold k0_pay19
  simp only [shapeCast_self]
  show Scalar.select (IntOp.cmpi .slt (k0_pay18 k (ix2 r j)) 7500#32)
      (matmul dot_S256x64_S64x1536_S256x1536_1_0_0_1_n_n none
        (truncf .bf16 (matmul dot_S256x256_S256x64_S256x64_1_0_0_1_n_n none v1 v48 (constant (F := Ideal) S256x64 .f32 0x00000000#32)) bitsLt_bf16_f32)
        ch (constant (F := Ideal) S256x1536 .f32 0x00000000#32) (ix2 r j))
      (Named.named (F := Ideal) κ "neg_big" (φ := .f32) 0xFF333332#32) = _
  rw [matmulB_apply, pay18_apply, IdealRules.named_const.ideal_named_scalar _ _ _ _ rfl]
  unfold Scalar.select
  by_cases h : 1536 * k.val + j.val < 7500
  · rw [if_pos ((slt_word _ _ (by omega) (by omega)).mpr h), if_pos h]
    refine Finset.sum_congr rfl fun q _ => ?_
    rw [truncf_apply, matmulA_apply]
  · rw [if_neg (fun e => h ((slt_word _ _ (by omega) (by omega)).mp e)), if_neg h]

/-- The new running maximum at row `r`. -/
theorem pay20_apply (v1 : FVec Ideal S256x256 .bf16) (v48 : Vec Ideal S256x64 .bf16) (k : Fin k0_t1_loop.trips)
    (m : FVec Ideal S256x1 .f32) (ch : Vec Ideal S64x1536 .bf16) (r : Fin 256) :
    k0_pay20 (F := Ideal) v1 v48 k m ch (ix2 r 0)
      = max (m (ix2 r 0))
          ((Finset.univ : Finset (Fin 1536)).fold max ⊥ fun j => k0_pay19 (F := Ideal) v1 v48 k ch (ix2 r j)) := by
  unfold k0_pay20
  show max (m (ix2 r 0))
      (shapeCast S256x1 (multiReduction (F := Ideal) .maximumf [1] S256 (k0_pay19 (F := Ideal) v1 v48 k ch) 0xFF800000#32
        reduces_S256x1536_S256 (.inl rfl) rfl) shapeCasts_S256_S256x1 (ix2 r 0)) = _
  rw [shapeCast_a_a1_apply, rowMax_apply]

/-- The rescaled running sum at row `r`. -/
theorem pay21_apply (v1 : FVec Ideal S256x256 .bf16) (v48 : Vec Ideal S256x64 .bf16) (k : Fin k0_t1_loop.trips)
    (m l : FVec Ideal S256x1 .f32) (ch : Vec Ideal S64x1536 .bf16) (r : Fin 256) :
    k0_pay21 (F := Ideal) v1 v48 k m l ch (ix2 r 0)
      = l (ix2 r 0) * Ideal.exp (m (ix2 r 0) - k0_pay20 (F := Ideal) v1 v48 k m ch (ix2 r 0))
        + ∑ j : Fin 1536, Ideal.exp (k0_pay19 (F := Ideal) v1 v48 k ch (ix2 r j)
            - k0_pay20 (F := Ideal) v1 v48 k m ch (ix2 r 0)) := by
  unfold k0_pay21
  show l (ix2 r 0) * Ideal.exp (m (ix2 r 0) - k0_pay20 (F := Ideal) v1 v48 k m ch (ix2 r 0))
      + shapeCast S256x1 (multiReduction (F := Ideal) .add [1] S256
          (exp (subf (k0_pay19 (F := Ideal) v1 v48 k ch)
            (broadcastTo S256x1536 (k0_pay20 (F := Ideal) v1 v48 k m ch) broadcasts_S256x1_S256x1536)))
          0x00000000#32 reduces_S256x1536_S256 (.inl rfl) rfl) shapeCasts_S256_S256x1 (ix2 r 0) = _
  rw [shapeCast_a_a1_apply, rowSum_apply]
  congr 1
  refine Finset.sum_congr rfl fun j _ => ?_
  show Ideal.exp (k0_pay19 (F := Ideal) v1 v48 k ch (ix2 r j)
      - broadcastTo S256x1536 (k0_pay20 (F := Ideal) v1 v48 k m ch) broadcasts_S256x1_S256x1536 (ix2 r j)) = _
  rw [broadcastTo_a1_ab_apply]

/-- The target pick at row `r`: the masked maximum over the lanes whose column is the clipped, shifted target. -/
theorem pay22_apply (v1 : FVec Ideal S256x256 .bf16) (v3 : IVec S256x1 32) (v48 : Vec Ideal S256x64 .bf16)
    (k : Fin k0_t1_loop.trips) (t : FVec Ideal S256x1 .f32) (ch : Vec Ideal S64x1536 .bf16) (r : Fin 256) :
    k0_pay22 (F := Ideal) v1 v3 v48 k t ch (ix2 r 0)
      = max (t (ix2 r 0))
          ((Finset.univ : Finset (Fin 1536)).fold max ⊥ fun j =>
            if 1536 * k.val + j.val = (IntOp.minsi 7499#32 (IntOp.maxsi 0#32 (v3 (ix2 r 0) - 2500#32))).toNat
              then k0_pay19 (F := Ideal) v1 v48 k ch (ix2 r j) else ⊥) := by
  have hk := trip_lt k
  unfold k0_pay22
  show max (t (ix2 r 0))
      (shapeCast S256x1 (multiReduction (F := Ideal) .maximumf [1] S256
        (select (cmpi .eq (k0_pay18 k)
            (broadcastTo S256x1536 (minsi (broadcast S256x1 7499#32) (maxsi (broadcast S256x1 0#32) (subi v3 (broadcast S256x1 2500#32))))
              broadcasts_S256x1_S256x1536))
          (k0_pay19 (F := Ideal) v1 v48 k ch) (broadcast S256x1536 (Named.named (F := Ideal) κ "neg_big" (φ := .f32) 0xFF333332#32)))
        0xFF800000#32 reduces_S256x1536_S256 (.inl rfl) rfl) shapeCasts_S256_S256x1 (ix2 r 0)) = _
  rw [shapeCast_a_a1_apply, rowMax_apply]
  congr 2
  funext j
  have hj := j.isLt
  show Scalar.select (IntOp.cmpi .eq (k0_pay18 k (ix2 r j))
        (broadcastTo S256x1536 (minsi (broadcast S256x1 7499#32) (maxsi (broadcast S256x1 0#32) (subi v3 (broadcast S256x1 2500#32))))
          broadcasts_S256x1_S256x1536 (ix2 r j)))
      (k0_pay19 (F := Ideal) v1 v48 k ch (ix2 r j)) (Named.named (F := Ideal) κ "neg_big" (φ := .f32) 0xFF333332#32) = _
  rw [broadcastTo_a1_ab_apply, pay18_apply, IdealRules.named_const.ideal_named_scalar _ _ _ _ rfl]
  show Scalar.select (IntOp.cmpi .eq (BitVec.ofNat 32 (1536 * k.val + j.val))
        (IntOp.minsi 7499#32 (IntOp.maxsi 0#32 (v3 (ix2 r 0) - 2500#32)))) _ _ = _
  unfold Scalar.select
  by_cases h : 1536 * k.val + j.val = (IntOp.minsi 7499#32 (IntOp.maxsi 0#32 (v3 (ix2 r 0) - 2500#32))).toNat
  · rw [if_pos ((eq_word _ _).mpr (by rw [word_toNat (1536 * k.val + j.val) (by omega)]; exact h)), if_pos h]
  · rw [if_neg (fun e => h (by have := (eq_word _ _).mp e; rwa [word_toNat (1536 * k.val + j.val) (by omega)] at this)), if_neg h]

/-! ## The row's stream: chunks of the real logits, and the target's lane -/

/-- Row `r`'s 7500 real logits of the first tail (as the claim writes them). -/
abbrev zrow (v1 : FVec Ideal S256x256 .bf16) (v48 : Vec Ideal S256x64 .bf16) (x4 : Vec Ideal S64x7680 .bf16) (r : Fin 256) :
    Fin 7500 → EReal :=
  Cert.Spec.logits (Cert.Spec.logits (fun d => v1 (ix2 r d)) (fun q d => v48 (ix2 d q)))
    (fun cc q => x4 (ix2 q (Fin.castLE (by decide : 7500 ≤ 7680) cc)))

/-- Chunk `c` of the row's logits, `-∞` on the padding columns. -/
def ych (v1 : FVec Ideal S256x256 .bf16) (v48 : Vec Ideal S256x64 .bf16) (x4 : Vec Ideal S64x7680 .bf16) (r : Fin 256)
    (c : Fin 5) (j : Fin 1536) : EReal :=
  if h : c.val * 1536 + j.val < 7500 then zrow v1 v48 x4 r ⟨c.val * 1536 + j.val, h⟩ else ⊥

/-- The row's target column: the target shifted into the cluster and clipped. -/
abbrev tgt (v3 : IVec S256x1 32) (r : Fin 256) : ℕ := Cert.Spec.clipNat 7499 (v3 (ix2 r 0) - 2500#32)

/-- Whether lane `j` of chunk `c` is the target column. -/
def hitch (v3 : IVec S256x1 32) (r : Fin 256) (c : Fin 5) (j : Fin 1536) : Bool :=
  decide (c.val * 1536 + j.val = tgt v3 r)

theorem trips_eq : k0_t1_loop.trips = 5 := by decide

/-- The chunk's masked logits at row `r` are chunk `k` of the row's stream. -/
theorem pay19_chunk (v1 : FVec Ideal S256x256 .bf16) (v48 : Vec Ideal S256x64 .bf16) (x4 : Vec Ideal S64x7680 .bf16)
    (k : Fin k0_t1_loop.trips) (r : Fin 256) (j : Fin 1536) :
    k0_pay19 (F := Ideal) v1 v48 k (chunk x4 k) (ix2 r j) = ych v1 v48 x4 r ⟨k.val, trip_lt k⟩ j := by
  have hk := trip_lt k
  have hj := j.isLt
  rw [pay19_apply]
  unfold ych
  by_cases h : 1536 * k.val + j.val < 7500
  · have h' : k.val * 1536 + j.val < 7500 := by omega
    rw [if_pos h, dif_pos h']
    show _ = ∑ q : Fin 64, (∑ d : Fin 256, v1 (ix2 r d) * v48 (ix2 d q))
        * x4 (ix2 q (Fin.castLE (by decide : 7500 ≤ 7680) ⟨k.val * 1536 + j.val, h'⟩))
    refine Finset.sum_congr rfl fun q _ => ?_
    rw [chunk_apply x4 k q j (by omega)]
    congr 3
    refine Fin.ext ?_
    show 1536 * k.val + j.val = k.val * 1536 + j.val
    omega
  · rw [if_neg h, dif_neg (by show ¬ k.val * 1536 + j.val < 7500; omega)]

/-- ONE TRIP AT A ROW: the three payloads are one step of the stream on the row's carried triple. -/
theorem trip_row (c : Dev nD) (i : grid0.Coords) (arg1 : Memref sig .tc .vmem S256x256 .bf16) (harg1 : arg1.IsWhole) (arg2 : Memref sig .tc .vmem S256x1 .i32) (harg2 : arg2.IsWhole) (arg3 : Memref sig .tc .vmem S256x2502 .bf16) (harg3 : arg3.IsWhole) (arg4 : Memref sig .tc .vmem S256x64 .bf16) (harg4 : arg4.IsWhole) (arg5 : Memref sig .tc .vmem S64x7680 .bf16) (harg5 : arg5.IsWhole) (arg6 : Memref sig .tc .vmem S256x16 .bf16) (harg6 : arg6.IsWhole) (arg7 : Memref sig .tc .vmem S16x40960 .bf16) (harg7 : arg7.IsWhole) (arg8 : Memref sig .tc .vmem S256 .f32) (harg8 : arg8.IsWhole)
    (v1 : FVec Ideal S256x256 .bf16) (v3 : IVec S256x1 32) (v15 v34 : FVec Ideal S256x1 .f32) (v39 : FVec Ideal S256 .f32)
    (v48 : Vec Ideal S256x64 .bf16) (x4 : Vec Ideal S64x7680 .bf16) (k : Fin k0_t1_loop.trips)
    (acc : FVec Ideal S256x1 .f32 × FVec Ideal S256x1 .f32 × FVec Ideal S256x1 .f32) (r : Fin 256) :
    ((tripR_k0_t1 (F := Ideal) Variants.none c none i arg1 harg1 arg2 harg2 arg3 harg3 arg4 harg4 arg5 harg5 arg6 harg6 arg7 harg7 arg8 harg8 v1 v3 v15 v34 v39 v48 (harg5.unread x4) k acc).1 (ix2 r 0),
      (tripR_k0_t1 (F := Ideal) Variants.none c none i arg1 harg1 arg2 harg2 arg3 harg3 arg4 harg4 arg5 harg5 arg6 harg6 arg7 harg7 arg8 harg8 v1 v3 v15 v34 v39 v48 (harg5.unread x4) k acc).2.1 (ix2 r 0),
      (tripR_k0_t1 (F := Ideal) Variants.none c none i arg1 harg1 arg2 harg2 arg3 harg3 arg4 harg4 arg5 harg5 arg6 harg6 arg7 harg7 arg8 harg8 v1 v3 v15 v34 v39 v48 (harg5.unread x4) k acc).2.2 (ix2 r 0))
      = Cert.Lse.step (ych v1 v48 x4 r ⟨k.val, trip_lt k⟩) (hitch v3 r ⟨k.val, trip_lt k⟩)
          (acc.1 (ix2 r 0), acc.2.1 (ix2 r 0), acc.2.2 (ix2 r 0)) := by
  have hk := trip_lt k
  rw [tripR_eq]
  have hY : (fun j : Fin 1536 => k0_pay19 (F := Ideal) v1 v48 k (chunk x4 k) (ix2 r j)) = ych v1 v48 x4 r ⟨k.val, trip_lt k⟩ :=
    funext fun j => pay19_chunk v1 v48 x4 k r j
  have h20 : k0_pay20 (F := Ideal) v1 v48 k acc.1 (chunk x4 k) (ix2 r 0)
      = max (acc.1 (ix2 r 0)) (Cert.Spec.rowMax (ych v1 v48 x4 r ⟨k.val, trip_lt k⟩)) := by
    rw [pay20_apply, hY]; rfl
  have h21 : k0_pay21 (F := Ideal) v1 v48 k acc.1 acc.2.1 (chunk x4 k) (ix2 r 0)
      = acc.2.1 (ix2 r 0) * Ideal.exp (acc.1 (ix2 r 0) - max (acc.1 (ix2 r 0)) (Cert.Spec.rowMax (ych v1 v48 x4 r ⟨k.val, trip_lt k⟩)))
        + ∑ j : Fin 1536, Ideal.exp (ych v1 v48 x4 r ⟨k.val, trip_lt k⟩ j
            - max (acc.1 (ix2 r 0)) (Cert.Spec.rowMax (ych v1 v48 x4 r ⟨k.val, trip_lt k⟩))) := by
    rw [pay21_apply, h20]
    congr 1
    refine Finset.sum_congr rfl fun j _ => ?_
    rw [pay19_chunk]
  have h22 : k0_pay22 (F := Ideal) v1 v3 v48 k acc.2.2 (chunk x4 k) (ix2 r 0)
      = max (acc.2.2 (ix2 r 0)) (Cert.Spec.rowMax fun j : Fin 1536 =>
          if hitch v3 r ⟨k.val, trip_lt k⟩ j then ych v1 v48 x4 r ⟨k.val, trip_lt k⟩ j else ⊥) := by
    rw [pay22_apply]
    show max _ (Cert.Spec.rowMax _) = _
    congr 2
    funext j
    rw [pay19_chunk, Cert.Spec.clip_toNat 7499 (by decide) (v3 (ix2 r 0) - 2500#32)]
    unfold hitch
    by_cases h : 1536 * k.val + j.val = tgt v3 r
    · have h' : k.val * 1536 + j.val = tgt v3 r := by omega
      rw [if_pos h, if_pos (decide_eq_true h')]
    · have h' : ¬ k.val * 1536 + j.val = tgt v3 r := by omega
      rw [if_neg h, if_neg (by simpa using h')]
  show (k0_pay20 (F := Ideal) v1 v48 k acc.1 (chunk x4 k) (ix2 r 0),
      k0_pay21 (F := Ideal) v1 v48 k acc.1 acc.2.1 (chunk x4 k) (ix2 r 0),
      k0_pay22 (F := Ideal) v1 v3 v48 k acc.2.2 (chunk x4 k) (ix2 r 0)) = _
  rw [h20, h21, h22]
  rfl

/-- THE STREAM AT A ROW: after `n` trips the carried triple at row `r` is the stream's state after `n` chunks. -/
theorem st_row (c : Dev nD) (i : grid0.Coords) (arg1 : Memref sig .tc .vmem S256x256 .bf16) (harg1 : arg1.IsWhole) (arg2 : Memref sig .tc .vmem S256x1 .i32) (harg2 : arg2.IsWhole) (arg3 : Memref sig .tc .vmem S256x2502 .bf16) (harg3 : arg3.IsWhole) (arg4 : Memref sig .tc .vmem S256x64 .bf16) (harg4 : arg4.IsWhole) (arg5 : Memref sig .tc .vmem S64x7680 .bf16) (harg5 : arg5.IsWhole) (arg6 : Memref sig .tc .vmem S256x16 .bf16) (harg6 : arg6.IsWhole) (arg7 : Memref sig .tc .vmem S16x40960 .bf16) (harg7 : arg7.IsWhole) (arg8 : Memref sig .tc .vmem S256 .f32) (harg8 : arg8.IsWhole)
    (v1 : FVec Ideal S256x256 .bf16) (v3 : IVec S256x1 32) (v15 v34 : FVec Ideal S256x1 .f32) (v39 : FVec Ideal S256 .f32)
    (v48 : Vec Ideal S256x64 .bf16) (x4 : Vec Ideal S64x7680 .bf16) (r : Fin 256) (n : ℕ) (hn : n ≤ 5) :
    ((st_k0_t1 (F := Ideal) Variants.none c none i arg1 harg1 arg2 harg2 arg3 harg3 arg4 harg4 arg5 harg5 arg6 harg6 arg7 harg7 arg8 harg8 v1 v3 v15 v34 v39 v48 (harg5.unread x4)
        (k0_pay15 (F := Ideal), k0_pay16 (F := Ideal), k0_pay17 (F := Ideal)) n).1 (ix2 r 0),
      (st_k0_t1 (F := Ideal) Variants.none c none i arg1 harg1 arg2 harg2 arg3 harg3 arg4 harg4 arg5 harg5 arg6 harg6 arg7 harg7 arg8 harg8 v1 v3 v15 v34 v39 v48 (harg5.unread x4)
        (k0_pay15 (F := Ideal), k0_pay16 (F := Ideal), k0_pay17 (F := Ideal)) n).2.1 (ix2 r 0),
      (st_k0_t1 (F := Ideal) Variants.none c none i arg1 harg1 arg2 harg2 arg3 harg3 arg4 harg4 arg5 harg5 arg6 harg6 arg7 harg7 arg8 harg8 v1 v3 v15 v34 v39 v48 (harg5.unread x4)
        (k0_pay15 (F := Ideal), k0_pay16 (F := Ideal), k0_pay17 (F := Ideal)) n).2.2 (ix2 r 0))
      = Cert.Lse.run 5 (ych v1 v48 x4 r) (hitch v3 r) n := by
  induction n with
  | zero =>
    rw [st_k0_t1_zero]
    show ((k0_pay15 (F := Ideal)) (ix2 r 0), (k0_pay16 (F := Ideal)) (ix2 r 0), (k0_pay17 (F := Ideal)) (ix2 r 0)) = (⊥, 0, ⊥)
    have e15 : (k0_pay15 (F := Ideal)) (ix2 r 0) = ⊥ := ofBits_neg_inf
    have e16 : (k0_pay16 (F := Ideal)) (ix2 r 0) = 0 := Ideal.ofBits_zero_f32
    have e17 : (k0_pay17 (F := Ideal)) (ix2 r 0) = ⊥ := IdealRules.named_const.ideal_named_scalar _ _ _ _ rfl
    rw [e15, e16, e17]
  | succ n ih =>
    have hn' : n < 5 := hn
    have ht : n < k0_t1_loop.trips := by rw [trips_eq]; exact hn'
    have hs := st_k0_t1_succ (F := Ideal) Variants.none c none i arg1 harg1 arg2 harg2 arg3 harg3 arg4 harg4 arg5 harg5 arg6 harg6 arg7 harg7 arg8 harg8 v1 v3 v15 v34 v39 v48 (harg5.unread x4)
      (k0_pay15 (F := Ideal), k0_pay16 (F := Ideal), k0_pay17 (F := Ideal)) ⟨n, ht⟩
    have hs' : st_k0_t1 (F := Ideal) Variants.none c none i arg1 harg1 arg2 harg2 arg3 harg3 arg4 harg4 arg5 harg5 arg6 harg6 arg7 harg7 arg8 harg8 v1 v3 v15 v34 v39 v48 (harg5.unread x4)
        (k0_pay15 (F := Ideal), k0_pay16 (F := Ideal), k0_pay17 (F := Ideal)) (n + 1) = _ := hs
    rw [hs', trip_row c i arg1 harg1 arg2 harg2 arg3 harg3 arg4 harg4 arg5 harg5 arg6 harg6 arg7 harg7 arg8 harg8 v1 v3 v15 v34 v39 v48 x4 ⟨n, ht⟩ _ r, ih (Nat.le_of_lt hn')]
    show _ = if h : n < 5 then Cert.Lse.step (ych v1 v48 x4 r ⟨n, h⟩) (hitch v3 r ⟨n, h⟩) (Cert.Lse.run 5 (ych v1 v48 x4 r) (hitch v3 r) n)
      else Cert.Lse.run 5 (ych v1 v48 x4 r) (hitch v3 r) n
    rw [dif_pos hn']

/-- The loop's carried triple after its last trip, as the body's run states it. -/
abbrev fin1 (c : Dev nD) (i : grid0.Coords) (arg1 : Memref sig .tc .vmem S256x256 .bf16) (harg1 : arg1.IsWhole) (arg2 : Memref sig .tc .vmem S256x1 .i32) (harg2 : arg2.IsWhole) (arg3 : Memref sig .tc .vmem S256x2502 .bf16) (harg3 : arg3.IsWhole) (arg4 : Memref sig .tc .vmem S256x64 .bf16) (harg4 : arg4.IsWhole) (arg5 : Memref sig .tc .vmem S64x7680 .bf16) (harg5 : arg5.IsWhole) (arg6 : Memref sig .tc .vmem S256x16 .bf16) (harg6 : arg6.IsWhole) (arg7 : Memref sig .tc .vmem S16x40960 .bf16) (harg7 : arg7.IsWhole) (arg8 : Memref sig .tc .vmem S256 .f32) (harg8 : arg8.IsWhole)
    (v1 : FVec Ideal S256x256 .bf16) (v3 : IVec S256x1 32) (v15 v34 : FVec Ideal S256x1 .f32) (v39 : FVec Ideal S256 .f32)
    (v48 : Vec Ideal S256x64 .bf16) (x4 : Vec Ideal S64x7680 .bf16) :
    FVec Ideal S256x1 .f32 × FVec Ideal S256x1 .f32 × FVec Ideal S256x1 .f32 :=
  st_k0_t1 (F := Ideal) Variants.none c none i arg1 harg1 arg2 harg2 arg3 harg3 arg4 harg4 arg5 harg5 arg6 harg6 arg7 harg7 arg8 harg8 v1 v3 v15 v34 v39 v48 (harg5.unread x4)
    (k0_pay15 (F := Ideal), k0_pay16 (F := Ideal), k0_pay17 (F := Ideal))
    (Scf.trips k0_t1_loop.lb k0_t1_loop.ub k0_t1_loop.st)

/-- Row `r`: the streamed triple closes to the log-softmax entry of the first tail's 7500 logits at the clipped,
    shifted target. -/
theorem tail1 (c : Dev nD) (i : grid0.Coords) (arg1 : Memref sig .tc .vmem S256x256 .bf16) (harg1 : arg1.IsWhole) (arg2 : Memref sig .tc .vmem S256x1 .i32) (harg2 : arg2.IsWhole) (arg3 : Memref sig .tc .vmem S256x2502 .bf16) (harg3 : arg3.IsWhole) (arg4 : Memref sig .tc .vmem S256x64 .bf16) (harg4 : arg4.IsWhole) (arg5 : Memref sig .tc .vmem S64x7680 .bf16) (harg5 : arg5.IsWhole) (arg6 : Memref sig .tc .vmem S256x16 .bf16) (harg6 : arg6.IsWhole) (arg7 : Memref sig .tc .vmem S16x40960 .bf16) (harg7 : arg7.IsWhole) (arg8 : Memref sig .tc .vmem S256 .f32) (harg8 : arg8.IsWhole)
    (v1 : FVec Ideal S256x256 .bf16) (v3 : IVec S256x1 32) (v15 v34 : FVec Ideal S256x1 .f32) (v39 : FVec Ideal S256 .f32)
    (v48 : Vec Ideal S256x64 .bf16) (x4 : Vec Ideal S64x7680 .bf16)
    (h1 : ∀ j, ∃ a : ℝ, v1 j = (a : EReal)) (h48 : ∀ j, ∃ a : ℝ, v48 j = (a : EReal))
    (h4 : ∀ j, ∃ a : ℝ, x4 j = (a : EReal)) (r : Fin 256) :
    (fin1 c i arg1 harg1 arg2 harg2 arg3 harg3 arg4 harg4 arg5 harg5 arg6 harg6 arg7 harg7 arg8 harg8 v1 v3 v15 v34 v39 v48 x4).2.2 (ix2 r 0)
        - ((fin1 c i arg1 harg1 arg2 harg2 arg3 harg3 arg4 harg4 arg5 harg5 arg6 harg6 arg7 harg7 arg8 harg8 v1 v3 v15 v34 v39 v48 x4).1 (ix2 r 0)
            + Ideal.log ((fin1 c i arg1 harg1 arg2 harg2 arg3 harg3 arg4 harg4 arg5 harg5 arg6 harg6 arg7 harg7 arg8 harg8 v1 v3 v15 v34 v39 v48 x4).2.1 (ix2 r 0)))
      = Cert.Spec.lsm
          (Cert.Spec.logits (Cert.Spec.logits (fun d => v1 (ix2 r d)) (fun q d => v48 (ix2 d q)))
            (fun cc q => x4 (ix2 q (Fin.castLE (by decide : 7500 ≤ 7680) cc))))
          ⟨Cert.Spec.clipNat 7499 (v3 (ix2 r 0) - 2500#32), Cert.Spec.clipNat_lt (by decide) _⟩ := by
  have hfin : fin1 c i arg1 harg1 arg2 harg2 arg3 harg3 arg4 harg4 arg5 harg5 arg6 harg6 arg7 harg7 arg8 harg8 v1 v3 v15 v34 v39 v48 x4
      = st_k0_t1 (F := Ideal) Variants.none c none i arg1 harg1 arg2 harg2 arg3 harg3 arg4 harg4 arg5 harg5 arg6 harg6 arg7 harg7 arg8 harg8 v1 v3 v15 v34 v39 v48 (harg5.unread x4)
          (k0_pay15 (F := Ideal), k0_pay16 (F := Ideal), k0_pay17 (F := Ideal)) 5 :=
    congrArg (st_k0_t1 (F := Ideal) Variants.none c none i arg1 harg1 arg2 harg2 arg3 harg3 arg4 harg4 arg5 harg5 arg6 harg6 arg7 harg7 arg8 harg8 v1 v3 v15 v34 v39 v48 (harg5.unread x4)
      (k0_pay15 (F := Ideal), k0_pay16 (F := Ideal), k0_pay17 (F := Ideal))) trips_eq
  have H := st_row c i arg1 harg1 arg2 harg2 arg3 harg3 arg4 harg4 arg5 harg5 arg6 harg6 arg7 harg7 arg8 harg8 v1 v3 v15 v34 v39 v48 x4 r 5 le_rfl
  rw [hfin]
  have H1 := congrArg Prod.fst H
  have H2 := congrArg (fun s : Cert.Lse.St => s.2.1) H
  have H3 := congrArg (fun s : Cert.Lse.St => s.2.2) H
  dsimp only at H1 H2 H3
  rw [H1, H2, H3]
  have hhid : ∀ q : Fin 64, ∃ a : ℝ, Cert.Spec.logits (fun d => v1 (ix2 r d)) (fun q d => v48 (ix2 d q)) q = (a : EReal) :=
    fun q => Cert.Lse.logits_real _ _ (fun d => h1 (ix2 r d)) (fun q d => h48 (ix2 d q)) q
  have hz : ∀ j : Fin 7500, ∃ a : ℝ, zrow v1 v48 x4 r j = (a : EReal) :=
    fun j => Cert.Lse.logits_real _ _ hhid (fun cc q => h4 (ix2 q (Fin.castLE (by decide : 7500 ≤ 7680) cc))) j
  exact Cert.Lse.stream_final (cb := 1536) (nch := 5) (R := 7500) (by decide) (fun cc => by have := cc.isLt; omega)
    (zrow v1 v48 x4 r) hz ⟨tgt v3 r, Cert.Spec.clipNat_lt (by decide) _⟩
    (ych v1 v48 x4 r) (fun cc j => rfl)
    (hitch v3 r) (fun cc j => decide_eq_true_iff)

end Cert.KernelIdeal.Tail1Val

end
-- ==== Proof.KTail2.lean ====
/-
  The second tail's streamed log-softmax at one row of a block.

  The loop runs over 10 chunks of 4096 columns of the padded weights `x6` (16 × 40960; columns from 40000 on are
  padding). In chunk `k` the logits of row `r` are `∑ q, v70 (r, q) * x6 (q, 4096 k + j)`, with `v70` the row's
  projection (computed before the loop); columns at or past 40000 are masked to `-∞`. The carried triple is the
  running maximum, the running sum of exponentials rescaled to it, and the masked maximum that picks the target's
  logit, the target being the word `v66 (r, 0)` (already clipped to the real columns). After the last chunk
  `tv - (m + log l)` is the log-softmax entry of the 40000 real logits at that target.
-/
import proofs.«428924_j53884659696080_3_alg».proof.Proof.Gen.KernelIdeal.Loops
import proofs.«428924_j53884659696080_3_alg».proof.Proof.Spec
import proofs.«428924_j53884659696080_3_alg».proof.Proof.LseAlgebra
import Idealize.ShloMosaic.Lib.ValueIdx
import Idealize.ShloMosaic.Lib.ValueLayout
import Idealize.ShloMosaic.Lib.Pipeline.Value
import Idealize.ShloMosaic.Lib.WholeRead
import Idealize.ShloMosaic.PureOps.Ideal.Laws

set_option maxRecDepth 8192

noncomputable section

namespace Cert.KernelIdeal.Tail2Val

open Idealize.ShloMosaic Idealize.ShloMosaic.ValueIdx Cert.KernelIdeal Cert.KernelIdeal.Gen

/-! ### One trip's yield -/

/-- The chunk of the padded weights that trip `k` loads: sixteen rows, columns `4096 k … 4096 k + 4095`. -/
abbrev chunkOf (arg7 : Memref sig .tc .vmem S16x40960 .bf16) (X : BufTy.Contents (Elt Ideal) arg7.view.ty)
    (k : Fin k0_t2_loop.trips) : Vec Ideal S16x4096 .bf16 :=
  View.readAt (Elt Ideal) arg7.view (Rect.unit (s := S16x40960) (k0_off2 k) S16x4096.size (k0_off2_inb k)).toLoadRect X

/-- What one trip yields from the carried triple: the three per-trip values over the loaded chunk. -/
theorem tripR_eq (c : Dev nD) (i : grid0.Coords) (arg1 : Memref sig .tc .vmem S256x256 .bf16) (harg1 : arg1.IsWhole) (arg2 : Memref sig .tc .vmem S256x1 .i32) (harg2 : arg2.IsWhole) (arg3 : Memref sig .tc .vmem S256x2502 .bf16) (harg3 : arg3.IsWhole) (arg4 : Memref sig .tc .vmem S256x64 .bf16) (harg4 : arg4.IsWhole) (arg5 : Memref sig .tc .vmem S64x7680 .bf16) (harg5 : arg5.IsWhole) (arg6 : Memref sig .tc .vmem S256x16 .bf16) (harg6 : arg6.IsWhole) (arg7 : Memref sig .tc .vmem S16x40960 .bf16) (harg7 : arg7.IsWhole) (arg8 : Memref sig .tc .vmem S256 .f32) (harg8 : arg8.IsWhole)
    (v66 : IVec S256x1 32) (v70 : FVec Ideal S256x16 .bf16) (c0 c1 : BitVec 32) (X : BufTy.Contents (Elt Ideal) arg7.view.ty)
    (k : Fin k0_t2_loop.trips) (acc : FVec Ideal S256x1 .f32 × FVec Ideal S256x1 .f32 × FVec Ideal S256x1 .f32) :
    tripR_k0_t2 (F := Ideal) Variants.none c none i arg1 harg1 arg2 harg2 arg3 harg3 arg4 harg4 arg5 harg5 arg6 harg6 arg7 harg7 arg8 harg8 v66 v70 c0 c1 X k acc
      = (k0_pay3 v70 c0 c1 k acc.1 (chunkOf arg7 X k),
         k0_pay4 v70 c0 c1 k acc.1 acc.2.1 (chunkOf arg7 X k),
         k0_pay5 v66 v70 c0 c1 k acc.2.2 (chunkOf arg7 X k)) := by
  unfold tripR_k0_t2
  unfold trip_k0_t2
  rfl

/-- The loop makes ten trips. -/
theorem trips_eq : Scf.trips k0_t2_loop.lb k0_t2_loop.ub k0_t2_loop.st = 10 := by decide

theorem trip_lt (k : Fin k0_t2_loop.trips) : k.val < 10 := Nat.lt_of_lt_of_le k.isLt k0_t2_abs.2.1

/-- The loaded chunk at `(q, j)` is the padded weights at `(q, 4096 k + j)`. -/
theorem chunk_apply (arg7 : Memref sig .tc .vmem S16x40960 .bf16) (harg7 : arg7.IsWhole) (x6 : Vec Ideal S16x40960 .bf16)
    (k : Fin k0_t2_loop.trips) (q : Fin 16) (j : Fin 4096) :
    chunkOf arg7 (harg7.unread x6) k (ix2 q j)
      = x6 (ix2 q ⟨k.val * 4096 + j.val, by have := trip_lt k; have := j.isLt; omega⟩) := by
  unfold chunkOf
  refine (harg7.readAt_unread x6 _ _).trans ?_
  refine congrArg x6 (funext fun a => Fin.ext ?_)
  match a with
  | ⟨0, _⟩ =>
    show k0_off2 k 0 + 1 * q.val = q.val
    rw [k0_off2_eq k]; show 0 + 1 * q.val = q.val; omega
  | ⟨1, _⟩ =>
    show k0_off2 k 1 + 1 * j.val = k.val * 4096 + j.val
    rw [k0_off2_eq k]; show 4096 * k.val + 1 * j.val = k.val * 4096 + j.val; omega

/-! ### The column words and the two selections -/

/-- The column word of trip `k` at lane `j` is the natural `4096 k + j`: no wrap in 32 bits. -/
theorem pay1_apply (k : Fin k0_t2_loop.trips) (r : Fin 256) (j : Fin 4096) :
    k0_pay1 (0#32) (1#32) k (ix2 r j) = BitVec.ofNat 32 (k.val * 4096 + j.val) := by
  unfold k0_pay1
  show IntOp.addi (Scalar.muli (Scf.iv (0#32) (1#32) k.val) 4096#32)
      (iota .tc S256x4096 32 [1] iota_S256x4096_d1_w32 (ix2 r j)) = _
  rw [iota_single_apply]
  show (0#32 + BitVec.ofNat 32 k.val * 1#32) * 4096#32 + BitVec.ofNat 32 j.val = _
  rw [BitVec.ofNat_add, BitVec.ofNat_mul, BitVec.mul_one, BitVec.zero_add]

/-- A word below `2 ^ 31` read signed is its natural. -/
theorem toInt_ofNat_small (n : ℕ) (hn : n < 2 ^ 31) : (BitVec.ofNat 32 n).toInt = (n : ℤ) := by
  have h1 : (BitVec.ofNat 32 n).toNat = n := by rw [BitVec.toNat_ofNat]; omega
  rw [BitVec.toInt_eq_toNat_of_lt (by rw [h1]; omega), h1]

/-- The signed comparison of a small column word with 40000 selects as the naturals compare. -/
theorem select_slt {α : Type} (n : ℕ) (hn : n < 2 ^ 31) (a b : α) :
    Scalar.select (IntOp.cmpi .slt (BitVec.ofNat 32 n) 40000#32) a b = if n < 40000 then a else b := by
  have h2 : (40000#32 : BitVec 32).toInt = 40000 := by decide
  unfold Scalar.select IntOp.cmpi
  by_cases h : n < 40000
  · have : (BitVec.ofNat 32 n).slt 40000#32 = true := by
      rw [BitVec.slt_iff_toInt_lt, toInt_ofNat_small n hn, h2]; omega
    rw [if_pos h, this]; rfl
  · have : (BitVec.ofNat 32 n).slt 40000#32 = false := by
      rw [Bool.eq_false_iff]; intro hc
      rw [BitVec.slt_iff_toInt_lt, toInt_ofNat_small n hn, h2] at hc; omega
    rw [if_neg h, this]; rfl

/-- Equality of a small column word with a word selects as equality of the naturals. -/
theorem select_eq {α : Type} (n : ℕ) (hn : n < 2 ^ 32) (w : BitVec 32) (a b : α) :
    Scalar.select (IntOp.cmpi .eq (BitVec.ofNat 32 n) w) a b = if n = w.toNat then a else b := by
  unfold Scalar.select IntOp.cmpi
  by_cases h : n = w.toNat
  · have : (BitVec.ofNat 32 n == w) = true := by
      rw [beq_iff_eq, h, BitVec.ofNat_toNat, BitVec.setWidth_eq]
    rw [if_pos h, this]; rfl
  · have : (BitVec.ofNat 32 n == w) = false := by
      rw [Bool.eq_false_iff]; intro hc
      rw [beq_iff_eq] at hc
      apply h; rw [← hc, BitVec.toNat_ofNat]; omega
    rw [if_neg h, this]; rfl

/-! ### The keepdims column forms, the lane reductions and the product, read at one row -/

/-- A `[256]` vector viewed as a `[256, 1]` column reads, at `(r, 0)`, the operand at `r`. -/
theorem col_cast_apply {α : Type} (x : S256.Idx → α) (r : Fin 256) (u : Fin 1) :
    shapeCast S256x1 x shapeCasts_S256_S256x1 (ix2 r u) = x (ix1 r) :=
  shapeCast_apply x shapeCasts_S256_S256x1 _ _ (by
    have hu : u.val = 0 := by omega
    rw [Shape.rowMajor_val_two, Shape.rowMajor_val_one]
    show r.val = r.val * 1 + u.val
    omega)

/-- A `[256, 1]` column broadcast over 4096 lanes reads, at `(r, j)`, the column at `(r, 0)`. -/
theorem col_bcast_apply {α : Type} (v : S256x1.Idx → α) (r : Fin 256) (j : Fin 4096) :
    broadcastTo S256x4096 v broadcasts_S256x1_S256x4096 (ix2 r j) = v (ix2 r (0 : Fin 1)) := by
  refine broadcastTo_apply v broadcasts_S256x1_S256x4096 (ix2 r j) (ix2 r (0 : Fin 1)) fun ax => ?_
  match ax with
  | ⟨0, _⟩ =>
    show r.val = if (256 : ℕ) = 1 then 0 else r.val
    rw [if_neg (by decide)]
  | ⟨1, _⟩ =>
    show (0 : ℕ) = if (1 : ℕ) = 1 then 0 else j.val
    rw [if_pos rfl]

/-- The index a lane reduction reads at row `r`, lane `j`, is `(r, j)`. -/
theorem lift_row (r : Fin 256) (j : Fin 4096) :
    reduces_S256x4096_S256.lift (ix1 r) j = ix2 r j :=
  funext fun a => Fin.ext (by
    match a with
    | ⟨0, _⟩ => rfl
    | ⟨1, _⟩ => rfl)

/-- The word `0xFF800000` denotes `-∞`. -/
theorem ofBits_neg_inf : FloatOps.ofBits (F := Ideal) .f32 0xFF800000#32 = (⊥ : EReal) := by
  simp [Ideal.ofBits, Ideal.ieee]

/-- The row maximum: a maximum over the lanes from `-∞`, kept as a column, read at `(r, 0)`. -/
theorem rowmax_read (src : FVec Ideal S256x4096 .f32) (r : Fin 256) :
    shapeCast S256x1 (multiReduction (F := Ideal) .maximumf [1] S256 src 0xFF800000#32 reduces_S256x4096_S256 (.inl rfl) rfl)
        shapeCasts_S256_S256x1 (ix2 r (0 : Fin 1))
      = Cert.Spec.rowMax (fun j : Fin 4096 => src (ix2 r j)) := by
  rw [col_cast_apply]
  refine (Ideal.multiReduction_maximumf_single src 0xFF800000#32 reduces_S256x4096_S256 (.inl rfl) rfl (ix1 r)).trans ?_
  rw [ofBits_neg_inf]
  have hl : (src ∘ reduces_S256x4096_S256.lift (ix1 r)) = fun j : Fin 4096 => src (ix2 r j) :=
    funext fun j => congrArg src (lift_row r j)
  rw [hl]
  rfl

/-- The row sum: a sum over the lanes from `0`, kept as a column, read at `(r, 0)`. -/
theorem rowsum_read (src : FVec Ideal S256x4096 .f32) (r : Fin 256) :
    shapeCast S256x1 (multiReduction (F := Ideal) .add [1] S256 src 0x00000000#32 reduces_S256x4096_S256 (.inl rfl) rfl)
        shapeCasts_S256_S256x1 (ix2 r (0 : Fin 1))
      = ∑ j : Fin 4096, src (ix2 r j) := by
  rw [col_cast_apply]
  refine (Ideal.multiReduction_add_single src 0x00000000#32 reduces_S256x4096_S256 (.inl rfl) rfl (ix1 r)).trans ?_
  exact Finset.sum_congr rfl fun j _ => congrArg src (lift_row r j)

theorem lhs_dot_0 (i : S256x4096.Idx) (q : dot_S256x16_S16x4096_S256x4096_1_0_0_1_n_n.contr.Idx) :
    (dot_S256x16_S16x4096_S256x4096_1_0_0_1_n_n.lhsIdx i q 0).val = (i 0).val := by
  unfold DotDims.lhsIdx
  rw [dif_neg (show ¬(0 : Fin S256x16.rank) ∈ dot_S256x16_S16x4096_S256x4096_1_0_0_1_n_n.lhsBatch by decide), dif_pos (show (0 : Fin S256x16.rank) ∈ dot_S256x16_S16x4096_S256x4096_1_0_0_1_n_n.lhsNonContracting by decide)]
  rfl
theorem lhs_dot_1 (i : S256x4096.Idx) (q : dot_S256x16_S16x4096_S256x4096_1_0_0_1_n_n.contr.Idx) :
    (dot_S256x16_S16x4096_S256x4096_1_0_0_1_n_n.lhsIdx i q 1).val = (q ⟨0, by decide⟩).val :=
  dot_S256x16_S16x4096_S256x4096_1_0_0_1_n_n.lhsIdx_val_of_single rfl i q
theorem rhs_dot_0 (i : S256x4096.Idx) (q : dot_S256x16_S16x4096_S256x4096_1_0_0_1_n_n.contr.Idx) :
    (dot_S256x16_S16x4096_S256x4096_1_0_0_1_n_n.rhsIdx i q 0).val = (q ⟨0, by decide⟩).val :=
  dot_S256x16_S16x4096_S256x4096_1_0_0_1_n_n.rhsIdx_val_of_single rfl i q
theorem rhs_dot_1 (i : S256x4096.Idx) (q : dot_S256x16_S16x4096_S256x4096_1_0_0_1_n_n.contr.Idx) :
    (dot_S256x16_S16x4096_S256x4096_1_0_0_1_n_n.rhsIdx i q 1).val = (i 1).val := by
  unfold DotDims.rhsIdx
  rw [dif_neg (show ¬(1 : Fin S16x4096.rank) ∈ dot_S256x16_S16x4096_S256x4096_1_0_0_1_n_n.rhsBatch by decide), dif_pos (show (1 : Fin S16x4096.rank) ∈ dot_S256x16_S16x4096_S256x4096_1_0_0_1_n_n.rhsNonContracting by decide)]
  rfl

/-- The product into a zero accumulator at `(r, j)`: the sum over the sixteen contracted coordinates. -/
theorem matmul_read (lhs : FVec Ideal S256x16 .bf16) (rhs : FVec Ideal S16x4096 .bf16) (r : Fin 256) (j : Fin 4096) :
    matmul dot_S256x16_S16x4096_S256x4096_1_0_0_1_n_n none lhs rhs (constant (F := Ideal) S256x4096 .f32 0x00000000#32) (ix2 r j)
      = ∑ q : Fin 16, lhs (ix2 r q) * rhs (ix2 q j) := by
  simp only [matmul]
  rw [Ideal.matmul_constant_zero_apply, ← Equiv.sum_comp (ValueIdx.contrEquiv1 dot_S256x16_S16x4096_S256x4096_1_0_0_1_n_n 16 rfl rfl).symm]
  refine Finset.sum_congr rfl fun k _ => ?_
  have hk := ValueIdx.contrEquiv1_symm_val dot_S256x16_S16x4096_S256x4096_1_0_0_1_n_n 16 rfl rfl k
  have el : dot_S256x16_S16x4096_S256x4096_1_0_0_1_n_n.lhsIdx (ix2 r j) ((ValueIdx.contrEquiv1 dot_S256x16_S16x4096_S256x4096_1_0_0_1_n_n 16 rfl rfl).symm k) = ix2 r k := funext fun a => Fin.ext (by
    match a with
    | ⟨0, _⟩ => exact lhs_dot_0 _ _
    | ⟨1, _⟩ => exact (lhs_dot_1 _ _).trans hk)
  have er : dot_S256x16_S16x4096_S256x4096_1_0_0_1_n_n.rhsIdx (ix2 r j) ((ValueIdx.contrEquiv1 dot_S256x16_S16x4096_S256x4096_1_0_0_1_n_n 16 rfl rfl).symm k) = ix2 k j := funext fun a => Fin.ext (by
    match a with
    | ⟨0, _⟩ => exact (rhs_dot_0 _ _).trans hk
    | ⟨1, _⟩ => exact rhs_dot_1 _ _)
  rw [el, er]

/-! ### The per-trip values at one row -/

/-- The named finite sentinel denotes `-∞`. -/
theorem neg_big : Named.named (F := Ideal) Cert.KernelIdeal.κ "neg_big" (φ := .f32) 0xFF333332#32 = (⊥ : EReal) :=
  IdealRules.named_const.ideal_named_scalar _ _ _ _ rfl

/-- The chunk's masked logits at `(r, j)`: the row's projection against column `4096 k + j` of the chunk where that
    column is a real one, `-∞` on the padding. -/
theorem pay2_apply (v70 : FVec Ideal S256x16 .bf16) (k : Fin k0_t2_loop.trips) (chunk : Vec Ideal S16x4096 .bf16)
    (r : Fin 256) (j : Fin 4096) :
    k0_pay2 (F := Ideal) v70 (0#32) (1#32) k chunk (ix2 r j)
      = if k.val * 4096 + j.val < 40000 then ∑ q : Fin 16, v70 (ix2 r q) * chunk (ix2 q j) else (⊥ : EReal) := by
  have hk := trip_lt k
  have hj := j.isLt
  unfold k0_pay2
  show Scalar.select (IntOp.cmpi .slt (k0_pay1 (0#32) (1#32) k (ix2 r j)) 40000#32)
      (matmul dot_S256x16_S16x4096_S256x4096_1_0_0_1_n_n none v70 (shapeCast S16x4096 chunk shapeCasts_S16x4096_S16x4096)
        (constant (F := Ideal) S256x4096 .f32 0x00000000#32) (ix2 r j))
      (Named.named (F := Ideal) Cert.KernelIdeal.κ "neg_big" (φ := .f32) 0xFF333332#32) = _
  rw [pay1_apply, select_slt _ (by omega), shapeCast_self, matmul_read, neg_big]

/-- The new running maximum at row `r`: the carried one against the chunk's row maximum. -/
theorem pay3_apply (v70 : FVec Ideal S256x16 .bf16) (k : Fin k0_t2_loop.trips) (a : FVec Ideal S256x1 .f32)
    (chunk : Vec Ideal S16x4096 .bf16) (r : Fin 256) :
    k0_pay3 (F := Ideal) v70 (0#32) (1#32) k a chunk (ix2 r (0 : Fin 1))
      = max (a (ix2 r (0 : Fin 1))) (Cert.Spec.rowMax fun j : Fin 4096 => k0_pay2 (F := Ideal) v70 (0#32) (1#32) k chunk (ix2 r j)) := by
  unfold k0_pay3
  refine (maximumf_apply a _ (ix2 r (0 : Fin 1))).trans ?_
  refine congrArg (max (a (ix2 r (0 : Fin 1)))) ?_
  exact rowmax_read (k0_pay2 (F := Ideal) v70 (0#32) (1#32) k chunk) r

/-- An exponential at an index is the exponential of the element. -/
theorem exp_apply {s : Shape} {φ : FTy} (a : FVec Ideal s φ) (i : s.Idx) : exp a i = Ideal.exp (a i) := rfl

/-- The rescaled running sum at row `r`: the carried sum brought to the new maximum, plus the chunk's exponentials. -/
theorem pay4_apply (v70 : FVec Ideal S256x16 .bf16) (k : Fin k0_t2_loop.trips) (a l : FVec Ideal S256x1 .f32)
    (chunk : Vec Ideal S16x4096 .bf16) (r : Fin 256) :
    k0_pay4 (F := Ideal) v70 (0#32) (1#32) k a l chunk (ix2 r (0 : Fin 1))
      = l (ix2 r (0 : Fin 1)) * Ideal.exp (a (ix2 r (0 : Fin 1)) - k0_pay3 (F := Ideal) v70 (0#32) (1#32) k a chunk (ix2 r (0 : Fin 1)))
        + ∑ j : Fin 4096, Ideal.exp (k0_pay2 (F := Ideal) v70 (0#32) (1#32) k chunk (ix2 r j) - k0_pay3 (F := Ideal) v70 (0#32) (1#32) k a chunk (ix2 r (0 : Fin 1))) := by
  unfold k0_pay4
  refine (addf_apply _ _ (ix2 r (0 : Fin 1))).trans ?_
  refine congrArg₂ (· + ·) ?_ ?_
  · refine (mulf_apply l _ (ix2 r (0 : Fin 1))).trans ?_
    refine congrArg (l (ix2 r (0 : Fin 1)) * ·) ?_
    refine (exp_apply _ (ix2 r (0 : Fin 1))).trans ?_
    exact congrArg Ideal.exp (subf_apply a (k0_pay3 (F := Ideal) v70 (0#32) (1#32) k a chunk) (ix2 r (0 : Fin 1)))
  · refine (rowsum_read _ r).trans ?_
    refine Finset.sum_congr rfl fun j _ => ?_
    refine (exp_apply _ (ix2 r j)).trans ?_
    refine congrArg Ideal.exp ?_
    refine (subf_apply (k0_pay2 (F := Ideal) v70 (0#32) (1#32) k chunk) _ (ix2 r j)).trans ?_
    exact congrArg (k0_pay2 (F := Ideal) v70 (0#32) (1#32) k chunk (ix2 r j) - ·) (col_bcast_apply (k0_pay3 (F := Ideal) v70 (0#32) (1#32) k a chunk) r j)

/-- The target pick at row `r`: the carried one against the chunk's logit at the target's column, if it lies in the chunk. -/
theorem pay5_apply (v66 : IVec S256x1 32) (v70 : FVec Ideal S256x16 .bf16) (k : Fin k0_t2_loop.trips) (t : FVec Ideal S256x1 .f32)
    (chunk : Vec Ideal S16x4096 .bf16) (r : Fin 256) :
    k0_pay5 (F := Ideal) v66 v70 (0#32) (1#32) k t chunk (ix2 r (0 : Fin 1))
      = max (t (ix2 r (0 : Fin 1))) (Cert.Spec.rowMax fun j : Fin 4096 =>
          if k.val * 4096 + j.val = (v66 (ix2 r (0 : Fin 1))).toNat then k0_pay2 (F := Ideal) v70 (0#32) (1#32) k chunk (ix2 r j) else (⊥ : EReal)) := by
  have hk := trip_lt k
  unfold k0_pay5
  refine (maximumf_apply t _ (ix2 r (0 : Fin 1))).trans ?_
  refine congrArg (max (t (ix2 r (0 : Fin 1)))) ?_
  refine (rowmax_read _ r).trans ?_
  refine congrArg Cert.Spec.rowMax (funext fun j => ?_)
  have hj := j.isLt
  show Scalar.select (IntOp.cmpi .eq (k0_pay1 (0#32) (1#32) k (ix2 r j)) (broadcastTo S256x4096 v66 broadcasts_S256x1_S256x4096 (ix2 r j)))
      (k0_pay2 (F := Ideal) v70 (0#32) (1#32) k chunk (ix2 r j)) (Named.named (F := Ideal) Cert.KernelIdeal.κ "neg_big" (φ := .f32) 0xFF333332#32) = _
  rw [pay1_apply, col_bcast_apply, select_eq _ (by omega), neg_big]

/-! ### The loop at one row is the streamed recursion -/

/-- The row's 40000 real logits: the projection against the real columns of the padded weights. -/
abbrev zrow (v70 : FVec Ideal S256x16 .bf16) (x6 : Vec Ideal S16x40960 .bf16) (r : Fin 256) : Fin 40000 → EReal :=
  Cert.Spec.logits (fun q => v70 (ix2 r q)) (fun cc q => x6 (ix2 q (Fin.castLE (by decide : 40000 ≤ 40960) cc)))

/-- Chunk `k`'s masked logits of row `r`: the real logit at column `4096 k + j`, `-∞` on the padding. -/
def ych (v70 : FVec Ideal S256x16 .bf16) (x6 : Vec Ideal S16x40960 .bf16) (r : Fin 256) : Fin 10 → Fin 4096 → EReal :=
  fun k j => if h : k.val * 4096 + j.val < 40000 then zrow v70 x6 r ⟨k.val * 4096 + j.val, h⟩ else ⊥

/-- The columns of chunk `k` that are the target column `t`. -/
def hitch (t : ℕ) : Fin 10 → Fin 4096 → Bool := fun k j => decide (k.val * 4096 + j.val = t)

/-- The carried triple read at row `r`. -/
abbrev atRow (s : FVec Ideal S256x1 .f32 × FVec Ideal S256x1 .f32 × FVec Ideal S256x1 .f32) (r : Fin 256) : Cert.Lse.St :=
  (s.1 (ix2 r (0 : Fin 1)), s.2.1 (ix2 r (0 : Fin 1)), s.2.2 (ix2 r (0 : Fin 1)))

/-- The masked logits the trip computes from the loaded chunk are the chunk's masked logits of the row. -/
theorem pay2_eq_ych (arg7 : Memref sig .tc .vmem S16x40960 .bf16) (harg7 : arg7.IsWhole)
    (v70 : FVec Ideal S256x16 .bf16) (x6 : Vec Ideal S16x40960 .bf16) (k : Fin k0_t2_loop.trips) (r : Fin 256) (j : Fin 4096) :
    k0_pay2 (F := Ideal) v70 (0#32) (1#32) k (chunkOf arg7 (harg7.unread x6) k) (ix2 r j)
      = ych v70 x6 r ⟨k.val, trip_lt k⟩ j := by
  rw [pay2_apply]
  unfold ych
  show (if k.val * 4096 + j.val < 40000 then _ else _) = (if h : k.val * 4096 + j.val < 40000 then _ else _)
  by_cases h : k.val * 4096 + j.val < 40000
  · rw [if_pos h, dif_pos h]
    show _ = ∑ d : Fin 16, v70 (ix2 r d) * x6 (ix2 d (Fin.castLE (by decide : 40000 ≤ 40960) ⟨k.val * 4096 + j.val, h⟩))
    exact Finset.sum_congr rfl fun q _ => congrArg (v70 (ix2 r q) * ·) (chunk_apply arg7 harg7 x6 k q j)
  · rw [if_neg h, dif_neg h]

/-- One trip at row `r` is one step of the streamed recursion on the row's carried triple. -/
theorem trip_row (c : Dev nD) (i : grid0.Coords) (arg1 : Memref sig .tc .vmem S256x256 .bf16) (harg1 : arg1.IsWhole) (arg2 : Memref sig .tc .vmem S256x1 .i32) (harg2 : arg2.IsWhole) (arg3 : Memref sig .tc .vmem S256x2502 .bf16) (harg3 : arg3.IsWhole) (arg4 : Memref sig .tc .vmem S256x64 .bf16) (harg4 : arg4.IsWhole) (arg5 : Memref sig .tc .vmem S64x7680 .bf16) (harg5 : arg5.IsWhole) (arg6 : Memref sig .tc .vmem S256x16 .bf16) (harg6 : arg6.IsWhole) (arg7 : Memref sig .tc .vmem S16x40960 .bf16) (harg7 : arg7.IsWhole) (arg8 : Memref sig .tc .vmem S256 .f32) (harg8 : arg8.IsWhole)
    (v66 : IVec S256x1 32) (v70 : FVec Ideal S256x16 .bf16) (x6 : Vec Ideal S16x40960 .bf16)
    (k : Fin k0_t2_loop.trips) (acc : FVec Ideal S256x1 .f32 × FVec Ideal S256x1 .f32 × FVec Ideal S256x1 .f32) (r : Fin 256) :
    atRow (tripR_k0_t2 (F := Ideal) Variants.none c none i arg1 harg1 arg2 harg2 arg3 harg3 arg4 harg4 arg5 harg5 arg6 harg6 arg7 harg7 arg8 harg8 v66 v70 (0#32) (1#32) (harg7.unread x6) k acc) r
      = Cert.Lse.step (ych v70 x6 r ⟨k.val, trip_lt k⟩) (hitch (v66 (ix2 r (0 : Fin 1))).toNat ⟨k.val, trip_lt k⟩) (atRow acc r) := by
  rw [tripR_eq]
  have hY : (fun j : Fin 4096 => k0_pay2 (F := Ideal) v70 (0#32) (1#32) k (chunkOf arg7 (harg7.unread x6) k) (ix2 r j))
      = ych v70 x6 r ⟨k.val, trip_lt k⟩ := funext fun j => pay2_eq_ych arg7 harg7 v70 x6 k r j
  have h3 : k0_pay3 (F := Ideal) v70 (0#32) (1#32) k acc.1 (chunkOf arg7 (harg7.unread x6) k) (ix2 r (0 : Fin 1))
      = max (acc.1 (ix2 r (0 : Fin 1))) (Cert.Spec.rowMax (ych v70 x6 r ⟨k.val, trip_lt k⟩)) := by
    rw [pay3_apply, hY]
  have h4 : k0_pay4 (F := Ideal) v70 (0#32) (1#32) k acc.1 acc.2.1 (chunkOf arg7 (harg7.unread x6) k) (ix2 r (0 : Fin 1))
      = acc.2.1 (ix2 r (0 : Fin 1)) * Ideal.exp (acc.1 (ix2 r (0 : Fin 1)) - max (acc.1 (ix2 r (0 : Fin 1))) (Cert.Spec.rowMax (ych v70 x6 r ⟨k.val, trip_lt k⟩)))
        + ∑ j : Fin 4096, Ideal.exp (ych v70 x6 r ⟨k.val, trip_lt k⟩ j - max (acc.1 (ix2 r (0 : Fin 1))) (Cert.Spec.rowMax (ych v70 x6 r ⟨k.val, trip_lt k⟩))) := by
    rw [pay4_apply, h3]
    exact congrArg _ (Finset.sum_congr rfl fun j _ => by rw [pay2_eq_ych])
  have h5 : k0_pay5 (F := Ideal) v66 v70 (0#32) (1#32) k acc.2.2 (chunkOf arg7 (harg7.unread x6) k) (ix2 r (0 : Fin 1))
      = max (acc.2.2 (ix2 r (0 : Fin 1))) (Cert.Spec.rowMax fun j : Fin 4096 =>
          if hitch (v66 (ix2 r (0 : Fin 1))).toNat ⟨k.val, trip_lt k⟩ j then ych v70 x6 r ⟨k.val, trip_lt k⟩ j else ⊥) := by
    rw [pay5_apply]
    refine congrArg _ (congrArg _ (funext fun j => ?_))
    rw [pay2_eq_ych]
    unfold hitch
    by_cases h : k.val * 4096 + j.val = (v66 (ix2 r (0 : Fin 1))).toNat
    · rw [if_pos h, if_pos (decide_eq_true h)]
    · rw [if_neg h, if_neg (by rw [decide_eq_true_eq]; exact h)]
  unfold Cert.Lse.step
  exact Prod.ext h3 (Prod.ext h4 h5)

/-- The loop's initial triple at every row is `(-∞, 0, -∞)`. -/
theorem init_row (r : Fin 256) :
    atRow (k0_pay26 (F := Ideal), k0_pay27 (F := Ideal), k0_pay28 (F := Ideal)) r = ((⊥ : EReal), (0 : EReal), (⊥ : EReal)) := by
  refine Prod.ext ?_ (Prod.ext ?_ ?_)
  · show FloatOps.ofBits (F := Ideal) .f32 0xFF800000#32 = (⊥ : EReal)
    exact ofBits_neg_inf
  · show Ideal.ofBits .f32 0x00000000#32 = (0 : EReal)
    exact Ideal.ofBits_zero_f32
  · show Named.named (F := Ideal) Cert.KernelIdeal.κ "neg_big" (φ := .f32) 0xFF333332#32 = (⊥ : EReal)
    exact neg_big

/-- The carried triple before trip `n`, read at row `r`, is the streamed recursion's. -/
theorem st_row (c : Dev nD) (i : grid0.Coords) (arg1 : Memref sig .tc .vmem S256x256 .bf16) (harg1 : arg1.IsWhole) (arg2 : Memref sig .tc .vmem S256x1 .i32) (harg2 : arg2.IsWhole) (arg3 : Memref sig .tc .vmem S256x2502 .bf16) (harg3 : arg3.IsWhole) (arg4 : Memref sig .tc .vmem S256x64 .bf16) (harg4 : arg4.IsWhole) (arg5 : Memref sig .tc .vmem S64x7680 .bf16) (harg5 : arg5.IsWhole) (arg6 : Memref sig .tc .vmem S256x16 .bf16) (harg6 : arg6.IsWhole) (arg7 : Memref sig .tc .vmem S16x40960 .bf16) (harg7 : arg7.IsWhole) (arg8 : Memref sig .tc .vmem S256 .f32) (harg8 : arg8.IsWhole)
    (v66 : IVec S256x1 32) (v70 : FVec Ideal S256x16 .bf16) (x6 : Vec Ideal S16x40960 .bf16) (r : Fin 256) :
    ∀ n : ℕ, n ≤ 10 →
      atRow (st_k0_t2 (F := Ideal) Variants.none c none i arg1 harg1 arg2 harg2 arg3 harg3 arg4 harg4 arg5 harg5 arg6 harg6 arg7 harg7 arg8 harg8 v66 v70 (0#32) (1#32) (harg7.unread x6) (k0_pay26 (F := Ideal), k0_pay27 (F := Ideal), k0_pay28 (F := Ideal)) n) r
        = Cert.Lse.run 10 (ych v70 x6 r) (hitch (v66 (ix2 r (0 : Fin 1))).toNat) n
  | 0, _ => init_row r
  | n + 1, hn => by
    have hn' : n < 10 := hn
    have hk : n < k0_t2_loop.trips := by rw [show k0_t2_loop.trips = 10 from trips_eq]; exact hn'
    have ih := st_row c i arg1 harg1 arg2 harg2 arg3 harg3 arg4 harg4 arg5 harg5 arg6 harg6 arg7 harg7 arg8 harg8 v66 v70 x6 r n (Nat.le_of_lt hn')
    have hs := st_k0_t2_succ (F := Ideal) Variants.none c none i arg1 harg1 arg2 harg2 arg3 harg3 arg4 harg4 arg5 harg5 arg6 harg6 arg7 harg7 arg8 harg8 v66 v70 (0#32) (1#32) (harg7.unread x6)
      (k0_pay26 (F := Ideal), k0_pay27 (F := Ideal), k0_pay28 (F := Ideal)) ⟨n, hk⟩
    show atRow (st_k0_t2 (F := Ideal) Variants.none c none i arg1 harg1 arg2 harg2 arg3 harg3 arg4 harg4 arg5 harg5 arg6 harg6 arg7 harg7 arg8 harg8 v66 v70 (0#32) (1#32) (harg7.unread x6) (k0_pay26 (F := Ideal), k0_pay27 (F := Ideal), k0_pay28 (F := Ideal)) ((⟨n, hk⟩ : Fin k0_t2_loop.trips).val + 1)) r = _
    rw [hs, trip_row, ih]
    show _ = (if h : n < 10 then Cert.Lse.step (ych v70 x6 r ⟨n, h⟩) (hitch (v66 (ix2 r (0 : Fin 1))).toNat ⟨n, h⟩)
      (Cert.Lse.run 10 (ych v70 x6 r) (hitch (v66 (ix2 r (0 : Fin 1))).toNat) n) else _)
    rw [dif_pos hn']

/-! ### The statement -/

/-- The loop's carried triple after its last trip, as the body's run states it. -/
abbrev fin2 (c : Dev nD) (i : grid0.Coords) (arg1 : Memref sig .tc .vmem S256x256 .bf16) (harg1 : arg1.IsWhole) (arg2 : Memref sig .tc .vmem S256x1 .i32) (harg2 : arg2.IsWhole) (arg3 : Memref sig .tc .vmem S256x2502 .bf16) (harg3 : arg3.IsWhole) (arg4 : Memref sig .tc .vmem S256x64 .bf16) (harg4 : arg4.IsWhole) (arg5 : Memref sig .tc .vmem S64x7680 .bf16) (harg5 : arg5.IsWhole) (arg6 : Memref sig .tc .vmem S256x16 .bf16) (harg6 : arg6.IsWhole) (arg7 : Memref sig .tc .vmem S16x40960 .bf16) (harg7 : arg7.IsWhole) (arg8 : Memref sig .tc .vmem S256 .f32) (harg8 : arg8.IsWhole)
    (v66 : IVec S256x1 32) (v70 : FVec Ideal S256x16 .bf16) (x6 : Vec Ideal S16x40960 .bf16) :
    FVec Ideal S256x1 .f32 × FVec Ideal S256x1 .f32 × FVec Ideal S256x1 .f32 :=
  st_k0_t2 (F := Ideal) Variants.none c none i arg1 harg1 arg2 harg2 arg3 harg3 arg4 harg4 arg5 harg5 arg6 harg6 arg7 harg7 arg8 harg8 v66 v70 (0#32) (1#32) (harg7.unread x6)
    (k0_pay26 (F := Ideal), k0_pay27 (F := Ideal), k0_pay28 (F := Ideal))
    (Scf.trips k0_t2_loop.lb k0_t2_loop.ub k0_t2_loop.st)

/-- Row `r`: the streamed triple closes to the log-softmax entry of the second tail's 40000 logits at the target
    word, which lies among the real columns. -/
theorem tail2 (c : Dev nD) (i : grid0.Coords) (arg1 : Memref sig .tc .vmem S256x256 .bf16) (harg1 : arg1.IsWhole) (arg2 : Memref sig .tc .vmem S256x1 .i32) (harg2 : arg2.IsWhole) (arg3 : Memref sig .tc .vmem S256x2502 .bf16) (harg3 : arg3.IsWhole) (arg4 : Memref sig .tc .vmem S256x64 .bf16) (harg4 : arg4.IsWhole) (arg5 : Memref sig .tc .vmem S64x7680 .bf16) (harg5 : arg5.IsWhole) (arg6 : Memref sig .tc .vmem S256x16 .bf16) (harg6 : arg6.IsWhole) (arg7 : Memref sig .tc .vmem S16x40960 .bf16) (harg7 : arg7.IsWhole) (arg8 : Memref sig .tc .vmem S256 .f32) (harg8 : arg8.IsWhole)
    (v66 : IVec S256x1 32) (v70 : FVec Ideal S256x16 .bf16) (x6 : Vec Ideal S16x40960 .bf16)
    (h70 : ∀ j, ∃ a : ℝ, v70 j = (a : EReal)) (h6 : ∀ j, ∃ a : ℝ, x6 j = (a : EReal))
    (r : Fin 256) (h66 : (v66 (ix2 r 0)).toNat < 40000) :
    (fin2 c i arg1 harg1 arg2 harg2 arg3 harg3 arg4 harg4 arg5 harg5 arg6 harg6 arg7 harg7 arg8 harg8 v66 v70 x6).2.2 (ix2 r 0)
        - ((fin2 c i arg1 harg1 arg2 harg2 arg3 harg3 arg4 harg4 arg5 harg5 arg6 harg6 arg7 harg7 arg8 harg8 v66 v70 x6).1 (ix2 r 0) + Ideal.log ((fin2 c i arg1 harg1 arg2 harg2 arg3 harg3 arg4 harg4 arg5 harg5 arg6 harg6 arg7 harg7 arg8 harg8 v66 v70 x6).2.1 (ix2 r 0)))
      = Cert.Spec.lsm
          (Cert.Spec.logits (fun q => v70 (ix2 r q)) (fun cc q => x6 (ix2 q (Fin.castLE (by decide : 40000 ≤ 40960) cc))))
          ⟨(v66 (ix2 r 0)).toNat, h66⟩ := by
  have e : fin2 c i arg1 harg1 arg2 harg2 arg3 harg3 arg4 harg4 arg5 harg5 arg6 harg6 arg7 harg7 arg8 harg8 v66 v70 x6
      = st_k0_t2 (F := Ideal) Variants.none c none i arg1 harg1 arg2 harg2 arg3 harg3 arg4 harg4 arg5 harg5 arg6 harg6 arg7 harg7 arg8 harg8 v66 v70 (0#32) (1#32) (harg7.unread x6) (k0_pay26 (F := Ideal), k0_pay27 (F := Ideal), k0_pay28 (F := Ideal)) 10 := by
    unfold fin2
    rw [trips_eq]
  rw [e]
  have H := st_row c i arg1 harg1 arg2 harg2 arg3 harg3 arg4 harg4 arg5 harg5 arg6 harg6 arg7 harg7 arg8 harg8 v66 v70 x6 r 10 (Nat.le_refl 10)
  have hz : ∀ j, ∃ a : ℝ, zrow v70 x6 r j = (a : EReal) :=
    Cert.Lse.logits_real _ _ (fun d => h70 (ix2 r d)) (fun j d => h6 (ix2 d (Fin.castLE (by decide : 40000 ≤ 40960) j)))
  have F := Cert.Lse.stream_final (cb := 4096) (nch := 10) (R := 40000) (by decide)
    (fun cc => by have := cc.isLt; omega) (zrow v70 x6 r) hz ⟨(v66 (ix2 r 0)).toNat, h66⟩
    (ych v70 x6 r) (fun _ _ => rfl) (hitch (v66 (ix2 r 0)).toNat)
    (fun cc j => by unfold hitch; exact decide_eq_true_iff)
  rw [← H] at F
  exact F

end Cert.KernelIdeal.Tail2Val

end
-- ==== Proof.KBlock.lean ====
/-
  What one grid point's body leaves in its output block, row by row.

  The body stores one 256-vector. Row `r` of it is the token function of the row's target word, its embedding
  row, and the five weight blocks (transposed, the two tails' padded): the head's three log-softmax entries and
  the two streamed tails' entries, selected by the target's range.
-/
import proofs.«428924_j53884659696080_3_alg».proof.Proof.Gen.KernelIdeal.Frame
import proofs.«428924_j53884659696080_3_alg».proof.Proof.KHead
import proofs.«428924_j53884659696080_3_alg».proof.Proof.KTail1
import proofs.«428924_j53884659696080_3_alg».proof.Proof.KTail2

set_option maxRecDepth 65536

noncomputable section

namespace Cert.KernelIdeal.BlockVal

open Idealize.ShloMosaic Idealize.ShloMosaic.ValueIdx Idealize.ShloMosaic.TcCoe Idealize.ShloMosaic.Tactic
open Idealize.SL Idealize.SL.Sem
open Cert.KernelIdeal Cert.KernelIdeal.Gen

theorem hz1 : (![0] : Fin 1 → Nat) = fun _ => 0 := funext fun a => by fin_cases a <;> rfl
theorem hz2 : (![0, 0] : Fin 2 → Nat) = fun _ => 0 := funext fun a => by fin_cases a <;> rfl

/-! ## The stored vector as one term of the input blocks -/

/-- The one store of the body covers the output block, so the block it leaves is the stored value: the final
    selection over the head's three entries and the two loops' carried triples. -/
theorem open_block (c : Dev nD) (i : grid0.Coords) (arg1 : Memref sig .tc .vmem S256x256 .bf16) (harg1 : arg1.IsWhole) (arg2 : Memref sig .tc .vmem S256x1 .i32) (harg2 : arg2.IsWhole) (arg3 : Memref sig .tc .vmem S256x2502 .bf16) (harg3 : arg3.IsWhole) (arg4 : Memref sig .tc .vmem S256x64 .bf16) (harg4 : arg4.IsWhole) (arg5 : Memref sig .tc .vmem S64x7680 .bf16) (harg5 : arg5.IsWhole) (arg6 : Memref sig .tc .vmem S256x16 .bf16) (harg6 : arg6.IsWhole) (arg7 : Memref sig .tc .vmem S16x40960 .bf16) (harg7 : arg7.IsWhole) (arg8 : Memref sig .tc .vmem S256 .f32) (harg8 : arg8.IsWhole)
    (x0 : Vec Ideal S256x256 .bf16) (x1 : Vec Ideal S256x1 .i32) (x2 : Vec Ideal S256x2502 .bf16)
    (x3 : Vec Ideal S256x64 .bf16) (x4 : Vec Ideal S64x7680 .bf16) (x5 : Vec Ideal S256x16 .bf16) (x6 : Vec Ideal S16x40960 .bf16) :
    out0_A_7 (F := Ideal) c i arg1 harg1 arg2 harg2 arg3 harg3 arg4 harg4 arg5 harg5 arg6 harg6 arg7 harg7 arg8 harg8 x0 x1 x2 x3 x4 x5 x6
      = k0_pay6 (F := Ideal) (k0_pay8 (F := Ideal) x1) (k0_pay11 (F := Ideal) x0 x1 x2)
          (k0_pay14 (F := Ideal) (k0_pay10 (F := Ideal) x0 x2) (k0_pay13 (F := Ideal) x0 x2))
          (k0_pay23 (F := Ideal) (k0_pay12 (F := Ideal) x0 x2)
            (Tail1Val.fin1 c i arg1 harg1 arg2 harg2 arg3 harg3 arg4 harg4 arg5 harg5 arg6 harg6 arg7 harg7 arg8 harg8 (k0_pay7 (F := Ideal) x0) (k0_pay8 (F := Ideal) x1)
          (k0_pay10 (F := Ideal) x0 x2) (k0_pay12 (F := Ideal) x0 x2) (k0_pay13 (F := Ideal) x0 x2) x3 x4).1
            (Tail1Val.fin1 c i arg1 harg1 arg2 harg2 arg3 harg3 arg4 harg4 arg5 harg5 arg6 harg6 arg7 harg7 arg8 harg8 (k0_pay7 (F := Ideal) x0) (k0_pay8 (F := Ideal) x1)
          (k0_pay10 (F := Ideal) x0 x2) (k0_pay12 (F := Ideal) x0 x2) (k0_pay13 (F := Ideal) x0 x2) x3 x4).2.1
            (Tail1Val.fin1 c i arg1 harg1 arg2 harg2 arg3 harg3 arg4 harg4 arg5 harg5 arg6 harg6 arg7 harg7 arg8 harg8 (k0_pay7 (F := Ideal) x0) (k0_pay8 (F := Ideal) x1)
          (k0_pay10 (F := Ideal) x0 x2) (k0_pay12 (F := Ideal) x0 x2) (k0_pay13 (F := Ideal) x0 x2) x3 x4).2.2)
          (Tail2Val.fin2 c i arg1 harg1 arg2 harg2 arg3 harg3 arg4 harg4 arg5 harg5 arg6 harg6 arg7 harg7 arg8 harg8 (k0_pay24 (k0_pay8 (F := Ideal) x1))
          (k0_pay25 (F := Ideal) (k0_pay7 (F := Ideal) x0) x5) x6).1
          (Tail2Val.fin2 c i arg1 harg1 arg2 harg2 arg3 harg3 arg4 harg4 arg5 harg5 arg6 harg6 arg7 harg7 arg8 harg8 (k0_pay24 (k0_pay8 (F := Ideal) x1))
          (k0_pay25 (F := Ideal) (k0_pay7 (F := Ideal) x0) x5) x6).2.1
          (Tail2Val.fin2 c i arg1 harg1 arg2 harg2 arg3 harg3 arg4 harg4 arg5 harg5 arg6 harg6 arg7 harg7 arg8 harg8 (k0_pay24 (k0_pay8 (F := Ideal) x1))
          (k0_pay25 (F := Ideal) (k0_pay7 (F := Ideal) x0) x5) x6).2.2 := by
  unfold out0_A_7
  rw [View.read_writes_eq_canon _ _ _ (cover0_A_7 c i arg1 harg1 arg2 harg2 arg3 harg3 arg4 harg4 arg5 harg5 arg6 harg6 arg7 harg7 arg8 harg8 x0 x1 x2 x3 x4 x5 x6)]
  unfold kernelRun0_A
  dsimp only
  sl_unfold_words
  rw [View.canon_unit_zero hz1]
  simp only [View.readAt_eq_ld, Memref.IsWhole.read_unread, View.ld_unit_zero (S := S256x256) hz2,
    View.ld_unit_zero (S := S256x1) hz2, View.ld_unit_zero (S := S256x2502) hz2, View.ld_unit_zero (S := S256x64) hz2,
    View.ld_unit_zero (S := S256x16) hz2]

/-! ## The small payloads at a row -/

theorem pay7_eq (x0 : Vec Ideal S256x256 .bf16) : k0_pay7 (F := Ideal) x0 = x0 := by
  unfold k0_pay7; exact shapeCast_self _ _

theorem pay8_eq (x1 : Vec Ideal S256x1 .i32) : k0_pay8 (F := Ideal) x1 = x1 := by
  unfold k0_pay8; exact shapeCast_self _ _

/-- A signed compare used as a selector picks by the comparison. -/
theorem select_slt {α : Type} (x y : BitVec 32) (a b : α) :
    Scalar.select (IntOp.cmpi .slt x y) a b = if x.slt y then a else b := by
  unfold Scalar.select IntOp.cmpi
  cases h : x.slt y <;> simp [h]

/-- The final selection at row `r`: by the target's range, the head's entry, the first tail's sum, or the second
    tail's cluster entry plus its streamed triple closed as `tv - (m + log l)`. -/
theorem pay6_apply (v3 : IVec S256x1 32) (v27 v41 v60 m2 l2 tv2 : FVec Ideal S256x1 .f32) (r : Fin 256) :
    k0_pay6 (F := Ideal) v3 v27 v41 v60 m2 l2 tv2 (ix1 r)
      = if (v3 (ix2 r 0)).slt 2500#32 then v27 (ix2 r 0)
        else if (v3 (ix2 r 0)).slt 10000#32 then v60 (ix2 r 0)
        else v41 (ix2 r 0) + (tv2 (ix2 r 0) - (m2 (ix2 r 0) + Ideal.log (l2 (ix2 r 0)))) := by
  unfold k0_pay6
  refine (shapeCast_apply _ _ (ix1 r) (ix2 r 0) (by
    rw [Shape.rowMajor_val_two, Shape.rowMajor_val_one]; simp)).trans ?_
  rw [select_apply, select_apply]
  show Scalar.select (IntOp.cmpi .slt (v3 (ix2 r 0)) 2500#32) _ (Scalar.select (IntOp.cmpi .slt (v3 (ix2 r 0)) 10000#32) _ _) = _
  rw [select_slt, select_slt]
  rfl

/-- The first tail's sum at row `r`: the cluster's head entry plus the streamed triple closed. -/
theorem pay23_apply (v34 m1 l1 tv1 : FVec Ideal S256x1 .f32) (r : Fin 256) :
    k0_pay23 (F := Ideal) v34 m1 l1 tv1 (ix2 r 0)
      = v34 (ix2 r 0) + (tv1 (ix2 r 0) - (m1 (ix2 r 0) + Ideal.log (l1 (ix2 r 0)))) := by
  unfold k0_pay23; rfl

/-- The second tail's target word: the target shifted by 10000 and clipped to the real columns. -/
theorem pay24_apply (v3 : IVec S256x1 32) (r : Fin 256) :
    (k0_pay24 v3 (ix2 r 0)).toNat = Cert.Spec.clipNat 39999 (v3 (ix2 r 0) - 10000#32) := by
  unfold k0_pay24
  show (IntOp.minsi 39999#32 (IntOp.maxsi 0#32 (IntOp.subi (v3 (ix2 r 0)) 10000#32))).toNat = _
  exact Cert.Spec.clip_toNat 39999 (by norm_num) _

/-! ## The second tail's projection at an index -/

theorem lhs16_0 (i : S256x16.Idx) (q : dot_S256x256_S256x16_S256x16_1_0_0_1_n_n.contr.Idx) :
    (dot_S256x256_S256x16_S256x16_1_0_0_1_n_n.lhsIdx i q 0).val = (i 0).val := by
  unfold DotDims.lhsIdx
  rw [dif_neg (show ¬(0 : Fin S256x256.rank) ∈ dot_S256x256_S256x16_S256x16_1_0_0_1_n_n.lhsBatch by decide), dif_pos (show (0 : Fin S256x256.rank) ∈ dot_S256x256_S256x16_S256x16_1_0_0_1_n_n.lhsNonContracting by decide)]
  rfl
theorem lhs16_1 (i : S256x16.Idx) (q : dot_S256x256_S256x16_S256x16_1_0_0_1_n_n.contr.Idx) :
    (dot_S256x256_S256x16_S256x16_1_0_0_1_n_n.lhsIdx i q 1).val = (q ⟨0, by decide⟩).val :=
  dot_S256x256_S256x16_S256x16_1_0_0_1_n_n.lhsIdx_val_of_single rfl i q
theorem rhs16_0 (i : S256x16.Idx) (q : dot_S256x256_S256x16_S256x16_1_0_0_1_n_n.contr.Idx) :
    (dot_S256x256_S256x16_S256x16_1_0_0_1_n_n.rhsIdx i q 0).val = (q ⟨0, by decide⟩).val :=
  dot_S256x256_S256x16_S256x16_1_0_0_1_n_n.rhsIdx_val_of_single rfl i q
theorem rhs16_1 (i : S256x16.Idx) (q : dot_S256x256_S256x16_S256x16_1_0_0_1_n_n.contr.Idx) :
    (dot_S256x256_S256x16_S256x16_1_0_0_1_n_n.rhsIdx i q 1).val = (i 1).val := by
  unfold DotDims.rhsIdx
  rw [dif_neg (show ¬(1 : Fin S256x16.rank) ∈ dot_S256x256_S256x16_S256x16_1_0_0_1_n_n.rhsBatch by decide), dif_pos (show (1 : Fin S256x16.rank) ∈ dot_S256x256_S256x16_S256x16_1_0_0_1_n_n.rhsNonContracting by decide)]
  rfl

/-- The projection of row `r` onto the second tail's 16 directions: entry `q` is the inner product of the
    embedding row with column `q` of the transposed projection. -/
theorem pay25_apply (v1 : FVec Ideal S256x256 .bf16) (x5 : Vec Ideal S256x16 .bf16) (r : Fin 256) (q : Fin 16) :
    k0_pay25 (F := Ideal) v1 x5 (ix2 r q) = ∑ d : Fin 256, v1 (ix2 r d) * x5 (ix2 d q) := by
  unfold k0_pay25
  simp only [truncf_apply, shapeCast_self, matmul]
  rw [Ideal.matmul_constant_zero_apply, ← Equiv.sum_comp (contrEquiv1 dot_S256x256_S256x16_S256x16_1_0_0_1_n_n 256 rfl rfl).symm]
  refine Finset.sum_congr rfl fun k _ => ?_
  have hk := contrEquiv1_symm_val dot_S256x256_S256x16_S256x16_1_0_0_1_n_n 256 rfl rfl k
  have el : dot_S256x256_S256x16_S256x16_1_0_0_1_n_n.lhsIdx (ix2 r q) ((contrEquiv1 dot_S256x256_S256x16_S256x16_1_0_0_1_n_n 256 rfl rfl).symm k) = ix2 r k := funext fun a => Fin.ext (by
    match a with
    | ⟨0, _⟩ => exact lhs16_0 _ _
    | ⟨1, _⟩ => exact (lhs16_1 _ _).trans hk)
  have er : dot_S256x256_S256x16_S256x16_1_0_0_1_n_n.rhsIdx (ix2 r q) ((contrEquiv1 dot_S256x256_S256x16_S256x16_1_0_0_1_n_n 256 rfl rfl).symm k) = ix2 k q := funext fun a => Fin.ext (by
    match a with
    | ⟨0, _⟩ => exact (rhs16_0 _ _).trans hk
    | ⟨1, _⟩ => exact rhs16_1 _ _)
  rw [el, er]

/-- With a real embedding block and a real projection the projected block is real. -/
theorem pay25_real (x0 : Vec Ideal S256x256 .bf16) (x5 : Vec Ideal S256x16 .bf16)
    (h0 : ∀ j, ∃ a : ℝ, x0 j = (a : EReal)) (h5 : ∀ j, ∃ a : ℝ, x5 j = (a : EReal)) :
    ∀ j, ∃ a : ℝ, k0_pay25 (F := Ideal) (k0_pay7 (F := Ideal) x0) x5 j = (a : EReal) := by
  intro j
  obtain ⟨r, q, rfl⟩ : ∃ (r : Fin 256) (q : Fin 16), j = ix2 r q := ⟨j 0, j 1, eq_ix2 j⟩
  rw [pay7_eq, pay25_apply]
  exact Cert.Lse.logits_real (fun d => x0 (ix2 r d)) (fun q d => x5 (ix2 d q)) (fun d => h0 _) (fun q d => h5 _) q

/-! ## Row `r` of the block -/

/-- Row `r` of the block the body leaves, for real input blocks. -/
theorem out_block (c : Dev nD) (i : grid0.Coords) (arg1 : Memref sig .tc .vmem S256x256 .bf16) (harg1 : arg1.IsWhole) (arg2 : Memref sig .tc .vmem S256x1 .i32) (harg2 : arg2.IsWhole) (arg3 : Memref sig .tc .vmem S256x2502 .bf16) (harg3 : arg3.IsWhole) (arg4 : Memref sig .tc .vmem S256x64 .bf16) (harg4 : arg4.IsWhole) (arg5 : Memref sig .tc .vmem S64x7680 .bf16) (harg5 : arg5.IsWhole) (arg6 : Memref sig .tc .vmem S256x16 .bf16) (harg6 : arg6.IsWhole) (arg7 : Memref sig .tc .vmem S16x40960 .bf16) (harg7 : arg7.IsWhole) (arg8 : Memref sig .tc .vmem S256 .f32) (harg8 : arg8.IsWhole)
    (x0 : Vec Ideal S256x256 .bf16) (x1 : Vec Ideal S256x1 .i32) (x2 : Vec Ideal S256x2502 .bf16)
    (x3 : Vec Ideal S256x64 .bf16) (x4 : Vec Ideal S64x7680 .bf16) (x5 : Vec Ideal S256x16 .bf16) (x6 : Vec Ideal S16x40960 .bf16)
    (h0 : ∀ j, ∃ a : ℝ, x0 j = (a : EReal)) (h2 : ∀ j, ∃ a : ℝ, x2 j = (a : EReal)) (h3 : ∀ j, ∃ a : ℝ, x3 j = (a : EReal))
    (h4 : ∀ j, ∃ a : ℝ, x4 j = (a : EReal)) (h5 : ∀ j, ∃ a : ℝ, x5 j = (a : EReal)) (h6 : ∀ j, ∃ a : ℝ, x6 j = (a : EReal))
    (r : Fin 256) :
    out0_A_7 (F := Ideal) c i arg1 harg1 arg2 harg2 arg3 harg3 arg4 harg4 arg5 harg5 arg6 harg6 arg7 harg7 arg8 harg8 x0 x1 x2 x3 x4 x5 x6 (ix1 r)
      = Cert.Spec.tokenOut (x1 (ix2 r 0)) (fun d => x0 (ix2 r d)) (fun j d => x2 (ix2 d j))
          (fun q d => x3 (ix2 d q)) (fun cc q => x4 (ix2 q (Fin.castLE (by decide : 7500 ≤ 7680) cc)))
          (fun q d => x5 (ix2 d q)) (fun cc q => x6 (ix2 q (Fin.castLE (by decide : 40000 ≤ 40960) cc))) := by
  rw [open_block, pay6_apply, pay7_eq, pay8_eq]
  unfold Cert.Spec.tokenOut
  by_cases hA : (x1 (ix2 r 0)).slt 2500#32 = true
  · rw [if_pos hA, if_pos hA]
    exact HeadVal.head_a x0 x1 x2 h0 h2 r
  · rw [if_neg hA, if_neg hA]
    by_cases hB : (x1 (ix2 r 0)).slt 10000#32 = true
    · rw [if_pos hB, if_pos hB, pay23_apply, HeadVal.head_b x0 x2 h0 h2 r]
      rw [Tail1Val.tail1 c i arg1 harg1 arg2 harg2 arg3 harg3 arg4 harg4 arg5 harg5 arg6 harg6 arg7 harg7 arg8 harg8 x0 x1
        (k0_pay10 (F := Ideal) x0 x2) (k0_pay12 (F := Ideal) x0 x2) (k0_pay13 (F := Ideal) x0 x2) x3 x4 h0 h3 h4 r]
      rfl
    · rw [if_neg hB, if_neg hB, HeadVal.head_c x0 x2 h0 h2 r]
      have h66 : (k0_pay24 x1 (ix2 r 0)).toNat < 40000 := by
        rw [pay24_apply]; exact Cert.Spec.clipNat_lt (by decide) _
      have h70 : ∀ j, ∃ a : ℝ, k0_pay25 (F := Ideal) x0 x5 j = (a : EReal) := by
        have := pay25_real x0 x5 h0 h5; rwa [pay7_eq] at this
      rw [Tail2Val.tail2 c i arg1 harg1 arg2 harg2 arg3 harg3 arg4 harg4 arg5 harg5 arg6 harg6 arg7 harg7 arg8 harg8 (k0_pay24 x1) (k0_pay25 (F := Ideal) x0 x5) x6 h70 h6 r h66]
      have hp : (fun q => k0_pay25 (F := Ideal) x0 x5 (ix2 r q))
          = Cert.Spec.logits (fun d => x0 (ix2 r d)) (fun q d => x5 (ix2 d q)) := by
        funext q; rw [pay25_apply]; rfl
      have hi : (⟨(k0_pay24 x1 (ix2 r 0)).toNat, h66⟩ : Fin 40000)
          = ⟨Cert.Spec.clipNat 39999 (x1 (ix2 r 0) - 10000#32), Cert.Spec.clipNat_lt (by decide) _⟩ :=
        Fin.ext (pay24_apply x1 r)
      rw [hp, hi]
      rfl

end Cert.KernelIdeal.BlockVal

end
-- ==== Proof.HostPrefix.lean ====
/-
  What the region finds in its windows: the kernel's host lines before the call, read at an index.

  Before the call the host gathers the embedding rows of the 4096 tokens (one row per token, the token word
  normalised and clamped into the table by the gather itself), transposes the five weight matrices, and pads the
  two tails' transposed weights with zero columns up to a multiple of the chunk width. Changes of float format are
  the identity on extended reals. Block `t` of the gathered rows and of the targets is rows `256 t … 256 t + 255`;
  the weights' blocks are the whole arrays at every point.
-/
import proofs.«428924_j53884659696080_3_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run
import Idealize.ShloMosaic.Lib.KernelVsHost

set_option maxRecDepth 16384

noncomputable section

namespace Cert.KernelIdeal.Prefix

open Idealize.ShloMosaic Idealize.ShloMosaic.ValueIdx Idealize.ShloMosaic.TcCoe Idealize.SL.Sem
open Cert.KernelIdeal Cert.KernelIdeal.Gen

/-- The gathered embedding rows, one per token, as the host computes them from the token words and the table. -/
def HrowsOf (x : IVec S4096 32) (emb : FVec Ideal S50000x256 .f32) : FVec Ideal S4096x256 .f32 :=
  Host.gather gather_S50000x256_S4096x1_S4096x256_1_0_n_n_0_1_1256 emb
    (broadcastInDim S4096x1 ![0] Cert.KernelIdeal.Facts₀.bcast_S4096_S4096x1_0
      (select (cmpi .slt x (broadcastInDim S4096 ![] Cert.KernelIdeal.Facts₀.bcast_S_S4096 (constantI S_ 32 0#32)))
        (addi x (broadcastInDim S4096 ![] Cert.KernelIdeal.Facts₀.bcast_S_S4096 (constantI S_ 32 50000#32))) x))

/-- Every gathered entry is an entry of the table. -/
theorem HrowsOf_real (x : IVec S4096 32) (emb : FVec Ideal S50000x256 .f32)
    (hE : ∀ j, ∃ a : ℝ, emb j = (a : EReal)) : ∀ j, ∃ a : ℝ, HrowsOf x emb j = (a : EReal) := by
  intro j
  -- a gathered entry is the table's entry at the operand index the gather computes
  exact hE _

variable (m : (ℓ : Loc nD τ sig) → Buf (Elt Ideal) ℓ)

/-- The argument arrays, by their literal types. -/
abbrev argX (c : Dev nD) : IVec S4096 32 := m ((c.tc : Thread nD τ).loc main_arg0)
abbrev argT (c : Dev nD) : IVec S4096 32 := m ((c.tc : Thread nD τ).loc main_arg1)
abbrev argEmb (c : Dev nD) : FVec Ideal S50000x256 .f32 := m ((c.tc : Thread nD τ).loc main_arg2)
abbrev argWh (c : Dev nD) : FVec Ideal S2502x256 .f32 := m ((c.tc : Thread nD τ).loc main_arg3)
abbrev argP1 (c : Dev nD) : FVec Ideal S64x256 .f32 := m ((c.tc : Thread nD τ).loc main_arg4)
abbrev argW1 (c : Dev nD) : FVec Ideal S7500x64 .f32 := m ((c.tc : Thread nD τ).loc main_arg5)
abbrev argP2 (c : Dev nD) : FVec Ideal S16x256 .f32 := m ((c.tc : Thread nD τ).loc main_arg6)
abbrev argW2 (c : Dev nD) : FVec Ideal S40000x16 .f32 := m ((c.tc : Thread nD τ).loc main_arg7)

/-- The input blocks at point `t`, by their literal types. -/
abbrev blk0 (c : Dev nD) (t : Fin cfg0.N) : Vec Ideal S256x256 .bf16 := iblk m c 0 t
abbrev blk1 (c : Dev nD) (t : Fin cfg0.N) : Vec Ideal S256x1 .i32 := iblk m c 1 t
abbrev blk2 (c : Dev nD) (t : Fin cfg0.N) : Vec Ideal S256x2502 .bf16 := iblk m c 2 t
abbrev blk3 (c : Dev nD) (t : Fin cfg0.N) : Vec Ideal S256x64 .bf16 := iblk m c 3 t
abbrev blk4 (c : Dev nD) (t : Fin cfg0.N) : Vec Ideal S64x7680 .bf16 := iblk m c 4 t
abbrev blk5 (c : Dev nD) (t : Fin cfg0.N) : Vec Ideal S256x16 .bf16 := iblk m c 5 t
abbrev blk6 (c : Dev nD) (t : Fin cfg0.N) : Vec Ideal S16x40960 .bf16 := iblk m c 6 t

/-! ## What each staged array holds when the region is entered

Each window's array is the result of a short chain of host operations on one argument array; a change of float
format is the identity on extended reals. -/

/-- The gathered rows, narrowed. -/
theorem stage_rows (c : Dev nD) : (V m c main_v7 : S4096x256.Idx → EReal) = HrowsOf (argX m c) (argEmb m c) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  try rfl

/-- The targets as a column. -/
theorem stage_targets (c : Dev nD) : (V m c main_v20 : IVec S4096x1 32) =
    shapeCast S4096x1 (argT m c) Cert.KernelIdeal.Facts₀.shapeCasts_S4096_S4096x1 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  try rfl

/-- The head weights, transposed and narrowed. -/
theorem stage_head (c : Dev nD) : (V m c main_v9 : S256x2502.Idx → EReal) =
    truncf .bf16 (transpose S256x2502 [1, 0] (argWh m c) Cert.KernelIdeal.Facts₀.transposes_S2502x256_S256x2502_1_0) Cert.KernelIdeal.Facts₀.bitsLt_bf16_f32 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  try rfl

/-- The first projection, transposed and narrowed. -/
theorem stage_proj1 (c : Dev nD) : (V m c main_v11 : S256x64.Idx → EReal) =
    truncf .bf16 (transpose S256x64 [1, 0] (argP1 m c) Cert.KernelIdeal.Facts₀.transposes_S64x256_S256x64_1_0) Cert.KernelIdeal.Facts₀.bitsLt_bf16_f32 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  try rfl

/-- The second projection, transposed and narrowed. -/
theorem stage_proj2 (c : Dev nD) : (V m c main_v15 : S256x16.Idx → EReal) =
    truncf .bf16 (transpose S256x16 [1, 0] (argP2 m c) Cert.KernelIdeal.Facts₀.transposes_S16x256_S256x16_1_0) Cert.KernelIdeal.Facts₀.bitsLt_bf16_f32 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  try rfl

/-- The first tail's weights, transposed, narrowed and padded with 180 columns of the converted integer zero. -/
theorem stage_tail1 (c : Dev nD) : (V m c main_v18 : S64x7680.Idx → EReal) =
    pad S64x7680 ![0, 0] ![0, 180] ![0, 0]
      (truncf .bf16 (transpose S64x7500 [1, 0] (argW1 m c) Cert.KernelIdeal.Facts₀.transposes_S7500x64_S64x7500_1_0) Cert.KernelIdeal.Facts₀.bitsLt_bf16_f32 : FVec Ideal S64x7500 .bf16)
      (sitofp (F := Ideal) .bf16 (constantI S_ 32 0#32) : FVec Ideal S_ .bf16)
      Cert.KernelIdeal.Facts₀.pads_S64x7500_S64x7680_000_01800 Cert.KernelIdeal.Facts₀.h_S_ := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  try rfl

/-- The second tail's weights, transposed, narrowed and padded with 960 columns of the converted integer zero. -/
theorem stage_tail2 (c : Dev nD) : (V m c main_v19 : S16x40960.Idx → EReal) =
    pad S16x40960 ![0, 0] ![0, 960] ![0, 0]
      (truncf .bf16 (transpose S16x40000 [1, 0] (argW2 m c) Cert.KernelIdeal.Facts₀.transposes_S40000x16_S16x40000_1_0) Cert.KernelIdeal.Facts₀.bitsLt_bf16_f32 : FVec Ideal S16x40000 .bf16)
      (sitofp (F := Ideal) .bf16 (constantI S_ 32 0#32) : FVec Ideal S_ .bf16)
      Cert.KernelIdeal.Facts₀.pads_S16x40000_S16x40960_000_09600 Cert.KernelIdeal.Facts₀.h_S_ := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  try rfl

/-! ## The block indices over the grid

Point `t` takes row block `t` of the gathered rows and of the targets, and block `(0, 0)` of every weight array. -/

theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-! ## Layout operations at an index, over arrays of literal shapes -/

/-- A transposed and narrowed matrix at `(j, i)` is the matrix at `(i, j)`. -/
theorem narrowed_transpose_apply {a b : ℕ} (x : FVec Ideal (⟨2, ![a, b]⟩ : Shape) .f32)
    (h : (⟨2, ![a, b]⟩ : Shape).Transposes [1, 0] ⟨2, ![b, a]⟩) (hb : FTy.bits .bf16 < FTy.bits .f32) (j : Fin b) (i : Fin a) :
    (truncf .bf16 (transpose ⟨2, ![b, a]⟩ [1, 0] x h) hb : FVec Ideal (⟨2, ![b, a]⟩ : Shape) .bf16) (ix2 j i) = x (ix2 i j) := by
  rw [truncf_apply, transpose_ix2_apply]

/-- A matrix padded on the right only, at a column below the old width, is the matrix there. -/
theorem pad_right_apply_of_lt {r n n' p : ℕ} {α : Type} (x : (⟨2, ![r, n]⟩ : Shape).Idx → α) {u : Shape} (v : u.Idx → α)
    (h : (⟨2, ![r, n]⟩ : Shape).Pads (![0, 0] : Fin 2 → Nat) ![0, p] ![0, 0] ⟨2, ![r, n']⟩) (hu : 0 < u.numel)
    (q : Fin r) (cc : Fin n) (hle : n ≤ n') :
    pad ⟨2, ![r, n']⟩ ![0, 0] ![0, p] ![0, 0] x v h hu (ix2 q (Fin.castLE hle cc)) = x (ix2 q cc) :=
  pad_apply_of_inside _ _ _ x v h hu _ (ix2 q cc) fun a => match a with
    | ⟨0, _⟩ => by show q.val = 0 + q.val * (0 + 1); omega
    | ⟨1, _⟩ => by show cc.val = 0 + cc.val * (0 + 1); omega

/-- Block `t` of the gathered rows: token `n = 256 t + r`. -/
theorem blk0_apply (c : Dev nD) (t : Fin cfg0.N) (r d : Fin 256) (n : Fin 4096) (hn : n.val = 256 * t.val + r.val) :
    blk0 m c t (ix2 r d) = HrowsOf (argX m c) (argEmb m c) (ix2 n d) := by
  show V m c main_v7 (((cfg0.win 0).blk t).view.emb (ix2 r d)) = _
  -- the block's coordinate on each axis is its block index times the block's extent plus the coordinate inside
  have hi : ((cfg0.win 0).blk t).view.emb (ix2 r d) = (ix2 n d : S4096x256.Idx) := by
    obtain ⟨e0, e1, -, -, -, -, -, -, -, -, -, -, -, -⟩ := idx_facts t
    funext a; apply Fin.ext
    match a with
    | ⟨0, _⟩ => show win0_0.index t (0 : Fin 2) * 256 + 1 * r.val = n.val; omega
    | ⟨1, _⟩ => show win0_0.index t (1 : Fin 2) * 256 + 1 * d.val = d.val; omega
  rw [hi, stage_rows]

/-- Block `t` of the targets: token `n = 256 t + r`. -/
theorem blk1_apply (c : Dev nD) (t : Fin cfg0.N) (r : Fin 256) (n : Fin 4096) (hn : n.val = 256 * t.val + r.val) :
    blk1 m c t (ix2 r 0) = argT m c (ix1 n) := by
  show V m c main_v20 (((cfg0.win 1).blk t).view.emb (ix2 r 0)) = _
  -- the block's coordinate on each axis is its block index times the block's extent plus the coordinate inside
  have hi : ((cfg0.win 1).blk t).view.emb (ix2 r 0) = (ix2 n 0 : S4096x1.Idx) := by
    obtain ⟨-, -, e0, e1, -, -, -, -, -, -, -, -, -, -⟩ := idx_facts t
    funext a; apply Fin.ext
    match a with
    | ⟨0, _⟩ => show win0_1.index t (0 : Fin 2) * 256 + 1 * r.val = n.val; omega
    | ⟨1, _⟩ => show win0_1.index t (1 : Fin 2) * 1 + 1 * 0 = 0; omega
  rw [hi, stage_targets]
  -- a column of one entry per row has the row's number as its row-major position
  exact shapeCast_apply _ _ _ (ix1 n) (by
    rw [Shape.rowMajor_val_one, Shape.rowMajor_val_two]
    show n.val = n.val * 1 + 0
    omega)

/-- The head weights, transposed. -/
theorem blk2_apply (c : Dev nD) (t : Fin cfg0.N) (d : Fin 256) (j : Fin 2502) :
    blk2 m c t (ix2 d j) = argWh m c (ix2 j d) := by
  show V m c main_v9 (((cfg0.win 2).blk t).view.emb (ix2 d j)) = _
  -- the block's coordinate on each axis is its block index times the block's extent plus the coordinate inside
  have hi : ((cfg0.win 2).blk t).view.emb (ix2 d j) = (ix2 d j : S256x2502.Idx) := by
    obtain ⟨-, -, -, -, e0, e1, -, -, -, -, -, -, -, -⟩ := idx_facts t
    funext a; apply Fin.ext
    match a with
    | ⟨0, _⟩ => show win0_2.index t (0 : Fin 2) * 256 + 1 * d.val = d.val; omega
    | ⟨1, _⟩ => show win0_2.index t (1 : Fin 2) * 2502 + 1 * j.val = j.val; omega
  rw [hi, stage_head, narrowed_transpose_apply]

/-- The first tail's projection, transposed. -/
theorem blk3_apply (c : Dev nD) (t : Fin cfg0.N) (d : Fin 256) (q : Fin 64) :
    blk3 m c t (ix2 d q) = argP1 m c (ix2 q d) := by
  show V m c main_v11 (((cfg0.win 3).blk t).view.emb (ix2 d q)) = _
  -- the block's coordinate on each axis is its block index times the block's extent plus the coordinate inside
  have hi : ((cfg0.win 3).blk t).view.emb (ix2 d q) = (ix2 d q : S256x64.Idx) := by
    obtain ⟨-, -, -, -, -, -, e0, e1, -, -, -, -, -, -⟩ := idx_facts t
    funext a; apply Fin.ext
    match a with
    | ⟨0, _⟩ => show win0_3.index t (0 : Fin 2) * 256 + 1 * d.val = d.val; omega
    | ⟨1, _⟩ => show win0_3.index t (1 : Fin 2) * 64 + 1 * q.val = q.val; omega
  rw [hi, stage_proj1, narrowed_transpose_apply]

/-- The first tail's weights, transposed, at a real column. -/
theorem blk4_apply (c : Dev nD) (t : Fin cfg0.N) (q : Fin 64) (cc : Fin 7500) :
    blk4 m c t (ix2 q (Fin.castLE (by decide : 7500 ≤ 7680) cc)) = argW1 m c (ix2 cc q) := by
  show V m c main_v18 (((cfg0.win 4).blk t).view.emb (ix2 q (Fin.castLE (by decide : 7500 ≤ 7680) cc))) = _
  -- the block's coordinate on each axis is its block index times the block's extent plus the coordinate inside
  have hi : ((cfg0.win 4).blk t).view.emb (ix2 q (Fin.castLE (by decide : 7500 ≤ 7680) cc)) = (ix2 q (Fin.castLE (by decide : 7500 ≤ 7680) cc) : S64x7680.Idx) := by
    obtain ⟨-, -, -, -, -, -, -, -, e0, e1, -, -, -, -⟩ := idx_facts t
    funext a; apply Fin.ext
    match a with
    | ⟨0, _⟩ => show win0_4.index t (0 : Fin 2) * 64 + 1 * q.val = q.val; omega
    | ⟨1, _⟩ => show win0_4.index t (1 : Fin 2) * 7680 + 1 * cc.val = cc.val; omega
  rw [hi, stage_tail1, pad_right_apply_of_lt, narrowed_transpose_apply]

/-- The second tail's projection, transposed. -/
theorem blk5_apply (c : Dev nD) (t : Fin cfg0.N) (d : Fin 256) (q : Fin 16) :
    blk5 m c t (ix2 d q) = argP2 m c (ix2 q d) := by
  show V m c main_v15 (((cfg0.win 5).blk t).view.emb (ix2 d q)) = _
  -- the block's coordinate on each axis is its block index times the block's extent plus the coordinate inside
  have hi : ((cfg0.win 5).blk t).view.emb (ix2 d q) = (ix2 d q : S256x16.Idx) := by
    obtain ⟨-, -, -, -, -, -, -, -, -, -, e0, e1, -, -⟩ := idx_facts t
    funext a; apply Fin.ext
    match a with
    | ⟨0, _⟩ => show win0_5.index t (0 : Fin 2) * 256 + 1 * d.val = d.val; omega
    | ⟨1, _⟩ => show win0_5.index t (1 : Fin 2) * 16 + 1 * q.val = q.val; omega
  rw [hi, stage_proj2, narrowed_transpose_apply]

/-- The second tail's weights, transposed, at a real column. -/
theorem blk6_apply (c : Dev nD) (t : Fin cfg0.N) (q : Fin 16) (cc : Fin 40000) :
    blk6 m c t (ix2 q (Fin.castLE (by decide : 40000 ≤ 40960) cc)) = argW2 m c (ix2 cc q) := by
  show V m c main_v19 (((cfg0.win 6).blk t).view.emb (ix2 q (Fin.castLE (by decide : 40000 ≤ 40960) cc))) = _
  -- the block's coordinate on each axis is its block index times the block's extent plus the coordinate inside
  have hi : ((cfg0.win 6).blk t).view.emb (ix2 q (Fin.castLE (by decide : 40000 ≤ 40960) cc)) = (ix2 q (Fin.castLE (by decide : 40000 ≤ 40960) cc) : S16x40960.Idx) := by
    obtain ⟨-, -, -, -, -, -, -, -, -, -, -, -, e0, e1⟩ := idx_facts t
    funext a; apply Fin.ext
    match a with
    | ⟨0, _⟩ => show win0_6.index t (0 : Fin 2) * 16 + 1 * q.val = q.val; omega
    | ⟨1, _⟩ => show win0_6.index t (1 : Fin 2) * 40960 + 1 * cc.val = cc.val; omega
  rw [hi, stage_tail2, pad_right_apply_of_lt, narrowed_transpose_apply]

/-- A matrix of reals padded with the converted integer zero holds a real at every index: inside it is an entry of
    the matrix, outside it is the integer `0` as a real. -/
theorem pad_zero_real {s t : Shape} (lo hi interior : Fin s.rank → Nat) (x : s.Idx → EReal)
    (h : s.Pads lo hi interior t) (hu : 0 < S_.numel) (hx : ∀ i, ∃ a : ℝ, x i = (a : EReal)) (j : t.Idx) :
    ∃ a : ℝ, pad t lo hi interior x (sitofp (F := Ideal) .bf16 (constantI S_ 32 0#32) : FVec Ideal S_ .bf16) h hu j = (a : EReal) := by
  unfold pad
  split
  · exact hx _
  · exact ⟨(((0#32 : BitVec 32).toInt : ℤ) : ℝ), rfl⟩

/-- With real argument arrays every float block is real (a padding column holds zero). -/
theorem blocks_real (c : Dev nD) (t : Fin cfg0.N)
    (hE : ∀ j, ∃ a : ℝ, argEmb m c j = (a : EReal)) (hWh : ∀ j, ∃ a : ℝ, argWh m c j = (a : EReal))
    (hP1 : ∀ j, ∃ a : ℝ, argP1 m c j = (a : EReal)) (hW1 : ∀ j, ∃ a : ℝ, argW1 m c j = (a : EReal))
    (hP2 : ∀ j, ∃ a : ℝ, argP2 m c j = (a : EReal)) (hW2 : ∀ j, ∃ a : ℝ, argW2 m c j = (a : EReal)) :
    (∀ j, ∃ a : ℝ, blk0 m c t j = (a : EReal)) ∧ (∀ j, ∃ a : ℝ, blk2 m c t j = (a : EReal))
      ∧ (∀ j, ∃ a : ℝ, blk3 m c t j = (a : EReal)) ∧ (∀ j, ∃ a : ℝ, blk4 m c t j = (a : EReal))
      ∧ (∀ j, ∃ a : ℝ, blk5 m c t j = (a : EReal)) ∧ (∀ j, ∃ a : ℝ, blk6 m c t j = (a : EReal)) := by
  refine ⟨fun j => ?_, fun j => ?_, fun j => ?_, fun j => ?_, fun j => ?_, fun j => ?_⟩
  -- a block's entry is an entry of its staged array; a gathered, transposed or narrowed entry is an entry of the argument
  · show ∃ a : ℝ, V m c main_v7 (((cfg0.win 0).blk t).view.emb j) = (a : EReal)
    rw [stage_rows]
    exact HrowsOf_real _ _ hE _
  · show ∃ a : ℝ, V m c main_v9 (((cfg0.win 2).blk t).view.emb j) = (a : EReal)
    rw [stage_head]
    exact hWh _
  · show ∃ a : ℝ, V m c main_v11 (((cfg0.win 3).blk t).view.emb j) = (a : EReal)
    rw [stage_proj1]
    exact hP1 _
  · show ∃ a : ℝ, V m c main_v18 (((cfg0.win 4).blk t).view.emb j) = (a : EReal)
    rw [stage_tail1]
    exact pad_zero_real _ _ _ _ _ _ (fun i => hW1 _) _
  · show ∃ a : ℝ, V m c main_v15 (((cfg0.win 5).blk t).view.emb j) = (a : EReal)
    rw [stage_proj2]
    exact hP2 _
  · show ∃ a : ℝ, V m c main_v19 (((cfg0.win 6).blk t).view.emb j) = (a : EReal)
    rw [stage_tail2]
    exact pad_zero_real _ _ _ _ _ _ (fun i => hW2 _) _

end Cert.KernelIdeal.Prefix

end
-- ==== Proof.KernelValue.lean ====
/-
  The kernel's run with its two results named.

  The output array has 4096 entries in sixteen blocks of 256; point `t` writes back block `t`, whose row `r` is the
  token function of token `n = 256 t + r`: its target word, its gathered embedding row, and the five weight
  matrices. The blocks cover the array, so after the run the array is that function of the arguments entry by
  entry. The host lines after the call sum the array, divide by 4096 and negate: the loss.
-/
import proofs.«428924_j53884659696080_3_alg».proof.Proof.Gen.KernelIdeal.Frame
import proofs.«428924_j53884659696080_3_alg».proof.Proof.KBlock
import proofs.«428924_j53884659696080_3_alg».proof.Proof.HostPrefix
import Idealize.ShloMosaic.Lib.StableHlo.Run

set_option maxRecDepth 65536

noncomputable section

namespace Cert.KernelIdeal.KVal

open Idealize.ShloMosaic Idealize.ShloMosaic.ValueIdx Idealize.ShloMosaic.TcCoe Idealize.SL.Sem
open Cert.KernelIdeal Cert.KernelIdeal.Gen Cert.KernelIdeal.Prefix

variable (m : (ℓ : Loc nD τ sig) → Buf (Elt Ideal) ℓ) (ρ : Dev nD → PrngReg)

/-- The per-token results as one array of the argument arrays. -/
def outArr (c : Dev nD) : S4096.Idx → EReal := fun i =>
  Cert.Spec.tokenOut (argT m c (ix1 (i 0))) (fun d => HrowsOf (argX m c) (argEmb m c) (ix2 (i 0) d)) (fun j d => argWh m c (ix2 j d))
          (fun q d => argP1 m c (ix2 q d)) (fun cc q => argW1 m c (ix2 cc q))
          (fun q d => argP2 m c (ix2 q d)) (fun cc q => argW2 m c (ix2 cc q))

/-- Real argument arrays. -/
structure RealArgs (c : Dev nD) : Prop where
  emb : ∀ j, ∃ a : ℝ, argEmb m c j = (a : EReal)
  wh : ∀ j, ∃ a : ℝ, argWh m c j = (a : EReal)
  p1 : ∀ j, ∃ a : ℝ, argP1 m c j = (a : EReal)
  w1 : ∀ j, ∃ a : ℝ, argW1 m c j = (a : EReal)
  p2 : ∀ j, ∃ a : ℝ, argP2 m c j = (a : EReal)
  w2 : ∀ j, ∃ a : ℝ, argW2 m c j = (a : EReal)

/-- The output window's block index at point `t` is `t`. -/
theorem idx_facts7 : ∀ t : Fin cfg0.N, win0_7.index t (0 : Fin 1) = t.val :=
  (by decide +kernel : ∀ t : Fin grid0.N, _)

/-- What point `t` writes back is block `t` of the per-token array. -/
theorem flushed7_eq (c : Dev nD) (hr : RealArgs m c) (t : Fin cfg0.N) :
    (dats m 0 c).flushed 7 t = ((cfg0.win 7).blk t).view.read (Elt Ideal) (outArr m c) := by
  show (cfg0.win 7).cut (grid0.coords t) ((dats m 0 c).after 7 t) = _
  rw [after0_7]
  unfold outsAt0
  obtain ⟨hb0, hb2, hb3, hb4, hb5, hb6⟩ := blocks_real m c t hr.emb hr.wh hr.p1 hr.w1 hr.p2 hr.w2
  funext y
  obtain ⟨r, rfl⟩ : ∃ r : Fin 256, y = ix1 r := ⟨y 0, eq_ix1 y⟩
  have ht : t.val < 16 := by have h := t.isLt; have e : cfg0.N = 16 := N_0; omega
  let n : Fin 4096 := ⟨256 * t.val + r.val, by have := r.isLt; omega⟩
  have hn : n.val = 256 * t.val + r.val := rfl
  have hemb : ((cfg0.win 7).blk t).view.emb (ix1 r) = ix1 n := by
    funext a; apply Fin.ext
    match a with
    | ⟨0, _⟩ => show win0_7.index t (0 : Fin 1) * 256 + 1 * r.val = 256 * t.val + r.val; rw [idx_facts7]; omega
  show out0_A_7 (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t)
      (blk0 m c t) (blk1 m c t) (blk2 m c t) (blk3 m c t) (blk4 m c t) (blk5 m c t) (blk6 m c t) (ix1 r)
    = outArr m c (((cfg0.win 7).blk t).view.emb (ix1 r))
  rw [BlockVal.out_block c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t)
      (blk0 m c t) (blk1 m c t) (blk2 m c t) (blk3 m c t) (blk4 m c t) (blk5 m c t) (blk6 m c t) hb0 hb2 hb3 hb4 hb5 hb6 r, hemb]
  unfold outArr
  have e0 : (fun d => blk0 m c t (ix2 r d)) = fun d => HrowsOf (argX m c) (argEmb m c) (ix2 n d) :=
    funext fun d => blk0_apply m c t r d n hn
  have e2 : (fun j d => blk2 m c t (ix2 d j)) = fun j d => argWh m c (ix2 j d) :=
    funext fun j => funext fun d => blk2_apply m c t d j
  have e3 : (fun q d => blk3 m c t (ix2 d q)) = fun q d => argP1 m c (ix2 q d) :=
    funext fun q => funext fun d => blk3_apply m c t d q
  have e4 : (fun cc q => blk4 m c t (ix2 q (Fin.castLE (by decide : 7500 ≤ 7680) cc))) = fun cc q => argW1 m c (ix2 cc q) :=
    funext fun cc => funext fun q => blk4_apply m c t q cc
  have e5 : (fun q d => blk5 m c t (ix2 d q)) = fun q d => argP2 m c (ix2 q d) :=
    funext fun q => funext fun d => blk5_apply m c t d q
  have e6 : (fun cc q => blk6 m c t (ix2 q (Fin.castLE (by decide : 40000 ≤ 40960) cc))) = fun cc q => argW2 m c (ix2 cc q) :=
    funext fun cc => funext fun q => blk6_apply m c t q cc
  rw [e0, e2, e3, e4, e5, e6, blk1_apply m c t r n hn]

/-- An index of the array is in point `t`'s block iff it lies in rows `256 t … 256 t + 255`. -/
theorem mem_blk7 (t : Fin cfg0.N) (i : S4096.Idx) :
    i ∈ ((cfg0.win 7).blk t).view.set ↔ ∀ a : Fin 1, win0_7.index t a * S256.size a ≤ (i a).val ∧ (i a).val < win0_7.index t a * S256.size a + S256.size a := by
  show i ∈ ((View.whole main_v21).slice (win0_7.rect t)).set ↔ _
  rw [View.set_slice_whole, Rect.mem_set_unit]
  exact Iff.rfl

/-- Every entry of the array is in some point's block. -/
theorem cover7 (i : S4096.Idx) : ∃ t : Fin cfg0.N, (cfg0.win 7).flush t = true ∧ i ∈ ((cfg0.win 7).blk t).view.set := by
  have hi : (i 0).val < 4096 := (i 0).isLt
  refine ⟨⟨(i 0).val / 256, by rw [show cfg0.N = 16 from N_0]; omega⟩, flush0_7 _, ?_⟩
  rw [mem_blk7]
  intro a
  match a with
  | ⟨0, _⟩ =>
    show win0_7.index _ (0 : Fin 1) * 256 ≤ (i 0).val ∧ (i 0).val < win0_7.index _ (0 : Fin 1) * 256 + 256
    rw [idx_facts7]
    show (i 0).val / 256 * 256 ≤ (i 0).val ∧ (i 0).val < (i 0).val / 256 * 256 + 256
    omega

/-- The output array after the run. -/
theorem final7 (c : Dev nD) (hr : RealArgs m c) : (dats m 0 c).arrAt 7 cfg0.N = outArr m c :=
  (dats m 0 c).arrAt_eq_of_cover 7 (outArr m c) (fun t _ => flushed7_eq m c hr t) (cover7)

/-- The host lines after the call: the sum of the output array, divided by 4096, negated. -/
theorem loss_tail (c : Dev nD) (hr : RealArgs m c) :
    Pipeline.afterTail₀ cfgs (dats m) 0 (V0 m) [hostOps1] c main_v24 = fun _ => Cert.Spec.loss (outArr m c) := by
  unfold Pipeline.afterTail₀
  show StableHlo.after hostOps1 _ (Proc.devRef .tc main_v24) = _
  after_results
  rw [show Pipeline.withArrays (cfgs 0).spec c (V0 m c) (fun w => (dats m 0 c).arrAt w (cfgs 0).N) (Proc.tc.devRef main_v21)
      = (dats m 0 c).arrAt 7 cfg0.N from Pipeline.withArrays_arr spec0 launch0.win.arr_inj c _ _ 7, final7 m c hr]
  funext i
  simp only [Host.negf, Host.divf, Host.reduceAdd, Ideal.hostReduceAdd_def]
  rw [Ideal.hostReduceAdd_total _ (fun b => b.elim0) (outArr m c) _ i]
  show -(Ideal.div (Ideal.ofBits .f32 0x00000000#32 + ∑ j, outArr m c j) (Ideal.ofBits .f32 0x45800000#32)) = _
  rw [Ideal.ofBits_zero_f32, zero_add]
  rfl

/-- The kernel's run: the per-token array, the loss, the arguments unchanged. -/
theorem run_val (hr : ∀ c, RealArgs m c) :
    θ_run defs (onTc (τ := τ) (main (F := Ideal))) ⟨m, fun _ => 0, ρ⟩ (fun r => ∀ c : Dev nD,
      r.2.mem ((c.tc : Thread nD τ).loc main_v21) = outArr m c
      ∧ r.2.mem ((c.tc : Thread nD τ).loc main_v24) = (fun _ => Cert.Spec.loss (outArr m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 7).trans (final7 m c (hr c)),
      ((h c).2 main_v24 (Pipeline.mem_restRefs_of main_v24 (by decide) (by decide))).trans (loss_tail m c (hr c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c))⟩)
    (run_main m ρ)

end Cert.KernelIdeal.KVal

end
-- ==== Proof.lean ====
/-
  The certificate: an adaptive log-softmax loss (a head of 2502 classes, two tails of 7500 and 40000 classes behind
  low-rank projections), as a kernel over sixteen blocks of 256 tokens against the plain array program.

  Both programs compute, per token, the log-softmax entry of the head at the clipped target or, for a target in a
  tail, the head's entry of that tail's cluster plus the tail's own entry. The reference forms every logit row and
  applies the two-pass log-softmax; the kernel forms the head's row whole and streams each tail in chunks with a
  running maximum and a rescaled running sum, picking single entries by masking the other columns to `-∞` under a
  maximum. Its mask value is a named constant read as `-∞`, so a masked column is neutral for the maximum and
  contributes `exp (-∞) = 0` to a sum. On real inputs the two forms agree: `z t - (M + log S) = (z t - M) - log S`,
  and the streamed sum rescales by `exp (m - m')` when the maximum grows. The gathered embedding rows are the same
  array on both sides; the loss is the same negated mean of the same 4096 numbers.
-/
import proofs.«428924_j53884659696080_3_alg».proof.Defs
import proofs.«428924_j53884659696080_3_alg».proof.Proof.Gen.Kernel
import proofs.«428924_j53884659696080_3_alg».proof.Proof.Gen.Kernel.Frame
import proofs.«428924_j53884659696080_3_alg».proof.Proof.Gen.KernelIdeal
import proofs.«428924_j53884659696080_3_alg».proof.Proof.Gen.KernelIdeal.Frame
import proofs.«428924_j53884659696080_3_alg».proof.Proof.Gen.ReferenceIdeal
import proofs.«428924_j53884659696080_3_alg».proof.Proof.Gen.Pre_finite_inputs
import proofs.«428924_j53884659696080_3_alg».proof.Proof.RefRun
import proofs.«428924_j53884659696080_3_alg».proof.Proof.RefRead
import proofs.«428924_j53884659696080_3_alg».proof.Proof.RefRunProof
import proofs.«428924_j53884659696080_3_alg».proof.Proof.RefValue
import proofs.«428924_j53884659696080_3_alg».proof.Proof.Finite
import proofs.«428924_j53884659696080_3_alg».proof.Proof.KernelValue
import Idealize.ShloMosaic.Adequacy
import Idealize.ShloMosaic.Init

set_option maxRecDepth 65536

noncomputable section

namespace Cert.Proof

open Idealize.ShloMosaic Idealize.ShloMosaic.ValueIdx Idealize.SL.Sem

/-- The two programs gather the embedding rows by the same host lines: one array of the token words and the table. -/
theorem rows_eq (a0 : IVec Cert.KernelIdeal.S4096 32) (a2 : FVec Ideal Cert.KernelIdeal.S50000x256 .f32) :
    Cert.ReferenceIdeal.ReadP.val_main_v6 (F := Ideal) a0 a2 = Cert.KernelIdeal.Prefix.HrowsOf a0 a2 := rfl

/-- The reference's per-token array, on the kernel's argument arrays, is the kernel's. -/
theorem out_eq (m : (ℓ : Loc Cert.KernelIdeal.nD Cert.KernelIdeal.τ Cert.KernelIdeal.sig) → Buf (Elt Ideal) ℓ)
    (c : Dev Cert.KernelIdeal.nD) :
    Cert.ReferenceIdeal.ReadP.val_main_v81 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      = Cert.KernelIdeal.KVal.outArr m c := by
  funext i
  obtain ⟨n, rfl⟩ : ∃ n : Fin 4096, i = ix1 n := ⟨i 0, eq_ix1 i⟩
  rw [Cert.ReferenceIdeal.RefValue.out_apply, rows_eq]
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.RunP.run (F := Ideal) m ρ)

/-- The ledger's nine entries are one fact: the table gives the mask value's name the value `-∞`, and the printed
    constant is that value at the ideal instance. -/
theorem preserves : Cert.preserves_Kernel_KernelIdeal :=
  ⟨IdealRules.named_const.statement Cert.KernelIdeal.κ "neg_big" .f32 0xFF333332#32 ⊥ rfl,
   IdealRules.named_const.statement Cert.KernelIdeal.κ "neg_big" .f32 0xFF333332#32 ⊥ rfl,
   IdealRules.named_const.statement Cert.KernelIdeal.κ "neg_big" .f32 0xFF333332#32 ⊥ rfl,
   IdealRules.named_const.statement Cert.KernelIdeal.κ "neg_big" .f32 0xFF333332#32 ⊥ rfl,
   IdealRules.named_const.statement Cert.KernelIdeal.κ "neg_big" .f32 0xFF333332#32 ⊥ rfl,
   IdealRules.named_const.statement Cert.KernelIdeal.κ "neg_big" .f32 0xFF333332#32 ⊥ rfl,
   IdealRules.named_const.statement Cert.KernelIdeal.κ "neg_big" .f32 0xFF333332#32 ⊥ rfl,
   IdealRules.named_const.statement Cert.KernelIdeal.κ "neg_big" .f32 0xFF333332#32 ⊥ rfl,
   IdealRules.named_const.statement Cert.KernelIdeal.κ "neg_big" .f32 0xFF333332#32 ⊥ rfl⟩

/-- On real inputs both programs end with the per-token array of the token function and its negated mean. -/
theorem algebraic : Cert.algebraic_KernelIdeal_ReferenceIdeal := by
  intro m ρ m' ρ' hpre hagree
  have hr : ∀ c, Cert.KernelIdeal.KVal.RealArgs m c := fun c => by
    obtain ⟨h2, h3, h4, h5, h6, h7⟩ := Cert.Finite.real_of_pre _ _ _ _ _ _ _ _ (hpre c)
    exact ⟨h2, h3, h4, h5, h6, h7⟩
  refine ⟨fun c => Cert.KernelIdeal.KVal.outArr m c, fun c => fun _ => Cert.Spec.loss (Cert.KernelIdeal.KVal.outArr m c),
    Cert.KernelIdeal.KVal.run_val m ρ hr, ?_⟩
  refine (θ_run Cert.ReferenceIdeal.defs _ _).mono (fun _ h c => ⟨(h c).1.trans ?_, (h c).2.1.trans ?_, (h c).2.2⟩)
    (Cert.ReferenceIdeal.RunP.run (F := Ideal) m' ρ')
  · obtain ⟨e0, e1, e2, e3, e4, e5, e6, e7⟩ := hagree c
    rw [e0, e1, e2, e3, e4, e5, e6, e7]
    exact out_eq m c
  · obtain ⟨e0, e1, e2, e3, e4, e5, e6, e7⟩ := hagree c
    rw [e0, e1, e2, e3, e4, e5, e6, e7, Cert.ReferenceIdeal.RefValue.loss_eq, out_eq m c]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
